-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v226) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x4 : Shape := ⟨2, ![800000, 4]⟩
abbrev S4x64 : Shape := ⟨2, ![4, 64]⟩
abbrev S64 : Shape := ⟨1, ![64]⟩
abbrev S3 : Shape := ⟨1, ![3]⟩
abbrev S3x64x64 : Shape := ⟨3, ![3, 64, 64]⟩
abbrev S3x64 : Shape := ⟨2, ![3, 64]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x4 : S_.BroadcastsInDim S800000x4 (![] : Fin 0 → Fin S800000x4.rank)
  reducesTo_S800000x4_S_d0_1 : S800000x4.ReducesTo [0, 1] S_
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S3 : S_.BroadcastsInDim S3 (![] : Fin 0 → Fin S3.rank)
  reducesTo_S3_S_d0 : S3.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_v63 : IVec S_ 1) (main_v67 : IVec S800000 1) (main_v68 : IVec S1x800000 32) : IVec S_ 1 :=
  let main_v69 : IVec S800000 32 := shapeCast S800000 main_v68 shapeCasts_S1x800000_S800000
  let main_c_25 : IVec S_ 32 := constantI S_ 32 50000#32
  let main_v70 : IVec S800000 32 := broadcastInDim S800000 ![] bcast_S_S800000 main_c_25
  let main_v71 : IVec S800000 1 := cmpi .slt main_v69 main_v70
  let main_v72 : IVec S800000 1 := andi main_v67 main_v71
  let main_c_26 : IVec S_ 1 := constantI S_ 1 1#1
  let main_v73 : IVec S_ 1 := (fun x v => Host.reduce IntOp.andi x v reducesTo_S800000_S_d0 h_S_) main_v72 main_c_26
  let main_v74 : IVec S_ 1 := andi main_v63 main_v73
  main_v74

def fn_part3 {F : FTy → Type} [FloatOps F] (main_arg1 : IVec S2x800000 32) (main_arg12 : FVec F S3x64 .f32) (main_arg13 : FVec F S3x64 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3x64 .f32 := Host.absf main_arg12
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S3x64 .f32 := Host.absf main_arg13
  let main_cst_22 : FVec F S_ .f32 := constant S_ .f32 0x7F800000#32
  let main_v60 : FVec F S3x64 .f32 := broadcastInDim S3x64 ![] bcast_S_S3x64 main_cst_22
  let main_v61 : IVec S3x64 1 := cmpf .olt main_v59 main_v60
  let main_c_23 : IVec S_ 1 := constantI S_ 1 1#1
  let main_v62 : IVec S_ 1 := (fun x v => Host.reduce IntOp.andi x v reducesTo_S3x64_S_d0_1 h_S_) main_v61 main_c_23
  let main_v63 : IVec S_ 1 := andi main_v58 main_v62
  let main_v64 : IVec S1x800000 32 := (extractStridedSlice S1x800000 ![0, 0] · slices_S2x800000_S1x800000_0_0) main_arg1
  let main_v65 : IVec S800000 32 := shapeCast S800000 main_v64 shapeCasts_S1x800000_S800000
  let main_c_24 : IVec S_ 32 := constantI S_ 32 4294917296#32
  let main_v66 : IVec S800000 32 := broadcastInDim S800000 ![] bcast_S_S800000 main_c_24
  let main_v67 : IVec S800000 1 := cmpi .sge main_v65 main_v66
  let main_v68 : IVec S1x800000 32 := (extractStridedSlice S1x800000 ![0, 0] · slices_S2x800000_S1x800000_0_0) main_arg1
  fn_part4 (F := F) main_v63 main_v67 main_v68

def fn_part2 {F : FTy → Type} [FloatOps F] (main_arg1 : IVec S2x800000 32) (main_arg8 : FVec F S3x64x64 .f32) (main_arg9 : FVec F S3x64 .f32) (main_arg10 : FVec F S3x64x64 .f32) (main_arg11 : FVec F S3x64 .f32) (main_arg12 : FVec F S3x64 .f32) (main_arg13 : FVec F S3x64 .f32) (main_v33 : IVec S_ 1) : IVec S_ 1 :=
  let main_v34 : FVec F S3x64x64 .f32 := Host.absf main_arg8
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg9
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3x64x64 .f32 := Host.absf main_arg10
  let main_cst_16 : FVec F S_ .f32 := constant S_ .f32 0x7F800000#32
  let main_v45 : FVec F S3x64x64 .f32 := broadcastInDim S3x64x64 ![] bcast_S_S3x64x64 main_cst_16
  let main_v46 : IVec S3x64x64 1 := cmpf .olt main_v44 main_v45
  let main_c_17 : IVec S_ 1 := constantI S_ 1 1#1
  let main_v47 : IVec S_ 1 := (fun x v => Host.reduce IntOp.andi x v reducesTo_S3x64x64_S_d0_1_2 h_S_) main_v46 main_c_17
  let main_v48 : IVec S_ 1 := andi main_v43 main_v47
  let main_v49 : FVec F S3x64 .f32 := Host.absf main_arg11
  let main_cst_18 : FVec F S_ .f32 := constant S_ .f32 0x7F800000#32
  let main_v50 : FVec F S3x64 .f32 := broadcastInDim S3x64 ![] bcast_S_S3x64 main_cst_18
  fn_part3 (F := F) main_arg1 main_arg12 main_arg13 main_v48 main_v49 main_v50

def fn_part1 {F : FTy → Type} [FloatOps F] (main_arg1 : IVec S2x800000 32) (main_arg5 : FVec F S3 .f32) (main_arg6 : FVec F S3x64x64 .f32) (main_arg7 : FVec F S3x64 .f32) (main_arg8 : FVec F S3x64x64 .f32) (main_arg9 : FVec F S3x64 .f32) (main_arg10 : FVec F S3x64x64 .f32) (main_arg11 : FVec F S3x64 .f32) (main_arg12 : FVec F S3x64 .f32) (main_arg13 : FVec F S3x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S3x64x64 .f32 := Host.absf main_arg6
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg7
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S50000x64 .f32) (main_arg1 : IVec S2x800000 32) (main_arg2 : FVec F S800000x4 .f32) (main_arg3 : FVec F S4x64 .f32) (main_arg4 : FVec F S64 .f32) (main_arg5 : FVec F S3 .f32) (main_arg6 : FVec F S3x64x64 .f32) (main_arg7 : FVec F S3x64 .f32) (main_arg8 : FVec F S3x64x64 .f32) (main_arg9 : FVec F S3x64 .f32) (main_arg10 : FVec F S3x64x64 .f32) (main_arg11 : FVec F S3x64 .f32) (main_arg12 : FVec F S3x64 .f32) (main_arg13 : FVec F S3x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x4 .f32 := Host.absf main_arg2
  let main_cst_0 : FVec F S_ .f32 := constant S_ .f32 0x7F800000#32
  let main_v5 : FVec F S800000x4 .f32 := broadcastInDim S800000x4 ![] bcast_S_S800000x4 main_cst_0
  let main_v6 : IVec S800000x4 1 := cmpf .olt main_v4 main_v5
  let main_c_1 : IVec S_ 1 := constantI S_ 1 1#1
  let main_v7 : IVec S_ 1 := (fun x v => Host.reduce IntOp.andi x v reducesTo_S800000x4_S_d0_1 h_S_) main_v6 main_c_1
  let main_v8 : IVec S_ 1 := andi main_v3 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_arg10 main_arg11 main_arg12 main_arg13 main_v13 main_v16
-- ==== Kernel.lean ====
abbrev S50000x64 : Shape := ⟨2, ![50000, 64]⟩
abbrev S2x800000 : Shape := ⟨2, ![2, 800000]⟩
abbrev S800000x4 : Shape := ⟨2, ![800000, 4]⟩
abbrev S4x64 : Shape := ⟨2, ![4, 64]⟩
abbrev S64 : Shape := ⟨1, ![64]⟩
abbrev S3 : Shape := ⟨1, ![3]⟩
abbrev S3x64x64 : Shape := ⟨3, ![3, 64, 64]⟩
abbrev S3x64 : Shape := ⟨2, ![3, 64]⟩
abbrev S1x800000 : Shape := ⟨2, ![1, 800000]⟩
abbrev S800000 : Shape := ⟨1, ![800000]⟩
abbrev S1x64 : Shape := ⟨2, ![1, 64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S1x64x64 : Shape := ⟨3, ![1, 64, 64]⟩
abbrev S64x64 : Shape := ⟨2, ![64, 64]⟩
abbrev S10000x4 : Shape := ⟨2, ![10000, 4]⟩
abbrev S10000x64 : Shape := ⟨2, ![10000, 64]⟩
abbrev S10000 : Shape := ⟨1, ![10000]⟩
abbrev S10000x1 : Shape := ⟨2, ![10000, 1]⟩

abbrev nBuf : Space → Nat
  | .hbm => 184
  | .vmem => 69
  | .smem => 0
  | _ => 0

abbrev hbmTy0_0 (i : Nat) : BufTy := match i % 128 with
  | 0 => ⟨S50000x64, .f32⟩
  | 1 => ⟨S2x800000, .i32⟩
  | 2 => ⟨S800000x4, .f32⟩
  | 3 => ⟨S4x64, .f32⟩
  | 4 => ⟨S64, .f32⟩
  | 5 => ⟨S3, .f32⟩
  | 6 => ⟨S3x64x64, .f32⟩
  | 7 => ⟨S3x64, .f32⟩
  | 8 => ⟨S3x64x64, .f32⟩
  | 9 => ⟨S3x64, .f32⟩
  | 10 => ⟨S3x64x64, .f32⟩
  | 11 => ⟨S3x64, .f32⟩
  | 12 => ⟨S3x64, .f32⟩
  | 13 => ⟨S3x64, .f32⟩
  | 14 => ⟨S1x800000, .i32⟩
  | 15 => ⟨S800000, .i32⟩
  | 16 => ⟨S1x800000, .i32⟩
  | 17 => ⟨S800000, .i32⟩
  | 18 => ⟨S1x64, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S1, .i32⟩
  | 28 => ⟨S_, .i32⟩
  | 29 => ⟨S800000x1, .i32⟩
  | 30 => ⟨S800000x1, .i1⟩
  | 31 => ⟨S1x1, .i32⟩
  | 32 => ⟨S800000x1, .i32⟩
  | 33 => ⟨S800000x1, .i1⟩
  | 34 => ⟨S800000x1, .i1⟩
  | 35 => ⟨S_, .i1⟩
  | 36 => ⟨S800000, .i1⟩
  | 37 => ⟨S800000x64, .f32⟩
  | 38 => ⟨S800000x64, .i1⟩
  | 39 => ⟨S_, .f32⟩
  | 40 => ⟨S800000x64, .f32⟩
  | 41 => ⟨S800000x64, .f32⟩
  | 42 => ⟨S1x64, .f32⟩
  | 43 => ⟨S64, .f32⟩
  | 44 => ⟨S1x64, .f32⟩
  | 45 => ⟨S1x64x64, .f32⟩
  | 46 => ⟨S64x64, .f32⟩
  | 47 => ⟨S800000x64, .f32⟩
  | 48 => ⟨S_, .f32⟩
  | 49 => ⟨S50000x64, .f32⟩
  | 50 => ⟨S800000x1, .i32⟩
  | 51 => ⟨S50000x64, .f32⟩
  | 52 => ⟨S1, .f32⟩
  | 53 => ⟨S_, .f32⟩
  | 54 => ⟨S_, .f32⟩
  | 55 => ⟨S_, .f32⟩
  | 56 => ⟨S1x1, .f32⟩
  | 57 => ⟨S1x64, .f32⟩
  | 58 => ⟨S64, .f32⟩
  | 59 => ⟨S1x64, .f32⟩
  | 60 => ⟨S1x64, .f32⟩
  | 61 => ⟨S64, .f32⟩
  | 62 => ⟨S1x64, .f32⟩
  | 63 => ⟨S1x64, .f32⟩
  | 64 => ⟨S64, .f32⟩
  | 65 => ⟨S1x64, .f32⟩
  | 66 => ⟨S1x64, .f32⟩
  | 67 => ⟨S64, .f32⟩
  | 68 => ⟨S1x64, .f32⟩
  | 69 => ⟨S1x64x64, .f32⟩
  | 70 => ⟨S64x64, .f32⟩
  | 71 => ⟨S1x64x64, .f32⟩
  | 72 => ⟨S64x64, .f32⟩
  | 73 => ⟨S50000x64, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S1, .i32⟩
  | 83 => ⟨S_, .i32⟩
  | 84 => ⟨S800000x1, .i32⟩
  | 85 => ⟨S800000x1, .i1⟩
  | 86 => ⟨S1x1, .i32⟩
  | 87 => ⟨S800000x1, .i32⟩
  | 88 => ⟨S800000x1, .i1⟩
  | 89 => ⟨S800000x1, .i1⟩
  | 90 => ⟨S_, .i1⟩
  | 91 => ⟨S800000, .i1⟩
  | 92 => ⟨S800000x64, .f32⟩
  | 93 => ⟨S800000x64, .i1⟩
  | 94 => ⟨S_, .f32⟩
  | 95 => ⟨S800000x64, .f32⟩
  | 96 => ⟨S800000x64, .f32⟩
  | 97 => ⟨S1x64, .f32⟩
  | 98 => ⟨S64, .f32⟩
  | 99 => ⟨S1x64, .f32⟩
  | 100 => ⟨S1x64x64, .f32⟩
  | 101 => ⟨S64x64, .f32⟩
  | 102 => ⟨S800000x64, .f32⟩
  | 103 => ⟨S_, .f32⟩
  | 104 => ⟨S50000x64, .f32⟩
  | 105 => ⟨S800000x1, .i32⟩
  | 106 => ⟨S50000x64, .f32⟩
  | 107 => ⟨S1, .f32⟩
  | 108 => ⟨S_, .f32⟩
  | 109 => ⟨S_, .f32⟩
  | 110 => ⟨S_, .f32⟩
  | 111 => ⟨S1x1, .f32⟩
  | 112 => ⟨S1x64, .f32⟩
  | 113 => ⟨S64, .f32⟩
  | 114 => ⟨S1x64, .f32⟩
  | 115 => ⟨S1x64, .f32⟩
  | 116 => ⟨S64, .f32⟩
  | 117 => ⟨S1x64, .f32⟩
  | 118 => ⟨S1x64, .f32⟩
  | 119 => ⟨S64, .f32⟩
  | 120 => ⟨S1x64, .f32⟩
  | 121 => ⟨S1x64, .f32⟩
  | 122 => ⟨S64, .f32⟩
  | 123 => ⟨S1x64, .f32⟩
  | 124 => ⟨S1x64x64, .f32⟩
  | 125 => ⟨S64x64, .f32⟩
  | 126 => ⟨S1x64x64, .f32⟩
  | 127 => ⟨S64x64, .f32⟩
  | _ => ⟨S50000x64, .f32⟩

abbrev hbmTy0_1 (i : Nat) : BufTy := match i % 128 with
  | 0 => ⟨S50000x64, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S1, .i32⟩
  | 10 => ⟨S_, .i32⟩
  | 11 => ⟨S800000x1, .i32⟩
  | 12 => ⟨S800000x1, .i1⟩
  | 13 => ⟨S1x1, .i32⟩
  | 14 => ⟨S800000x1, .i32⟩
  | 15 => ⟨S800000x1, .i1⟩
  | 16 => ⟨S800000x1, .i1⟩
  | 17 => ⟨S_, .i1⟩
  | 18 => ⟨S800000, .i1⟩
  | 19 => ⟨S800000x64, .f32⟩
  | 20 => ⟨S800000x64, .i1⟩
  | 21 => ⟨S_, .f32⟩
  | 22 => ⟨S800000x64, .f32⟩
  | 23 => ⟨S800000x64, .f32⟩
  | 24 => ⟨S1x64, .f32⟩
  | 25 => ⟨S64, .f32⟩
  | 26 => ⟨S1x64, .f32⟩
  | 27 => ⟨S1x64x64, .f32⟩
  | 28 => ⟨S64x64, .f32⟩
  | 29 => ⟨S800000x64, .f32⟩
  | 30 => ⟨S_, .f32⟩
  | 31 => ⟨S50000x64, .f32⟩
  | 32 => ⟨S800000x1, .i32⟩
  | 33 => ⟨S50000x64, .f32⟩
  | 34 => ⟨S1, .f32⟩
  | 35 => ⟨S_, .f32⟩
  | 36 => ⟨S_, .f32⟩
  | 37 => ⟨S_, .f32⟩
  | 38 => ⟨S1x1, .f32⟩
  | 39 => ⟨S1x64, .f32⟩
  | 40 => ⟨S64, .f32⟩
  | 41 => ⟨S1x64, .f32⟩
  | 42 => ⟨S1x64, .f32⟩
  | 43 => ⟨S64, .f32⟩
  | 44 => ⟨S1x64, .f32⟩
  | 45 => ⟨S1x64, .f32⟩
  | 46 => ⟨S64, .f32⟩
  | 47 => ⟨S1x64, .f32⟩
  | 48 => ⟨S1x64, .f32⟩
  | 49 => ⟨S64, .f32⟩
  | 50 => ⟨S1x64, .f32⟩
  | 51 => ⟨S1x64x64, .f32⟩
  | 52 => ⟨S64x64, .f32⟩
  | 53 => ⟨S1x64x64, .f32⟩
  | 54 => ⟨S64x64, .f32⟩
  | 55 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S10000x4, .f32⟩
  | .local _ .vmem, ⟨1, _⟩ => ⟨S10000x4, .f32⟩
  | .local _ .vmem, ⟨2, _⟩ => ⟨S10000x64, .f32⟩
  | .local _ .vmem, ⟨3, _⟩ => ⟨S10000x64, .f32⟩
  | .local _ .vmem, ⟨4, _⟩ => ⟨S4x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S1x1, .f32⟩
  | .local _ .vmem, ⟨15, _⟩ => ⟨S64x64, .f32⟩
  | .local _ .vmem, ⟨16, _⟩ => ⟨S1x64, .f32⟩
  | .local _ .vmem, ⟨17, _⟩ => ⟨S64x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S10000x64, .f32⟩
  | .local _ .vmem, ⟨22, _⟩ => ⟨S10000x64, .f32⟩
  | .local _ .vmem, ⟨23, _⟩ => ⟨S10000x4, .f32⟩
  | .local _ .vmem, ⟨24, _⟩ => ⟨S10000x4, .f32⟩
  | .local _ .vmem, ⟨25, _⟩ => ⟨S10000x64, .f32⟩
  | .local _ .vmem, ⟨26, _⟩ => ⟨S10000x64, .f32⟩
  | .local _ .vmem, ⟨27, _⟩ => ⟨S4x64, .f32⟩
  | .local _ .vmem, ⟨28, _⟩ => ⟨S1x64, .f32⟩
  | .local _ .vmem, ⟨29, _⟩ => ⟨S64x64, .f32⟩
  | .local _ .vmem, ⟨30, _⟩ => ⟨S1x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S1x1, .f32⟩
  | .local _ .vmem, ⟨38, _⟩ => ⟨S64x64, .f32⟩
  | .local _ .vmem, ⟨39, _⟩ => ⟨S1x64, .f32⟩
  | .local _ .vmem, ⟨40, _⟩ => ⟨S64x64, .f32⟩
  | .local _ .vmem, ⟨41, _⟩ => ⟨S1x64, .f32⟩
  | .local _ .vmem, ⟨42, _⟩ => ⟨S1x64, .f32⟩
  | .local _ .vmem, ⟨43, _⟩ => ⟨S1x64, .f32⟩
  | .local _ .vmem, ⟨44, _⟩ => ⟨S10000x64, .f32⟩
  | .local _ .vmem, ⟨45, _⟩ => ⟨S10000x64, .f32⟩
  | .local _ .vmem, ⟨46, _⟩ => ⟨S10000x4, .f32⟩
  | .local _ .vmem, ⟨47, _⟩ => ⟨S10000x4, .f32⟩
  | .local _ .vmem, ⟨48, _⟩ => ⟨S10000x64, .f32⟩
  | .local _ .vmem, ⟨49, _⟩ => ⟨S10000x64, .f32⟩
  | .local _ .vmem, ⟨50, _⟩ => ⟨S4x64, .f32⟩
  | .local _ .vmem, ⟨51, _⟩ => ⟨S1x64, .f32⟩
  | .local _ .vmem, ⟨52, _⟩ => ⟨S64x64, .f32⟩
  | .local _ .vmem, ⟨53, _⟩ => ⟨S1x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S10000x64, .f32⟩
  | .local _ .vmem, ⟨59, _⟩ => ⟨S10000x64, .f32⟩
  | .local _ .vmem, ⟨60, _⟩ => ⟨S1x1, .f32⟩
  | .local _ .vmem, ⟨61, _⟩ => ⟨S64x64, .f32⟩
  | .local _ .vmem, ⟨62, _⟩ => ⟨S1x64, .f32⟩
  | .local _ .vmem, ⟨63, _⟩ => ⟨S64x64, .f32⟩
  | .local _ .vmem, ⟨64, _⟩ => ⟨S1x64, .f32⟩
  | .local _ .vmem, ⟨65, _⟩ => ⟨S1x64, .f32⟩
  | .local _ .vmem, ⟨66, _⟩ => ⟨S1x64, .f32⟩
  | .local _ .vmem, ⟨67, _⟩ => ⟨S10000x64, .f32⟩
  | .local _ .vmem, ⟨68, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_cst : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_cst_0 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_call1_c : Ref sig .tc := ⟨.hbm, 74, rfl⟩
abbrev main_call1_v0 : Ref sig .tc := ⟨.hbm, 75, rfl⟩
abbrev main_call1_v1 : Ref sig .tc := ⟨.hbm, 76, rfl⟩
abbrev main_call1_c_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_c_1 : Ref sig .tc := ⟨.hbm, 82, rfl⟩
abbrev main_call1_c_2 : Ref sig .tc := ⟨.hbm, 83, rfl⟩
abbrev main_call1_v6 : Ref sig .tc := ⟨.hbm, 84, rfl⟩
abbrev main_call1_v7 : Ref sig .tc := ⟨.hbm, 85, rfl⟩
abbrev main_call1_v8 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_c_3 : Ref sig .tc := ⟨.hbm, 90, rfl⟩
abbrev main_call1_v12 : Ref sig .tc := ⟨.hbm, 91, rfl⟩
abbrev main_call1_v13 : Ref sig .tc := ⟨.hbm, 92, rfl⟩
abbrev main_call1_v14 : Ref sig .tc := ⟨.hbm, 93, rfl⟩
abbrev main_call1_cst : Ref sig .tc := ⟨.hbm, 94, rfl⟩
abbrev main_call1_v15 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_1 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_cst_2 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_call2_c : Ref sig .tc := ⟨.hbm, 129, rfl⟩
abbrev main_call2_v0 : Ref sig .tc := ⟨.hbm, 130, rfl⟩
abbrev main_call2_v1 : Ref sig .tc := ⟨.hbm, 131, rfl⟩
abbrev main_call2_c_0 : Ref sig .tc := ⟨.hbm, 132, rfl⟩
abbrev main_call2_v2 : Ref sig .tc := ⟨.hbm, 133, rfl⟩
abbrev main_call2_v3 : Ref sig .tc := ⟨.hbm, 134, rfl⟩
abbrev main_call2_v4 : Ref sig .tc := ⟨.hbm, 135, rfl⟩
abbrev main_call2_v5 : Ref sig .tc := ⟨.hbm, 136, rfl⟩
abbrev main_call2_c_1 : Ref sig .tc := ⟨.hbm, 137, rfl⟩
abbrev main_call2_c_2 : Ref sig .tc := ⟨.hbm, 138, rfl⟩
abbrev main_call2_v6 : Ref sig .tc := ⟨.hbm, 139, rfl⟩
abbrev main_call2_v7 : Ref sig .tc := ⟨.hbm, 140, rfl⟩
abbrev main_call2_v8 : Ref sig .tc := ⟨.hbm, 141, rfl⟩
abbrev main_call2_v9 : Ref sig .tc := ⟨.hbm, 142, rfl⟩
abbrev main_call2_v10 : Ref sig .tc := ⟨.hbm, 143, rfl⟩
abbrev main_call2_v11 : Ref sig .tc := ⟨.hbm, 144, rfl⟩
abbrev main_call2_c_3 : Ref sig .tc := ⟨.hbm, 145, rfl⟩
abbrev main_call2_v12 : Ref sig .tc := ⟨.hbm, 146, rfl⟩
abbrev main_call2_v13 : Ref sig .tc := ⟨.hbm, 147, rfl⟩
abbrev main_call2_v14 : Ref sig .tc := ⟨.hbm, 148, rfl⟩
abbrev main_call2_cst : Ref sig .tc := ⟨.hbm, 149, rfl⟩
abbrev main_call2_v15 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_cst_3 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_cst_4 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg8_0 : Ref sig .tc := ⟨.vmem, 43, rfl⟩
abbrev cc3_stg9_0 : Ref sig .tc := ⟨.vmem, 44, rfl⟩
abbrev cc3_stg9_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg3_0 : Ref sig .tc := ⟨.vmem, 51, rfl⟩
abbrev cc4_stg4_0 : Ref sig .tc := ⟨.vmem, 52, rfl⟩
abbrev cc4_stg5_0 : Ref sig .tc := ⟨.vmem, 53, rfl⟩
abbrev cc4_stg6_0 : Ref sig .tc := ⟨.vmem, 54, rfl⟩
abbrev cc4_stg6_1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg1_1 : Ref sig .tc := ⟨.vmem, 59, rfl⟩
abbrev cc5_stg2_0 : Ref sig .tc := ⟨.vmem, 60, rfl⟩
abbrev cc5_stg3_0 : Ref sig .tc := ⟨.vmem, 61, rfl⟩
abbrev cc5_stg4_0 : Ref sig .tc := ⟨.vmem, 62, rfl⟩
abbrev cc5_stg5_0 : Ref sig .tc := ⟨.vmem, 63, rfl⟩
abbrev cc5_stg6_0 : Ref sig .tc := ⟨.vmem, 64, rfl⟩
abbrev cc5_stg7_0 : Ref sig .tc := ⟨.vmem, 65, rfl⟩
abbrev cc5_stg8_0 : Ref sig .tc := ⟨.vmem, 66, rfl⟩
abbrev cc5_stg9_0 : Ref sig .tc := ⟨.vmem, 67, rfl⟩
abbrev cc5_stg9_1 : Ref sig .tc := ⟨.vmem, 68, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem8_0 : DmaSem sig := 43
abbrev cc3_sem9_0 : DmaSem sig := 44
abbrev cc3_sem9_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem3_0 : DmaSem sig := 51
abbrev cc4_sem4_0 : DmaSem sig := 52
abbrev cc4_sem5_0 : DmaSem sig := 53
abbrev cc4_sem6_0 : DmaSem sig := 54
abbrev cc4_sem6_1 : DmaSem sig := 55
abbrev cc5_sem0_0 : DmaSem sig := 56
abbrev cc5_sem0_1 : DmaSem sig := 57
abbrev cc5_sem1_0 : DmaSem sig := 58
abbrev cc5_sem1_1 : DmaSem sig := 59
abbrev cc5_sem2_0 : DmaSem sig := 60
abbrev cc5_sem3_0 : DmaSem sig := 61
abbrev cc5_sem4_0 : DmaSem sig := 62
abbrev cc5_sem5_0 : DmaSem sig := 63
abbrev cc5_sem6_0 : DmaSem sig := 64
abbrev cc5_sem7_0 : DmaSem sig := 65
abbrev cc5_sem8_0 : DmaSem sig := 66
abbrev cc5_sem9_0 : DmaSem sig := 67
abbrev cc5_sem9_1 : DmaSem sig := 68

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S10000x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x4 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S4x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S10000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S10000x64 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S64_S1x64 : S64.ShapeCasts S1x64
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S3x64_S1x64_0_0 : S3x64.Slices ![0, 0] S1x64
  shapeCasts_S1x64_S64 : S1x64.ShapeCasts S64
  slices_S3x64x64_S1x64x64_0_0_0 : S3x64x64.Slices ![0, 0, 0] S1x64x64
  shapeCasts_S1x64x64_S64x64 : S1x64x64.ShapeCasts S64x64
  inb_S10000x4_S10000x4_0_0 : ∀ a, (![0, 0] : Fin 2 → Nat) a + S10000x4.size a ≤ S10000x4.size a
  h_S10000x4 : 0 < S10000x4.numel
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bcast_S_S50000x64 : S_.BroadcastsInDim S50000x64 (![] : Fin 0 → Fin S50000x64.rank)
  slices_S3_S1_0 : S3.Slices ![0] S1
  shapeCasts_S1_S_ : S1.ShapeCasts S_
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x64 : S1x1.Broadcasts S10000x64
  reduces_S10000x64_S10000 : S10000x64.Reduces [1] S10000
  shapeCasts_S10000_S10000x1 : S10000.ShapeCasts S10000x1
  broadcasts_S10000x1_S10000x64 : S10000x1.Broadcasts S10000x64
  slices_S3x64_S1x64_1_0 : S3x64.Slices ![1, 0] S1x64
  slices_S3x64x64_S1x64x64_1_0_0 : S3x64x64.Slices ![1, 0, 0] S1x64x64
  slices_S3_S1_1 : S3.Slices ![1] S1
  slices_S3x64_S1x64_2_0 : S3x64.Slices ![2, 0] S1x64
  slices_S3x64x64_S1x64x64_2_0_0 : S3x64x64.Slices ![2, 0, 0] S1x64x64
  slices_S3_S1_2 : S3.Slices ![2] S1
  gather_S50000x64_S800000x1_S800000x64_1_0_n_n_0_1_164_wf : GatherDims.WF S50000x64 S800000x1 S800000x64 [1] [0] [] [0] [] 1 ![1, 64]
  dot_S10000x4_S4x64_S10000x64_1_0_0_1_n_n_wf : DotDims.WF S10000x4 S4x64 S10000x64 [1] [0] [0] [1] [] []
  dot_S10000x64_S64x64_S10000x64_1_0_0_1_n_n_wf : DotDims.WF S10000x64 S64x64 S10000x64 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S800000x4.size a
  hwx0_0 : ∀ i : grid0.Coords, EltTy.bits .f32 = 32 ∨ (Rect.block (s := S800000x4) S10000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S800000x64.size a
  hwx0_1 : ∀ i : grid0.Coords, EltTy.bits .f32 = 32 ∨ (Rect.block (s := S800000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64.size a ≤ S4x64.size a
  hwx0_2 : ∀ i : grid0.Coords, EltTy.bits .f32 = 32 ∨ (Rect.block (s := S4x64) S4x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S800000x64.size a
  hwx0_6 : ∀ i : grid0.Coords, EltTy.bits .f32 = 32 ∨ (Rect.block (s := S800000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x64.size a ≤ S50000x64.size a
  hwx1_9 : ∀ i : grid1.Coords, EltTy.bits .f32 = 32 ∨ (Rect.block (s := S50000x64) S10000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x4.size a ≤ S800000x4.size a
  hwx2_0 : ∀ i : grid2.Coords, EltTy.bits .f32 = 32 ∨ (Rect.block (s := S800000x4) S10000x4.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S800000x64.size a
  hwx2_1 : ∀ i : grid2.Coords, EltTy.bits .f32 = 32 ∨ (Rect.block (s := S800000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x64.size a ≤ S4x64.size a
  hwx2_2 : ∀ i : grid2.Coords, EltTy.bits .f32 = 32 ∨ (Rect.block (s := S4x64) S4x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S800000x64.size a
  hwx2_6 : ∀ i : grid2.Coords, EltTy.bits .f32 = 32 ∨ (Rect.block (s := S800000x64) S10000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S50000x64.size a
  hwx3_1 : ∀ i : grid3.Coords, EltTy.bits .f32 = 32 ∨ (Rect.block (s := S50000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S10000x64.size a ≤ S50000x64.size a
  hwx3_9 : ∀ i : grid3.Coords, EltTy.bits .f32 = 32 ∨ (Rect.block (s := S50000x64) S10000x64.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x4.size a ≤ S800000x4.size a
  hwx4_0 : ∀ i : grid4.Coords, EltTy.bits .f32 = 32 ∨ (Rect.block (s := S800000x4) S10000x4.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S800000x64.size a
  hwx4_1 : ∀ i : grid4.Coords, EltTy.bits .f32 = 32 ∨ (Rect.block (s := S800000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S4x64.size a ≤ S4x64.size a
  hwx4_2 : ∀ i : grid4.Coords, EltTy.bits .f32 = 32 ∨ (Rect.block (s := S4x64) S4x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S10000x64.size a ≤ S800000x64.size a
  hwx4_6 : ∀ i : grid4.Coords, EltTy.bits .f32 = 32 ∨ (Rect.block (s := S800000x64) S10000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S50000x64.size a
  hwx5_1 : ∀ i : grid5.Coords, EltTy.bits .f32 = 32 ∨ (Rect.block (s := S50000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x64.size a ≤ S1x64.size a
  hwx5_7 : ∀ i : grid5.Coords, EltTy.bits .f32 = 32 ∨ (Rect.block (s := S1x64) S1x64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x64.size a ≤ S1x64.size a
  hwx5_8 : ∀ i : grid5.Coords, EltTy.bits .f32 = 32 ∨ (Rect.block (s := S1x64) S1x64.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S10000x64.size a ≤ S50000x64.size a
  hwx5_9 : ∀ i : grid5.Coords, EltTy.bits .f32 = 32 ∨ (Rect.block (s := S50000x64) S10000x64.size (cc5_transform_9 i) (hinb5_9 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S10000x4_S4x64_S10000x64_1_0_0_1_n_n : DotDims S10000x4 S4x64 S10000x64 where
  lhsContracting := [1]
  rhsContracting := [0]
  lhsNonContracting := [0]
  rhsNonContracting := [1]
  lhsBatch := []
  rhsBatch := []
  wf := dot_S10000x4_S4x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg2) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v35) S10000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg2) S10000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S4x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v35) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v55) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v58) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v61) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v66) S10000x64.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_arg2) S10000x4.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg3) S4x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v4) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v72) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v70) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v73) S10000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v66) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v80) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v94) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v96) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v86) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v89) S1x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v92) S1x64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v97) S10000x64.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x4 : Shape := ⟨2, ![800000, 4]⟩
abbrev S4x64 : Shape := ⟨2, ![4, 64]⟩
abbrev S64 : Shape := ⟨1, ![64]⟩
abbrev S3 : Shape := ⟨1, ![3]⟩
abbrev S3x64x64 : Shape := ⟨3, ![3, 64, 64]⟩
abbrev S3x64 : Shape := ⟨2, ![3, 64]⟩
abbrev S800000x64 : Shape := ⟨2, ![800000, 64]⟩
abbrev S1x64 : Shape := ⟨2, ![1, 64]⟩
abbrev S1x800000 : Shape := ⟨2, ![1, 800000]⟩
abbrev S800000 : Shape := ⟨1, ![800000]⟩
abbrev S1x64x64 : Shape := ⟨3, ![1, 64, 64]⟩
abbrev S64x64 : Shape := ⟨2, ![64, 64]⟩
abbrev S_ : Shape := ⟨0, ![]⟩
abbrev S800000x1 : Shape := ⟨2, ![800000, 1]⟩
abbrev S1 : Shape := ⟨1, ![1]⟩
abbrev S50000 : Shape := ⟨1, ![50000]⟩
abbrev S50000x1 : Shape := ⟨2, ![50000, 1]⟩

abbrev nBuf : Space → Nat
  | .hbm => 286
  | .vmem => 0
  | .smem => 0
  | _ => 0

abbrev hbmTy0_0 (i : Nat) : BufTy := match i % 128 with
  | 0 => ⟨S50000x64, .f32⟩
  | 1 => ⟨S2x800000, .i32⟩
  | 2 => ⟨S800000x4, .f32⟩
  | 3 => ⟨S4x64, .f32⟩
  | 4 => ⟨S64, .f32⟩
  | 5 => ⟨S3, .f32⟩
  | 6 => ⟨S3x64x64, .f32⟩
  | 7 => ⟨S3x64, .f32⟩
  | 8 => ⟨S3x64x64, .f32⟩
  | 9 => ⟨S3x64, .f32⟩
  | 10 => ⟨S3x64x64, .f32⟩
  | 11 => ⟨S3x64, .f32⟩
  | 12 => ⟨S3x64, .f32⟩
  | 13 => ⟨S3x64, .f32⟩
  | 14 => ⟨S800000x64, .f32⟩
  | 15 => ⟨S1x64, .f32⟩
  | 16 => ⟨S800000x64, .f32⟩
  | 17 => ⟨S800000x64, .f32⟩
  | 18 => ⟨S1x800000, .i32⟩
  | 19 => ⟨S800000, .i32⟩
  | 20 => ⟨S1x800000, .i32⟩
  | 21 => ⟨S800000, .i32⟩
  | 22 => ⟨S1x64x64, .f32⟩
  | 23 => ⟨S64x64, .f32⟩
  | 24 => ⟨S800000x64, .f32⟩
  | 25 => ⟨S1x64, .f32⟩
  | 26 => ⟨S64, .f32⟩
  | 27 => ⟨S1x64, .f32⟩
  | 28 => ⟨S800000x64, .f32⟩
  | 29 => ⟨S800000x64, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S800000x64, .f32⟩
  | 40 => ⟨S_, .f32⟩
  | 41 => ⟨S800000x64, .f32⟩
  | 42 => ⟨S800000x64, .f32⟩
  | 43 => ⟨S_, .f32⟩
  | 44 => ⟨S50000x64, .f32⟩
  | 45 => ⟨S800000x1, .i32⟩
  | 46 => ⟨S50000x64, .f32⟩
  | 47 => ⟨S1, .f32⟩
  | 48 => ⟨S_, .f32⟩
  | 49 => ⟨S_, .f32⟩
  | 50 => ⟨S_, .f32⟩
  | 51 => ⟨S50000x64, .f32⟩
  | 52 => ⟨S50000x64, .f32⟩
  | 53 => ⟨S50000x64, .f32⟩
  | 54 => ⟨S1x64x64, .f32⟩
  | 55 => ⟨S64x64, .f32⟩
  | 56 => ⟨S50000x64, .f32⟩
  | 57 => ⟨S1x64, .f32⟩
  | 58 => ⟨S64, .f32⟩
  | 59 => ⟨S1x64, .f32⟩
  | 60 => ⟨S50000x64, .f32⟩
  | 61 => ⟨S50000x64, .f32⟩
  | 62 => ⟨S_, .f32⟩
  | 63 => ⟨S50000x64, .f32⟩
  | 64 => ⟨S50000x64, .f32⟩
  | 65 => ⟨S1x64x64, .f32⟩
  | 66 => ⟨S64x64, .f32⟩
  | 67 => ⟨S50000x64, .f32⟩
  | 68 => ⟨S1x64, .f32⟩
  | 69 => ⟨S64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S50000x64, .f32⟩
  | 77 => ⟨S_, .f32⟩
  | 78 => ⟨S50000, .f32⟩
  | 79 => ⟨S50000x1, .f32⟩
  | 80 => ⟨S_, .f32⟩
  | 81 => ⟨S50000x1, .f32⟩
  | 82 => ⟨S50000x1, .f32⟩
  | 83 => ⟨S50000x64, .f32⟩
  | 84 => ⟨S50000x64, .f32⟩
  | 85 => ⟨S50000x64, .f32⟩
  | 86 => ⟨S_, .f32⟩
  | 87 => ⟨S50000, .f32⟩
  | 88 => ⟨S50000x1, .f32⟩
  | 89 => ⟨S_, .f32⟩
  | 90 => ⟨S50000x1, .f32⟩
  | 91 => ⟨S50000x1, .f32⟩
  | 92 => ⟨S50000x64, .f32⟩
  | 93 => ⟨S50000x64, .f32⟩
  | 94 => ⟨S_, .f32⟩
  | 95 => ⟨S50000x1, .f32⟩
  | 96 => ⟨S50000x1, .f32⟩
  | 97 => ⟨S50000x1, .f32⟩
  | 98 => ⟨S50000x64, .f32⟩
  | 99 => ⟨S50000x64, .f32⟩
  | 100 => ⟨S1x64, .f32⟩
  | 101 => ⟨S64, .f32⟩
  | 102 => ⟨S1x64, .f32⟩
  | 103 => ⟨S50000x64, .f32⟩
  | 104 => ⟨S50000x64, .f32⟩
  | 105 => ⟨S1x64, .f32⟩
  | 106 => ⟨S64, .f32⟩
  | 107 => ⟨S1x64, .f32⟩
  | 108 => ⟨S50000x64, .f32⟩
  | 109 => ⟨S50000x64, .f32⟩
  | 110 => ⟨S1x64x64, .f32⟩
  | 111 => ⟨S64x64, .f32⟩
  | 112 => ⟨S800000x64, .f32⟩
  | 113 => ⟨S1x64, .f32⟩
  | 114 => ⟨S64, .f32⟩
  | 115 => ⟨S1x64, .f32⟩
  | 116 => ⟨S800000x64, .f32⟩
  | 117 => ⟨S800000x64, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x64, .f32⟩
  | 127 => ⟨S800000x64, .f32⟩
  | _ => ⟨S50000x64, .f32⟩

abbrev hbmTy0_1 (i : Nat) : BufTy := match i % 128 with
  | 0 => ⟨S_, .f32⟩
  | 1 => ⟨S800000x64, .f32⟩
  | 2 => ⟨S800000x64, .f32⟩
  | 3 => ⟨S_, .f32⟩
  | 4 => ⟨S50000x64, .f32⟩
  | 5 => ⟨S800000x1, .i32⟩
  | 6 => ⟨S50000x64, .f32⟩
  | 7 => ⟨S1, .f32⟩
  | 8 => ⟨S_, .f32⟩
  | 9 => ⟨S_, .f32⟩
  | 10 => ⟨S_, .f32⟩
  | 11 => ⟨S50000x64, .f32⟩
  | 12 => ⟨S50000x64, .f32⟩
  | 13 => ⟨S50000x64, .f32⟩
  | 14 => ⟨S1x64x64, .f32⟩
  | 15 => ⟨S64x64, .f32⟩
  | 16 => ⟨S50000x64, .f32⟩
  | 17 => ⟨S1x64, .f32⟩
  | 18 => ⟨S64, .f32⟩
  | 19 => ⟨S1x64, .f32⟩
  | 20 => ⟨S50000x64, .f32⟩
  | 21 => ⟨S50000x64, .f32⟩
  | 22 => ⟨S_, .f32⟩
  | 23 => ⟨S50000x64, .f32⟩
  | 24 => ⟨S50000x64, .f32⟩
  | 25 => ⟨S1x64x64, .f32⟩
  | 26 => ⟨S64x64, .f32⟩
  | 27 => ⟨S50000x64, .f32⟩
  | 28 => ⟨S1x64, .f32⟩
  | 29 => ⟨S64, .f32⟩
  | 30 => ⟨S1x64, .f32⟩
  | 31 => ⟨S50000x64, .f32⟩
  | 32 => ⟨S50000x64, .f32⟩
  | 33 => ⟨S_, .f32⟩
  | 34 => ⟨S50000x64, .f32⟩
  | 35 => ⟨S50000x64, .f32⟩
  | 36 => ⟨S50000x64, .f32⟩
  | 37 => ⟨S_, .f32⟩
  | 38 => ⟨S50000, .f32⟩
  | 39 => ⟨S50000x1, .f32⟩
  | 40 => ⟨S_, .f32⟩
  | 41 => ⟨S50000x1, .f32⟩
  | 42 => ⟨S50000x1, .f32⟩
  | 43 => ⟨S50000x64, .f32⟩
  | 44 => ⟨S50000x64, .f32⟩
  | 45 => ⟨S50000x64, .f32⟩
  | 46 => ⟨S_, .f32⟩
  | 47 => ⟨S50000, .f32⟩
  | 48 => ⟨S50000x1, .f32⟩
  | 49 => ⟨S_, .f32⟩
  | 50 => ⟨S50000x1, .f32⟩
  | 51 => ⟨S50000x1, .f32⟩
  | 52 => ⟨S50000x64, .f32⟩
  | 53 => ⟨S50000x64, .f32⟩
  | 54 => ⟨S_, .f32⟩
  | 55 => ⟨S50000x1, .f32⟩
  | 56 => ⟨S50000x1, .f32⟩
  | 57 => ⟨S50000x1, .f32⟩
  | 58 => ⟨S50000x64, .f32⟩
  | 59 => ⟨S50000x64, .f32⟩
  | 60 => ⟨S1x64, .f32⟩
  | 61 => ⟨S64, .f32⟩
  | 62 => ⟨S1x64, .f32⟩
  | 63 => ⟨S50000x64, .f32⟩
  | 64 => ⟨S50000x64, .f32⟩
  | 65 => ⟨S1x64, .f32⟩
  | 66 => ⟨S64, .f32⟩
  | 67 => ⟨S1x64, .f32⟩
  | 68 => ⟨S50000x64, .f32⟩
  | 69 => ⟨S50000x64, .f32⟩
  | 70 => ⟨S1x64x64, .f32⟩
  | 71 => ⟨S64x64, .f32⟩
  | 72 => ⟨S800000x64, .f32⟩
  | 73 => ⟨S1x64, .f32⟩
  | 74 => ⟨S64, .f32⟩
  | 75 => ⟨S1x64, .f32⟩
  | 76 => ⟨S800000x64, .f32⟩
  | 77 => ⟨S800000x64, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x64, .f32⟩
  | 87 => ⟨S800000x64, .f32⟩
  | 88 => ⟨S_, .f32⟩
  | 89 => ⟨S800000x64, .f32⟩
  | 90 => ⟨S800000x64, .f32⟩
  | 91 => ⟨S_, .f32⟩
  | 92 => ⟨S50000x64, .f32⟩
  | 93 => ⟨S800000x1, .i32⟩
  | 94 => ⟨S50000x64, .f32⟩
  | 95 => ⟨S1, .f32⟩
  | 96 => ⟨S_, .f32⟩
  | 97 => ⟨S_, .f32⟩
  | 98 => ⟨S_, .f32⟩
  | 99 => ⟨S50000x64, .f32⟩
  | 100 => ⟨S50000x64, .f32⟩
  | 101 => ⟨S50000x64, .f32⟩
  | 102 => ⟨S1x64x64, .f32⟩
  | 103 => ⟨S64x64, .f32⟩
  | 104 => ⟨S50000x64, .f32⟩
  | 105 => ⟨S1x64, .f32⟩
  | 106 => ⟨S64, .f32⟩
  | 107 => ⟨S1x64, .f32⟩
  | 108 => ⟨S50000x64, .f32⟩
  | 109 => ⟨S50000x64, .f32⟩
  | 110 => ⟨S_, .f32⟩
  | 111 => ⟨S50000x64, .f32⟩
  | 112 => ⟨S50000x64, .f32⟩
  | 113 => ⟨S1x64x64, .f32⟩
  | 114 => ⟨S64x64, .f32⟩
  | 115 => ⟨S50000x64, .f32⟩
  | 116 => ⟨S1x64, .f32⟩
  | 117 => ⟨S64, .f32⟩
  | 118 => ⟨S1x64, .f32⟩
  | 119 => ⟨S50000x64, .f32⟩
  | 120 => ⟨S50000x64, .f32⟩
  | 121 => ⟨S_, .f32⟩
  | 122 => ⟨S50000x64, .f32⟩
  | 123 => ⟨S50000x64, .f32⟩
  | 124 => ⟨S50000x64, .f32⟩
  | 125 => ⟨S_, .f32⟩
  | 126 => ⟨S50000, .f32⟩
  | 127 => ⟨S50000x1, .f32⟩
  | _ => ⟨S50000x64, .f32⟩

abbrev hbmTy0_2 (i : Nat) : BufTy := match i % 128 with
  | 0 => ⟨S_, .f32⟩
  | 1 => ⟨S50000x1, .f32⟩
  | 2 => ⟨S50000x1, .f32⟩
  | 3 => ⟨S50000x64, .f32⟩
  | 4 => ⟨S50000x64, .f32⟩
  | 5 => ⟨S50000x64, .f32⟩
  | 6 => ⟨S_, .f32⟩
  | 7 => ⟨S50000, .f32⟩
  | 8 => ⟨S50000x1, .f32⟩
  | 9 => ⟨S_, .f32⟩
  | 10 => ⟨S50000x1, .f32⟩
  | 11 => ⟨S50000x1, .f32⟩
  | 12 => ⟨S50000x64, .f32⟩
  | 13 => ⟨S50000x64, .f32⟩
  | 14 => ⟨S_, .f32⟩
  | 15 => ⟨S50000x1, .f32⟩
  | 16 => ⟨S50000x1, .f32⟩
  | 17 => ⟨S50000x1, .f32⟩
  | 18 => ⟨S50000x64, .f32⟩
  | 19 => ⟨S50000x64, .f32⟩
  | 20 => ⟨S1x64, .f32⟩
  | 21 => ⟨S64, .f32⟩
  | 22 => ⟨S1x64, .f32⟩
  | 23 => ⟨S50000x64, .f32⟩
  | 24 => ⟨S50000x64, .f32⟩
  | 25 => ⟨S1x64, .f32⟩
  | 26 => ⟨S64, .f32⟩
  | 27 => ⟨S1x64, .f32⟩
  | 28 => ⟨S50000x64, .f32⟩
  | 29 => ⟨S50000x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_cst : Ref sig .tc := ⟨.hbm, 40, rfl⟩
abbrev main_call0_v0 : Ref sig .tc := ⟨.hbm, 41, rfl⟩
abbrev main_v24 : Ref sig .tc := ⟨.hbm, 42, rfl⟩
abbrev main_cst : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_1 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_call1_cst : Ref sig .tc := ⟨.hbm, 62, rfl⟩
abbrev main_call1_v0 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call2_cst : Ref sig .tc := ⟨.hbm, 73, rfl⟩
abbrev main_call2_v0 : Ref sig .tc := ⟨.hbm, 74, rfl⟩
abbrev main_v51 : Ref sig .tc := ⟨.hbm, 75, rfl⟩
abbrev main_v52 : Ref sig .tc := ⟨.hbm, 76, rfl⟩
abbrev main_cst_2 : Ref sig .tc := ⟨.hbm, 77, rfl⟩
abbrev main_v53 : Ref sig .tc := ⟨.hbm, 78, rfl⟩
abbrev main_v54 : Ref sig .tc := ⟨.hbm, 79, rfl⟩
abbrev main_cst_3 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_4 : Ref sig .tc := ⟨.hbm, 86, rfl⟩
abbrev main_v60 : Ref sig .tc := ⟨.hbm, 87, rfl⟩
abbrev main_v61 : Ref sig .tc := ⟨.hbm, 88, rfl⟩
abbrev main_cst_5 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_6 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_c_7 : Ref sig .tc := ⟨.hbm, 118, rfl⟩
abbrev main_v89 : Ref sig .tc := ⟨.hbm, 119, rfl⟩
abbrev main_v90 : Ref sig .tc := ⟨.hbm, 120, rfl⟩
abbrev main_c_8 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_call3_cst : Ref sig .tc := ⟨.hbm, 128, rfl⟩
abbrev main_call3_v0 : Ref sig .tc := ⟨.hbm, 129, rfl⟩
abbrev main_v97 : Ref sig .tc := ⟨.hbm, 130, rfl⟩
abbrev main_cst_9 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_10 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_call4_cst : Ref sig .tc := ⟨.hbm, 150, rfl⟩
abbrev main_call4_v0 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_call5_cst : Ref sig .tc := ⟨.hbm, 161, rfl⟩
abbrev main_call5_v0 : Ref sig .tc := ⟨.hbm, 162, rfl⟩
abbrev main_v124 : Ref sig .tc := ⟨.hbm, 163, rfl⟩
abbrev main_v125 : Ref sig .tc := ⟨.hbm, 164, rfl⟩
abbrev main_cst_11 : Ref sig .tc := ⟨.hbm, 165, rfl⟩
abbrev main_v126 : Ref sig .tc := ⟨.hbm, 166, rfl⟩
abbrev main_v127 : Ref sig .tc := ⟨.hbm, 167, rfl⟩
abbrev main_cst_12 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_cst_13 : Ref sig .tc := ⟨.hbm, 174, rfl⟩
abbrev main_v133 : Ref sig .tc := ⟨.hbm, 175, rfl⟩
abbrev main_v134 : Ref sig .tc := ⟨.hbm, 176, rfl⟩
abbrev main_cst_14 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_cst_15 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_c_16 : Ref sig .tc := ⟨.hbm, 206, rfl⟩
abbrev main_v162 : Ref sig .tc := ⟨.hbm, 207, rfl⟩
abbrev main_v163 : Ref sig .tc := ⟨.hbm, 208, rfl⟩
abbrev main_c_17 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_call6_cst : Ref sig .tc := ⟨.hbm, 216, rfl⟩
abbrev main_call6_v0 : Ref sig .tc := ⟨.hbm, 217, rfl⟩
abbrev main_v170 : Ref sig .tc := ⟨.hbm, 218, rfl⟩
abbrev main_cst_18 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_cst_19 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_call7_cst : Ref sig .tc := ⟨.hbm, 238, rfl⟩
abbrev main_call7_v0 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_call8_cst : Ref sig .tc := ⟨.hbm, 249, rfl⟩
abbrev main_call8_v0 : Ref sig .tc := ⟨.hbm, 250, rfl⟩
abbrev main_v197 : Ref sig .tc := ⟨.hbm, 251, rfl⟩
abbrev main_v198 : Ref sig .tc := ⟨.hbm, 252, rfl⟩
abbrev main_cst_20 : Ref sig .tc := ⟨.hbm, 253, rfl⟩
abbrev main_v199 : Ref sig .tc := ⟨.hbm, 254, rfl⟩
abbrev main_v200 : Ref sig .tc := ⟨.hbm, 255, rfl⟩
abbrev main_cst_21 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_cst_22 : Ref sig .tc := ⟨.hbm, 262, rfl⟩
abbrev main_v206 : Ref sig .tc := ⟨.hbm, 263, rfl⟩
abbrev main_v207 : Ref sig .tc := ⟨.hbm, 264, rfl⟩
abbrev main_cst_23 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_cst_24 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_v223 : Ref sig .tc := ⟨.hbm, 282, rfl⟩
abbrev main_v224 : Ref sig .tc := ⟨.hbm, 283, rfl⟩
abbrev main_v225 : Ref sig .tc := ⟨.hbm, 284, rfl⟩
abbrev main_v226 : Ref sig .tc := ⟨.hbm, 285, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  bcast_S_S50000x64 : S_.BroadcastsInDim S50000x64 (![] : Fin 0 → Fin S50000x64.rank)
  slices_S3_S1_0 : S3.Slices ![0] S1
  shapeCasts_S1_S_ : S1.ShapeCasts S_
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  slices_S3x64x64_S1x64x64_1_0_0 : S3x64x64.Slices ![1, 0, 0] S1x64x64
  slices_S3x64_S1x64_1_0 : S3x64.Slices ![1, 0] S1x64
  slices_S3_S1_1 : S3.Slices ![1] S1
  slices_S3x64x64_S1x64x64_2_0_0 : S3x64x64.Slices ![2, 0, 0] S1x64x64
  slices_S3x64_S1x64_2_0 : S3x64.Slices ![2, 0] S1x64
  slices_S3_S1_2 : S3.Slices ![2] S1
  dot_S800000x4_S4x64_S800000x64_1_0_0_1_n_n_wf : DotDims.WF S800000x4 S4x64 S800000x64 [1] [0] [0] [1] [] []
  dot_S800000x64_S64x64_S800000x64_1_0_0_1_n_n_wf : DotDims.WF S800000x64 S64x64 S800000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def dot_S800000x4_S4x64_S800000x64_1_0_0_1_n_n : DotDims S800000x4 S4x64 S800000x64 where
  lhsContracting := [1]
  rhsContracting := [0]
  lhsNonContracting := [0]
  rhsNonContracting := [1]
  lhsBatch := []
  rhsBatch := []
  wf := dot_S800000x4_S4x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  The mathematics both programs compute, written once over the extended reals.

  A graph of 50000 nodes with 64 features each and 800000 directed edges with 4 attributes each goes through three
  rounds of message passing. In round `l` (with the round's own slices of the stacked weights):

  * every edge `r` encodes its attributes, `enc r k = (∑ q, ea r q · encW q k) + encb k`, maps them linearly,
    `lin r j = (∑ k, enc r k · W k j) + b j`, and sends `msg r j = max (hs r j + lin r j) 0`, where `hs` is the row of the
    node table the edge's source names (a gather, carried here as an unopened function `gat`): `msgRow` on one edge,
    `edgeG` on all;
  * the messages are summed into their destination rows (a scatter-add, carried as an unopened function `sca`);
  * every node `n` forms `z = s · h + agg` with `s = 1 + eps l`, passes it through two linear maps with a clamp at zero
    after each, adds `h` back, and normalises the row: with `μ` the row's mean and `σ²` the mean of the squared
    deviations, `out j = (y j − μ) · rsqrt (σ² + ε) · g j + bt j`: `nodeRow` on one node, `nodeG` on all.

  Sums are plain sums over the contracted coordinate; means divide by the literal 64; no step reorders a sum or moves a
  factor across one, so nothing here depends on the entries being finite. Literals stay as their words.
-/
import Idealize.ShloMosaic.PureOps.Ideal
import Idealize.ShloMosaic.Lib.ValueIdx

noncomputable section

namespace Cert.Gine

open Idealize.ShloMosaic Idealize.ShloMosaic.ValueIdx

/-- node features -/
abbrev Sn : Shape := ⟨2, ![50000, 64]⟩
/-- one feature row per edge -/
abbrev Se : Shape := ⟨2, ![800000, 64]⟩
/-- edge attributes -/
abbrev Sa : Shape := ⟨2, ![800000, 4]⟩
abbrev Sw4 : Shape := ⟨2, ![4, 64]⟩
abbrev Sw : Shape := ⟨2, ![64, 64]⟩
abbrev Sv : Shape := ⟨1, ![64]⟩
abbrev S3s : Shape := ⟨1, ![3]⟩
abbrev Sww : Shape := ⟨3, ![3, 64, 64]⟩
abbrev Swv : Shape := ⟨2, ![3, 64]⟩

/-- the row coordinate of an index into a matrix, at its literal bound -/
abbrev rowOf {a b : Nat} (i : (⟨2, ![a, b]⟩ : Shape).Idx) : Fin a := ⟨(i 0).val, (i 0).isLt⟩
/-- the column coordinate of an index into a matrix, at its literal bound -/
abbrev colOf {a b : Nat} (i : (⟨2, ![a, b]⟩ : Shape).Idx) : Fin b := ⟨(i 1).val, (i 1).isLt⟩

/-- the literal 64.0 the means divide by -/
abbrev c64 : EReal := Ideal.ofBits .f32 0x42800000#32
/-- the literal ε under the reciprocal square root -/
abbrev cEps : EReal := Ideal.ofBits .f32 0x3727C5AC#32
/-- the literal 1.0 added to the round's eps -/
abbrev cOne : EReal := Ideal.ofBits .f32 0x3F800000#32

/-! ## One round's two dense steps on ONE row, over any weights -/

/-- an edge's encoded attributes, feature `k` -/
def encRow (ea : Fin 4 → EReal) (encW : Sw4.Idx → EReal) (encb : Fin 64 → EReal) (k : Fin 64) : EReal :=
  (∑ q : Fin 4, ea q * encW (ix2 q k)) + encb k

/-- the linear map of an edge's encoded attributes, feature `j` -/
def linRow (ea : Fin 4 → EReal) (encW : Sw4.Idx → EReal) (encb : Fin 64 → EReal) (W : Sw.Idx → EReal) (b : Fin 64 → EReal)
    (j : Fin 64) : EReal :=
  (∑ k : Fin 64, encRow ea encW encb k * W (ix2 k j)) + b j

/-- an edge's message from its attributes `ea` and its gathered source row `hs` -/
def msgRow (ea : Fin 4 → EReal) (hs : Fin 64 → EReal) (encW : Sw4.Idx → EReal) (encb : Fin 64 → EReal)
    (W : Sw.Idx → EReal) (b : Fin 64 → EReal) (j : Fin 64) : EReal :=
  max (hs j + linRow ea encW encb W b j) 0

/-- `z = s · h + agg`, feature `k` -/
def combRow (s : EReal) (h agg : Fin 64 → EReal) (k : Fin 64) : EReal := s * h k + agg k

/-- the first linear map and clamp -/
def hidRow (s : EReal) (h agg : Fin 64 → EReal) (W1 : Sw.Idx → EReal) (b1 : Fin 64 → EReal) (k' : Fin 64) : EReal :=
  max ((∑ k : Fin 64, combRow s h agg k * W1 (ix2 k k')) + b1 k') 0

/-- the second linear map and clamp, with the node's own row added back -/
def preRow (s : EReal) (h agg : Fin 64 → EReal) (W1 : Sw.Idx → EReal) (b1 : Fin 64 → EReal) (W2 : Sw.Idx → EReal)
    (b2 : Fin 64 → EReal) (j : Fin 64) : EReal :=
  max ((∑ k : Fin 64, hidRow s h agg W1 b1 k * W2 (ix2 k j)) + b2 j) 0 + h j

/-- the row's mean -/
def meanRow (s : EReal) (h agg : Fin 64 → EReal) (W1 : Sw.Idx → EReal) (b1 : Fin 64 → EReal) (W2 : Sw.Idx → EReal)
    (b2 : Fin 64 → EReal) : EReal :=
  Ideal.div (∑ j : Fin 64, preRow s h agg W1 b1 W2 b2 j) c64

/-- the deviation from the row's mean -/
def devRow (s : EReal) (h agg : Fin 64 → EReal) (W1 : Sw.Idx → EReal) (b1 : Fin 64 → EReal) (W2 : Sw.Idx → EReal)
    (b2 : Fin 64 → EReal) (j : Fin 64) : EReal :=
  preRow s h agg W1 b1 W2 b2 j - meanRow s h agg W1 b1 W2 b2

/-- the mean of the squared deviations -/
def varRow (s : EReal) (h agg : Fin 64 → EReal) (W1 : Sw.Idx → EReal) (b1 : Fin 64 → EReal) (W2 : Sw.Idx → EReal)
    (b2 : Fin 64 → EReal) : EReal :=
  Ideal.div (∑ j : Fin 64, devRow s h agg W1 b1 W2 b2 j * devRow s h agg W1 b1 W2 b2 j) c64

/-- a node's new row from its old row `h` and its summed messages `agg` -/
def nodeRow (s : EReal) (h agg : Fin 64 → EReal) (W1 : Sw.Idx → EReal) (b1 : Fin 64 → EReal) (W2 : Sw.Idx → EReal)
    (b2 : Fin 64 → EReal) (g bt : Fin 64 → EReal) (j : Fin 64) : EReal :=
  devRow s h agg W1 b1 W2 b2 j * Ideal.rsqrt (varRow s h agg W1 b1 W2 b2 + cEps) * g j + bt j

/-! ## The same on whole arrays, row by row -/

/-- the messages of all edges from the gathered source rows `hs` -/
def edgeG (ea : Sa.Idx → EReal) (hs : Se.Idx → EReal) (encW : Sw4.Idx → EReal) (encb : Fin 64 → EReal)
    (W : Sw.Idx → EReal) (b : Fin 64 → EReal) : Se.Idx → EReal :=
  fun i => msgRow (fun q => ea (ix2 (rowOf i) q)) (fun k => hs (ix2 (rowOf i) k)) encW encb W b (colOf i)

/-- the new node features from the old ones `h` and the summed messages `agg` -/
def nodeG (h agg : Sn.Idx → EReal) (s : EReal) (W1 : Sw.Idx → EReal) (b1 : Fin 64 → EReal) (W2 : Sw.Idx → EReal) (b2 : Fin 64 → EReal)
    (g bt : Fin 64 → EReal) : Sn.Idx → EReal :=
  fun i => nodeRow s (fun k => h (ix2 (rowOf i) k)) (fun k => agg (ix2 (rowOf i) k)) W1 b1 W2 b2 g bt (colOf i)

/-! ## The three rounds over the stacked weights -/

section
variable (ea : Sa.Idx → EReal) (encW : Sw4.Idx → EReal) (encb : Sv.Idx → EReal) (eps : S3s.Idx → EReal)
  (elW : Sww.Idx → EReal) (elb : Swv.Idx → EReal) (W1 : Sww.Idx → EReal) (b1 : Swv.Idx → EReal)
  (W2 : Sww.Idx → EReal) (b2 : Swv.Idx → EReal) (g : Swv.Idx → EReal) (bt : Swv.Idx → EReal)

/-- round `l`'s slice of a stack of three 64 × 64 matrices -/
abbrev matOf (W : Sww.Idx → EReal) (l : Fin 3) : Sw.Idx → EReal := fun i => W (ix3 l (rowOf i) (colOf i))
/-- round `l`'s slice of a stack of three 64-vectors -/
abbrev vecOf (b : Swv.Idx → EReal) (l : Fin 3) : Fin 64 → EReal := fun k => b (ix2 l k)

/-- round `l`'s messages from the gathered source rows `hs` -/
def message (l : Fin 3) (hs : Se.Idx → EReal) : Se.Idx → EReal :=
  edgeG ea hs encW (fun k => encb (ix1 k)) (matOf elW l) (vecOf elb l)

/-- round `l`'s new node features -/
def update (l : Fin 3) (h agg : Sn.Idx → EReal) : Sn.Idx → EReal :=
  nodeG h agg (cOne + eps (ix1 l)) (matOf W1 l) (vecOf b1 l) (matOf W2 l) (vecOf b2 l) (vecOf g l) (vecOf bt l)

/-- one round: gather, message, scatter-add, update -/
def layer (gat : (Sn.Idx → EReal) → Se.Idx → EReal) (sca : (Se.Idx → EReal) → Sn.Idx → EReal) (l : Fin 3)
    (h : Sn.Idx → EReal) : Sn.Idx → EReal :=
  update eps W1 b1 W2 b2 g bt l h (sca (message ea encW encb elW elb l (gat h)))

/-- the three rounds -/
def net (gat : (Sn.Idx → EReal) → Se.Idx → EReal) (sca : (Se.Idx → EReal) → Sn.Idx → EReal)
    (x : Sn.Idx → EReal) : Sn.Idx → EReal :=
  layer ea encW encb eps elW elb W1 b1 W2 b2 g bt gat sca 2
    (layer ea encW encb eps elW elb W1 b1 W2 b2 g bt gat sca 1
      (layer ea encW encb eps elW elb W1 b1 W2 b2 g bt gat sca 0 x))

end

end Cert.Gine

end
-- ==== Proof.KernelTerms.lean ====
/-
  Names for what the host stretches compute from the edge list, and for the argument arrays at their literal types.

  The edge list's first row holds each edge's source id, its second row the destination id. A negative source id
  counts from the end of the 50000-row node table (`wrapIds`); the gather reads the table at the resulting column of
  ids; the scatter-add sums the messages into a zero array at the destination ids. The kernel's gather also carries a
  mask, "the id is between 0 and 49999", and puts a not-a-number pattern where the mask is clear.
-/
import proofs.«415458_j8564164788771_1_alg».proof.Proof.Gen.KernelIdeal.Frame
import proofs.«415458_j8564164788771_1_alg».proof.Proof.Spec
import Idealize.ShloMosaic.Lib.StableHlo.Run

set_option maxRecDepth 16384

noncomputable section

namespace Cert.KernelIdeal.Gen

open Idealize.ShloMosaic Idealize.ShloMosaic.TcCoe Idealize.SL.Sem
open Cert.Gine

/-! ## The edge list -/

/-- each edge's source id -/
def srcIds (e : IVec S2x800000 32) : IVec S800000 32 :=
  shapeCast S800000 (extractStridedSlice S1x800000 ![0, 0] e slices_S2x800000_S1x800000_0_0) shapeCasts_S1x800000_S800000

/-- each edge's destination id -/
def dstIds (e : IVec S2x800000 32) : IVec S800000 32 :=
  shapeCast S800000 (extractStridedSlice S1x800000 ![1, 0] e slices_S2x800000_S1x800000_1_0) shapeCasts_S1x800000_S800000

/-- a negative id counts from the table's end -/
def wrapIds (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- the column of wrapped source ids the gather reads the table at -/
def srcCol (e : IVec S2x800000 32) : IVec S800000x1 32 :=
  broadcastInDim S800000x1 ![0] bcast_S800000_S800000x1_0 (wrapIds (srcIds e))

/-- the column of destination ids the scatter-add writes at -/
def dstCol (e : IVec S2x800000 32) : IVec S800000x1 32 :=
  broadcastInDim S800000x1 ![0] bcast_S800000_S800000x1_0 (dstIds e)

/-- per edge: its id in the column lies between 0 and 49999 -/
def inRange (col : IVec S800000x1 32) : IVec S800000 1 :=
  Host.reduce IntOp.andi
    (andi (cmpi .sge col (broadcastInDim S800000x1 ![] bcast_S_S800000x1 (constantI S_ 32 0#32)))
      (cmpi .sle col (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

variable {F : FTy → Type} [FloatOps F]

/-- the gather of the node table's rows at the source ids -/
def gatK (e : IVec S2x800000 32) (x : FVec F S50000x64 .f32) : FVec F S800000x64 .f32 :=
  Host.gather gather_S50000x64_S800000x1_S800000x64_1_0_n_n_0_1_164 x (srcCol e)

/-- the kernel's gather: the same rows where the id is in range, a not-a-number pattern elsewhere -/
def takeK (e : IVec S2x800000 32) (x : FVec F S50000x64 .f32) : FVec F S800000x64 .f32 :=
  select (broadcastInDim S800000x64 ![0] bcast_S800000_S800000x64_0 (inRange (srcCol e))) (gatK e x)
    (broadcastInDim S800000x64 ![] bcast_S_S800000x64 (constant S_ .f32 0x7FC00000#32))

/-- the sum of the messages into their destination rows -/
def scaK (e : IVec S2x800000 32) (u : FVec F S800000x64 .f32) : FVec F S50000x64 .f32 :=
  Host.scatterAdd scatter_S50000x64_S800000x1_S800000x64_1_0_0_1
    (broadcastInDim S50000x64 ![] bcast_S_S50000x64 (constant S_ .f32 0x00000000#32)) (dstCol e) u

/-! ## The same over any column of ids (what one stretch computes from the ids it finds) -/

/-- a vector of ids as a column -/
def idCol (s : IVec S800000 32) : IVec S800000x1 32 := broadcastInDim S800000x1 ![0] bcast_S800000_S800000x1_0 s

/-- the kernel's masked gather of the table `x` at the wrapped ids `s` -/
def takeAt (s : IVec S800000 32) (x : FVec F S50000x64 .f32) : FVec F S800000x64 .f32 :=
  select (broadcastInDim S800000x64 ![0] bcast_S800000_S800000x64_0 (inRange (idCol (wrapIds s))))
    (Host.gather gather_S50000x64_S800000x1_S800000x64_1_0_n_n_0_1_164 x (idCol (wrapIds s)))
    (broadcastInDim S800000x64 ![] bcast_S_S800000x64 (constant S_ .f32 0x7FC00000#32))

/-- the sum of the messages `u` into a zero array at the ids `d` -/
def scaAt (d : IVec S800000 32) (u : FVec F S800000x64 .f32) : FVec F S50000x64 .f32 :=
  Host.scatterAdd scatter_S50000x64_S800000x1_S800000x64_1_0_0_1
    (broadcastInDim S50000x64 ![] bcast_S_S50000x64 (constant S_ .f32 0x00000000#32)) (idCol d) u

theorem takeK_eq (e : IVec S2x800000 32) (x : FVec F S50000x64 .f32) : takeK e x = takeAt (srcIds e) x := rfl
theorem scaK_eq (e : IVec S2x800000 32) (u : FVec F S800000x64 .f32) : scaK e u = scaAt (dstIds e) u := rfl

/-! ## The argument arrays at their literal types -/

section Args
variable (m : (ℓ : Loc nD τ sig) → Buf (Elt F) ℓ) (c : Dev nD)
abbrev aX : FVec F S50000x64 .f32 := m ((c : Thread nD τ).loc main_arg0)
abbrev aEdges : IVec S2x800000 32 := m ((c : Thread nD τ).loc main_arg1)
abbrev aAttr : FVec F S800000x4 .f32 := m ((c : Thread nD τ).loc main_arg2)
abbrev aEncW : FVec F S4x64 .f32 := m ((c : Thread nD τ).loc main_arg3)
abbrev aEncB : FVec F S64 .f32 := m ((c : Thread nD τ).loc main_arg4)
abbrev aEps : FVec F S3 .f32 := m ((c : Thread nD τ).loc main_arg5)
abbrev aLinW : FVec F S3x64x64 .f32 := m ((c : Thread nD τ).loc main_arg6)
abbrev aLinB : FVec F S3x64 .f32 := m ((c : Thread nD τ).loc main_arg7)
abbrev aW1 : FVec F S3x64x64 .f32 := m ((c : Thread nD τ).loc main_arg8)
abbrev aB1 : FVec F S3x64 .f32 := m ((c : Thread nD τ).loc main_arg9)
abbrev aW2 : FVec F S3x64x64 .f32 := m ((c : Thread nD τ).loc main_arg10)
abbrev aB2 : FVec F S3x64 .f32 := m ((c : Thread nD τ).loc main_arg11)
abbrev aG : FVec F S3x64 .f32 := m ((c : Thread nD τ).loc main_arg12)
abbrev aBt : FVec F S3x64 .f32 := m ((c : Thread nD τ).loc main_arg13)
end Args

/-- round `l` of the specification at the kernel's arguments, with the gather and the scatter-add the host stretches apply -/
def specLayer (m : (ℓ : Loc nD τ sig) → Buf (Elt Ideal) ℓ) (c : Dev nD) (l : Fin 3) (h : FVec Ideal S50000x64 .f32) :
    FVec Ideal S50000x64 .f32 :=
  layer (aAttr m c) (aEncW m c) (aEncB m c) (aEps m c) (aLinW m c) (aLinB m c) (aW1 m c) (aB1 m c) (aW2 m c) (aB2 m c)
    (aG m c) (aBt m c) (gatK (F := Ideal) (aEdges m c)) (scaK (F := Ideal) (aEdges m c)) l h

/-! ## Contents carried between a value's type and its buffer's type -/

/-- contents carried to a buffer's own type and back are unchanged -/
theorem ofBuf_toBuf {T : BufTy} (x : StableHlo.TRef sig T) (v : T.Contents (Elt F)) : x.ofBuf (x.toBuf v) = v := by
  obtain ⟨r, rfl, _, _⟩ := x
  rfl

/-- at a literal reference whose type is the value's by computation, the transport from the buffer is the identity -/
theorem ofBuf_lit (r : Ref sig .tc) (h2 : r.space ≠ .host) (h3 : r.isScoped = false) (v : r.ty.Contents (Elt F)) :
    (StableHlo.TRef.of (T := r.ty) r rfl h2 h3).ofBuf v = v := rfl

/-- at a literal reference whose type is the value's by computation, the transport to the buffer is the identity -/
theorem toBuf_lit (r : Ref sig .tc) (h2 : r.space ≠ .host) (h3 : r.isScoped = false) (v : r.ty.Contents (Elt F)) :
    (StableHlo.TRef.of (T := r.ty) r rfl h2 h3).toBuf v = v := rfl

/-! ## A stretch that does not write a buffer leaves it as it was -/

/-- closes `StableHlo.after ops V b = V b` for a reference `b` no operation of the stretch `ops` writes -/
macro "host_skip " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

end Cert.KernelIdeal.Gen

end
-- ==== Proof.KernelLayout.lean ====
/-
  Slices and reshapes read at an index. Round `o`'s weight matrix is rows `o` of a stack of three 64 × 64 matrices,
  reshaped from [1, 64, 64] to [64, 64]: entry (k, j) of it is entry (o, k, j) of the stack. A bias vector is row `o` of a
  [3, 64] stack, reshaped to [64] and again to [1, 64]: entry (0, k) of it is entry (o, k) of the stack. The encoder's
  bias is a [64] vector reshaped to [1, 64]. The scale is the literal 1.0 plus entry `o` of a 3-vector, reshaped through
  rank 0 to [1, 1].
-/
import proofs.«415458_j8564164788771_1_alg».proof.Proof.KernelTerms
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Gen

open Idealize.ShloMosaic Idealize.ShloMosaic.TcCoe Idealize.ShloMosaic.ValueIdx Idealize.SL.Sem Idealize.ShloMosaic.StableHlo
open Cert.Gine

/-- round `o`'s 64 × 64 matrix out of a stack of three -/
theorem mat_slice (x : FVec Ideal S3x64x64 .f32) (o : Nat) (ho : o < 3) (hs : S3x64x64.Slices ![o, 0, 0] S1x64x64)
    (hc : S1x64x64.ShapeCasts S64x64) :
    shapeCast S64x64 (extractStridedSlice S1x64x64 ![o, 0, 0] x hs) hc = matOf x ⟨o, ho⟩ := by
  funext i
  -- entry (r, c) of the [64, 64] result is entry (0, r, c) of the [1, 64, 64] slice (same row-major position),
  -- which is entry (o + 0, r, c) of the stack
  rw [eq_ix2 i]
  refine (shapeCast_1ab_ab_apply _ hc (i 0) (i 1)).trans ?_
  exact extractStridedSlice_apply _ _ _ _ _ (fun ax => by
    match ax with
    | ⟨0, _⟩ => exact (Nat.add_zero _).symm
    | ⟨1, _⟩ => exact (Nat.zero_add _).symm
    | ⟨2, _⟩ => exact (Nat.zero_add _).symm)

/-- round `o`'s 64-vector out of a stack of three, as the one row of a [1, 64] array -/
theorem row_slice (x : FVec Ideal S3x64 .f32) (o : Nat) (ho : o < 3) (hs : S3x64.Slices ![o, 0] S1x64)
    (h1 : S1x64.ShapeCasts S64) (h2 : S64.ShapeCasts S1x64) :
    (fun k : Fin 64 => shapeCast S1x64 (shapeCast S64 (extractStridedSlice S1x64 ![o, 0] x hs) h1) h2 (ix2 0 k))
      = vecOf x ⟨o, ho⟩ := by
  funext k
  -- (0, k) of the [1, 64] array is k of the [64] vector, which is (0, k) of the [1, 64] slice, which is (o + 0, k) of the stack
  refine (shapeCast_a_1a_apply _ h2 0 k).trans ?_
  refine (shapeCast_1a_a_apply _ h1 k).trans ?_
  exact slice2_axis0_apply o x hs 0 k ⟨o, ho⟩ (Nat.add_zero _).symm

/-- a 64-vector as the one row of a [1, 64] array -/
theorem vec_row (x : FVec Ideal S64 .f32) (h : S64.ShapeCasts S1x64) :
    (fun k : Fin 64 => shapeCast S1x64 x h (ix2 0 k)) = fun k => x (ix1 k) := by
  funext k
  exact shapeCast_a_1a_apply x h 0 k

/-- the scale `1 + eps o` as the one entry of a [1, 1] array -/
theorem scale_at (x : FVec Ideal S3 .f32) (o : Nat) (ho : o < 3) (hs : S3.Slices ![o] S1) (h1 : S1.ShapeCasts S_)
    (h2 : S_.ShapeCasts S1x1) :
    shapeCast S1x1 (addf (constant (F := Ideal) S_ .f32 0x3F800000#32) (shapeCast S_ (extractStridedSlice S1 ![o] x hs) h1)) h2 (ix2 0 0)
      = cOne + x (ix1 ⟨o, ho⟩) := by
  -- the one entry of the [1, 1] array and the one entry of the rank-0 array both sit at row-major position 0
  refine (shapeCast_apply _ h2 (ix2 0 0) ix0 ?_).trans ?_
  · rw [Shape.rowMajor_val_two]
    exact Shape.rowMajorPi_zero _ _
  -- the sum at the one index is the sum of the two entries; the literal's entry is the literal
  refine (addf_apply _ _ ix0).trans ?_
  refine congrArg (fun t => cOne + t) ?_
  -- the rank-0 entry is entry 0 of the one-element slice, which is entry o + 0 of the 3-vector
  refine (shapeCast_apply _ h1 ix0 (ix1 0) ?_).trans ?_
  · rw [Shape.rowMajor_val_one]
    exact (Shape.rowMajorPi_zero _ _).symm
  exact extractStridedSlice_apply _ _ _ _ _ (fun ax => by
    match ax with
    | ⟨0, _⟩ => exact (Nat.add_zero _).symm)

end Cert.KernelIdeal.Gen

end
-- ==== Proof.KernelEdge0.lean ====
/-
  The edge-message kernel's value. One grid point holds 10000 consecutive edges. Its body computes, for edge `p` of the
  block and feature `j`, `max (hs p j + ((∑ k, ((∑ q, ea p q · encW q k) + encb k) · W k j) + b j)) 0`: two products with a
  zero accumulator are plain sums over the contracted coordinate, a change of float format is the identity, and a
  bias row is read at its one row. The 80 blocks tile the 800000 rows, block `t` holding rows `10000·t … 10000·t + 9999`,
  so the output array is `edgeG` of the arrays the region finds.
-/
import proofs.«415458_j8564164788771_1_alg».proof.Proof.Gen.KernelIdeal.Frame
import proofs.«415458_j8564164788771_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.Gine

namespace Edge0

/-! ## The two products, read at an index

  Both products contract the left operand's second axis against the right operand's first; the output's row names the
  left operand's row and the output's column names the right operand's column. -/

/-- the attribute product: the left operand's row is the output's row -/
theorem attr_lhs_0 (i : S10000x64.Idx) (q : dot_S10000x4_S4x64_S10000x64_1_0_0_1_n_n.contr.Idx) :
    (dot_S10000x4_S4x64_S10000x64_1_0_0_1_n_n.lhsIdx i q 0).val = (i 0).val := by
  unfold DotDims.lhsIdx
  rw [dif_neg (show ¬(0 : Fin S10000x4.rank) ∈ dot_S10000x4_S4x64_S10000x64_1_0_0_1_n_n.lhsBatch by decide), dif_pos (show (0 : Fin S10000x4.rank) ∈ dot_S10000x4_S4x64_S10000x64_1_0_0_1_n_n.lhsNonContracting by decide)]
  rfl
/-- the attribute product: the left operand's column is the contracted coordinate -/
theorem attr_lhs_1 (i : S10000x64.Idx) (q : dot_S10000x4_S4x64_S10000x64_1_0_0_1_n_n.contr.Idx) :
    (dot_S10000x4_S4x64_S10000x64_1_0_0_1_n_n.lhsIdx i q 1).val = (q ⟨0, by decide⟩).val :=
  dot_S10000x4_S4x64_S10000x64_1_0_0_1_n_n.lhsIdx_val_of_single rfl i q
/-- the attribute product: the right operand's row is the contracted coordinate -/
theorem attr_rhs_0 (i : S10000x64.Idx) (q : dot_S10000x4_S4x64_S10000x64_1_0_0_1_n_n.contr.Idx) :
    (dot_S10000x4_S4x64_S10000x64_1_0_0_1_n_n.rhsIdx i q 0).val = (q ⟨0, by decide⟩).val :=
  dot_S10000x4_S4x64_S10000x64_1_0_0_1_n_n.rhsIdx_val_of_single rfl i q
/-- the attribute product: the right operand's column is the output's column -/
theorem attr_rhs_1 (i : S10000x64.Idx) (q : dot_S10000x4_S4x64_S10000x64_1_0_0_1_n_n.contr.Idx) :
    (dot_S10000x4_S4x64_S10000x64_1_0_0_1_n_n.rhsIdx i q 1).val = (i 1).val := by
  unfold DotDims.rhsIdx
  rw [dif_neg (show ¬(1 : Fin S4x64.rank) ∈ dot_S10000x4_S4x64_S10000x64_1_0_0_1_n_n.rhsBatch by decide), dif_pos (show (1 : Fin S4x64.rank) ∈ dot_S10000x4_S4x64_S10000x64_1_0_0_1_n_n.rhsNonContracting by decide)]
  rfl

/-- the attribute product into a zero accumulator is the plain sum over the four attributes -/
theorem attr_product_apply (a : FVec Ideal S10000x4 .bf16) (w : FVec Ideal S4x64 .bf16) (p : Fin 10000) (k : Fin 64) :
    matmul dot_S10000x4_S4x64_S10000x64_1_0_0_1_n_n none a w (constant (F := Ideal) S10000x64 .f32 0x00000000#32) (ix2 p k)
      = ∑ q : Fin 4, a (ix2 p q) * w (ix2 q k) := by
  simp only [matmul]
  rw [Ideal.matmul_constant_zero_apply, ← Equiv.sum_comp (ValueIdx.contrEquiv1 dot_S10000x4_S4x64_S10000x64_1_0_0_1_n_n 4 rfl rfl).symm]
  refine Finset.sum_congr rfl fun q _ => ?_
  have hq := ValueIdx.contrEquiv1_symm_val dot_S10000x4_S4x64_S10000x64_1_0_0_1_n_n 4 rfl rfl q
  have el : dot_S10000x4_S4x64_S10000x64_1_0_0_1_n_n.lhsIdx (ix2 p k) ((ValueIdx.contrEquiv1 dot_S10000x4_S4x64_S10000x64_1_0_0_1_n_n 4 rfl rfl).symm q) = ix2 p q := funext fun a => Fin.ext (by
    match a with
    | ⟨0, _⟩ => exact attr_lhs_0 _ _
    | ⟨1, _⟩ => exact (attr_lhs_1 _ _).trans hq)
  have er : dot_S10000x4_S4x64_S10000x64_1_0_0_1_n_n.rhsIdx (ix2 p k) ((ValueIdx.contrEquiv1 dot_S10000x4_S4x64_S10000x64_1_0_0_1_n_n 4 rfl rfl).symm q) = ix2 q k := funext fun a => Fin.ext (by
    match a with
    | ⟨0, _⟩ => exact (attr_rhs_0 _ _).trans hq
    | ⟨1, _⟩ => exact attr_rhs_1 _ _)
  rw [el, er]

/-- the feature product: the left operand's row is the output's row -/
theorem feat_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- the feature product: the left operand's column is the contracted coordinate -/
theorem feat_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the feature product: the right operand's row is the contracted coordinate -/
theorem feat_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- the feature product: the right operand's column is the output's column -/
theorem feat_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- the feature product into a zero accumulator is the plain sum over the 64 encoded features -/
theorem feat_product_apply (a : FVec Ideal S10000x64 .bf16) (w : FVec Ideal S64x64 .bf16) (p : Fin 10000) (j : Fin 64) :
    matmul dot_S10000x64_S64x64_S10000x64_1_0_0_1_n_n none a w (constant (F := Ideal) S10000x64 .f32 0x00000000#32) (ix2 p j)
      = ∑ k : Fin 64, a (ix2 p k) * w (ix2 k j) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p j) ((ValueIdx.contrEquiv1 dot_S10000x64_S64x64_S10000x64_1_0_0_1_n_n 64 rfl rfl).symm k) = ix2 p k := funext fun a => Fin.ext (by
    match a with
    | ⟨0, _⟩ => exact feat_lhs_0 _ _
    | ⟨1, _⟩ => exact (feat_lhs_1 _ _).trans hk)
  have er : dot_S10000x64_S64x64_S10000x64_1_0_0_1_n_n.rhsIdx (ix2 p j) ((ValueIdx.contrEquiv1 dot_S10000x64_S64x64_S10000x64_1_0_0_1_n_n 64 rfl rfl).symm k) = ix2 k j := funext fun a => Fin.ext (by
    match a with
    | ⟨0, _⟩ => exact (feat_rhs_0 _ _).trans hk
    | ⟨1, _⟩ => exact feat_rhs_1 _ _)
  rw [el, er]

/-- a bias row spread over the 10000 rows of a block reads its one row -/
theorem bias_row_apply (v : FVec Ideal S1x64 .f32) (p : Fin 10000) (j : Fin 64) :
    broadcastTo S10000x64 (shapeCast S1x64 v shapeCasts_S1x64_S1x64) broadcasts_S1x64_S10000x64 (ix2 p j) = v (ix2 0 j) := by
  rw [shapeCast_self]
  refine broadcastTo_apply v broadcasts_S1x64_S10000x64 (ix2 p j) (ix2 0 j) (fun a => ?_)
  match a with
  | ⟨0, _⟩ => rfl
  | ⟨1, _⟩ => rfl

end Edge0

/-! ## The body's stored value at an index -/

/-- the body's stored value at row `p`, feature `j` of the block: the edge's message -/
theorem edge_payload0 (v0 : FVec Ideal S10000x4 .f32) (v2 : FVec Ideal S4x64 .f32) (v5 : FVec Ideal S1x64 .f32)
    (v10 : FVec Ideal S64x64 .f32) (v14 : FVec Ideal S1x64 .f32) (v18 : FVec Ideal S10000x64 .f32) (p : Fin 10000) (j : Fin 64) :
    k0_pay1 (F := Ideal) v0 v2 v5 v10 v14 v18 (ix2 p j)
      = msgRow (fun q => v0 (ix2 p q)) (fun k => v18 (ix2 p k)) v2 (fun k => v5 (ix2 0 k)) v10 (fun k => v14 (ix2 0 k)) j := by
  unfold k0_pay1
  rw [maximumf_apply, addf_apply, addf_apply, broadcast_apply, shapeCast_self, Edge0.feat_product_apply, Edge0.bias_row_apply]
  show max _ (Ideal.ofBits .f32 0x00000000#32) = _
  rw [Ideal.ofBits_zero_f32]
  unfold msgRow linRow
  refine congrArg (fun s => max (v18 (ix2 p j) + (s + v14 (ix2 0 j))) 0) (Finset.sum_congr rfl fun k _ => ?_)
  rw [truncf_apply, truncf_apply, addf_apply, Edge0.attr_product_apply, Edge0.bias_row_apply, shapeCast_self]
  rfl

namespace Edge0

section

/-! ## From the blocks to the array -/

variable (V : (c : Dev nD) → (b : Ref sig .tc) → Buf (Elt Ideal) ((c : Thread nD τ).loc b))

/-- a whole-block access starts at row 0, column 0 -/
theorem no_offset : (![0, 0] : Fin 2 → Nat) = fun _ => 0 := funext fun a => by fin_cases a <;> rfl

/-- where each window's block sits at point `t`, decided over the 80 points: the three per-edge windows (attributes,
    gathered rows, messages) at block row `t`, and each of the four weight windows at its one block -/
theorem block_places : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- row `p` of the attribute block at point `t` is the attribute row of edge `10000·t + p` -/
theorem attr_block_apply (c : Dev nD) (t : Fin cfg0.N) (p : Fin 10000) (q : Fin 4) (r : Fin 800000)
    (hr : r.val = 10000 * t.val + p.val) :
    (iblk0 V c 0 t : Vec Ideal S10000x4 .f32) (ix2 p q) = (V c main_arg2 : S800000x4.Idx → EReal) (ix2 r q) := by
  obtain ⟨e0, e1, -⟩ := block_places t
  show V c main_arg2 (((cfg0.win 0).blk t).view.emb (ix2 p q)) = V c main_arg2 (ix2 r q)
  refine congrArg (V c main_arg2) (funext fun a => Fin.ext ?_)
  match a with
  | ⟨0, _⟩ => show win0_0.index t (0 : Fin 2) * 10000 + 1 * p.val = r.val; omega
  | ⟨1, _⟩ => show win0_0.index t (1 : Fin 2) * 4 + 1 * q.val = q.val; omega

/-- row `p` of the gathered-rows block at point `t` is the gathered row of edge `10000·t + p` -/
theorem rows_block_apply (c : Dev nD) (t : Fin cfg0.N) (p : Fin 10000) (k : Fin 64) (r : Fin 800000)
    (hr : r.val = 10000 * t.val + p.val) :
    (iblk0 V c 1 t : Vec Ideal S10000x64 .f32) (ix2 p k) = (V c main_v5 : S800000x64.Idx → EReal) (ix2 r k) := by
  obtain ⟨-, -, e0, e1, -⟩ := block_places t
  show V c main_v5 (((cfg0.win 1).blk t).view.emb (ix2 p k)) = V c main_v5 (ix2 r k)
  refine congrArg (V c main_v5) (funext fun a => Fin.ext ?_)
  match a with
  | ⟨0, _⟩ => show win0_1.index t (0 : Fin 2) * 10000 + 1 * p.val = r.val; omega
  | ⟨1, _⟩ => show win0_1.index t (1 : Fin 2) * 64 + 1 * k.val = k.val; omega

/-- the attribute weights' block is the whole 4 × 64 array at every point -/
theorem attr_weight_block (c : Dev nD) (t : Fin cfg0.N) :
    (iblk0 V c 2 t : Vec Ideal S4x64 .f32) = (V c main_arg3 : S4x64.Idx → EReal) := by
  obtain ⟨-, -, -, -, e0, e1, -⟩ := block_places t
  funext y
  show V c main_arg3 (((cfg0.win 2).blk t).view.emb y) = V c main_arg3 y
  refine congrArg (V c main_arg3) (funext fun a => Fin.ext ?_)
  match a with
  | ⟨0, _⟩ => show win0_2.index t (0 : Fin 2) * 4 + 1 * (y 0).val = (y 0).val; omega
  | ⟨1, _⟩ => show win0_2.index t (1 : Fin 2) * 64 + 1 * (y 1).val = (y 1).val; omega

/-- the attribute bias's block is the whole 1 × 64 row at every point -/
theorem attr_bias_block (c : Dev nD) (t : Fin cfg0.N) :
    (iblk0 V c 3 t : Vec Ideal S1x64 .f32) = (V c main_v4 : S1x64.Idx → EReal) := by
  obtain ⟨-, -, -, -, -, -, e0, e1, -⟩ := block_places t
  funext y
  show V c main_v4 (((cfg0.win 3).blk t).view.emb y) = V c main_v4 y
  refine congrArg (V c main_v4) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- the feature weights' block is the whole 64 × 64 array at every point -/
theorem feat_weight_block (c : Dev nD) (t : Fin cfg0.N) :
    (iblk0 V c 4 t : Vec Ideal S64x64 .f32) = (V c main_v10 : S64x64.Idx → EReal) := by
  obtain ⟨-, -, -, -, -, -, -, -, e0, e1, -⟩ := block_places t
  funext y
  show V c main_v10 (((cfg0.win 4).blk t).view.emb y) = V c main_v10 y
  refine congrArg (V c main_v10) (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- the feature bias's block is the whole 1 × 64 row at every point -/
theorem feat_bias_block (c : Dev nD) (t : Fin cfg0.N) :
    (iblk0 V c 5 t : Vec Ideal S1x64 .f32) = (V c main_v8 : S1x64.Idx → EReal) := by
  obtain ⟨-, -, -, -, -, -, -, -, -, -, e0, e1, -⟩ := block_places t
  funext y
  show V c main_v8 (((cfg0.win 5).blk t).view.emb y) = V c main_v8 y
  refine congrArg (V c main_v8) (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- at the edge a block row holds, the body's stored value is that edge's message: the per-edge blocks read the edge's rows
    and the weight blocks are the weight arrays -/
theorem message_of_blocks (ea : S800000x4.Idx → EReal) (hs : S800000x64.Idx → EReal) (encW : S4x64.Idx → EReal)
    (encb : S1x64.Idx → EReal) (W : S64x64.Idx → EReal) (b : S1x64.Idx → EReal)
    (x0 : FVec Ideal S10000x4 .f32) (x1 : FVec Ideal S10000x64 .f32) (x2 : FVec Ideal S4x64 .f32) (x3 : FVec Ideal S1x64 .f32)
    (x4 : FVec Ideal S64x64 .f32) (x5 : FVec Ideal S1x64 .f32) (p : Fin 10000) (j : Fin 64) (r : Fin 800000)
    (h0 : ∀ q : Fin 4, x0 (ix2 p q) = ea (ix2 r q)) (h1 : ∀ k : Fin 64, x1 (ix2 p k) = hs (ix2 r k))
    (h2 : x2 = encW) (h3 : x3 = encb) (h4 : x4 = W) (h5 : x5 = b) :
    k0_pay1 (F := Ideal) x0 x2 x3 x4 x5 x1 (ix2 p j)
      = edgeG ea hs encW (fun k => encb (ix2 0 k)) W (fun k => b (ix2 0 k)) (ix2 r j) := by
  subst h2 h3 h4 h5
  rw [edge_payload0]
  unfold edgeG
  show msgRow _ _ _ _ _ _ j = msgRow (fun q => ea (ix2 r q)) (fun k => hs (ix2 r k)) x2 (fun k => x3 (ix2 0 k)) x4 (fun k => x5 (ix2 0 k)) j
  rw [funext h0, funext h1]

/-- row `p`, feature `j` of the message block at point `t` sits at edge `10000·t + p`, feature `j` of the array -/
theorem message_block_place (t : Fin cfg0.N) (p : Fin 10000) (j : Fin 64) (r : Fin 800000) (hr : r.val = 10000 * t.val + p.val) :
    ((cfg0.win 6).blk t).view.emb (ix2 p j) = (ix2 r j : S800000x64.Idx) := by
  obtain ⟨-, -, -, -, -, -, -, -, -, -, -, -, e0, e1⟩ := block_places t
  refine funext fun a => Fin.ext ?_
  match a with
  | ⟨0, _⟩ => show win0_6.index t (0 : Fin 2) * 10000 + 1 * p.val = r.val; omega
  | ⟨1, _⟩ => show win0_6.index t (1 : Fin 2) * 64 + 1 * j.val = j.val; omega

/-- what point `t` writes back is block `t` of the messages of all edges -/
theorem written_back_eq (c : Dev nD) (t : Fin cfg0.N) :
    (dat0 V c).flushed 6 t = ((cfg0.win 6).blk t).view.read (Elt Ideal)
      (edgeG (V c main_arg2) (V c main_v5) (V c main_arg3) (fun k => V c main_v4 (ix2 0 k)) (V c main_v10) (fun k => V c main_v8 (ix2 0 k))) := by
  show (cfg0.win 6).cut (grid0.coords t) ((dat0 V c).after 6 t) = _
  rw [after0_6]
  unfold out0_6
  rw [View.canon_unit_zero no_offset]
  simp only [View.ld_unit_zero (S := S10000x4) no_offset, View.ld_unit_zero (S := S4x64) no_offset, View.ld_unit_zero (S := S1x64) no_offset, View.ld_unit_zero (S := S64x64) no_offset, View.ld_unit_zero (S := S10000x64) no_offset]
  refine funext fun (y : S10000x64.Idx) => ?_
  obtain ⟨p, j, rfl⟩ : ∃ (p : Fin 10000) (j : Fin 64), y = ix2 p j := ⟨y 0, y 1, eq_ix2 y⟩
  have hN : cfg0.N = 80 := N_0
  have hlt : 10000 * t.val + p.val < 800000 := by have := t.isLt; have := p.isLt; omega
  show k0_pay1 (F := Ideal) (iblk0 V c 0 t) (iblk0 V c 2 t) (iblk0 V c 3 t) (iblk0 V c 4 t) (iblk0 V c 5 t) (iblk0 V c 1 t) (ix2 p j)
    = edgeG (V c main_arg2) (V c main_v5) (V c main_arg3) (fun k => V c main_v4 (ix2 0 k)) (V c main_v10) (fun k => V c main_v8 (ix2 0 k))
        (((cfg0.win 6).blk t).view.emb (ix2 p j))
  rw [message_block_place t p j ⟨10000 * t.val + p.val, hlt⟩ rfl]
  exact message_of_blocks (V c main_arg2) (V c main_v5) (V c main_arg3) (V c main_v4) (V c main_v10) (V c main_v8)
    (iblk0 V c 0 t) (iblk0 V c 1 t) (iblk0 V c 2 t) (iblk0 V c 3 t) (iblk0 V c 4 t) (iblk0 V c 5 t) p j ⟨10000 * t.val + p.val, hlt⟩
    (fun q => attr_block_apply V c t p q ⟨10000 * t.val + p.val, hlt⟩ rfl) (fun k => rows_block_apply V c t p k ⟨10000 * t.val + p.val, hlt⟩ rfl)
    (attr_weight_block V c t) (attr_bias_block V c t) (feat_weight_block V c t) (feat_bias_block V c t)

/-- an index of the message array is in point `t`'s block iff each coordinate is in the block's range on its axis -/
theorem mem_block (t : Fin cfg0.N) (i : S800000x64.Idx) :
    i ∈ ((cfg0.win 6).blk t).view.set ↔ ∀ a : Fin 2, win0_6.index t a * S10000x64.size a ≤ (i a).val ∧ (i a).val < win0_6.index t a * S10000x64.size a + S10000x64.size a := by
  show i ∈ ((View.whole main_v11).slice (win0_6.rect t)).set ↔ _
  rw [View.set_slice_whole, Rect.mem_set_unit]
  exact Iff.rfl

/-- the 80 blocks tile the 800000 rows: edge `r` is in the block of point `r / 10000` -/
theorem every_edge_covered (i : S800000x64.Idx) :
    ∃ t : Fin cfg0.N, (cfg0.win 6).flush t = true ∧ i ∈ ((cfg0.win 6).blk t).view.set := by
  have hN : cfg0.N = 80 := N_0
  have hi0 : (i 0).val < 800000 := (i 0).isLt
  have hi1 : (i 1).val < 64 := (i 1).isLt
  obtain ⟨t, ht⟩ : ∃ t : Fin cfg0.N, t.val = (i 0).val / 10000 := ⟨⟨(i 0).val / 10000, by omega⟩, rfl⟩
  obtain ⟨-, -, -, -, -, -, -, -, -, -, -, -, e0, e1⟩ := block_places t
  refine ⟨t, flush0_6 t, ?_⟩
  rw [mem_block]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 64 ≤ (i 1).val ∧ (i 1).val < win0_6.index t (1 : Fin 2) * 64 + 64; omega

end

end Edge0

/-- Region 0's output array after its 80 points, from the arrays the region finds. -/
theorem region0_value (V : (c : Dev nD) → (b : Ref sig .tc) → Buf (Elt Ideal) ((c : Thread nD τ).loc b)) (c : Dev nD) :
    (dat0 V c).arrAt 6 cfg0.N
      = edgeG (V c main_arg2) (V c main_v5) (V c main_arg3) (fun k => V c main_v4 (ix2 0 k)) (V c main_v10) (fun k => V c main_v8 (ix2 0 k)) :=
  (dat0 V c).arrAt_eq_of_cover 6
    (edgeG (V c main_arg2) (V c main_v5) (V c main_arg3) (fun k => V c main_v4 (ix2 0 k)) (V c main_v10) (fun k => V c main_v8 (ix2 0 k)))
    (fun t _ => Edge0.written_back_eq V c t) Edge0.every_edge_covered

end Cert.KernelIdeal.Gen

end
-- ==== Proof.KernelNode1.lean ====
/-
  The node-update kernel's value. One grid point holds 10000 consecutive nodes. Its body computes, for node `p` of the
  block, `z = s · h + agg`, two linear maps with a clamp at zero after each, the node's own row added back, and the
  row's normalisation by its mean and the mean of its squared deviations: `nodeRow` of row `p`. A lane sum is the plain
  sum over the 64 features; a column of per-row values is read at its row. The 5 blocks tile the 50000 rows, so the
  output array is `nodeG` of the arrays the region finds.
-/
import proofs.«415458_j8564164788771_1_alg».proof.Proof.Gen.KernelIdeal.Frame
import proofs.«415458_j8564164788771_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.Gine

/-! ## A product of a block of rows with a 64 × 64 matrix, read at one entry -/

/-- the left operand is read at the output's row … -/
private theorem lhs_rows_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and at the contracted coordinate; -/
private theorem lhs_rows_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at the contracted coordinate … -/
private theorem rhs_rows_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and at the output's column. -/
private theorem rhs_rows_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Into a zero accumulator the product at row `p`, column `j` is the plain sum over the 64 contracted features. -/
private theorem rows_matmul_apply {φ₁ φ₂ : FTy} (lhs : FVec Ideal S10000x64 φ₁) (rhs : FVec Ideal S64x64 φ₂) (p : Fin 10000) (j : Fin 64) :
    matmul dot_S10000x64_S64x64_S10000x64_1_0_0_1_n_n none lhs rhs (constant (F := Ideal) S10000x64 .f32 0x00000000#32) (ix2 p j)
      = ∑ k : Fin 64, lhs (ix2 p k) * rhs (ix2 k j) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p j) ((ValueIdx.contrEquiv1 dot_S10000x64_S64x64_S10000x64_1_0_0_1_n_n 64 rfl rfl).symm k) = ix2 p k := funext fun a => Fin.ext (by
    match a with
    | ⟨0, _⟩ => exact lhs_rows_0 _ _
    | ⟨1, _⟩ => exact (lhs_rows_1 _ _).trans hk)
  have er : dot_S10000x64_S64x64_S10000x64_1_0_0_1_n_n.rhsIdx (ix2 p j) ((ValueIdx.contrEquiv1 dot_S10000x64_S64x64_S10000x64_1_0_0_1_n_n 64 rfl rfl).symm k) = ix2 k j := funext fun a => Fin.ext (by
    match a with
    | ⟨0, _⟩ => exact (rhs_rows_0 _ _).trans hk
    | ⟨1, _⟩ => exact rhs_rows_1 _ _)
  rw [el, er]

/-! ## A column of per-row values, and the one entry of a 1 × 1 block -/

/-- A vector of `a` values cast to an `[a, 1]` column reads, at `(i, u)`, the value at `i`. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, c)`, the column's entry of row `i`. -/
private theorem broadcastTo_a1_ab_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A `[1, 1]` array broadcast to `[a, b]` reads its one entry everywhere. -/
private theorem broadcastTo_11_ab_apply {α : Type} {a b : ℕ} (v : (⟨2, ![1, 1]⟩ : Shape).Idx → α) (h : (⟨2, ![1, 1]⟩ : Shape).Broadcasts ⟨2, ![a, b]⟩)
    (i : Fin a) (c : Fin b) : broadcastTo ⟨2, ![a, b]⟩ v h (ix2 i c) = v (ix2 (0 : Fin 1) (0 : Fin 1)) := by
  refine broadcastTo_apply v h (ix2 i c) (ix2 (0 : Fin 1) (0 : Fin 1)) fun ax => ?_
  match ax with
  | ⟨0, _⟩ => rfl
  | ⟨1, _⟩ => rfl

/-- The lane sum of a block of rows, read at row `p`, is the plain sum of that row's 64 features. -/
private theorem rows_laneSum_apply (src : FVec Ideal S10000x64 .f32) (hφ : FKind.Formats .f32)
    (hacc : (0x00000000#32 : BitVec 32) = 0x00000000#32) (p : Fin 10000) :
    multiReduction (F := Ideal) .add [1] S10000 src 0x00000000#32 reduces_S10000x64_S10000 hφ hacc (ix1 p)
      = ∑ k : Fin 64, src (ix2 p k) := by
  refine (Ideal.multiReduction_add_single src 0x00000000#32 reduces_S10000x64_S10000 hφ hacc (ix1 p)).trans ?_
  refine Finset.sum_congr rfl fun k _ => congrArg src (funext fun a => Fin.ext ?_)
  match a with
  | ⟨0, _⟩ => rfl
  | ⟨1, _⟩ => rfl

/-! ## The body's values, read at an entry -/

/-- a reciprocal square root at an index is that of the element -/
private theorem rsqrt_apply {s : Shape} {φ : FTy} (a : FVec Ideal s φ) (i : s.Idx) : rsqrt a i = Ideal.rsqrt (a i) := rfl

/-- the row before normalisation: `z = s · h + agg` through the two linear maps, clamped at zero after each, plus `h` -/
private theorem pre_apply (v0 : FVec Ideal S10000x64 .f32) (v1 : FVec Ideal S1x1 .f32) (v5 : FVec Ideal S10000x64 .f32)
    (v9 : FVec Ideal S64x64 .f32) (v13 : FVec Ideal S1x64 .f32) (v20 : FVec Ideal S64x64 .f32) (v24 : FVec Ideal S1x64 .f32)
    (p : Fin 10000) (j : Fin 64) :
    k1_pay2 (F := Ideal) v0 v1 v5 v9 v13 v20 v24 (ix2 p j)
      = preRow (v1 (ix2 0 0)) (fun k => v0 (ix2 p k)) (fun k => v5 (ix2 p k)) v9 (fun k => v13 (ix2 0 k)) v20 (fun k => v24 (ix2 0 k)) j := by
  unfold k1_pay2 preRow hidRow combRow
  simp only [addf_apply, maximumf_apply, mulf_apply, broadcast_apply, truncf_apply, rows_matmul_apply, shapeCast_self,
    broadcastTo_1b_ab_apply, broadcastTo_11_ab_apply, Ideal.ofBits_def, Ideal.ofBits_zero_f32]

/-- the column of row means: the lane sum of the row divided by the literal 64 -/
private theorem mean_apply (v0 : FVec Ideal S10000x64 .f32) (v1 : FVec Ideal S1x1 .f32) (v5 : FVec Ideal S10000x64 .f32)
    (v9 : FVec Ideal S64x64 .f32) (v13 : FVec Ideal S1x64 .f32) (v20 : FVec Ideal S64x64 .f32) (v24 : FVec Ideal S1x64 .f32)
    (p : Fin 10000) (u : Fin 1) :
    k1_pay3 (F := Ideal) v0 v1 v5 v9 v13 v20 v24 (ix2 p u)
      = meanRow (v1 (ix2 0 0)) (fun k => v0 (ix2 p k)) (fun k => v5 (ix2 p k)) v9 (fun k => v13 (ix2 0 k)) v20 (fun k => v24 (ix2 0 k)) := by
  unfold k1_pay3 meanRow
  simp only [divf_apply, broadcast_apply, shapeCast_a_a1_apply, Ideal.ofBits_def]
  rw [rows_laneSum_apply]
  simp only [pre_apply]

/-- the squared deviation from the row's mean -/
private theorem devSq_apply (v0 : FVec Ideal S10000x64 .f32) (v1 : FVec Ideal S1x1 .f32) (v5 : FVec Ideal S10000x64 .f32)
    (v9 : FVec Ideal S64x64 .f32) (v13 : FVec Ideal S1x64 .f32) (v20 : FVec Ideal S64x64 .f32) (v24 : FVec Ideal S1x64 .f32)
    (p : Fin 10000) (j : Fin 64) :
    k1_pay4 (F := Ideal) v0 v1 v5 v9 v13 v20 v24 (ix2 p j)
      = devRow (v1 (ix2 0 0)) (fun k => v0 (ix2 p k)) (fun k => v5 (ix2 p k)) v9 (fun k => v13 (ix2 0 k)) v20 (fun k => v24 (ix2 0 k)) j
        * devRow (v1 (ix2 0 0)) (fun k => v0 (ix2 p k)) (fun k => v5 (ix2 p k)) v9 (fun k => v13 (ix2 0 k)) v20 (fun k => v24 (ix2 0 k)) j := by
  unfold k1_pay4 devRow
  simp only [mulf_apply, subf_apply, broadcastTo_a1_ab_apply, pre_apply, mean_apply]

/-- the stored value over ANY row block `y`, column of means `μ` and block of squared deviations `d`: the deviation times the
    reciprocal square root of the mean squared deviation plus ε, scaled and shifted feature by feature -/
private theorem norm_apply (y : FVec Ideal S10000x64 .f32) (μ : FVec Ideal S10000x1 .f32) (d : FVec Ideal S10000x64 .f32)
    (v49 v53 : FVec Ideal S1x64 .f32) (p : Fin 10000) (j : Fin 64) :
    k1_pay1 (F := Ideal) y μ d v49 v53 (ix2 p j)
      = (y (ix2 p j) - μ (ix2 p 0)) * Ideal.rsqrt (Ideal.div (∑ k : Fin 64, d (ix2 p k)) c64 + cEps) * v49 (ix2 0 j) + v53 (ix2 0 j) := by
  unfold k1_pay1
  simp only [addf_apply, mulf_apply, subf_apply, divf_apply, rsqrt_apply, broadcast_apply, shapeCast_self, shapeCast_a_a1_apply,
    broadcastTo_a1_ab_apply, broadcastTo_1b_ab_apply, Ideal.ofBits_def]
  rw [rows_laneSum_apply]

/-- the body's stored value at row `p`, feature `j` of the block: the node's new row -/
theorem node_payload1 (v0 : FVec Ideal S10000x64 .f32) (v1 : FVec Ideal S1x1 .f32) (v5 : FVec Ideal S10000x64 .f32)
    (v9 : FVec Ideal S64x64 .f32) (v13 : FVec Ideal S1x64 .f32) (v20 : FVec Ideal S64x64 .f32) (v24 : FVec Ideal S1x64 .f32)
    (v49 v53 : FVec Ideal S1x64 .f32) (p : Fin 10000) (j : Fin 64) :
    k1_pay1 (F := Ideal) (k1_pay2 v0 v1 v5 v9 v13 v20 v24) (k1_pay3 v0 v1 v5 v9 v13 v20 v24) (k1_pay4 v0 v1 v5 v9 v13 v20 v24) v49 v53 (ix2 p j)
      = nodeRow (v1 (ix2 0 0)) (fun k => v0 (ix2 p k)) (fun k => v5 (ix2 p k)) v9 (fun k => v13 (ix2 0 k)) v20 (fun k => v24 (ix2 0 k))
          (fun k => v49 (ix2 0 k)) (fun k => v53 (ix2 0 k)) j := by
  rw [norm_apply]
  simp only [pre_apply, mean_apply, devSq_apply]
  rfl

/-! ## One entry of one block, from the arrays -/

/-- If a block's two row operands hold, at row `p`, row `rowOf i` of the node features and of the summed messages, and the seven
    small operands are the whole small arrays, then the stored value at `(p, colOf i)` is the new node features at `i`. -/
private theorem block_entry
    (A0 A1 : FVec Ideal S50000x64 .f32) (A2 : FVec Ideal S1x1 .f32) (A3 : FVec Ideal S64x64 .f32) (A4 : FVec Ideal S1x64 .f32)
    (A5 : FVec Ideal S64x64 .f32) (A6 A7 A8 : FVec Ideal S1x64 .f32)
    (x0 x1 : FVec Ideal S10000x64 .f32) (x2 : FVec Ideal S1x1 .f32) (x3 : FVec Ideal S64x64 .f32) (x4 : FVec Ideal S1x64 .f32)
    (x5 : FVec Ideal S64x64 .f32) (x6 x7 x8 : FVec Ideal S1x64 .f32)
    (p : Fin 10000) (j : Fin 64) (i : S50000x64.Idx)
    (h0 : ∀ k : Fin 64, x0 (ix2 p k) = A0 (ix2 (rowOf i) k)) (h1 : ∀ k : Fin 64, x1 (ix2 p k) = A1 (ix2 (rowOf i) k))
    (h2 : ∀ y, x2 y = A2 y) (h3 : ∀ y, x3 y = A3 y) (h4 : ∀ y, x4 y = A4 y) (h5 : ∀ y, x5 y = A5 y) (h6 : ∀ y, x6 y = A6 y)
    (h7 : ∀ y, x7 y = A7 y) (h8 : ∀ y, x8 y = A8 y) (hj : colOf i = j) :
    k1_pay1 (F := Ideal) (k1_pay2 x0 x2 x1 x3 x4 x5 x6) (k1_pay3 x0 x2 x1 x3 x4 x5 x6) (k1_pay4 x0 x2 x1 x3 x4 x5 x6) x7 x8 (ix2 p j)
      = nodeG A0 A1 (A2 (ix2 0 0)) A3 (fun k => A4 (ix2 0 k)) A5 (fun k => A6 (ix2 0 k)) (fun k => A7 (ix2 0 k))
          (fun k => A8 (ix2 0 k)) i := by
  obtain rfl : x2 = A2 := funext h2
  obtain rfl : x3 = A3 := funext h3
  obtain rfl : x4 = A4 := funext h4
  obtain rfl : x5 = A5 := funext h5
  obtain rfl : x6 = A6 := funext h6
  obtain rfl : x7 = A7 := funext h7
  obtain rfl : x8 = A8 := funext h8
  subst hj
  rw [node_payload1]
  unfold nodeG
  rw [funext h0, funext h1]

/-! ## The 5 blocks tile the 50000 rows -/

/-- the body reads and writes every block from its origin -/
private theorem zero_offsets : (![0, 0] : Fin 2 → Nat) = fun _ => 0 := funext fun a => by fin_cases a <;> rfl

/-- The block index maps over the grid: the two row operands and the output move together, block `t` at point `t`; every small
    operand stays at its one block. -/
private theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- What point `t` writes back is block `t` of the new node features. -/
private theorem flushed_block (V : (c : Dev nD) → (b : Ref sig .tc) → Buf (Elt Ideal) ((c : Thread nD τ).loc b)) (c : Dev nD) (t : Fin cfg1.N) :
    (dat1 V c).flushed 9 t = ((cfg1.win 9).blk t).view.read (Elt Ideal)
      (nodeG (V c main_arg0) (V c main_v14) (V c main_v18 (ix2 0 0)) (V c main_v32) (fun k => V c main_v21 (ix2 0 k)) (V c main_v34)
        (fun k => V c main_v24 (ix2 0 k)) (fun k => V c main_v27 (ix2 0 k)) (fun k => V c main_v30 (ix2 0 k))) := by
  show (cfg1.win 9).cut (grid1.coords t) ((dat1 V c).after 9 t) = _
  rw [after1_9]
  unfold out1_9
  rw [View.canon_unit_zero zero_offsets]
  simp only [View.ld_unit_zero (S := S10000x64) zero_offsets, View.ld_unit_zero (S := S1x1) zero_offsets,
    View.ld_unit_zero (S := S64x64) zero_offsets, View.ld_unit_zero (S := S1x64) zero_offsets]
  obtain ⟨a00, a01, a10, a11, a20, a21, a30, a31, a40, a41, a50, a51, a60, a61, a70, a71, a80, a81, a90, a91⟩ := block_indices t
  funext y
  obtain ⟨p, j, rfl⟩ : ∃ (p : Fin 10000) (j : Fin 64), y = ix2 p j := ⟨y 0, y 1, eq_ix2 y⟩
  refine block_entry (V c main_arg0) (V c main_v14) (V c main_v18) (V c main_v32) (V c main_v21) (V c main_v34) (V c main_v24)
    (V c main_v27) (V c main_v30) (iblk1 V c 0 t) (iblk1 V c 1 t) (iblk1 V c 2 t) (iblk1 V c 3 t) (iblk1 V c 4 t) (iblk1 V c 5 t)
    (iblk1 V c 6 t) (iblk1 V c 7 t) (iblk1 V c 8 t) p j (((cfg1.win 9).blk t).view.emb (ix2 p j)) ?_ ?_ ?_ ?_ ?_ ?_ ?_ ?_ ?_ ?_
  · intro k
    show V c main_arg0 (((cfg1.win 0).blk t).view.emb (ix2 p k)) = V c main_arg0 (ix2 (rowOf (((cfg1.win 9).blk t).view.emb (ix2 p j))) k)
    refine congrArg (V c main_arg0) (funext fun a => Fin.ext ?_)
    match a with
    | ⟨0, _⟩ => show win1_0.index t (0 : Fin 2) * 10000 + 1 * p.val = win1_9.index t (0 : Fin 2) * 10000 + 1 * p.val; omega
    | ⟨1, _⟩ => show win1_0.index t (1 : Fin 2) * 64 + 1 * k.val = k.val; omega
  · intro k
    show V c main_v14 (((cfg1.win 1).blk t).view.emb (ix2 p k)) = V c main_v14 (ix2 (rowOf (((cfg1.win 9).blk t).view.emb (ix2 p j))) k)
    refine congrArg (V c main_v14) (funext fun a => Fin.ext ?_)
    match a with
    | ⟨0, _⟩ => show win1_1.index t (0 : Fin 2) * 10000 + 1 * p.val = win1_9.index t (0 : Fin 2) * 10000 + 1 * p.val; omega
    | ⟨1, _⟩ => show win1_1.index t (1 : Fin 2) * 64 + 1 * k.val = k.val; omega
  · intro y
    show V c main_v18 (((cfg1.win 2).blk t).view.emb y) = V c main_v18 y
    refine congrArg (V c main_v18) (funext fun a => Fin.ext ?_)
    match a with
    | ⟨0, _⟩ => show win1_2.index t (0 : Fin 2) * 1 + 1 * (y 0).val = (y 0).val; omega
    | ⟨1, _⟩ => show win1_2.index t (1 : Fin 2) * 1 + 1 * (y 1).val = (y 1).val; omega
  · intro y
    show V c main_v32 (((cfg1.win 3).blk t).view.emb y) = V c main_v32 y
    refine congrArg (V c main_v32) (funext fun a => Fin.ext ?_)
    match a with
    | ⟨0, _⟩ => show win1_3.index t (0 : Fin 2) * 64 + 1 * (y 0).val = (y 0).val; omega
    | ⟨1, _⟩ => show win1_3.index t (1 : Fin 2) * 64 + 1 * (y 1).val = (y 1).val; omega
  · intro y
    show V c main_v21 (((cfg1.win 4).blk t).view.emb y) = V c main_v21 y
    refine congrArg (V c main_v21) (funext fun a => Fin.ext ?_)
    match a with
    | ⟨0, _⟩ => show win1_4.index t (0 : Fin 2) * 1 + 1 * (y 0).val = (y 0).val; omega
    | ⟨1, _⟩ => show win1_4.index t (1 : Fin 2) * 64 + 1 * (y 1).val = (y 1).val; omega
  · intro y
    show V c main_v34 (((cfg1.win 5).blk t).view.emb y) = V c main_v34 y
    refine congrArg (V c main_v34) (funext fun a => Fin.ext ?_)
    match a with
    | ⟨0, _⟩ => show win1_5.index t (0 : Fin 2) * 64 + 1 * (y 0).val = (y 0).val; omega
    | ⟨1, _⟩ => show win1_5.index t (1 : Fin 2) * 64 + 1 * (y 1).val = (y 1).val; omega
  · intro y
    show V c main_v24 (((cfg1.win 6).blk t).view.emb y) = V c main_v24 y
    refine congrArg (V c main_v24) (funext fun a => Fin.ext ?_)
    match a with
    | ⟨0, _⟩ => show win1_6.index t (0 : Fin 2) * 1 + 1 * (y 0).val = (y 0).val; omega
    | ⟨1, _⟩ => show win1_6.index t (1 : Fin 2) * 64 + 1 * (y 1).val = (y 1).val; omega
  · intro y
    show V c main_v27 (((cfg1.win 7).blk t).view.emb y) = V c main_v27 y
    refine congrArg (V c main_v27) (funext fun a => Fin.ext ?_)
    match a with
    | ⟨0, _⟩ => show win1_7.index t (0 : Fin 2) * 1 + 1 * (y 0).val = (y 0).val; omega
    | ⟨1, _⟩ => show win1_7.index t (1 : Fin 2) * 64 + 1 * (y 1).val = (y 1).val; omega
  · intro y
    show V c main_v30 (((cfg1.win 8).blk t).view.emb y) = V c main_v30 y
    refine congrArg (V c main_v30) (funext fun a => Fin.ext ?_)
    match a with
    | ⟨0, _⟩ => show win1_8.index t (0 : Fin 2) * 1 + 1 * (y 0).val = (y 0).val; omega
    | ⟨1, _⟩ => show win1_8.index t (1 : Fin 2) * 64 + 1 * (y 1).val = (y 1).val; omega
  · exact Fin.ext (show win1_9.index t (1 : Fin 2) * 64 + 1 * j.val = j.val by omega)

/-- An index of the array is in point `t`'s block iff each coordinate is in the block's range on its axis. -/
private theorem mem_block (t : Fin cfg1.N) (i : S50000x64.Idx) :
    i ∈ ((cfg1.win 9).blk t).view.set ↔ ∀ a : Fin 2, win1_9.index t a * S10000x64.size a ≤ (i a).val ∧ (i a).val < win1_9.index t a * S10000x64.size a + S10000x64.size a := by
  show i ∈ ((View.whole main_v35).slice (win1_9.rect t)).set ↔ _
  rw [View.set_slice_whole, Rect.mem_set_unit]
  exact Iff.rfl

/-- Row `r` lies in the block of point `r / 10000`. -/
private theorem rows_covered (i : S50000x64.Idx) : ∃ t : Fin cfg1.N, (cfg1.win 9).flush t = true ∧ i ∈ ((cfg1.win 9).blk t).view.set := by
  have hi0 : (i 0).val < 50000 := (i 0).isLt
  have hi1 : (i 1).val < 64 := (i 1).isLt
  have hN : grid1.N = 5 := N_1
  have ht : (i 0).val / 10000 < grid1.N := by omega
  obtain ⟨a00, a01, a10, a11, a20, a21, a30, a31, a40, a41, a50, a51, a60, a61, a70, a71, a80, a81, a90, a91⟩ := block_indices ⟨(i 0).val / 10000, ht⟩
  refine ⟨⟨(i 0).val / 10000, ht⟩, flush1_9 _, ?_⟩
  rw [mem_block]
  intro a
  match a with
  | ⟨0, _⟩ =>
    show win1_9.index ⟨(i 0).val / 10000, ht⟩ (0 : Fin 2) * 10000 ≤ (i 0).val ∧ (i 0).val < win1_9.index ⟨(i 0).val / 10000, ht⟩ (0 : Fin 2) * 10000 + 10000
    have e : win1_9.index ⟨(i 0).val / 10000, ht⟩ (0 : Fin 2) = (i 0).val / 10000 := a90
    omega
  | ⟨1, _⟩ =>
    show win1_9.index ⟨(i 0).val / 10000, ht⟩ (1 : Fin 2) * 64 ≤ (i 1).val ∧ (i 1).val < win1_9.index ⟨(i 0).val / 10000, ht⟩ (1 : Fin 2) * 64 + 64
    omega

/-- Region 1's output array after its 5 points, from the arrays the region finds. -/
theorem region1_value (V : (c : Dev nD) → (b : Ref sig .tc) → Buf (Elt Ideal) ((c : Thread nD τ).loc b)) (c : Dev nD) :
    (dat1 V c).arrAt 9 cfg1.N
      = nodeG (V c main_arg0) (V c main_v14) (V c main_v18 (ix2 0 0)) (V c main_v32) (fun k => V c main_v21 (ix2 0 k)) (V c main_v34)
          (fun k => V c main_v24 (ix2 0 k)) (fun k => V c main_v27 (ix2 0 k)) (fun k => V c main_v30 (ix2 0 k)) :=
  (dat1 V c).arrAt_eq_of_cover 9 _ (fun t _ => flushed_block V c t) rows_covered

end Cert.KernelIdeal.Gen

end
-- ==== Proof.KernelTake.lean ====
/-
  The three gathers of the kernel's program, each over whatever contents its stretch finds: the stretch wraps the source
  ids it finds at the id buffer, tests their range, gathers the rows of the table it finds at the table buffer, and
  puts a not-a-number pattern where the range test fails. Nothing else of the stretch is read later.
-/
import proofs.«415458_j8564164788771_1_alg».proof.Proof.KernelTerms

set_option maxRecDepth 16384

noncomputable section

namespace Cert.KernelIdeal.Gen

open Idealize.ShloMosaic Idealize.ShloMosaic.TcCoe Idealize.SL.Sem Idealize.ShloMosaic.StableHlo
open Cert.Gine

variable {F : FTy → Type} [FloatOps F]

set_option maxHeartbeats 2000000 in
/-- round 0's gather: the table is the first argument's buffer -/
theorem take0_of (V : Valuation τ sig (Elt F)) :
    StableHlo.after hostOps0_1 V (Proc.devRef .tc main_v5)
      = takeAt (F := F) (V (Proc.devRef .tc main_v1)) (V (Proc.devRef .tc main_arg0)) := by
  after_results_simp
  simp only [ofBuf_toBuf]
  erw [toBuf_lit main_v5, ofBuf_lit main_v1, ofBuf_lit main_arg0]
  unfold takeAt idCol wrapIds inRange
  with_reducible rfl

set_option maxHeartbeats 2000000 in
/-- round 1's gather: the table is round 0's output buffer -/
theorem take1_of (V : Valuation τ sig (Elt F)) :
    StableHlo.after hostOps2 V (Proc.devRef .tc main_v36)
      = takeAt (F := F) (V (Proc.devRef .tc main_v1)) (V (Proc.devRef .tc main_v35)) := by
  after_results_simp
  simp only [ofBuf_toBuf]
  erw [toBuf_lit main_v36, ofBuf_lit main_v1, ofBuf_lit main_v35]
  unfold takeAt idCol wrapIds inRange
  with_reducible rfl

set_option maxHeartbeats 2000000 in
/-- round 2's gather: the table is round 1's output buffer -/
theorem take2_of (V : Valuation τ sig (Elt F)) :
    StableHlo.after hostOps4 V (Proc.devRef .tc main_v67)
      = takeAt (F := F) (V (Proc.devRef .tc main_v1)) (V (Proc.devRef .tc main_v66)) := by
  after_results_simp
  simp only [ofBuf_toBuf]
  erw [toBuf_lit main_v67, ofBuf_lit main_v1, ofBuf_lit main_v66]
  unfold takeAt idCol wrapIds inRange
  with_reducible rfl

end Cert.KernelIdeal.Gen

end
-- ==== Proof.KernelLayer0.lean ====
/-
  Round 0 on the kernel's side: from the launch memory to region 1's exit. The host gathers the node table's rows at the source ids (every id in range, so the
  masked gather is the plain one), the edge-message region turns them into messages, the host sums the messages into
  their destination rows, and the node-update region makes the new node table from the old one and the sums. Each
  window's array is read back through the stretches to the arguments it is sliced from.
-/
import proofs.«415458_j8564164788771_1_alg».proof.Proof.KernelTerms
import proofs.«415458_j8564164788771_1_alg».proof.Proof.KernelLayout
import proofs.«415458_j8564164788771_1_alg».proof.Proof.KernelEdge0
import proofs.«415458_j8564164788771_1_alg».proof.Proof.KernelNode1
import proofs.«415458_j8564164788771_1_alg».proof.Proof.KernelTake
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Gen

open Idealize.ShloMosaic Idealize.ShloMosaic.TcCoe Idealize.ShloMosaic.ValueIdx Idealize.SL.Sem Idealize.ShloMosaic.StableHlo
open Cert.Gine

namespace Round0

/-! ## What each host stretch writes, over whatever contents it finds

  Each statement names the contents the stretch reads (`x`, with `hx` saying at which buffer it finds them), so that a
  later step supplies them already traced back to the arguments. -/

section Stretches
variable {F : FTy → Type} [FloatOps F]

/-- the first stretch splits the edge list: the source ids are its first row -/
theorem src_ids_of (V : Valuation τ sig (Elt F)) (e : IVec S2x800000 32) (he : V (Proc.devRef .tc main_arg1) = e) :
    StableHlo.after hostOps0 V (Proc.devRef .tc main_v1) = srcIds e := by
  subst he
  after_results
  unfold srcIds
  rfl

/-- the destination ids are its second row -/
theorem dst_ids_of (V : Valuation τ sig (Elt F)) (e : IVec S2x800000 32) (he : V (Proc.devRef .tc main_arg1) = e) :
    StableHlo.after hostOps0 V (Proc.devRef .tc main_v3) = dstIds e := by
  subst he
  after_results
  unfold dstIds
  rfl

/-- the encoder's bias as the one row of a [1, 64] array -/
theorem enc_bias_of (V : Valuation τ sig (Elt F)) (x : FVec F S64 .f32) (hx : V (Proc.devRef .tc main_arg4) = x) :
    StableHlo.after hostOps0 V (Proc.devRef .tc main_v4) = shapeCast S1x64 x shapeCasts_S64_S1x64 := by
  subst hx
  after_results
  rfl

/-- round 0's message bias: row 0 of the stack, as the one row of a [1, 64] array -/
theorem lin_bias_of (V : Valuation τ sig (Elt F)) (x : FVec F S3x64 .f32) (hx : V (Proc.devRef .tc main_arg7) = x) :
    StableHlo.after hostOps0_2 V (Proc.devRef .tc main_v8)
      = shapeCast S1x64 (shapeCast S64 (extractStridedSlice S1x64 ![0, 0] x slices_S3x64_S1x64_0_0) shapeCasts_S1x64_S64) shapeCasts_S64_S1x64 := by
  subst hx
  after_results
  rfl

/-- round 0's message weights: matrix 0 of the stack -/
theorem lin_weight_of (V : Valuation τ sig (Elt F)) (x : FVec F S3x64x64 .f32) (hx : V (Proc.devRef .tc main_arg6) = x) :
    StableHlo.after hostOps0_2 V (Proc.devRef .tc main_v10)
      = shapeCast S64x64 (extractStridedSlice S1x64x64 ![0, 0, 0] x slices_S3x64x64_S1x64x64_0_0_0) shapeCasts_S1x64x64_S64x64 := by
  subst hx
  after_results
  rfl

set_option maxHeartbeats 2000000 in
/-- the stretch between the two regions sums the messages `u` into a zero array at the destination ids `d` -/
theorem sums_of (V : Valuation τ sig (Elt F)) (d : IVec S800000 32) (u : FVec F S800000x64 .f32)
    (hd : V (Proc.devRef .tc main_v3) = d) (hu : V (Proc.devRef .tc main_v11) = u) :
    StableHlo.after hostOps1 V (Proc.devRef .tc main_v14) = scaAt (F := F) d u := by
  subst hd hu
  after_results_simp
  unfold scaAt idCol
  rfl

set_option maxHeartbeats 2000000 in
/-- the scale: the literal 1.0 plus entry 0 of the 3-vector, as the one entry of a [1, 1] array -/
theorem scale_of (V : Valuation τ sig (Elt F)) (x : FVec F S3 .f32) (hx : V (Proc.devRef .tc main_arg5) = x) :
    StableHlo.after hostOps1 V (Proc.devRef .tc main_v18)
      = shapeCast S1x1 (addf (constant (F := F) S_ .f32 0x3F800000#32) (shapeCast S_ (extractStridedSlice S1 ![0] x slices_S3_S1_0) shapeCasts_S1_S_)) shapeCasts_S_S1x1 := by
  subst hx
  after_results_simp
  rfl

set_option maxHeartbeats 2000000 in
/-- the first update bias: row 0 of its stack -/
theorem bias1_of (V : Valuation τ sig (Elt F)) (x : FVec F S3x64 .f32) (hx : V (Proc.devRef .tc main_arg9) = x) :
    StableHlo.after hostOps1 V (Proc.devRef .tc main_v21)
      = shapeCast S1x64 (shapeCast S64 (extractStridedSlice S1x64 ![0, 0] x slices_S3x64_S1x64_0_0) shapeCasts_S1x64_S64) shapeCasts_S64_S1x64 := by
  subst hx
  after_results_simp
  rfl

set_option maxHeartbeats 2000000 in
/-- the second update bias: row 0 of its stack -/
theorem bias2_of (V : Valuation τ sig (Elt F)) (x : FVec F S3x64 .f32) (hx : V (Proc.devRef .tc main_arg11) = x) :
    StableHlo.after hostOps1 V (Proc.devRef .tc main_v24)
      = shapeCast S1x64 (shapeCast S64 (extractStridedSlice S1x64 ![0, 0] x slices_S3x64_S1x64_0_0) shapeCasts_S1x64_S64) shapeCasts_S64_S1x64 := by
  subst hx
  after_results_simp
  rfl

set_option maxHeartbeats 2000000 in
/-- the normalisation's gain: row 0 of its stack -/
theorem gain_of (V : Valuation τ sig (Elt F)) (x : FVec F S3x64 .f32) (hx : V (Proc.devRef .tc main_arg12) = x) :
    StableHlo.after hostOps1 V (Proc.devRef .tc main_v27)
      = shapeCast S1x64 (shapeCast S64 (extractStridedSlice S1x64 ![0, 0] x slices_S3x64_S1x64_0_0) shapeCasts_S1x64_S64) shapeCasts_S64_S1x64 := by
  subst hx
  after_results_simp
  rfl

set_option maxHeartbeats 2000000 in
/-- the normalisation's shift: row 0 of its stack -/
theorem shift_of (V : Valuation τ sig (Elt F)) (x : FVec F S3x64 .f32) (hx : V (Proc.devRef .tc main_arg13) = x) :
    StableHlo.after hostOps1 V (Proc.devRef .tc main_v30)
      = shapeCast S1x64 (shapeCast S64 (extractStridedSlice S1x64 ![0, 0] x slices_S3x64_S1x64_0_0) shapeCasts_S1x64_S64) shapeCasts_S64_S1x64 := by
  subst hx
  after_results_simp
  rfl

set_option maxHeartbeats 2000000 in
/-- the first update weights: matrix 0 of its stack -/
theorem weight1_of (V : Valuation τ sig (Elt F)) (x : FVec F S3x64x64 .f32) (hx : V (Proc.devRef .tc main_arg8) = x) :
    StableHlo.after hostOps1 V (Proc.devRef .tc main_v32)
      = shapeCast S64x64 (extractStridedSlice S1x64x64 ![0, 0, 0] x slices_S3x64x64_S1x64x64_0_0_0) shapeCasts_S1x64x64_S64x64 := by
  subst hx
  after_results_simp
  rfl

set_option maxHeartbeats 2000000 in
/-- the second update weights: matrix 0 of its stack -/
theorem weight2_of (V : Valuation τ sig (Elt F)) (x : FVec F S3x64x64 .f32) (hx : V (Proc.devRef .tc main_arg10) = x) :
    StableHlo.after hostOps1 V (Proc.devRef .tc main_v34)
      = shapeCast S64x64 (extractStridedSlice S1x64x64 ![0, 0, 0] x slices_S3x64x64_S1x64x64_0_0_0) shapeCasts_S1x64x64_S64x64 := by
  subst hx
  after_results_simp
  rfl

end Stretches

/-! ## The masked gather where every id passes the range test -/

/-- with every wrapped source id between 0 and 49999 the mask is set on every row, so the masked gather is the gather -/
theorem take_in_range (e : IVec S2x800000 32) (x : FVec Ideal S50000x64 .f32) (h : ∀ i, inRange (srcCol e) i = 1#1) :
    takeAt (F := Ideal) (srcIds e) x = gatK e x := by
  funext i
  unfold takeAt
  rw [select_apply]
  have hb : broadcastInDim S800000x64 ![0] bcast_S800000_S800000x64_0 (inRange (idCol (wrapIds (srcIds e)))) i = 1#1 :=
    (broadcastInDim_apply _ bcast_S800000_S800000x64_0 _ i (ix1 ⟨(i 0).val, (i 0).isLt⟩) (fun a => match a with
      | ⟨0, _⟩ => by show (i 0).val = if (800000 : Nat) = 1 then 0 else (i 0).val; rw [if_neg (by decide)])).trans (h _)
  rw [hb, select_one]
  rfl

end Round0

namespace Round0

/-! ## Equal arguments give equal rows -/

theorem edgeG_congr {ea ea' : Sa.Idx → EReal} {hs hs' : Se.Idx → EReal} {encW encW' : Sw4.Idx → EReal} {encb encb' : Fin 64 → EReal}
    {W W' : Sw.Idx → EReal} {b b' : Fin 64 → EReal}
    (e0 : ea = ea') (e1 : hs = hs') (e2 : encW = encW') (e3 : encb = encb') (e4 : W = W') (e5 : b = b') :
    edgeG ea hs encW encb W b = edgeG ea' hs' encW' encb' W' b' := by
  subst e0 e1 e2 e3 e4 e5; rfl

theorem nodeG_congr {h h' agg agg' : Sn.Idx → EReal} {s s' : EReal} {W1 W1' : Sw.Idx → EReal} {b1 b1' : Fin 64 → EReal}
    {W2 W2' : Sw.Idx → EReal} {b2 b2' g g' bt bt' : Fin 64 → EReal}
    (e0 : h = h') (e1 : agg = agg') (e2 : s = s') (e3 : W1 = W1') (e4 : b1 = b1') (e5 : W2 = W2') (e6 : b2 = b2')
    (e7 : g = g') (e8 : bt = bt') :
    nodeG h agg s W1 b1 W2 b2 g bt = nodeG h' agg' s' W1' b1' W2' b2' g' bt' := by
  subst e0 e1 e2 e3 e4 e5 e6 e7 e8; rfl

section Run
variable (m : (ℓ : Loc nD τ sig) → Buf (Elt Ideal) ℓ) (ρ : Dev nD → PrngReg) (c : Dev nD)

/-! ## Buffers no step of the round writes -/

/-- a buffer none of the three stretches before the edge-message region writes holds, at that region's entry, what it
    held at launch -/
theorem kept_to_entry0 (b : Ref sig .tc)
    (h2 : StableHlo.after hostOps0_2 (W2 m ρ c) (Proc.devRef .tc b) = W2 m ρ c (Proc.devRef .tc b))
    (h1 : StableHlo.after hostOps0_1 (W1 m ρ c) (Proc.devRef .tc b) = W1 m ρ c (Proc.devRef .tc b))
    (h0 : StableHlo.after hostOps0 (W0 m ρ c) (Proc.devRef .tc b) = W0 m ρ c (Proc.devRef .tc b)) :
    W3 m ρ c (Proc.devRef .tc b) = m ((c : Thread nD τ).loc b) :=
  h2.trans (h1.trans h0)

/-- … and still at that region's exit, when the region does not stage it -/
theorem kept_to_exit0 (b : Ref sig .tc) (hr : ∀ w, Pipeline.arrRef spec0 w ≠ b)
    (h2 : StableHlo.after hostOps0_2 (W2 m ρ c) (Proc.devRef .tc b) = W2 m ρ c (Proc.devRef .tc b))
    (h1 : StableHlo.after hostOps0_1 (W1 m ρ c) (Proc.devRef .tc b) = W1 m ρ c (Proc.devRef .tc b))
    (h0 : StableHlo.after hostOps0 (W0 m ρ c) (Proc.devRef .tc b) = W0 m ρ c (Proc.devRef .tc b)) :
    W4 m ρ c (Proc.devRef .tc b) = m ((c : Thread nD τ).loc b) :=
  (W4_of_ne m ρ c b hr).trans (kept_to_entry0 m ρ c b h2 h1 h0)

/-! ## The six arrays the edge-message region finds -/

/-- the edge attributes are the argument -/
theorem attr_at_entry0 : W3 m ρ c (Proc.devRef .tc main_arg2) = aAttr m c :=
  kept_to_entry0 m ρ c main_arg2
    (by host_skip hostOps0_2 : StableHlo.after hostOps0_2 (W2 m ρ c) (Proc.devRef .tc main_arg2) = W2 m ρ c (Proc.devRef .tc main_arg2))
    (by host_skip hostOps0_1 : StableHlo.after hostOps0_1 (W1 m ρ c) (Proc.devRef .tc main_arg2) = W1 m ρ c (Proc.devRef .tc main_arg2))
    (by host_skip hostOps0 : StableHlo.after hostOps0 (W0 m ρ c) (Proc.devRef .tc main_arg2) = W0 m ρ c (Proc.devRef .tc main_arg2))

/-- the attribute weights are the argument -/
theorem enc_weight_at_entry0 : W3 m ρ c (Proc.devRef .tc main_arg3) = aEncW m c :=
  kept_to_entry0 m ρ c main_arg3
    (by host_skip hostOps0_2 : StableHlo.after hostOps0_2 (W2 m ρ c) (Proc.devRef .tc main_arg3) = W2 m ρ c (Proc.devRef .tc main_arg3))
    (by host_skip hostOps0_1 : StableHlo.after hostOps0_1 (W1 m ρ c) (Proc.devRef .tc main_arg3) = W1 m ρ c (Proc.devRef .tc main_arg3))
    (by host_skip hostOps0 : StableHlo.after hostOps0 (W0 m ρ c) (Proc.devRef .tc main_arg3) = W0 m ρ c (Proc.devRef .tc main_arg3))

/-- the gathered rows: the second stretch gathers the node table at the wrapped source ids the first stretch split off,
    and every id passes the range test -/
theorem rows_at_entry0 (hm : ∀ i, inRange (srcCol (aEdges m c)) i = 1#1) :
    W3 m ρ c (Proc.devRef .tc main_v5) = gatK (aEdges m c) (aX m c) :=
  (by host_skip hostOps0_2 : StableHlo.after hostOps0_2 (W2 m ρ c) (Proc.devRef .tc main_v5) = W2 m ρ c (Proc.devRef .tc main_v5)).trans
    ((take0_of (W1 m ρ c)).trans
      ((congrArg₂ (takeAt (F := Ideal)) (src_ids_of (W0 m ρ c) (aEdges m c) rfl)
          (by host_skip hostOps0 : StableHlo.after hostOps0 (W0 m ρ c) (Proc.devRef .tc main_arg0) = W0 m ρ c (Proc.devRef .tc main_arg0))).trans
        (take_in_range (aEdges m c) (aX m c) hm)))

/-- the attribute bias row is the argument's 64 entries -/
theorem enc_bias_at_entry0 :
    (fun k : Fin 64 => (W3 m ρ c (Proc.devRef .tc main_v4) : S1x64.Idx → EReal) (ix2 0 k)) = fun k => aEncB m c (ix1 k) := by
  have e : W3 m ρ c (Proc.devRef .tc main_v4) = shapeCast S1x64 (aEncB m c) shapeCasts_S64_S1x64 :=
    (by host_skip hostOps0_2 : StableHlo.after hostOps0_2 (W2 m ρ c) (Proc.devRef .tc main_v4) = W2 m ρ c (Proc.devRef .tc main_v4)).trans
      ((by host_skip hostOps0_1 : StableHlo.after hostOps0_1 (W1 m ρ c) (Proc.devRef .tc main_v4) = W1 m ρ c (Proc.devRef .tc main_v4)).trans
        (enc_bias_of (W0 m ρ c) (aEncB m c) rfl))
  funext k
  exact (congrFun e (ix2 0 k)).trans (congrFun (vec_row (aEncB m c) shapeCasts_S64_S1x64) k)

/-- the message weights are matrix 0 of their stack -/
theorem lin_weight_at_entry0 : W3 m ρ c (Proc.devRef .tc main_v10) = matOf (aLinW m c) 0 :=
  (lin_weight_of (W2 m ρ c) (aLinW m c)
    ((by host_skip hostOps0_1 : StableHlo.after hostOps0_1 (W1 m ρ c) (Proc.devRef .tc main_arg6) = W1 m ρ c (Proc.devRef .tc main_arg6)).trans
      (by host_skip hostOps0 : StableHlo.after hostOps0 (W0 m ρ c) (Proc.devRef .tc main_arg6) = W0 m ρ c (Proc.devRef .tc main_arg6)))).trans
    (mat_slice (aLinW m c) 0 (by decide) _ _)

/-- the message bias row is row 0 of its stack -/
theorem lin_bias_at_entry0 :
    (fun k : Fin 64 => (W3 m ρ c (Proc.devRef .tc main_v8) : S1x64.Idx → EReal) (ix2 0 k)) = vecOf (aLinB m c) 0 := by
  funext k
  exact (congrFun (lin_bias_of (W2 m ρ c) (aLinB m c)
    ((by host_skip hostOps0_1 : StableHlo.after hostOps0_1 (W1 m ρ c) (Proc.devRef .tc main_arg7) = W1 m ρ c (Proc.devRef .tc main_arg7)).trans
      (by host_skip hostOps0 : StableHlo.after hostOps0 (W0 m ρ c) (Proc.devRef .tc main_arg7) = W0 m ρ c (Proc.devRef .tc main_arg7)))) (ix2 0 k)).trans
    (congrFun (row_slice (aLinB m c) 0 (by decide) _ _ _) k)

/-! ## What the edge-message region leaves, and what the stretch after it reads -/

/-- the region's output array holds the messages of all edges -/
theorem messages_at_exit0 (hm : ∀ i, inRange (srcCol (aEdges m c)) i = 1#1) :
    W4 m ρ c (Proc.devRef .tc main_v11) = edgeG (aAttr m c) (gatK (aEdges m c) (aX m c)) (aEncW m c) (fun k => aEncB m c (ix1 k)) (matOf (aLinW m c) 0) (vecOf (aLinB m c) 0) :=
  (W4_arr m ρ c 6).trans ((region0_value (V3 m ρ) c).trans
    (edgeG_congr (attr_at_entry0 m ρ c) (rows_at_entry0 m ρ c hm) (enc_weight_at_entry0 m ρ c) (enc_bias_at_entry0 m ρ c)
      (lin_weight_at_entry0 m ρ c) (lin_bias_at_entry0 m ρ c)))

/-- the destination ids the first stretch split off are still there -/
theorem dst_ids_at_exit0 : W4 m ρ c (Proc.devRef .tc main_v3) = dstIds (aEdges m c) :=
  (W4_of_ne m ρ c main_v3 (by decide)).trans
    ((by host_skip hostOps0_2 : StableHlo.after hostOps0_2 (W2 m ρ c) (Proc.devRef .tc main_v3) = W2 m ρ c (Proc.devRef .tc main_v3)).trans
      ((by host_skip hostOps0_1 : StableHlo.after hostOps0_1 (W1 m ρ c) (Proc.devRef .tc main_v3) = W1 m ρ c (Proc.devRef .tc main_v3)).trans
        (dst_ids_of (W0 m ρ c) (aEdges m c) rfl)))

/-- the 3-vector of scales is the argument -/
theorem eps_at_exit0 : W4 m ρ c (Proc.devRef .tc main_arg5) = aEps m c :=
  kept_to_exit0 m ρ c main_arg5 (by decide)
    (by host_skip hostOps0_2 : StableHlo.after hostOps0_2 (W2 m ρ c) (Proc.devRef .tc main_arg5) = W2 m ρ c (Proc.devRef .tc main_arg5))
    (by host_skip hostOps0_1 : StableHlo.after hostOps0_1 (W1 m ρ c) (Proc.devRef .tc main_arg5) = W1 m ρ c (Proc.devRef .tc main_arg5))
    (by host_skip hostOps0 : StableHlo.after hostOps0 (W0 m ρ c) (Proc.devRef .tc main_arg5) = W0 m ρ c (Proc.devRef .tc main_arg5))

/-- the first update weights' stack is the argument -/
theorem w1_at_exit0 : W4 m ρ c (Proc.devRef .tc main_arg8) = aW1 m c :=
  kept_to_exit0 m ρ c main_arg8 (by decide)
    (by host_skip hostOps0_2 : StableHlo.after hostOps0_2 (W2 m ρ c) (Proc.devRef .tc main_arg8) = W2 m ρ c (Proc.devRef .tc main_arg8))
    (by host_skip hostOps0_1 : StableHlo.after hostOps0_1 (W1 m ρ c) (Proc.devRef .tc main_arg8) = W1 m ρ c (Proc.devRef .tc main_arg8))
    (by host_skip hostOps0 : StableHlo.after hostOps0 (W0 m ρ c) (Proc.devRef .tc main_arg8) = W0 m ρ c (Proc.devRef .tc main_arg8))

/-- the first update biases' stack is the argument -/
theorem b1_at_exit0 : W4 m ρ c (Proc.devRef .tc main_arg9) = aB1 m c :=
  kept_to_exit0 m ρ c main_arg9 (by decide)
    (by host_skip hostOps0_2 : StableHlo.after hostOps0_2 (W2 m ρ c) (Proc.devRef .tc main_arg9) = W2 m ρ c (Proc.devRef .tc main_arg9))
    (by host_skip hostOps0_1 : StableHlo.after hostOps0_1 (W1 m ρ c) (Proc.devRef .tc main_arg9) = W1 m ρ c (Proc.devRef .tc main_arg9))
    (by host_skip hostOps0 : StableHlo.after hostOps0 (W0 m ρ c) (Proc.devRef .tc main_arg9) = W0 m ρ c (Proc.devRef .tc main_arg9))

/-- the second update weights' stack is the argument -/
theorem w2_at_exit0 : W4 m ρ c (Proc.devRef .tc main_arg10) = aW2 m c :=
  kept_to_exit0 m ρ c main_arg10 (by decide)
    (by host_skip hostOps0_2 : StableHlo.after hostOps0_2 (W2 m ρ c) (Proc.devRef .tc main_arg10) = W2 m ρ c (Proc.devRef .tc main_arg10))
    (by host_skip hostOps0_1 : StableHlo.after hostOps0_1 (W1 m ρ c) (Proc.devRef .tc main_arg10) = W1 m ρ c (Proc.devRef .tc main_arg10))
    (by host_skip hostOps0 : StableHlo.after hostOps0 (W0 m ρ c) (Proc.devRef .tc main_arg10) = W0 m ρ c (Proc.devRef .tc main_arg10))

/-- the second update biases' stack is the argument -/
theorem b2_at_exit0 : W4 m ρ c (Proc.devRef .tc main_arg11) = aB2 m c :=
  kept_to_exit0 m ρ c main_arg11 (by decide)
    (by host_skip hostOps0_2 : StableHlo.after hostOps0_2 (W2 m ρ c) (Proc.devRef .tc main_arg11) = W2 m ρ c (Proc.devRef .tc main_arg11))
    (by host_skip hostOps0_1 : StableHlo.after hostOps0_1 (W1 m ρ c) (Proc.devRef .tc main_arg11) = W1 m ρ c (Proc.devRef .tc main_arg11))
    (by host_skip hostOps0 : StableHlo.after hostOps0 (W0 m ρ c) (Proc.devRef .tc main_arg11) = W0 m ρ c (Proc.devRef .tc main_arg11))

/-- the gains' stack is the argument -/
theorem gain_at_exit0 : W4 m ρ c (Proc.devRef .tc main_arg12) = aG m c :=
  kept_to_exit0 m ρ c main_arg12 (by decide)
    (by host_skip hostOps0_2 : StableHlo.after hostOps0_2 (W2 m ρ c) (Proc.devRef .tc main_arg12) = W2 m ρ c (Proc.devRef .tc main_arg12))
    (by host_skip hostOps0_1 : StableHlo.after hostOps0_1 (W1 m ρ c) (Proc.devRef .tc main_arg12) = W1 m ρ c (Proc.devRef .tc main_arg12))
    (by host_skip hostOps0 : StableHlo.after hostOps0 (W0 m ρ c) (Proc.devRef .tc main_arg12) = W0 m ρ c (Proc.devRef .tc main_arg12))

/-- the shifts' stack is the argument -/
theorem shift_at_exit0 : W4 m ρ c (Proc.devRef .tc main_arg13) = aBt m c :=
  kept_to_exit0 m ρ c main_arg13 (by decide)
    (by host_skip hostOps0_2 : StableHlo.after hostOps0_2 (W2 m ρ c) (Proc.devRef .tc main_arg13) = W2 m ρ c (Proc.devRef .tc main_arg13))
    (by host_skip hostOps0_1 : StableHlo.after hostOps0_1 (W1 m ρ c) (Proc.devRef .tc main_arg13) = W1 m ρ c (Proc.devRef .tc main_arg13))
    (by host_skip hostOps0 : StableHlo.after hostOps0 (W0 m ρ c) (Proc.devRef .tc main_arg13) = W0 m ρ c (Proc.devRef .tc main_arg13))

/-! ## The nine arrays the node-update region finds -/

/-- the old node table is the argument -/
theorem table_at_entry1 : W5 m ρ c (Proc.devRef .tc main_arg0) = aX m c :=
  (by host_skip hostOps1 : StableHlo.after hostOps1 (W4 m ρ c) (Proc.devRef .tc main_arg0) = W4 m ρ c (Proc.devRef .tc main_arg0)).trans
    (kept_to_exit0 m ρ c main_arg0 (by decide)
      (by host_skip hostOps0_2 : StableHlo.after hostOps0_2 (W2 m ρ c) (Proc.devRef .tc main_arg0) = W2 m ρ c (Proc.devRef .tc main_arg0))
      (by host_skip hostOps0_1 : StableHlo.after hostOps0_1 (W1 m ρ c) (Proc.devRef .tc main_arg0) = W1 m ρ c (Proc.devRef .tc main_arg0))
      (by host_skip hostOps0 : StableHlo.after hostOps0 (W0 m ρ c) (Proc.devRef .tc main_arg0) = W0 m ρ c (Proc.devRef .tc main_arg0)))

/-- the sums: the messages of all edges added into their destination rows -/
theorem sums_at_entry1 (hm : ∀ i, inRange (srcCol (aEdges m c)) i = 1#1) :
    W5 m ρ c (Proc.devRef .tc main_v14) = scaK (F := Ideal) (aEdges m c) (edgeG (aAttr m c) (gatK (aEdges m c) (aX m c)) (aEncW m c) (fun k => aEncB m c (ix1 k)) (matOf (aLinW m c) 0) (vecOf (aLinB m c) 0)) :=
  (sums_of (W4 m ρ c) (dstIds (aEdges m c)) (edgeG (aAttr m c) (gatK (aEdges m c) (aX m c)) (aEncW m c) (fun k => aEncB m c (ix1 k)) (matOf (aLinW m c) 0) (vecOf (aLinB m c) 0))
    (dst_ids_at_exit0 m ρ c) (messages_at_exit0 m ρ c hm)).trans (scaK_eq _ _).symm

/-- the scale is the literal 1.0 plus the round's entry of the 3-vector -/
theorem scale_at_entry1 : (W5 m ρ c (Proc.devRef .tc main_v18) : S1x1.Idx → EReal) (ix2 0 0) = cOne + aEps m c (ix1 0) :=
  (congrFun (scale_of (W4 m ρ c) (aEps m c) (eps_at_exit0 m ρ c)) (ix2 0 0)).trans (scale_at (aEps m c) 0 (by decide) _ _ _)

/-- the first update weights are matrix 0 of their stack -/
theorem weight1_at_entry1 : W5 m ρ c (Proc.devRef .tc main_v32) = matOf (aW1 m c) 0 :=
  (weight1_of (W4 m ρ c) (aW1 m c) (w1_at_exit0 m ρ c)).trans (mat_slice (aW1 m c) 0 (by decide) _ _)

/-- the first update bias row is row 0 of its stack -/
theorem bias1_at_entry1 : (fun k : Fin 64 => (W5 m ρ c (Proc.devRef .tc main_v21) : S1x64.Idx → EReal) (ix2 0 k)) = vecOf (aB1 m c) 0 := by
  funext k
  exact (congrFun (bias1_of (W4 m ρ c) (aB1 m c) (b1_at_exit0 m ρ c)) (ix2 0 k)).trans
    (congrFun (row_slice (aB1 m c) 0 (by decide) _ _ _) k)

/-- the second update weights are matrix 0 of their stack -/
theorem weight2_at_entry1 : W5 m ρ c (Proc.devRef .tc main_v34) = matOf (aW2 m c) 0 :=
  (weight2_of (W4 m ρ c) (aW2 m c) (w2_at_exit0 m ρ c)).trans (mat_slice (aW2 m c) 0 (by decide) _ _)

/-- the second update bias row is row 0 of its stack -/
theorem bias2_at_entry1 : (fun k : Fin 64 => (W5 m ρ c (Proc.devRef .tc main_v24) : S1x64.Idx → EReal) (ix2 0 k)) = vecOf (aB2 m c) 0 := by
  funext k
  exact (congrFun (bias2_of (W4 m ρ c) (aB2 m c) (b2_at_exit0 m ρ c)) (ix2 0 k)).trans
    (congrFun (row_slice (aB2 m c) 0 (by decide) _ _ _) k)

/-- the gain row is row 0 of its stack -/
theorem gain_at_entry1 : (fun k : Fin 64 => (W5 m ρ c (Proc.devRef .tc main_v27) : S1x64.Idx → EReal) (ix2 0 k)) = vecOf (aG m c) 0 := by
  funext k
  exact (congrFun (gain_of (W4 m ρ c) (aG m c) (gain_at_exit0 m ρ c)) (ix2 0 k)).trans
    (congrFun (row_slice (aG m c) 0 (by decide) _ _ _) k)

/-- the shift row is row 0 of its stack -/
theorem shift_at_entry1 : (fun k : Fin 64 => (W5 m ρ c (Proc.devRef .tc main_v30) : S1x64.Idx → EReal) (ix2 0 k)) = vecOf (aBt m c) 0 := by
  funext k
  exact (congrFun (shift_of (W4 m ρ c) (aBt m c) (shift_at_exit0 m ρ c)) (ix2 0 k)).trans
    (congrFun (row_slice (aBt m c) 0 (by decide) _ _ _) k)

end Run
end Round0

variable (m : (ℓ : Loc nD τ sig) → Buf (Elt Ideal) ℓ) (ρ : Dev nD → PrngReg) (c : Dev nD)

/-- The node table after round 0 is the specification's round 0 of the table before it. -/
theorem kernel_layer0 (hm : ∀ i, inRange (srcCol (aEdges m c)) i = 1#1) :
    W6 m ρ c (Proc.devRef .tc main_v35) = specLayer m c 0 (aX m c) := by
  refine ((W6_arr m ρ c 9).trans (region1_value (V5 m ρ) c)).trans ?_
  unfold specLayer layer update message
  exact Round0.nodeG_congr (Round0.table_at_entry1 m ρ c) (Round0.sums_at_entry1 m ρ c hm) (Round0.scale_at_entry1 m ρ c)
    (Round0.weight1_at_entry1 m ρ c) (Round0.bias1_at_entry1 m ρ c) (Round0.weight2_at_entry1 m ρ c) (Round0.bias2_at_entry1 m ρ c)
    (Round0.gain_at_entry1 m ρ c) (Round0.shift_at_entry1 m ρ c)

end Cert.KernelIdeal.Gen

end
-- ==== Proof.KernelEdge2.lean ====
/-
  The edge-message kernel's value. One grid point holds 10000 consecutive edges. Its body computes, for edge `p` of the
  block and feature `j`, `max (hs p j + ((∑ k, ((∑ q, ea p q · encW q k) + encb k) · W k j) + b j)) 0`: two products with a
  zero accumulator are plain sums over the contracted coordinate, a change of float format is the identity, and a
  bias row is read at its one row. The 80 blocks tile the 800000 rows, block `t` holding rows `10000·t … 10000·t + 9999`,
  so the output array is `edgeG` of the arrays the region finds.
-/
import proofs.«415458_j8564164788771_1_alg».proof.Proof.Gen.KernelIdeal.Frame
import proofs.«415458_j8564164788771_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.Gine

namespace Edge2

/-! ## The two products, read at an index

  Both products contract the left operand's second axis against the right operand's first; the output's row names the
  left operand's row and the output's column names the right operand's column. -/

/-- the attribute product: the left operand's row is the output's row -/
theorem attr_lhs_0 (i : S10000x64.Idx) (q : dot_S10000x4_S4x64_S10000x64_1_0_0_1_n_n.contr.Idx) :
    (dot_S10000x4_S4x64_S10000x64_1_0_0_1_n_n.lhsIdx i q 0).val = (i 0).val := by
  unfold DotDims.lhsIdx
  rw [dif_neg (show ¬(0 : Fin S10000x4.rank) ∈ dot_S10000x4_S4x64_S10000x64_1_0_0_1_n_n.lhsBatch by decide), dif_pos (show (0 : Fin S10000x4.rank) ∈ dot_S10000x4_S4x64_S10000x64_1_0_0_1_n_n.lhsNonContracting by decide)]
  rfl
/-- the attribute product: the left operand's column is the contracted coordinate -/
theorem attr_lhs_1 (i : S10000x64.Idx) (q : dot_S10000x4_S4x64_S10000x64_1_0_0_1_n_n.contr.Idx) :
    (dot_S10000x4_S4x64_S10000x64_1_0_0_1_n_n.lhsIdx i q 1).val = (q ⟨0, by decide⟩).val :=
  dot_S10000x4_S4x64_S10000x64_1_0_0_1_n_n.lhsIdx_val_of_single rfl i q
/-- the attribute product: the right operand's row is the contracted coordinate -/
theorem attr_rhs_0 (i : S10000x64.Idx) (q : dot_S10000x4_S4x64_S10000x64_1_0_0_1_n_n.contr.Idx) :
    (dot_S10000x4_S4x64_S10000x64_1_0_0_1_n_n.rhsIdx i q 0).val = (q ⟨0, by decide⟩).val :=
  dot_S10000x4_S4x64_S10000x64_1_0_0_1_n_n.rhsIdx_val_of_single rfl i q
/-- the attribute product: the right operand's column is the output's column -/
theorem attr_rhs_1 (i : S10000x64.Idx) (q : dot_S10000x4_S4x64_S10000x64_1_0_0_1_n_n.contr.Idx) :
    (dot_S10000x4_S4x64_S10000x64_1_0_0_1_n_n.rhsIdx i q 1).val = (i 1).val := by
  unfold DotDims.rhsIdx
  rw [dif_neg (show ¬(1 : Fin S4x64.rank) ∈ dot_S10000x4_S4x64_S10000x64_1_0_0_1_n_n.rhsBatch by decide), dif_pos (show (1 : Fin S4x64.rank) ∈ dot_S10000x4_S4x64_S10000x64_1_0_0_1_n_n.rhsNonContracting by decide)]
  rfl

/-- the attribute product into a zero accumulator is the plain sum over the four attributes -/
theorem attr_product_apply (a : FVec Ideal S10000x4 .bf16) (w : FVec Ideal S4x64 .bf16) (p : Fin 10000) (k : Fin 64) :
    matmul dot_S10000x4_S4x64_S10000x64_1_0_0_1_n_n none a w (constant (F := Ideal) S10000x64 .f32 0x00000000#32) (ix2 p k)
      = ∑ q : Fin 4, a (ix2 p q) * w (ix2 q k) := by
  simp only [matmul]
  rw [Ideal.matmul_constant_zero_apply, ← Equiv.sum_comp (ValueIdx.contrEquiv1 dot_S10000x4_S4x64_S10000x64_1_0_0_1_n_n 4 rfl rfl).symm]
  refine Finset.sum_congr rfl fun q _ => ?_
  have hq := ValueIdx.contrEquiv1_symm_val dot_S10000x4_S4x64_S10000x64_1_0_0_1_n_n 4 rfl rfl q
  have el : dot_S10000x4_S4x64_S10000x64_1_0_0_1_n_n.lhsIdx (ix2 p k) ((ValueIdx.contrEquiv1 dot_S10000x4_S4x64_S10000x64_1_0_0_1_n_n 4 rfl rfl).symm q) = ix2 p q := funext fun a => Fin.ext (by
    match a with
    | ⟨0, _⟩ => exact attr_lhs_0 _ _
    | ⟨1, _⟩ => exact (attr_lhs_1 _ _).trans hq)
  have er : dot_S10000x4_S4x64_S10000x64_1_0_0_1_n_n.rhsIdx (ix2 p k) ((ValueIdx.contrEquiv1 dot_S10000x4_S4x64_S10000x64_1_0_0_1_n_n 4 rfl rfl).symm q) = ix2 q k := funext fun a => Fin.ext (by
    match a with
    | ⟨0, _⟩ => exact (attr_rhs_0 _ _).trans hq
    | ⟨1, _⟩ => exact attr_rhs_1 _ _)
  rw [el, er]

/-- the feature product: the left operand's row is the output's row -/
theorem feat_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- the feature product: the left operand's column is the contracted coordinate -/
theorem feat_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the feature product: the right operand's row is the contracted coordinate -/
theorem feat_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- the feature product: the right operand's column is the output's column -/
theorem feat_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- the feature product into a zero accumulator is the plain sum over the 64 encoded features -/
theorem feat_product_apply (a : FVec Ideal S10000x64 .bf16) (w : FVec Ideal S64x64 .bf16) (p : Fin 10000) (j : Fin 64) :
    matmul dot_S10000x64_S64x64_S10000x64_1_0_0_1_n_n none a w (constant (F := Ideal) S10000x64 .f32 0x00000000#32) (ix2 p j)
      = ∑ k : Fin 64, a (ix2 p k) * w (ix2 k j) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p j) ((ValueIdx.contrEquiv1 dot_S10000x64_S64x64_S10000x64_1_0_0_1_n_n 64 rfl rfl).symm k) = ix2 p k := funext fun a => Fin.ext (by
    match a with
    | ⟨0, _⟩ => exact feat_lhs_0 _ _
    | ⟨1, _⟩ => exact (feat_lhs_1 _ _).trans hk)
  have er : dot_S10000x64_S64x64_S10000x64_1_0_0_1_n_n.rhsIdx (ix2 p j) ((ValueIdx.contrEquiv1 dot_S10000x64_S64x64_S10000x64_1_0_0_1_n_n 64 rfl rfl).symm k) = ix2 k j := funext fun a => Fin.ext (by
    match a with
    | ⟨0, _⟩ => exact (feat_rhs_0 _ _).trans hk
    | ⟨1, _⟩ => exact feat_rhs_1 _ _)
  rw [el, er]

/-- a bias row spread over the 10000 rows of a block reads its one row -/
theorem bias_row_apply (v : FVec Ideal S1x64 .f32) (p : Fin 10000) (j : Fin 64) :
    broadcastTo S10000x64 (shapeCast S1x64 v shapeCasts_S1x64_S1x64) broadcasts_S1x64_S10000x64 (ix2 p j) = v (ix2 0 j) := by
  rw [shapeCast_self]
  refine broadcastTo_apply v broadcasts_S1x64_S10000x64 (ix2 p j) (ix2 0 j) (fun a => ?_)
  match a with
  | ⟨0, _⟩ => rfl
  | ⟨1, _⟩ => rfl

end Edge2

/-! ## The body's stored value at an index -/

/-- the body's stored value at row `p`, feature `j` of the block: the edge's message -/
theorem edge_payload2 (v0 : FVec Ideal S10000x4 .f32) (v2 : FVec Ideal S4x64 .f32) (v5 : FVec Ideal S1x64 .f32)
    (v10 : FVec Ideal S64x64 .f32) (v14 : FVec Ideal S1x64 .f32) (v18 : FVec Ideal S10000x64 .f32) (p : Fin 10000) (j : Fin 64) :
    k2_pay1 (F := Ideal) v0 v2 v5 v10 v14 v18 (ix2 p j)
      = msgRow (fun q => v0 (ix2 p q)) (fun k => v18 (ix2 p k)) v2 (fun k => v5 (ix2 0 k)) v10 (fun k => v14 (ix2 0 k)) j := by
  unfold k2_pay1
  rw [maximumf_apply, addf_apply, addf_apply, broadcast_apply, shapeCast_self, Edge2.feat_product_apply, Edge2.bias_row_apply]
  show max _ (Ideal.ofBits .f32 0x00000000#32) = _
  rw [Ideal.ofBits_zero_f32]
  unfold msgRow linRow
  refine congrArg (fun s => max (v18 (ix2 p j) + (s + v14 (ix2 0 j))) 0) (Finset.sum_congr rfl fun k _ => ?_)
  rw [truncf_apply, truncf_apply, addf_apply, Edge2.attr_product_apply, Edge2.bias_row_apply, shapeCast_self]
  rfl

namespace Edge2

section

/-! ## From the blocks to the array -/

variable (V : (c : Dev nD) → (b : Ref sig .tc) → Buf (Elt Ideal) ((c : Thread nD τ).loc b))

/-- a whole-block access starts at row 0, column 0 -/
theorem no_offset : (![0, 0] : Fin 2 → Nat) = fun _ => 0 := funext fun a => by fin_cases a <;> rfl

/-- where each window's block sits at point `t`, decided over the 80 points: the three per-edge windows (attributes,
    gathered rows, messages) at block row `t`, and each of the four weight windows at its one block -/
theorem block_places : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- row `p` of the attribute block at point `t` is the attribute row of edge `10000·t + p` -/
theorem attr_block_apply (c : Dev nD) (t : Fin cfg2.N) (p : Fin 10000) (q : Fin 4) (r : Fin 800000)
    (hr : r.val = 10000 * t.val + p.val) :
    (iblk2 V c 0 t : Vec Ideal S10000x4 .f32) (ix2 p q) = (V c main_arg2 : S800000x4.Idx → EReal) (ix2 r q) := by
  obtain ⟨e0, e1, -⟩ := block_places t
  show V c main_arg2 (((cfg2.win 0).blk t).view.emb (ix2 p q)) = V c main_arg2 (ix2 r q)
  refine congrArg (V c main_arg2) (funext fun a => Fin.ext ?_)
  match a with
  | ⟨0, _⟩ => show win2_0.index t (0 : Fin 2) * 10000 + 1 * p.val = r.val; omega
  | ⟨1, _⟩ => show win2_0.index t (1 : Fin 2) * 4 + 1 * q.val = q.val; omega

/-- row `p` of the gathered-rows block at point `t` is the gathered row of edge `10000·t + p` -/
theorem rows_block_apply (c : Dev nD) (t : Fin cfg2.N) (p : Fin 10000) (k : Fin 64) (r : Fin 800000)
    (hr : r.val = 10000 * t.val + p.val) :
    (iblk2 V c 1 t : Vec Ideal S10000x64 .f32) (ix2 p k) = (V c main_v36 : S800000x64.Idx → EReal) (ix2 r k) := by
  obtain ⟨-, -, e0, e1, -⟩ := block_places t
  show V c main_v36 (((cfg2.win 1).blk t).view.emb (ix2 p k)) = V c main_v36 (ix2 r k)
  refine congrArg (V c main_v36) (funext fun a => Fin.ext ?_)
  match a with
  | ⟨0, _⟩ => show win2_1.index t (0 : Fin 2) * 10000 + 1 * p.val = r.val; omega
  | ⟨1, _⟩ => show win2_1.index t (1 : Fin 2) * 64 + 1 * k.val = k.val; omega

/-- the attribute weights' block is the whole 4 × 64 array at every point -/
theorem attr_weight_block (c : Dev nD) (t : Fin cfg2.N) :
    (iblk2 V c 2 t : Vec Ideal S4x64 .f32) = (V c main_arg3 : S4x64.Idx → EReal) := by
  obtain ⟨-, -, -, -, e0, e1, -⟩ := block_places t
  funext y
  show V c main_arg3 (((cfg2.win 2).blk t).view.emb y) = V c main_arg3 y
  refine congrArg (V c main_arg3) (funext fun a => Fin.ext ?_)
  match a with
  | ⟨0, _⟩ => show win2_2.index t (0 : Fin 2) * 4 + 1 * (y 0).val = (y 0).val; omega
  | ⟨1, _⟩ => show win2_2.index t (1 : Fin 2) * 64 + 1 * (y 1).val = (y 1).val; omega

/-- the attribute bias's block is the whole 1 × 64 row at every point -/
theorem attr_bias_block (c : Dev nD) (t : Fin cfg2.N) :
    (iblk2 V c 3 t : Vec Ideal S1x64 .f32) = (V c main_v4 : S1x64.Idx → EReal) := by
  obtain ⟨-, -, -, -, -, -, e0, e1, -⟩ := block_places t
  funext y
  show V c main_v4 (((cfg2.win 3).blk t).view.emb y) = V c main_v4 y
  refine congrArg (V c main_v4) (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- the feature weights' block is the whole 64 × 64 array at every point -/
theorem feat_weight_block (c : Dev nD) (t : Fin cfg2.N) :
    (iblk2 V c 4 t : Vec Ideal S64x64 .f32) = (V c main_v41 : S64x64.Idx → EReal) := by
  obtain ⟨-, -, -, -, -, -, -, -, e0, e1, -⟩ := block_places t
  funext y
  show V c main_v41 (((cfg2.win 4).blk t).view.emb y) = V c main_v41 y
  refine congrArg (V c main_v41) (funext fun a => Fin.ext ?_)
  match a with
  | ⟨0, _⟩ => show win2_4.index t (0 : Fin 2) * 64 + 1 * (y 0).val = (y 0).val; omega
  | ⟨1, _⟩ => show win2_4.index t (1 : Fin 2) * 64 + 1 * (y 1).val = (y 1).val; omega

/-- the feature bias's block is the whole 1 × 64 row at every point -/
theorem feat_bias_block (c : Dev nD) (t : Fin cfg2.N) :
    (iblk2 V c 5 t : Vec Ideal S1x64 .f32) = (V c main_v39 : S1x64.Idx → EReal) := by
  obtain ⟨-, -, -, -, -, -, -, -, -, -, e0, e1, -⟩ := block_places t
  funext y
  show V c main_v39 (((cfg2.win 5).blk t).view.emb y) = V c main_v39 y
  refine congrArg (V c main_v39) (funext fun a => Fin.ext ?_)
  match a with
  | ⟨0, _⟩ => show win2_5.index t (0 : Fin 2) * 1 + 1 * (y 0).val = (y 0).val; omega
  | ⟨1, _⟩ => show win2_5.index t (1 : Fin 2) * 64 + 1 * (y 1).val = (y 1).val; omega

/-- at the edge a block row holds, the body's stored value is that edge's message: the per-edge blocks read the edge's rows
    and the weight blocks are the weight arrays -/
theorem message_of_blocks (ea : S800000x4.Idx → EReal) (hs : S800000x64.Idx → EReal) (encW : S4x64.Idx → EReal)
    (encb : S1x64.Idx → EReal) (W : S64x64.Idx → EReal) (b : S1x64.Idx → EReal)
    (x0 : FVec Ideal S10000x4 .f32) (x1 : FVec Ideal S10000x64 .f32) (x2 : FVec Ideal S4x64 .f32) (x3 : FVec Ideal S1x64 .f32)
    (x4 : FVec Ideal S64x64 .f32) (x5 : FVec Ideal S1x64 .f32) (p : Fin 10000) (j : Fin 64) (r : Fin 800000)
    (h0 : ∀ q : Fin 4, x0 (ix2 p q) = ea (ix2 r q)) (h1 : ∀ k : Fin 64, x1 (ix2 p k) = hs (ix2 r k))
    (h2 : x2 = encW) (h3 : x3 = encb) (h4 : x4 = W) (h5 : x5 = b) :
    k2_pay1 (F := Ideal) x0 x2 x3 x4 x5 x1 (ix2 p j)
      = edgeG ea hs encW (fun k => encb (ix2 0 k)) W (fun k => b (ix2 0 k)) (ix2 r j) := by
  subst h2 h3 h4 h5
  rw [edge_payload2]
  unfold edgeG
  show msgRow _ _ _ _ _ _ j = msgRow (fun q => ea (ix2 r q)) (fun k => hs (ix2 r k)) x2 (fun k => x3 (ix2 0 k)) x4 (fun k => x5 (ix2 0 k)) j
  rw [funext h0, funext h1]

/-- row `p`, feature `j` of the message block at point `t` sits at edge `10000·t + p`, feature `j` of the array -/
theorem message_block_place (t : Fin cfg2.N) (p : Fin 10000) (j : Fin 64) (r : Fin 800000) (hr : r.val = 10000 * t.val + p.val) :
    ((cfg2.win 6).blk t).view.emb (ix2 p j) = (ix2 r j : S800000x64.Idx) := by
  obtain ⟨-, -, -, -, -, -, -, -, -, -, -, -, e0, e1⟩ := block_places t
  refine funext fun a => Fin.ext ?_
  match a with
  | ⟨0, _⟩ => show win2_6.index t (0 : Fin 2) * 10000 + 1 * p.val = r.val; omega
  | ⟨1, _⟩ => show win2_6.index t (1 : Fin 2) * 64 + 1 * j.val = j.val; omega

/-- what point `t` writes back is block `t` of the messages of all edges -/
theorem written_back_eq (c : Dev nD) (t : Fin cfg2.N) :
    (dat2 V c).flushed 6 t = ((cfg2.win 6).blk t).view.read (Elt Ideal)
      (edgeG (V c main_arg2) (V c main_v36) (V c main_arg3) (fun k => V c main_v4 (ix2 0 k)) (V c main_v41) (fun k => V c main_v39 (ix2 0 k))) := by
  show (cfg2.win 6).cut (grid2.coords t) ((dat2 V c).after 6 t) = _
  rw [after2_6]
  unfold out2_6
  rw [View.canon_unit_zero no_offset]
  simp only [View.ld_unit_zero (S := S10000x4) no_offset, View.ld_unit_zero (S := S4x64) no_offset, View.ld_unit_zero (S := S1x64) no_offset, View.ld_unit_zero (S := S64x64) no_offset, View.ld_unit_zero (S := S10000x64) no_offset]
  refine funext fun (y : S10000x64.Idx) => ?_
  obtain ⟨p, j, rfl⟩ : ∃ (p : Fin 10000) (j : Fin 64), y = ix2 p j := ⟨y 0, y 1, eq_ix2 y⟩
  have hN : cfg2.N = 80 := N_2
  have hlt : 10000 * t.val + p.val < 800000 := by have := t.isLt; have := p.isLt; omega
  show k2_pay1 (F := Ideal) (iblk2 V c 0 t) (iblk2 V c 2 t) (iblk2 V c 3 t) (iblk2 V c 4 t) (iblk2 V c 5 t) (iblk2 V c 1 t) (ix2 p j)
    = edgeG (V c main_arg2) (V c main_v36) (V c main_arg3) (fun k => V c main_v4 (ix2 0 k)) (V c main_v41) (fun k => V c main_v39 (ix2 0 k))
        (((cfg2.win 6).blk t).view.emb (ix2 p j))
  rw [message_block_place t p j ⟨10000 * t.val + p.val, hlt⟩ rfl]
  exact message_of_blocks (V c main_arg2) (V c main_v36) (V c main_arg3) (V c main_v4) (V c main_v41) (V c main_v39)
    (iblk2 V c 0 t) (iblk2 V c 1 t) (iblk2 V c 2 t) (iblk2 V c 3 t) (iblk2 V c 4 t) (iblk2 V c 5 t) p j ⟨10000 * t.val + p.val, hlt⟩
    (fun q => attr_block_apply V c t p q ⟨10000 * t.val + p.val, hlt⟩ rfl) (fun k => rows_block_apply V c t p k ⟨10000 * t.val + p.val, hlt⟩ rfl)
    (attr_weight_block V c t) (attr_bias_block V c t) (feat_weight_block V c t) (feat_bias_block V c t)

/-- an index of the message array is in point `t`'s block iff each coordinate is in the block's range on its axis -/
theorem mem_block (t : Fin cfg2.N) (i : S800000x64.Idx) :
    i ∈ ((cfg2.win 6).blk t).view.set ↔ ∀ a : Fin 2, win2_6.index t a * S10000x64.size a ≤ (i a).val ∧ (i a).val < win2_6.index t a * S10000x64.size a + S10000x64.size a := by
  show i ∈ ((View.whole main_v42).slice (win2_6.rect t)).set ↔ _
  rw [View.set_slice_whole, Rect.mem_set_unit]
  exact Iff.rfl

/-- the 80 blocks tile the 800000 rows: edge `r` is in the block of point `r / 10000` -/
theorem every_edge_covered (i : S800000x64.Idx) :
    ∃ t : Fin cfg2.N, (cfg2.win 6).flush t = true ∧ i ∈ ((cfg2.win 6).blk t).view.set := by
  have hN : cfg2.N = 80 := N_2
  have hi0 : (i 0).val < 800000 := (i 0).isLt
  have hi1 : (i 1).val < 64 := (i 1).isLt
  obtain ⟨t, ht⟩ : ∃ t : Fin cfg2.N, t.val = (i 0).val / 10000 := ⟨⟨(i 0).val / 10000, by omega⟩, rfl⟩
  obtain ⟨-, -, -, -, -, -, -, -, -, -, -, -, e0, e1⟩ := block_places t
  refine ⟨t, flush2_6 t, ?_⟩
  rw [mem_block]
  intro a
  match a with
  | ⟨0, _⟩ => show win2_6.index t (0 : Fin 2) * 10000 ≤ (i 0).val ∧ (i 0).val < win2_6.index t (0 : Fin 2) * 10000 + 10000; omega
  | ⟨1, _⟩ => show win2_6.index t (1 : Fin 2) * 64 ≤ (i 1).val ∧ (i 1).val < win2_6.index t (1 : Fin 2) * 64 + 64; omega

end

end Edge2

/-- Region 2's output array after its 80 points, from the arrays the region finds. -/
theorem region2_value (V : (c : Dev nD) → (b : Ref sig .tc) → Buf (Elt Ideal) ((c : Thread nD τ).loc b)) (c : Dev nD) :
    (dat2 V c).arrAt 6 cfg2.N
      = edgeG (V c main_arg2) (V c main_v36) (V c main_arg3) (fun k => V c main_v4 (ix2 0 k)) (V c main_v41) (fun k => V c main_v39 (ix2 0 k)) :=
  (dat2 V c).arrAt_eq_of_cover 6
    (edgeG (V c main_arg2) (V c main_v36) (V c main_arg3) (fun k => V c main_v4 (ix2 0 k)) (V c main_v41) (fun k => V c main_v39 (ix2 0 k)))
    (fun t _ => Edge2.written_back_eq V c t) Edge2.every_edge_covered

end Cert.KernelIdeal.Gen

end
-- ==== Proof.KernelNode3.lean ====
/-
  The node-update kernel's value. One grid point holds 10000 consecutive nodes. Its body computes, for node `p` of the
  block, `z = s · h + agg`, two linear maps with a clamp at zero after each, the node's own row added back, and the
  row's normalisation by its mean and the mean of its squared deviations: `nodeRow` of row `p`. A lane sum is the plain
  sum over the 64 features; a column of per-row values is read at its row. The 5 blocks tile the 50000 rows, so the
  output array is `nodeG` of the arrays the region finds.
-/
import proofs.«415458_j8564164788771_1_alg».proof.Proof.Gen.KernelIdeal.Frame
import proofs.«415458_j8564164788771_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.Gine

/-! ## A product of a block of rows with a 64 × 64 matrix, read at one entry -/

/-- the left operand is read at the output's row … -/
private theorem lhs_rows_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and at the contracted coordinate; -/
private theorem lhs_rows_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at the contracted coordinate … -/
private theorem rhs_rows_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and at the output's column. -/
private theorem rhs_rows_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Into a zero accumulator the product at row `p`, column `j` is the plain sum over the 64 contracted features. -/
private theorem rows_matmul_apply {φ₁ φ₂ : FTy} (lhs : FVec Ideal S10000x64 φ₁) (rhs : FVec Ideal S64x64 φ₂) (p : Fin 10000) (j : Fin 64) :
    matmul dot_S10000x64_S64x64_S10000x64_1_0_0_1_n_n none lhs rhs (constant (F := Ideal) S10000x64 .f32 0x00000000#32) (ix2 p j)
      = ∑ k : Fin 64, lhs (ix2 p k) * rhs (ix2 k j) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p j) ((ValueIdx.contrEquiv1 dot_S10000x64_S64x64_S10000x64_1_0_0_1_n_n 64 rfl rfl).symm k) = ix2 p k := funext fun a => Fin.ext (by
    match a with
    | ⟨0, _⟩ => exact lhs_rows_0 _ _
    | ⟨1, _⟩ => exact (lhs_rows_1 _ _).trans hk)
  have er : dot_S10000x64_S64x64_S10000x64_1_0_0_1_n_n.rhsIdx (ix2 p j) ((ValueIdx.contrEquiv1 dot_S10000x64_S64x64_S10000x64_1_0_0_1_n_n 64 rfl rfl).symm k) = ix2 k j := funext fun a => Fin.ext (by
    match a with
    | ⟨0, _⟩ => exact (rhs_rows_0 _ _).trans hk
    | ⟨1, _⟩ => exact rhs_rows_1 _ _)
  rw [el, er]

/-! ## A column of per-row values, and the one entry of a 1 × 1 block -/

/-- A vector of `a` values cast to an `[a, 1]` column reads, at `(i, u)`, the value at `i`. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, c)`, the column's entry of row `i`. -/
private theorem broadcastTo_a1_ab_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A `[1, 1]` array broadcast to `[a, b]` reads its one entry everywhere. -/
private theorem broadcastTo_11_ab_apply {α : Type} {a b : ℕ} (v : (⟨2, ![1, 1]⟩ : Shape).Idx → α) (h : (⟨2, ![1, 1]⟩ : Shape).Broadcasts ⟨2, ![a, b]⟩)
    (i : Fin a) (c : Fin b) : broadcastTo ⟨2, ![a, b]⟩ v h (ix2 i c) = v (ix2 (0 : Fin 1) (0 : Fin 1)) := by
  refine broadcastTo_apply v h (ix2 i c) (ix2 (0 : Fin 1) (0 : Fin 1)) fun ax => ?_
  match ax with
  | ⟨0, _⟩ => rfl
  | ⟨1, _⟩ => rfl

/-- The lane sum of a block of rows, read at row `p`, is the plain sum of that row's 64 features. -/
private theorem rows_laneSum_apply (src : FVec Ideal S10000x64 .f32) (hφ : FKind.Formats .f32)
    (hacc : (0x00000000#32 : BitVec 32) = 0x00000000#32) (p : Fin 10000) :
    multiReduction (F := Ideal) .add [1] S10000 src 0x00000000#32 reduces_S10000x64_S10000 hφ hacc (ix1 p)
      = ∑ k : Fin 64, src (ix2 p k) := by
  refine (Ideal.multiReduction_add_single src 0x00000000#32 reduces_S10000x64_S10000 hφ hacc (ix1 p)).trans ?_
  refine Finset.sum_congr rfl fun k _ => congrArg src (funext fun a => Fin.ext ?_)
  match a with
  | ⟨0, _⟩ => rfl
  | ⟨1, _⟩ => rfl

/-! ## The body's values, read at an entry -/

/-- a reciprocal square root at an index is that of the element -/
private theorem rsqrt_apply {s : Shape} {φ : FTy} (a : FVec Ideal s φ) (i : s.Idx) : rsqrt a i = Ideal.rsqrt (a i) := rfl

/-- the row before normalisation: `z = s · h + agg` through the two linear maps, clamped at zero after each, plus `h` -/
private theorem pre_apply (v0 : FVec Ideal S10000x64 .f32) (v1 : FVec Ideal S1x1 .f32) (v5 : FVec Ideal S10000x64 .f32)
    (v9 : FVec Ideal S64x64 .f32) (v13 : FVec Ideal S1x64 .f32) (v20 : FVec Ideal S64x64 .f32) (v24 : FVec Ideal S1x64 .f32)
    (p : Fin 10000) (j : Fin 64) :
    k3_pay2 (F := Ideal) v0 v1 v5 v9 v13 v20 v24 (ix2 p j)
      = preRow (v1 (ix2 0 0)) (fun k => v0 (ix2 p k)) (fun k => v5 (ix2 p k)) v9 (fun k => v13 (ix2 0 k)) v20 (fun k => v24 (ix2 0 k)) j := by
  unfold k3_pay2 preRow hidRow combRow
  simp only [addf_apply, maximumf_apply, mulf_apply, broadcast_apply, truncf_apply, rows_matmul_apply, shapeCast_self,
    broadcastTo_1b_ab_apply, broadcastTo_11_ab_apply, Ideal.ofBits_def, Ideal.ofBits_zero_f32]

/-- the column of row means: the lane sum of the row divided by the literal 64 -/
private theorem mean_apply (v0 : FVec Ideal S10000x64 .f32) (v1 : FVec Ideal S1x1 .f32) (v5 : FVec Ideal S10000x64 .f32)
    (v9 : FVec Ideal S64x64 .f32) (v13 : FVec Ideal S1x64 .f32) (v20 : FVec Ideal S64x64 .f32) (v24 : FVec Ideal S1x64 .f32)
    (p : Fin 10000) (u : Fin 1) :
    k3_pay3 (F := Ideal) v0 v1 v5 v9 v13 v20 v24 (ix2 p u)
      = meanRow (v1 (ix2 0 0)) (fun k => v0 (ix2 p k)) (fun k => v5 (ix2 p k)) v9 (fun k => v13 (ix2 0 k)) v20 (fun k => v24 (ix2 0 k)) := by
  unfold k3_pay3 meanRow
  simp only [divf_apply, broadcast_apply, shapeCast_a_a1_apply, Ideal.ofBits_def]
  rw [rows_laneSum_apply]
  simp only [pre_apply]

/-- the squared deviation from the row's mean -/
private theorem devSq_apply (v0 : FVec Ideal S10000x64 .f32) (v1 : FVec Ideal S1x1 .f32) (v5 : FVec Ideal S10000x64 .f32)
    (v9 : FVec Ideal S64x64 .f32) (v13 : FVec Ideal S1x64 .f32) (v20 : FVec Ideal S64x64 .f32) (v24 : FVec Ideal S1x64 .f32)
    (p : Fin 10000) (j : Fin 64) :
    k3_pay4 (F := Ideal) v0 v1 v5 v9 v13 v20 v24 (ix2 p j)
      = devRow (v1 (ix2 0 0)) (fun k => v0 (ix2 p k)) (fun k => v5 (ix2 p k)) v9 (fun k => v13 (ix2 0 k)) v20 (fun k => v24 (ix2 0 k)) j
        * devRow (v1 (ix2 0 0)) (fun k => v0 (ix2 p k)) (fun k => v5 (ix2 p k)) v9 (fun k => v13 (ix2 0 k)) v20 (fun k => v24 (ix2 0 k)) j := by
  unfold k3_pay4 devRow
  simp only [mulf_apply, subf_apply, broadcastTo_a1_ab_apply, pre_apply, mean_apply]

/-- the stored value over ANY row block `y`, column of means `μ` and block of squared deviations `d`: the deviation times the
    reciprocal square root of the mean squared deviation plus ε, scaled and shifted feature by feature -/
private theorem norm_apply (y : FVec Ideal S10000x64 .f32) (μ : FVec Ideal S10000x1 .f32) (d : FVec Ideal S10000x64 .f32)
    (v49 v53 : FVec Ideal S1x64 .f32) (p : Fin 10000) (j : Fin 64) :
    k3_pay1 (F := Ideal) y μ d v49 v53 (ix2 p j)
      = (y (ix2 p j) - μ (ix2 p 0)) * Ideal.rsqrt (Ideal.div (∑ k : Fin 64, d (ix2 p k)) c64 + cEps) * v49 (ix2 0 j) + v53 (ix2 0 j) := by
  unfold k3_pay1
  simp only [addf_apply, mulf_apply, subf_apply, divf_apply, rsqrt_apply, broadcast_apply, shapeCast_self, shapeCast_a_a1_apply,
    broadcastTo_a1_ab_apply, broadcastTo_1b_ab_apply, Ideal.ofBits_def]
  rw [rows_laneSum_apply]

/-- the body's stored value at row `p`, feature `j` of the block: the node's new row -/
theorem node_payload3 (v0 : FVec Ideal S10000x64 .f32) (v1 : FVec Ideal S1x1 .f32) (v5 : FVec Ideal S10000x64 .f32)
    (v9 : FVec Ideal S64x64 .f32) (v13 : FVec Ideal S1x64 .f32) (v20 : FVec Ideal S64x64 .f32) (v24 : FVec Ideal S1x64 .f32)
    (v49 v53 : FVec Ideal S1x64 .f32) (p : Fin 10000) (j : Fin 64) :
    k3_pay1 (F := Ideal) (k3_pay2 v0 v1 v5 v9 v13 v20 v24) (k3_pay3 v0 v1 v5 v9 v13 v20 v24) (k3_pay4 v0 v1 v5 v9 v13 v20 v24) v49 v53 (ix2 p j)
      = nodeRow (v1 (ix2 0 0)) (fun k => v0 (ix2 p k)) (fun k => v5 (ix2 p k)) v9 (fun k => v13 (ix2 0 k)) v20 (fun k => v24 (ix2 0 k))
          (fun k => v49 (ix2 0 k)) (fun k => v53 (ix2 0 k)) j := by
  rw [norm_apply]
  simp only [pre_apply, mean_apply, devSq_apply]
  rfl

/-! ## One entry of one block, from the arrays -/

/-- If a block's two row operands hold, at row `p`, row `rowOf i` of the node features and of the summed messages, and the seven
    small operands are the whole small arrays, then the stored value at `(p, colOf i)` is the new node features at `i`. -/
private theorem block_entry
    (A0 A1 : FVec Ideal S50000x64 .f32) (A2 : FVec Ideal S1x1 .f32) (A3 : FVec Ideal S64x64 .f32) (A4 : FVec Ideal S1x64 .f32)
    (A5 : FVec Ideal S64x64 .f32) (A6 A7 A8 : FVec Ideal S1x64 .f32)
    (x0 x1 : FVec Ideal S10000x64 .f32) (x2 : FVec Ideal S1x1 .f32) (x3 : FVec Ideal S64x64 .f32) (x4 : FVec Ideal S1x64 .f32)
    (x5 : FVec Ideal S64x64 .f32) (x6 x7 x8 : FVec Ideal S1x64 .f32)
    (p : Fin 10000) (j : Fin 64) (i : S50000x64.Idx)
    (h0 : ∀ k : Fin 64, x0 (ix2 p k) = A0 (ix2 (rowOf i) k)) (h1 : ∀ k : Fin 64, x1 (ix2 p k) = A1 (ix2 (rowOf i) k))
    (h2 : ∀ y, x2 y = A2 y) (h3 : ∀ y, x3 y = A3 y) (h4 : ∀ y, x4 y = A4 y) (h5 : ∀ y, x5 y = A5 y) (h6 : ∀ y, x6 y = A6 y)
    (h7 : ∀ y, x7 y = A7 y) (h8 : ∀ y, x8 y = A8 y) (hj : colOf i = j) :
    k3_pay1 (F := Ideal) (k3_pay2 x0 x2 x1 x3 x4 x5 x6) (k3_pay3 x0 x2 x1 x3 x4 x5 x6) (k3_pay4 x0 x2 x1 x3 x4 x5 x6) x7 x8 (ix2 p j)
      = nodeG A0 A1 (A2 (ix2 0 0)) A3 (fun k => A4 (ix2 0 k)) A5 (fun k => A6 (ix2 0 k)) (fun k => A7 (ix2 0 k))
          (fun k => A8 (ix2 0 k)) i := by
  obtain rfl : x2 = A2 := funext h2
  obtain rfl : x3 = A3 := funext h3
  obtain rfl : x4 = A4 := funext h4
  obtain rfl : x5 = A5 := funext h5
  obtain rfl : x6 = A6 := funext h6
  obtain rfl : x7 = A7 := funext h7
  obtain rfl : x8 = A8 := funext h8
  subst hj
  rw [node_payload3]
  unfold nodeG
  rw [funext h0, funext h1]

/-! ## The 5 blocks tile the 50000 rows -/

/-- the body reads and writes every block from its origin -/
private theorem zero_offsets : (![0, 0] : Fin 2 → Nat) = fun _ => 0 := funext fun a => by fin_cases a <;> rfl

/-- The block index maps over the grid: the two row operands and the output move together, block `t` at point `t`; every small
    operand stays at its one block. -/
private theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0 :=
  (by decide +kernel : ∀ t : Fin grid3.N, _)

/-- What point `t` writes back is block `t` of the new node features. -/
private theorem flushed_block (V : (c : Dev nD) → (b : Ref sig .tc) → Buf (Elt Ideal) ((c : Thread nD τ).loc b)) (c : Dev nD) (t : Fin cfg3.N) :
    (dat3 V c).flushed 9 t = ((cfg3.win 9).blk t).view.read (Elt Ideal)
      (nodeG (V c main_v35) (V c main_v45) (V c main_v49 (ix2 0 0)) (V c main_v63) (fun k => V c main_v52 (ix2 0 k)) (V c main_v65)
        (fun k => V c main_v55 (ix2 0 k)) (fun k => V c main_v58 (ix2 0 k)) (fun k => V c main_v61 (ix2 0 k))) := by
  show (cfg3.win 9).cut (grid3.coords t) ((dat3 V c).after 9 t) = _
  rw [after3_9]
  unfold out3_9
  rw [View.canon_unit_zero zero_offsets]
  simp only [View.ld_unit_zero (S := S10000x64) zero_offsets, View.ld_unit_zero (S := S1x1) zero_offsets,
    View.ld_unit_zero (S := S64x64) zero_offsets, View.ld_unit_zero (S := S1x64) zero_offsets]
  obtain ⟨a00, a01, a10, a11, a20, a21, a30, a31, a40, a41, a50, a51, a60, a61, a70, a71, a80, a81, a90, a91⟩ := block_indices t
  funext y
  obtain ⟨p, j, rfl⟩ : ∃ (p : Fin 10000) (j : Fin 64), y = ix2 p j := ⟨y 0, y 1, eq_ix2 y⟩
  refine block_entry (V c main_v35) (V c main_v45) (V c main_v49) (V c main_v63) (V c main_v52) (V c main_v65) (V c main_v55)
    (V c main_v58) (V c main_v61) (iblk3 V c 0 t) (iblk3 V c 1 t) (iblk3 V c 2 t) (iblk3 V c 3 t) (iblk3 V c 4 t) (iblk3 V c 5 t)
    (iblk3 V c 6 t) (iblk3 V c 7 t) (iblk3 V c 8 t) p j (((cfg3.win 9).blk t).view.emb (ix2 p j)) ?_ ?_ ?_ ?_ ?_ ?_ ?_ ?_ ?_ ?_
  · intro k
    show V c main_v35 (((cfg3.win 0).blk t).view.emb (ix2 p k)) = V c main_v35 (ix2 (rowOf (((cfg3.win 9).blk t).view.emb (ix2 p j))) k)
    refine congrArg (V c main_v35) (funext fun a => Fin.ext ?_)
    match a with
    | ⟨0, _⟩ => show win3_0.index t (0 : Fin 2) * 10000 + 1 * p.val = win3_9.index t (0 : Fin 2) * 10000 + 1 * p.val; omega
    | ⟨1, _⟩ => show win3_0.index t (1 : Fin 2) * 64 + 1 * k.val = k.val; omega
  · intro k
    show V c main_v45 (((cfg3.win 1).blk t).view.emb (ix2 p k)) = V c main_v45 (ix2 (rowOf (((cfg3.win 9).blk t).view.emb (ix2 p j))) k)
    refine congrArg (V c main_v45) (funext fun a => Fin.ext ?_)
    match a with
    | ⟨0, _⟩ => show win3_1.index t (0 : Fin 2) * 10000 + 1 * p.val = win3_9.index t (0 : Fin 2) * 10000 + 1 * p.val; omega
    | ⟨1, _⟩ => show win3_1.index t (1 : Fin 2) * 64 + 1 * k.val = k.val; omega
  · intro y
    show V c main_v49 (((cfg3.win 2).blk t).view.emb y) = V c main_v49 y
    refine congrArg (V c main_v49) (funext fun a => Fin.ext ?_)
    match a with
    | ⟨0, _⟩ => show win3_2.index t (0 : Fin 2) * 1 + 1 * (y 0).val = (y 0).val; omega
    | ⟨1, _⟩ => show win3_2.index t (1 : Fin 2) * 1 + 1 * (y 1).val = (y 1).val; omega
  · intro y
    show V c main_v63 (((cfg3.win 3).blk t).view.emb y) = V c main_v63 y
    refine congrArg (V c main_v63) (funext fun a => Fin.ext ?_)
    match a with
    | ⟨0, _⟩ => show win3_3.index t (0 : Fin 2) * 64 + 1 * (y 0).val = (y 0).val; omega
    | ⟨1, _⟩ => show win3_3.index t (1 : Fin 2) * 64 + 1 * (y 1).val = (y 1).val; omega
  · intro y
    show V c main_v52 (((cfg3.win 4).blk t).view.emb y) = V c main_v52 y
    refine congrArg (V c main_v52) (funext fun a => Fin.ext ?_)
    match a with
    | ⟨0, _⟩ => show win3_4.index t (0 : Fin 2) * 1 + 1 * (y 0).val = (y 0).val; omega
    | ⟨1, _⟩ => show win3_4.index t (1 : Fin 2) * 64 + 1 * (y 1).val = (y 1).val; omega
  · intro y
    show V c main_v65 (((cfg3.win 5).blk t).view.emb y) = V c main_v65 y
    refine congrArg (V c main_v65) (funext fun a => Fin.ext ?_)
    match a with
    | ⟨0, _⟩ => show win3_5.index t (0 : Fin 2) * 64 + 1 * (y 0).val = (y 0).val; omega
    | ⟨1, _⟩ => show win3_5.index t (1 : Fin 2) * 64 + 1 * (y 1).val = (y 1).val; omega
  · intro y
    show V c main_v55 (((cfg3.win 6).blk t).view.emb y) = V c main_v55 y
    refine congrArg (V c main_v55) (funext fun a => Fin.ext ?_)
    match a with
    | ⟨0, _⟩ => show win3_6.index t (0 : Fin 2) * 1 + 1 * (y 0).val = (y 0).val; omega
    | ⟨1, _⟩ => show win3_6.index t (1 : Fin 2) * 64 + 1 * (y 1).val = (y 1).val; omega
  · intro y
    show V c main_v58 (((cfg3.win 7).blk t).view.emb y) = V c main_v58 y
    refine congrArg (V c main_v58) (funext fun a => Fin.ext ?_)
    match a with
    | ⟨0, _⟩ => show win3_7.index t (0 : Fin 2) * 1 + 1 * (y 0).val = (y 0).val; omega
    | ⟨1, _⟩ => show win3_7.index t (1 : Fin 2) * 64 + 1 * (y 1).val = (y 1).val; omega
  · intro y
    show V c main_v61 (((cfg3.win 8).blk t).view.emb y) = V c main_v61 y
    refine congrArg (V c main_v61) (funext fun a => Fin.ext ?_)
    match a with
    | ⟨0, _⟩ => show win3_8.index t (0 : Fin 2) * 1 + 1 * (y 0).val = (y 0).val; omega
    | ⟨1, _⟩ => show win3_8.index t (1 : Fin 2) * 64 + 1 * (y 1).val = (y 1).val; omega
  · exact Fin.ext (show win3_9.index t (1 : Fin 2) * 64 + 1 * j.val = j.val by omega)

/-- An index of the array is in point `t`'s block iff each coordinate is in the block's range on its axis. -/
private theorem mem_block (t : Fin cfg3.N) (i : S50000x64.Idx) :
    i ∈ ((cfg3.win 9).blk t).view.set ↔ ∀ a : Fin 2, win3_9.index t a * S10000x64.size a ≤ (i a).val ∧ (i a).val < win3_9.index t a * S10000x64.size a + S10000x64.size a := by
  show i ∈ ((View.whole main_v66).slice (win3_9.rect t)).set ↔ _
  rw [View.set_slice_whole, Rect.mem_set_unit]
  exact Iff.rfl

/-- Row `r` lies in the block of point `r / 10000`. -/
private theorem rows_covered (i : S50000x64.Idx) : ∃ t : Fin cfg3.N, (cfg3.win 9).flush t = true ∧ i ∈ ((cfg3.win 9).blk t).view.set := by
  have hi0 : (i 0).val < 50000 := (i 0).isLt
  have hi1 : (i 1).val < 64 := (i 1).isLt
  have hN : grid3.N = 5 := N_3
  have ht : (i 0).val / 10000 < grid3.N := by omega
  obtain ⟨a00, a01, a10, a11, a20, a21, a30, a31, a40, a41, a50, a51, a60, a61, a70, a71, a80, a81, a90, a91⟩ := block_indices ⟨(i 0).val / 10000, ht⟩
  refine ⟨⟨(i 0).val / 10000, ht⟩, flush3_9 _, ?_⟩
  rw [mem_block]
  intro a
  match a with
  | ⟨0, _⟩ =>
    show win3_9.index ⟨(i 0).val / 10000, ht⟩ (0 : Fin 2) * 10000 ≤ (i 0).val ∧ (i 0).val < win3_9.index ⟨(i 0).val / 10000, ht⟩ (0 : Fin 2) * 10000 + 10000
    have e : win3_9.index ⟨(i 0).val / 10000, ht⟩ (0 : Fin 2) = (i 0).val / 10000 := a90
    omega
  | ⟨1, _⟩ =>
    show win3_9.index ⟨(i 0).val / 10000, ht⟩ (1 : Fin 2) * 64 ≤ (i 1).val ∧ (i 1).val < win3_9.index ⟨(i 0).val / 10000, ht⟩ (1 : Fin 2) * 64 + 64
    omega

/-- Region 3's output array after its 5 points, from the arrays the region finds. -/
theorem region3_value (V : (c : Dev nD) → (b : Ref sig .tc) → Buf (Elt Ideal) ((c : Thread nD τ).loc b)) (c : Dev nD) :
    (dat3 V c).arrAt 9 cfg3.N
      = nodeG (V c main_v35) (V c main_v45) (V c main_v49 (ix2 0 0)) (V c main_v63) (fun k => V c main_v52 (ix2 0 k)) (V c main_v65)
          (fun k => V c main_v55 (ix2 0 k)) (fun k => V c main_v58 (ix2 0 k)) (fun k => V c main_v61 (ix2 0 k)) :=
  (dat3 V c).arrAt_eq_of_cover 9 _ (fun t _ => flushed_block V c t) rows_covered

end Cert.KernelIdeal.Gen

end
-- ==== Proof.KernelLayer1.lean ====
/-
  Round 1 on the kernel's side: from region 1's exit to region 3's exit. The host gathers the node table's rows at the source ids (every id in range, so the
  masked gather is the plain one), the edge-message region turns them into messages, the host sums the messages into
  their destination rows, and the node-update region makes the new node table from the old one and the sums. Each
  window's array is read back through the stretches to the arguments it is sliced from.
-/
import proofs.«415458_j8564164788771_1_alg».proof.Proof.KernelTerms
import proofs.«415458_j8564164788771_1_alg».proof.Proof.KernelLayout
import proofs.«415458_j8564164788771_1_alg».proof.Proof.KernelEdge2
import proofs.«415458_j8564164788771_1_alg».proof.Proof.KernelNode3
import proofs.«415458_j8564164788771_1_alg».proof.Proof.KernelTake
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Gen

open Idealize.ShloMosaic Idealize.ShloMosaic.TcCoe Idealize.ShloMosaic.ValueIdx Idealize.SL.Sem Idealize.ShloMosaic.StableHlo
open Cert.Gine

namespace Round1

section Stretches
variable {F : FTy → Type} [FloatOps F]

/-! ## What each host stretch leaves at the buffers read later, over any incoming contents -/

/-- the first stretch leaves the edge list's first row, as a vector, at the source-id buffer -/
theorem ops0_src (V : Valuation τ sig (Elt F)) :
    StableHlo.after hostOps0 V (Proc.devRef .tc main_v1) = srcIds (V (Proc.devRef .tc main_arg1)) := by
  after_results
  unfold srcIds
  rfl

/-- … the second row at the destination-id buffer -/
theorem ops0_dst (V : Valuation τ sig (Elt F)) :
    StableHlo.after hostOps0 V (Proc.devRef .tc main_v3) = dstIds (V (Proc.devRef .tc main_arg1)) := by
  after_results
  unfold dstIds
  rfl

/-- … and the encoder's bias as a [1, 64] row -/
theorem ops0_encb (V : Valuation τ sig (Elt F)) :
    StableHlo.after hostOps0 V (Proc.devRef .tc main_v4)
      = shapeCast S1x64 (V (Proc.devRef .tc main_arg4)) shapeCasts_S64_S1x64 := by
  after_results
  rfl

/-- the stretch before the message region: row 1 of the stacked message biases, as a [1, 64] row -/
theorem ops2_1_bias (V : Valuation τ sig (Elt F)) :
    StableHlo.after hostOps2_1 V (Proc.devRef .tc main_v39)
      = shapeCast S1x64 (shapeCast S64 (extractStridedSlice S1x64 ![1, 0] (V (Proc.devRef .tc main_arg7)) slices_S3x64_S1x64_1_0)
          shapeCasts_S1x64_S64) shapeCasts_S64_S1x64 := by
  after_results
  rfl

/-- … and matrix 1 of the stacked message weights -/
theorem ops2_1_mat (V : Valuation τ sig (Elt F)) :
    StableHlo.after hostOps2_1 V (Proc.devRef .tc main_v41)
      = shapeCast S64x64 (extractStridedSlice S1x64x64 ![1, 0, 0] (V (Proc.devRef .tc main_arg6)) slices_S3x64x64_S1x64x64_1_0_0)
          shapeCasts_S1x64x64_S64x64 := by
  after_results
  rfl

end Stretches

end Round1

namespace Round1

section Stretches3
variable {F : FTy → Type} [FloatOps F]

/-- the stretch before the node region sums the messages it finds into a zero array at the destination ids it finds -/
theorem ops3_agg (V : Valuation τ sig (Elt F)) :
    StableHlo.after hostOps3 V (Proc.devRef .tc main_v45)
      = scaAt (F := F) (V (Proc.devRef .tc main_v3)) (V (Proc.devRef .tc main_v42)) := by
  after_results
  unfold scaAt idCol
  rfl

/-- … the scale: the literal 1.0 plus entry 1 of the 3-vector, through rank 0, as a [1, 1] array -/
theorem ops3_scale (V : Valuation τ sig (Elt F)) :
    StableHlo.after hostOps3 V (Proc.devRef .tc main_v49)
      = shapeCast S1x1 (addf (constant (F := F) S_ .f32 0x3F800000#32)
          (shapeCast S_ (extractStridedSlice S1 ![1] (V (Proc.devRef .tc main_arg5)) slices_S3_S1_1) shapeCasts_S1_S_)) shapeCasts_S_S1x1 := by
  after_results
  rfl

/-- … row 1 of the first stacked bias, as a [1, 64] row -/
theorem ops3_b1 (V : Valuation τ sig (Elt F)) :
    StableHlo.after hostOps3 V (Proc.devRef .tc main_v52)
      = shapeCast S1x64 (shapeCast S64 (extractStridedSlice S1x64 ![1, 0] (V (Proc.devRef .tc main_arg9)) slices_S3x64_S1x64_1_0)
          shapeCasts_S1x64_S64) shapeCasts_S64_S1x64 := by
  after_results
  rfl

/-- … row 1 of the second stacked bias -/
theorem ops3_b2 (V : Valuation τ sig (Elt F)) :
    StableHlo.after hostOps3 V (Proc.devRef .tc main_v55)
      = shapeCast S1x64 (shapeCast S64 (extractStridedSlice S1x64 ![1, 0] (V (Proc.devRef .tc main_arg11)) slices_S3x64_S1x64_1_0)
          shapeCasts_S1x64_S64) shapeCasts_S64_S1x64 := by
  after_results
  rfl

/-- … row 1 of the stacked normalisation gains -/
theorem ops3_g (V : Valuation τ sig (Elt F)) :
    StableHlo.after hostOps3 V (Proc.devRef .tc main_v58)
      = shapeCast S1x64 (shapeCast S64 (extractStridedSlice S1x64 ![1, 0] (V (Proc.devRef .tc main_arg12)) slices_S3x64_S1x64_1_0)
          shapeCasts_S1x64_S64) shapeCasts_S64_S1x64 := by
  after_results
  rfl

/-- … row 1 of the stacked normalisation shifts -/
theorem ops3_bt (V : Valuation τ sig (Elt F)) :
    StableHlo.after hostOps3 V (Proc.devRef .tc main_v61)
      = shapeCast S1x64 (shapeCast S64 (extractStridedSlice S1x64 ![1, 0] (V (Proc.devRef .tc main_arg13)) slices_S3x64_S1x64_1_0)
          shapeCasts_S1x64_S64) shapeCasts_S64_S1x64 := by
  after_results
  rfl

/-- … matrix 1 of the first stacked weights -/
theorem ops3_w1 (V : Valuation τ sig (Elt F)) :
    StableHlo.after hostOps3 V (Proc.devRef .tc main_v63)
      = shapeCast S64x64 (extractStridedSlice S1x64x64 ![1, 0, 0] (V (Proc.devRef .tc main_arg8)) slices_S3x64x64_S1x64x64_1_0_0)
          shapeCasts_S1x64x64_S64x64 := by
  after_results
  rfl

/-- … matrix 1 of the second stacked weights -/
theorem ops3_w2 (V : Valuation τ sig (Elt F)) :
    StableHlo.after hostOps3 V (Proc.devRef .tc main_v65)
      = shapeCast S64x64 (extractStridedSlice S1x64x64 ![1, 0, 0] (V (Proc.devRef .tc main_arg10)) slices_S3x64x64_S1x64x64_1_0_0)
          shapeCasts_S1x64x64_S64x64 := by
  after_results
  rfl

end Stretches3

end Round1

namespace Round1

section Walks
variable (m : (ℓ : Loc nD τ sig) → Buf (Elt Ideal) ℓ) (ρ : Dev nD → PrngReg) (c : Dev nD)

/-! ## A buffer followed back through the boundaries that leave it as it was -/

/-- from region 1's exit back to the end of the first stretch -/
theorem W6_eq_W1 (b : Ref sig .tc)
    (h65 : W6 m ρ c (Proc.devRef .tc b) = W5 m ρ c (Proc.devRef .tc b))
    (s1 : ∀ V : Valuation τ sig (Elt Ideal), StableHlo.after hostOps1 V (Proc.devRef .tc b) = V (Proc.devRef .tc b))
    (h43 : W4 m ρ c (Proc.devRef .tc b) = W3 m ρ c (Proc.devRef .tc b))
    (s02 : ∀ V : Valuation τ sig (Elt Ideal), StableHlo.after hostOps0_2 V (Proc.devRef .tc b) = V (Proc.devRef .tc b))
    (s01 : ∀ V : Valuation τ sig (Elt Ideal), StableHlo.after hostOps0_1 V (Proc.devRef .tc b) = V (Proc.devRef .tc b)) :
    W6 m ρ c (Proc.devRef .tc b) = W1 m ρ c (Proc.devRef .tc b) :=
  h65.trans ((s1 (W4 m ρ c)).trans (h43.trans ((s02 (W2 m ρ c)).trans (s01 (W1 m ρ c)))))

/-- … and, for a buffer the first stretch does not write either, back to the launch -/
theorem W6_eq_launch (b : Ref sig .tc)
    (h65 : W6 m ρ c (Proc.devRef .tc b) = W5 m ρ c (Proc.devRef .tc b))
    (s1 : ∀ V : Valuation τ sig (Elt Ideal), StableHlo.after hostOps1 V (Proc.devRef .tc b) = V (Proc.devRef .tc b))
    (h43 : W4 m ρ c (Proc.devRef .tc b) = W3 m ρ c (Proc.devRef .tc b))
    (s02 : ∀ V : Valuation τ sig (Elt Ideal), StableHlo.after hostOps0_2 V (Proc.devRef .tc b) = V (Proc.devRef .tc b))
    (s01 : ∀ V : Valuation τ sig (Elt Ideal), StableHlo.after hostOps0_1 V (Proc.devRef .tc b) = V (Proc.devRef .tc b))
    (s00 : ∀ V : Valuation τ sig (Elt Ideal), StableHlo.after hostOps0 V (Proc.devRef .tc b) = V (Proc.devRef .tc b)) :
    W6 m ρ c (Proc.devRef .tc b) = m ((c : Thread nD τ).loc b) :=
  (W6_eq_W1 m ρ c b h65 s1 h43 s02 s01).trans (s00 (W0 m ρ c))

/-- from region 2's exit back to region 1's exit -/
theorem W9_eq_W6 (b : Ref sig .tc)
    (h98 : W9 m ρ c (Proc.devRef .tc b) = W8 m ρ c (Proc.devRef .tc b))
    (s21 : ∀ V : Valuation τ sig (Elt Ideal), StableHlo.after hostOps2_1 V (Proc.devRef .tc b) = V (Proc.devRef .tc b))
    (s2 : ∀ V : Valuation τ sig (Elt Ideal), StableHlo.after hostOps2 V (Proc.devRef .tc b) = V (Proc.devRef .tc b)) :
    W9 m ρ c (Proc.devRef .tc b) = W6 m ρ c (Proc.devRef .tc b) :=
  h98.trans ((s21 (W7 m ρ c)).trans (s2 (W6 m ρ c)))

/-- from region 2's entry back to region 1's exit -/
theorem W8_eq_W6 (b : Ref sig .tc)
    (s21 : ∀ V : Valuation τ sig (Elt Ideal), StableHlo.after hostOps2_1 V (Proc.devRef .tc b) = V (Proc.devRef .tc b))
    (s2 : ∀ V : Valuation τ sig (Elt Ideal), StableHlo.after hostOps2 V (Proc.devRef .tc b) = V (Proc.devRef .tc b)) :
    W8 m ρ c (Proc.devRef .tc b) = W6 m ρ c (Proc.devRef .tc b) :=
  (s21 (W7 m ρ c)).trans (s2 (W6 m ρ c))

/-! ## The arguments, the id vectors and the encoder's bias row at region 1's exit

  Region 0 holds the edge attributes, the encoder's weights and the encoder's bias row as input windows 0, 2 and 3, and a
  region leaves its inputs as it found them; no other of these buffers is an array of region 0 or region 1. -/

theorem W6_arg2 : W6 m ρ c (Proc.devRef .tc main_arg2) = aAttr m c :=
  W6_eq_launch m ρ c main_arg2 (W6_of_ne m ρ c main_arg2 (by decide)) (fun V => by host_skip hostOps1)
    ((W4_arr m ρ c 0).trans (((dat0 (V3 m ρ) c).arrAt_in 0 rfl _).trans (A_eq0 (V3 m ρ) c 0)))
    (fun V => by host_skip hostOps0_2) (fun V => by host_skip hostOps0_1) (fun V => by host_skip hostOps0)

theorem W6_arg3 : W6 m ρ c (Proc.devRef .tc main_arg3) = aEncW m c :=
  W6_eq_launch m ρ c main_arg3 (W6_of_ne m ρ c main_arg3 (by decide)) (fun V => by host_skip hostOps1)
    ((W4_arr m ρ c 2).trans (((dat0 (V3 m ρ) c).arrAt_in 2 rfl _).trans (A_eq0 (V3 m ρ) c 2)))
    (fun V => by host_skip hostOps0_2) (fun V => by host_skip hostOps0_1) (fun V => by host_skip hostOps0)

theorem W6_arg5 : W6 m ρ c (Proc.devRef .tc main_arg5) = aEps m c :=
  W6_eq_launch m ρ c main_arg5 (W6_of_ne m ρ c main_arg5 (by decide)) (fun V => by host_skip hostOps1)
    (W4_of_ne m ρ c main_arg5 (by decide)) (fun V => by host_skip hostOps0_2) (fun V => by host_skip hostOps0_1)
    (fun V => by host_skip hostOps0)

theorem W6_arg6 : W6 m ρ c (Proc.devRef .tc main_arg6) = aLinW m c :=
  W6_eq_launch m ρ c main_arg6 (W6_of_ne m ρ c main_arg6 (by decide)) (fun V => by host_skip hostOps1)
    (W4_of_ne m ρ c main_arg6 (by decide)) (fun V => by host_skip hostOps0_2) (fun V => by host_skip hostOps0_1)
    (fun V => by host_skip hostOps0)

theorem W6_arg7 : W6 m ρ c (Proc.devRef .tc main_arg7) = aLinB m c :=
  W6_eq_launch m ρ c main_arg7 (W6_of_ne m ρ c main_arg7 (by decide)) (fun V => by host_skip hostOps1)
    (W4_of_ne m ρ c main_arg7 (by decide)) (fun V => by host_skip hostOps0_2) (fun V => by host_skip hostOps0_1)
    (fun V => by host_skip hostOps0)

theorem W6_arg8 : W6 m ρ c (Proc.devRef .tc main_arg8) = aW1 m c :=
  W6_eq_launch m ρ c main_arg8 (W6_of_ne m ρ c main_arg8 (by decide)) (fun V => by host_skip hostOps1)
    (W4_of_ne m ρ c main_arg8 (by decide)) (fun V => by host_skip hostOps0_2) (fun V => by host_skip hostOps0_1)
    (fun V => by host_skip hostOps0)

theorem W6_arg9 : W6 m ρ c (Proc.devRef .tc main_arg9) = aB1 m c :=
  W6_eq_launch m ρ c main_arg9 (W6_of_ne m ρ c main_arg9 (by decide)) (fun V => by host_skip hostOps1)
    (W4_of_ne m ρ c main_arg9 (by decide)) (fun V => by host_skip hostOps0_2) (fun V => by host_skip hostOps0_1)
    (fun V => by host_skip hostOps0)

theorem W6_arg10 : W6 m ρ c (Proc.devRef .tc main_arg10) = aW2 m c :=
  W6_eq_launch m ρ c main_arg10 (W6_of_ne m ρ c main_arg10 (by decide)) (fun V => by host_skip hostOps1)
    (W4_of_ne m ρ c main_arg10 (by decide)) (fun V => by host_skip hostOps0_2) (fun V => by host_skip hostOps0_1)
    (fun V => by host_skip hostOps0)

theorem W6_arg11 : W6 m ρ c (Proc.devRef .tc main_arg11) = aB2 m c :=
  W6_eq_launch m ρ c main_arg11 (W6_of_ne m ρ c main_arg11 (by decide)) (fun V => by host_skip hostOps1)
    (W4_of_ne m ρ c main_arg11 (by decide)) (fun V => by host_skip hostOps0_2) (fun V => by host_skip hostOps0_1)
    (fun V => by host_skip hostOps0)

theorem W6_arg12 : W6 m ρ c (Proc.devRef .tc main_arg12) = aG m c :=
  W6_eq_launch m ρ c main_arg12 (W6_of_ne m ρ c main_arg12 (by decide)) (fun V => by host_skip hostOps1)
    (W4_of_ne m ρ c main_arg12 (by decide)) (fun V => by host_skip hostOps0_2) (fun V => by host_skip hostOps0_1)
    (fun V => by host_skip hostOps0)

theorem W6_arg13 : W6 m ρ c (Proc.devRef .tc main_arg13) = aBt m c :=
  W6_eq_launch m ρ c main_arg13 (W6_of_ne m ρ c main_arg13 (by decide)) (fun V => by host_skip hostOps1)
    (W4_of_ne m ρ c main_arg13 (by decide)) (fun V => by host_skip hostOps0_2) (fun V => by host_skip hostOps0_1)
    (fun V => by host_skip hostOps0)

theorem W6_src : W6 m ρ c (Proc.devRef .tc main_v1) = srcIds (aEdges m c) :=
  (W6_eq_W1 m ρ c main_v1 (W6_of_ne m ρ c main_v1 (by decide)) (fun V => by host_skip hostOps1)
    (W4_of_ne m ρ c main_v1 (by decide)) (fun V => by host_skip hostOps0_2) (fun V => by host_skip hostOps0_1)).trans
    (ops0_src (W0 m ρ c))

theorem W6_dst : W6 m ρ c (Proc.devRef .tc main_v3) = dstIds (aEdges m c) :=
  (W6_eq_W1 m ρ c main_v3 (W6_of_ne m ρ c main_v3 (by decide)) (fun V => by host_skip hostOps1)
    (W4_of_ne m ρ c main_v3 (by decide)) (fun V => by host_skip hostOps0_2) (fun V => by host_skip hostOps0_1)).trans
    (ops0_dst (W0 m ρ c))

theorem W6_encb : W6 m ρ c (Proc.devRef .tc main_v4) = shapeCast S1x64 (aEncB m c) shapeCasts_S64_S1x64 :=
  (W6_eq_W1 m ρ c main_v4 (W6_of_ne m ρ c main_v4 (by decide)) (fun V => by host_skip hostOps1)
    ((W4_arr m ρ c 3).trans (((dat0 (V3 m ρ) c).arrAt_in 3 rfl _).trans (A_eq0 (V3 m ρ) c 3)))
    (fun V => by host_skip hostOps0_2) (fun V => by host_skip hostOps0_1)).trans
    (ops0_encb (W0 m ρ c))

end Walks

end Round1

namespace Round1

section Mask
/-- where every wrapped id passes the range test the masked gather is the plain gather -/
theorem takeAt_of_inRange (e : IVec S2x800000 32) (x : FVec Ideal S50000x64 .f32)
    (hm : ∀ i, inRange (srcCol e) i = 1#1) : takeAt (F := Ideal) (srcIds e) x = gatK e x := by
  funext i
  unfold takeAt
  rw [select_apply]
  -- the mask spread over the features, read at an index, is the mask at that index's row
  have hmask : (broadcastInDim S800000x64 ![0] bcast_S800000_S800000x64_0 (inRange (idCol (wrapIds (srcIds e)))) : IVec S800000x64 1) i
      = 1#1 := by
    unfold broadcastInDim
    exact hm _
  rw [hmask, select_one]
  rfl
end Mask

section Entries
variable (m : (ℓ : Loc nD τ sig) → Buf (Elt Ideal) ℓ) (ρ : Dev nD → PrngReg) (c : Dev nD)

/-! ## The message region's input arrays -/

theorem in2_attr : W8 m ρ c (Proc.devRef .tc main_arg2) = aAttr m c :=
  (W8_eq_W6 m ρ c main_arg2 (fun V => by host_skip hostOps2_1) (fun V => by host_skip hostOps2)).trans (W6_arg2 m ρ c)

theorem in2_encW : W8 m ρ c (Proc.devRef .tc main_arg3) = aEncW m c :=
  (W8_eq_W6 m ρ c main_arg3 (fun V => by host_skip hostOps2_1) (fun V => by host_skip hostOps2)).trans (W6_arg3 m ρ c)

theorem in2_encb : (fun k : Fin 64 => W8 m ρ c (Proc.devRef .tc main_v4) (ix2 0 k)) = fun k => aEncB m c (ix1 k) := by
  rw [(W8_eq_W6 m ρ c main_v4 (fun V => by host_skip hostOps2_1) (fun V => by host_skip hostOps2)).trans (W6_encb m ρ c)]
  exact vec_row _ _

/-- the gathered rows: the masked gather of the table at region 1's exit, every id in range -/
theorem in2_rows (hm : ∀ i, inRange (srcCol (aEdges m c)) i = 1#1) :
    W8 m ρ c (Proc.devRef .tc main_v36) = gatK (F := Ideal) (aEdges m c) (W6 m ρ c (Proc.devRef .tc main_v35)) := by
  have h87 : W8 m ρ c (Proc.devRef .tc main_v36) = W7 m ρ c (Proc.devRef .tc main_v36) := by host_skip hostOps2_1
  rw [h87, show W7 m ρ c (Proc.devRef .tc main_v36) = _ from take1_of (W6 m ρ c), W6_src m ρ c]
  exact takeAt_of_inRange _ _ hm

theorem in2_W : W8 m ρ c (Proc.devRef .tc main_v41) = matOf (aLinW m c) 1 := by
  rw [show W8 m ρ c (Proc.devRef .tc main_v41) = _ from ops2_1_mat (W7 m ρ c),
    show W7 m ρ c (Proc.devRef .tc main_arg6) = W6 m ρ c (Proc.devRef .tc main_arg6) from by host_skip hostOps2, W6_arg6 m ρ c]
  exact mat_slice _ 1 (by decide) _ _

theorem in2_b : (fun k : Fin 64 => W8 m ρ c (Proc.devRef .tc main_v39) (ix2 0 k)) = vecOf (aLinB m c) 1 := by
  rw [show W8 m ρ c (Proc.devRef .tc main_v39) = _ from ops2_1_bias (W7 m ρ c),
    show W7 m ρ c (Proc.devRef .tc main_arg7) = W6 m ρ c (Proc.devRef .tc main_arg7) from by host_skip hostOps2, W6_arg7 m ρ c]
  exact row_slice _ 1 (by decide) _ _ _

/-- the messages: the message region's output array from its six input arrays -/
theorem out2 (hm : ∀ i, inRange (srcCol (aEdges m c)) i = 1#1) :
    W9 m ρ c (Proc.devRef .tc main_v42)
      = edgeG (aAttr m c) (gatK (F := Ideal) (aEdges m c) (W6 m ρ c (Proc.devRef .tc main_v35))) (aEncW m c) (fun k => aEncB m c (ix1 k))
          (matOf (aLinW m c) 1) (vecOf (aLinB m c) 1) := by
  refine ((W9_arr m ρ c 6).trans (region2_value (V8 m ρ) c)).trans ?_
  show edgeG (W8 m ρ c (Proc.devRef .tc main_arg2)) (W8 m ρ c (Proc.devRef .tc main_v36)) (W8 m ρ c (Proc.devRef .tc main_arg3))
      (fun k : Fin 64 => W8 m ρ c (Proc.devRef .tc main_v4) (ix2 0 k)) (W8 m ρ c (Proc.devRef .tc main_v41))
      (fun k : Fin 64 => W8 m ρ c (Proc.devRef .tc main_v39) (ix2 0 k)) = _
  rw [in2_attr, in2_rows m ρ c hm, in2_encW, in2_encb, in2_W, in2_b]

/-! ## The node region's input arrays -/

theorem in3_table : W10 m ρ c (Proc.devRef .tc main_v35) = W6 m ρ c (Proc.devRef .tc main_v35) :=
  (show W10 m ρ c (Proc.devRef .tc main_v35) = W9 m ρ c (Proc.devRef .tc main_v35) from by host_skip hostOps3).trans
    (W9_eq_W6 m ρ c main_v35 (W9_of_ne m ρ c main_v35 (by decide)) (fun V => by host_skip hostOps2_1) (fun V => by host_skip hostOps2))

/-- an argument, or an id vector, at region 2's exit is what it was at region 1's exit -/
theorem W9_dst : W9 m ρ c (Proc.devRef .tc main_v3) = dstIds (aEdges m c) :=
  (W9_eq_W6 m ρ c main_v3 (W9_of_ne m ρ c main_v3 (by decide)) (fun V => by host_skip hostOps2_1) (fun V => by host_skip hostOps2)).trans (W6_dst m ρ c)
theorem W9_arg5 : W9 m ρ c (Proc.devRef .tc main_arg5) = aEps m c :=
  (W9_eq_W6 m ρ c main_arg5 (W9_of_ne m ρ c main_arg5 (by decide)) (fun V => by host_skip hostOps2_1) (fun V => by host_skip hostOps2)).trans (W6_arg5 m ρ c)
theorem W9_arg8 : W9 m ρ c (Proc.devRef .tc main_arg8) = aW1 m c :=
  (W9_eq_W6 m ρ c main_arg8 (W9_of_ne m ρ c main_arg8 (by decide)) (fun V => by host_skip hostOps2_1) (fun V => by host_skip hostOps2)).trans (W6_arg8 m ρ c)
theorem W9_arg9 : W9 m ρ c (Proc.devRef .tc main_arg9) = aB1 m c :=
  (W9_eq_W6 m ρ c main_arg9 (W9_of_ne m ρ c main_arg9 (by decide)) (fun V => by host_skip hostOps2_1) (fun V => by host_skip hostOps2)).trans (W6_arg9 m ρ c)
theorem W9_arg10 : W9 m ρ c (Proc.devRef .tc main_arg10) = aW2 m c :=
  (W9_eq_W6 m ρ c main_arg10 (W9_of_ne m ρ c main_arg10 (by decide)) (fun V => by host_skip hostOps2_1) (fun V => by host_skip hostOps2)).trans (W6_arg10 m ρ c)
theorem W9_arg11 : W9 m ρ c (Proc.devRef .tc main_arg11) = aB2 m c :=
  (W9_eq_W6 m ρ c main_arg11 (W9_of_ne m ρ c main_arg11 (by decide)) (fun V => by host_skip hostOps2_1) (fun V => by host_skip hostOps2)).trans (W6_arg11 m ρ c)
theorem W9_arg12 : W9 m ρ c (Proc.devRef .tc main_arg12) = aG m c :=
  (W9_eq_W6 m ρ c main_arg12 (W9_of_ne m ρ c main_arg12 (by decide)) (fun V => by host_skip hostOps2_1) (fun V => by host_skip hostOps2)).trans (W6_arg12 m ρ c)
theorem W9_arg13 : W9 m ρ c (Proc.devRef .tc main_arg13) = aBt m c :=
  (W9_eq_W6 m ρ c main_arg13 (W9_of_ne m ρ c main_arg13 (by decide)) (fun V => by host_skip hostOps2_1) (fun V => by host_skip hostOps2)).trans (W6_arg13 m ρ c)

/-- the summed messages -/
theorem in3_agg (hm : ∀ i, inRange (srcCol (aEdges m c)) i = 1#1) :
    W10 m ρ c (Proc.devRef .tc main_v45)
      = scaK (F := Ideal) (aEdges m c) (edgeG (aAttr m c) (gatK (F := Ideal) (aEdges m c) (W6 m ρ c (Proc.devRef .tc main_v35))) (aEncW m c)
          (fun k => aEncB m c (ix1 k)) (matOf (aLinW m c) 1) (vecOf (aLinB m c) 1)) := by
  rw [show W10 m ρ c (Proc.devRef .tc main_v45) = _ from ops3_agg (W9 m ρ c), W9_dst m ρ c, out2 m ρ c hm, scaK_eq]

theorem in3_scale : W10 m ρ c (Proc.devRef .tc main_v49) (ix2 0 0) = cOne + aEps m c (ix1 1) := by
  rw [show W10 m ρ c (Proc.devRef .tc main_v49) = _ from ops3_scale (W9 m ρ c), W9_arg5 m ρ c]
  exact scale_at _ 1 (by decide) _ _ _

theorem in3_W1 : W10 m ρ c (Proc.devRef .tc main_v63) = matOf (aW1 m c) 1 := by
  rw [show W10 m ρ c (Proc.devRef .tc main_v63) = _ from ops3_w1 (W9 m ρ c), W9_arg8 m ρ c]
  exact mat_slice _ 1 (by decide) _ _

theorem in3_W2 : W10 m ρ c (Proc.devRef .tc main_v65) = matOf (aW2 m c) 1 := by
  rw [show W10 m ρ c (Proc.devRef .tc main_v65) = _ from ops3_w2 (W9 m ρ c), W9_arg10 m ρ c]
  exact mat_slice _ 1 (by decide) _ _

theorem in3_b1 : (fun k : Fin 64 => W10 m ρ c (Proc.devRef .tc main_v52) (ix2 0 k)) = vecOf (aB1 m c) 1 := by
  rw [show W10 m ρ c (Proc.devRef .tc main_v52) = _ from ops3_b1 (W9 m ρ c), W9_arg9 m ρ c]
  exact row_slice _ 1 (by decide) _ _ _

theorem in3_b2 : (fun k : Fin 64 => W10 m ρ c (Proc.devRef .tc main_v55) (ix2 0 k)) = vecOf (aB2 m c) 1 := by
  rw [show W10 m ρ c (Proc.devRef .tc main_v55) = _ from ops3_b2 (W9 m ρ c), W9_arg11 m ρ c]
  exact row_slice _ 1 (by decide) _ _ _

theorem in3_g : (fun k : Fin 64 => W10 m ρ c (Proc.devRef .tc main_v58) (ix2 0 k)) = vecOf (aG m c) 1 := by
  rw [show W10 m ρ c (Proc.devRef .tc main_v58) = _ from ops3_g (W9 m ρ c), W9_arg12 m ρ c]
  exact row_slice _ 1 (by decide) _ _ _

theorem in3_bt : (fun k : Fin 64 => W10 m ρ c (Proc.devRef .tc main_v61) (ix2 0 k)) = vecOf (aBt m c) 1 := by
  rw [show W10 m ρ c (Proc.devRef .tc main_v61) = _ from ops3_bt (W9 m ρ c), W9_arg13 m ρ c]
  exact row_slice _ 1 (by decide) _ _ _

end Entries

end Round1

variable (m : (ℓ : Loc nD τ sig) → Buf (Elt Ideal) ℓ) (ρ : Dev nD → PrngReg) (c : Dev nD)

/-- The node table after round 1 is the specification's round 1 of the table before it. -/
theorem kernel_layer1 (hm : ∀ i, inRange (srcCol (aEdges m c)) i = 1#1) :
    W11 m ρ c (Proc.devRef .tc main_v66) = specLayer m c 1 (W6 m ρ c (Proc.devRef .tc main_v35)) := by
  refine ((W11_arr m ρ c 9).trans (region3_value (V10 m ρ) c)).trans ?_
  show nodeG (W10 m ρ c (Proc.devRef .tc main_v35)) (W10 m ρ c (Proc.devRef .tc main_v45))
      (W10 m ρ c (Proc.devRef .tc main_v49) (ix2 0 0)) (W10 m ρ c (Proc.devRef .tc main_v63))
      (fun k : Fin 64 => W10 m ρ c (Proc.devRef .tc main_v52) (ix2 0 k)) (W10 m ρ c (Proc.devRef .tc main_v65))
      (fun k : Fin 64 => W10 m ρ c (Proc.devRef .tc main_v55) (ix2 0 k))
      (fun k : Fin 64 => W10 m ρ c (Proc.devRef .tc main_v58) (ix2 0 k))
      (fun k : Fin 64 => W10 m ρ c (Proc.devRef .tc main_v61) (ix2 0 k)) = _
  rw [Round1.in3_table, Round1.in3_agg m ρ c hm, Round1.in3_scale, Round1.in3_W1, Round1.in3_b1, Round1.in3_W2, Round1.in3_b2,
    Round1.in3_g, Round1.in3_bt]
  unfold specLayer layer update message
  rfl

end Cert.KernelIdeal.Gen

end
-- ==== Proof.KernelEdge4.lean ====
/-
  The edge-message kernel's value. One grid point holds 10000 consecutive edges. Its body computes, for edge `p` of the
  block and feature `j`, `max (hs p j + ((∑ k, ((∑ q, ea p q · encW q k) + encb k) · W k j) + b j)) 0`: two products with a
  zero accumulator are plain sums over the contracted coordinate, a change of float format is the identity, and a
  bias row is read at its one row. The 80 blocks tile the 800000 rows, block `t` holding rows `10000·t … 10000·t + 9999`,
  so the output array is `edgeG` of the arrays the region finds.
-/
import proofs.«415458_j8564164788771_1_alg».proof.Proof.Gen.KernelIdeal.Frame
import proofs.«415458_j8564164788771_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.Gine

namespace Edge4

/-! ## The two products, read at an index

  Both products contract the left operand's second axis against the right operand's first; the output's row names the
  left operand's row and the output's column names the right operand's column. -/

/-- the attribute product: the left operand's row is the output's row -/
theorem attr_lhs_0 (i : S10000x64.Idx) (q : dot_S10000x4_S4x64_S10000x64_1_0_0_1_n_n.contr.Idx) :
    (dot_S10000x4_S4x64_S10000x64_1_0_0_1_n_n.lhsIdx i q 0).val = (i 0).val := by
  unfold DotDims.lhsIdx
  rw [dif_neg (show ¬(0 : Fin S10000x4.rank) ∈ dot_S10000x4_S4x64_S10000x64_1_0_0_1_n_n.lhsBatch by decide), dif_pos (show (0 : Fin S10000x4.rank) ∈ dot_S10000x4_S4x64_S10000x64_1_0_0_1_n_n.lhsNonContracting by decide)]
  rfl
/-- the attribute product: the left operand's column is the contracted coordinate -/
theorem attr_lhs_1 (i : S10000x64.Idx) (q : dot_S10000x4_S4x64_S10000x64_1_0_0_1_n_n.contr.Idx) :
    (dot_S10000x4_S4x64_S10000x64_1_0_0_1_n_n.lhsIdx i q 1).val = (q ⟨0, by decide⟩).val :=
  dot_S10000x4_S4x64_S10000x64_1_0_0_1_n_n.lhsIdx_val_of_single rfl i q
/-- the attribute product: the right operand's row is the contracted coordinate -/
theorem attr_rhs_0 (i : S10000x64.Idx) (q : dot_S10000x4_S4x64_S10000x64_1_0_0_1_n_n.contr.Idx) :
    (dot_S10000x4_S4x64_S10000x64_1_0_0_1_n_n.rhsIdx i q 0).val = (q ⟨0, by decide⟩).val :=
  dot_S10000x4_S4x64_S10000x64_1_0_0_1_n_n.rhsIdx_val_of_single rfl i q
/-- the attribute product: the right operand's column is the output's column -/
theorem attr_rhs_1 (i : S10000x64.Idx) (q : dot_S10000x4_S4x64_S10000x64_1_0_0_1_n_n.contr.Idx) :
    (dot_S10000x4_S4x64_S10000x64_1_0_0_1_n_n.rhsIdx i q 1).val = (i 1).val := by
  unfold DotDims.rhsIdx
  rw [dif_neg (show ¬(1 : Fin S4x64.rank) ∈ dot_S10000x4_S4x64_S10000x64_1_0_0_1_n_n.rhsBatch by decide), dif_pos (show (1 : Fin S4x64.rank) ∈ dot_S10000x4_S4x64_S10000x64_1_0_0_1_n_n.rhsNonContracting by decide)]
  rfl

/-- the attribute product into a zero accumulator is the plain sum over the four attributes -/
theorem attr_product_apply (a : FVec Ideal S10000x4 .bf16) (w : FVec Ideal S4x64 .bf16) (p : Fin 10000) (k : Fin 64) :
    matmul dot_S10000x4_S4x64_S10000x64_1_0_0_1_n_n none a w (constant (F := Ideal) S10000x64 .f32 0x00000000#32) (ix2 p k)
      = ∑ q : Fin 4, a (ix2 p q) * w (ix2 q k) := by
  simp only [matmul]
  rw [Ideal.matmul_constant_zero_apply, ← Equiv.sum_comp (ValueIdx.contrEquiv1 dot_S10000x4_S4x64_S10000x64_1_0_0_1_n_n 4 rfl rfl).symm]
  refine Finset.sum_congr rfl fun q _ => ?_
  have hq := ValueIdx.contrEquiv1_symm_val dot_S10000x4_S4x64_S10000x64_1_0_0_1_n_n 4 rfl rfl q
  have el : dot_S10000x4_S4x64_S10000x64_1_0_0_1_n_n.lhsIdx (ix2 p k) ((ValueIdx.contrEquiv1 dot_S10000x4_S4x64_S10000x64_1_0_0_1_n_n 4 rfl rfl).symm q) = ix2 p q := funext fun a => Fin.ext (by
    match a with
    | ⟨0, _⟩ => exact attr_lhs_0 _ _
    | ⟨1, _⟩ => exact (attr_lhs_1 _ _).trans hq)
  have er : dot_S10000x4_S4x64_S10000x64_1_0_0_1_n_n.rhsIdx (ix2 p k) ((ValueIdx.contrEquiv1 dot_S10000x4_S4x64_S10000x64_1_0_0_1_n_n 4 rfl rfl).symm q) = ix2 q k := funext fun a => Fin.ext (by
    match a with
    | ⟨0, _⟩ => exact (attr_rhs_0 _ _).trans hq
    | ⟨1, _⟩ => exact attr_rhs_1 _ _)
  rw [el, er]

/-- the feature product: the left operand's row is the output's row -/
theorem feat_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- the feature product: the left operand's column is the contracted coordinate -/
theorem feat_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the feature product: the right operand's row is the contracted coordinate -/
theorem feat_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- the feature product: the right operand's column is the output's column -/
theorem feat_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- the feature product into a zero accumulator is the plain sum over the 64 encoded features -/
theorem feat_product_apply (a : FVec Ideal S10000x64 .bf16) (w : FVec Ideal S64x64 .bf16) (p : Fin 10000) (j : Fin 64) :
    matmul dot_S10000x64_S64x64_S10000x64_1_0_0_1_n_n none a w (constant (F := Ideal) S10000x64 .f32 0x00000000#32) (ix2 p j)
      = ∑ k : Fin 64, a (ix2 p k) * w (ix2 k j) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p j) ((ValueIdx.contrEquiv1 dot_S10000x64_S64x64_S10000x64_1_0_0_1_n_n 64 rfl rfl).symm k) = ix2 p k := funext fun a => Fin.ext (by
    match a with
    | ⟨0, _⟩ => exact feat_lhs_0 _ _
    | ⟨1, _⟩ => exact (feat_lhs_1 _ _).trans hk)
  have er : dot_S10000x64_S64x64_S10000x64_1_0_0_1_n_n.rhsIdx (ix2 p j) ((ValueIdx.contrEquiv1 dot_S10000x64_S64x64_S10000x64_1_0_0_1_n_n 64 rfl rfl).symm k) = ix2 k j := funext fun a => Fin.ext (by
    match a with
    | ⟨0, _⟩ => exact (feat_rhs_0 _ _).trans hk
    | ⟨1, _⟩ => exact feat_rhs_1 _ _)
  rw [el, er]

/-- a bias row spread over the 10000 rows of a block reads its one row -/
theorem bias_row_apply (v : FVec Ideal S1x64 .f32) (p : Fin 10000) (j : Fin 64) :
    broadcastTo S10000x64 (shapeCast S1x64 v shapeCasts_S1x64_S1x64) broadcasts_S1x64_S10000x64 (ix2 p j) = v (ix2 0 j) := by
  rw [shapeCast_self]
  refine broadcastTo_apply v broadcasts_S1x64_S10000x64 (ix2 p j) (ix2 0 j) (fun a => ?_)
  match a with
  | ⟨0, _⟩ => rfl
  | ⟨1, _⟩ => rfl

end Edge4

/-! ## The body's stored value at an index -/

/-- the body's stored value at row `p`, feature `j` of the block: the edge's message -/
theorem edge_payload4 (v0 : FVec Ideal S10000x4 .f32) (v2 : FVec Ideal S4x64 .f32) (v5 : FVec Ideal S1x64 .f32)
    (v10 : FVec Ideal S64x64 .f32) (v14 : FVec Ideal S1x64 .f32) (v18 : FVec Ideal S10000x64 .f32) (p : Fin 10000) (j : Fin 64) :
    k4_pay1 (F := Ideal) v0 v2 v5 v10 v14 v18 (ix2 p j)
      = msgRow (fun q => v0 (ix2 p q)) (fun k => v18 (ix2 p k)) v2 (fun k => v5 (ix2 0 k)) v10 (fun k => v14 (ix2 0 k)) j := by
  unfold k4_pay1
  rw [maximumf_apply, addf_apply, addf_apply, broadcast_apply, shapeCast_self, Edge4.feat_product_apply, Edge4.bias_row_apply]
  show max _ (Ideal.ofBits .f32 0x00000000#32) = _
  rw [Ideal.ofBits_zero_f32]
  unfold msgRow linRow
  refine congrArg (fun s => max (v18 (ix2 p j) + (s + v14 (ix2 0 j))) 0) (Finset.sum_congr rfl fun k _ => ?_)
  rw [truncf_apply, truncf_apply, addf_apply, Edge4.attr_product_apply, Edge4.bias_row_apply, shapeCast_self]
  rfl

namespace Edge4

section

/-! ## From the blocks to the array -/

variable (V : (c : Dev nD) → (b : Ref sig .tc) → Buf (Elt Ideal) ((c : Thread nD τ).loc b))

/-- a whole-block access starts at row 0, column 0 -/
theorem no_offset : (![0, 0] : Fin 2 → Nat) = fun _ => 0 := funext fun a => by fin_cases a <;> rfl

/-- where each window's block sits at point `t`, decided over the 80 points: the three per-edge windows (attributes,
    gathered rows, messages) at block row `t`, and each of the four weight windows at its one block -/
theorem block_places : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- row `p` of the attribute block at point `t` is the attribute row of edge `10000·t + p` -/
theorem attr_block_apply (c : Dev nD) (t : Fin cfg4.N) (p : Fin 10000) (q : Fin 4) (r : Fin 800000)
    (hr : r.val = 10000 * t.val + p.val) :
    (iblk4 V c 0 t : Vec Ideal S10000x4 .f32) (ix2 p q) = (V c main_arg2 : S800000x4.Idx → EReal) (ix2 r q) := by
  obtain ⟨e0, e1, -⟩ := block_places t
  show V c main_arg2 (((cfg4.win 0).blk t).view.emb (ix2 p q)) = V c main_arg2 (ix2 r q)
  refine congrArg (V c main_arg2) (funext fun a => Fin.ext ?_)
  match a with
  | ⟨0, _⟩ => show win4_0.index t (0 : Fin 2) * 10000 + 1 * p.val = r.val; omega
  | ⟨1, _⟩ => show win4_0.index t (1 : Fin 2) * 4 + 1 * q.val = q.val; omega

/-- row `p` of the gathered-rows block at point `t` is the gathered row of edge `10000·t + p` -/
theorem rows_block_apply (c : Dev nD) (t : Fin cfg4.N) (p : Fin 10000) (k : Fin 64) (r : Fin 800000)
    (hr : r.val = 10000 * t.val + p.val) :
    (iblk4 V c 1 t : Vec Ideal S10000x64 .f32) (ix2 p k) = (V c main_v67 : S800000x64.Idx → EReal) (ix2 r k) := by
  obtain ⟨-, -, e0, e1, -⟩ := block_places t
  show V c main_v67 (((cfg4.win 1).blk t).view.emb (ix2 p k)) = V c main_v67 (ix2 r k)
  refine congrArg (V c main_v67) (funext fun a => Fin.ext ?_)
  match a with
  | ⟨0, _⟩ => show win4_1.index t (0 : Fin 2) * 10000 + 1 * p.val = r.val; omega
  | ⟨1, _⟩ => show win4_1.index t (1 : Fin 2) * 64 + 1 * k.val = k.val; omega

/-- the attribute weights' block is the whole 4 × 64 array at every point -/
theorem attr_weight_block (c : Dev nD) (t : Fin cfg4.N) :
    (iblk4 V c 2 t : Vec Ideal S4x64 .f32) = (V c main_arg3 : S4x64.Idx → EReal) := by
  obtain ⟨-, -, -, -, e0, e1, -⟩ := block_places t
  funext y
  show V c main_arg3 (((cfg4.win 2).blk t).view.emb y) = V c main_arg3 y
  refine congrArg (V c main_arg3) (funext fun a => Fin.ext ?_)
  match a with
  | ⟨0, _⟩ => show win4_2.index t (0 : Fin 2) * 4 + 1 * (y 0).val = (y 0).val; omega
  | ⟨1, _⟩ => show win4_2.index t (1 : Fin 2) * 64 + 1 * (y 1).val = (y 1).val; omega

/-- the attribute bias's block is the whole 1 × 64 row at every point -/
theorem attr_bias_block (c : Dev nD) (t : Fin cfg4.N) :
    (iblk4 V c 3 t : Vec Ideal S1x64 .f32) = (V c main_v4 : S1x64.Idx → EReal) := by
  obtain ⟨-, -, -, -, -, -, e0, e1, -⟩ := block_places t
  funext y
  show V c main_v4 (((cfg4.win 3).blk t).view.emb y) = V c main_v4 y
  refine congrArg (V c main_v4) (funext fun a => Fin.ext ?_)
  match a with
  | ⟨0, _⟩ => show win4_3.index t (0 : Fin 2) * 1 + 1 * (y 0).val = (y 0).val; omega
  | ⟨1, _⟩ => show win4_3.index t (1 : Fin 2) * 64 + 1 * (y 1).val = (y 1).val; omega

/-- the feature weights' block is the whole 64 × 64 array at every point -/
theorem feat_weight_block (c : Dev nD) (t : Fin cfg4.N) :
    (iblk4 V c 4 t : Vec Ideal S64x64 .f32) = (V c main_v72 : S64x64.Idx → EReal) := by
  obtain ⟨-, -, -, -, -, -, -, -, e0, e1, -⟩ := block_places t
  funext y
  show V c main_v72 (((cfg4.win 4).blk t).view.emb y) = V c main_v72 y
  refine congrArg (V c main_v72) (funext fun a => Fin.ext ?_)
  match a with
  | ⟨0, _⟩ => show win4_4.index t (0 : Fin 2) * 64 + 1 * (y 0).val = (y 0).val; omega
  | ⟨1, _⟩ => show win4_4.index t (1 : Fin 2) * 64 + 1 * (y 1).val = (y 1).val; omega

/-- the feature bias's block is the whole 1 × 64 row at every point -/
theorem feat_bias_block (c : Dev nD) (t : Fin cfg4.N) :
    (iblk4 V c 5 t : Vec Ideal S1x64 .f32) = (V c main_v70 : S1x64.Idx → EReal) := by
  obtain ⟨-, -, -, -, -, -, -, -, -, -, e0, e1, -⟩ := block_places t
  funext y
  show V c main_v70 (((cfg4.win 5).blk t).view.emb y) = V c main_v70 y
  refine congrArg (V c main_v70) (funext fun a => Fin.ext ?_)
  match a with
  | ⟨0, _⟩ => show win4_5.index t (0 : Fin 2) * 1 + 1 * (y 0).val = (y 0).val; omega
  | ⟨1, _⟩ => show win4_5.index t (1 : Fin 2) * 64 + 1 * (y 1).val = (y 1).val; omega

/-- at the edge a block row holds, the body's stored value is that edge's message: the per-edge blocks read the edge's rows
    and the weight blocks are the weight arrays -/
theorem message_of_blocks (ea : S800000x4.Idx → EReal) (hs : S800000x64.Idx → EReal) (encW : S4x64.Idx → EReal)
    (encb : S1x64.Idx → EReal) (W : S64x64.Idx → EReal) (b : S1x64.Idx → EReal)
    (x0 : FVec Ideal S10000x4 .f32) (x1 : FVec Ideal S10000x64 .f32) (x2 : FVec Ideal S4x64 .f32) (x3 : FVec Ideal S1x64 .f32)
    (x4 : FVec Ideal S64x64 .f32) (x5 : FVec Ideal S1x64 .f32) (p : Fin 10000) (j : Fin 64) (r : Fin 800000)
    (h0 : ∀ q : Fin 4, x0 (ix2 p q) = ea (ix2 r q)) (h1 : ∀ k : Fin 64, x1 (ix2 p k) = hs (ix2 r k))
    (h2 : x2 = encW) (h3 : x3 = encb) (h4 : x4 = W) (h5 : x5 = b) :
    k4_pay1 (F := Ideal) x0 x2 x3 x4 x5 x1 (ix2 p j)
      = edgeG ea hs encW (fun k => encb (ix2 0 k)) W (fun k => b (ix2 0 k)) (ix2 r j) := by
  subst h2 h3 h4 h5
  rw [edge_payload4]
  unfold edgeG
  show msgRow _ _ _ _ _ _ j = msgRow (fun q => ea (ix2 r q)) (fun k => hs (ix2 r k)) x2 (fun k => x3 (ix2 0 k)) x4 (fun k => x5 (ix2 0 k)) j
  rw [funext h0, funext h1]

/-- row `p`, feature `j` of the message block at point `t` sits at edge `10000·t + p`, feature `j` of the array -/
theorem message_block_place (t : Fin cfg4.N) (p : Fin 10000) (j : Fin 64) (r : Fin 800000) (hr : r.val = 10000 * t.val + p.val) :
    ((cfg4.win 6).blk t).view.emb (ix2 p j) = (ix2 r j : S800000x64.Idx) := by
  obtain ⟨-, -, -, -, -, -, -, -, -, -, -, -, e0, e1⟩ := block_places t
  refine funext fun a => Fin.ext ?_
  match a with
  | ⟨0, _⟩ => show win4_6.index t (0 : Fin 2) * 10000 + 1 * p.val = r.val; omega
  | ⟨1, _⟩ => show win4_6.index t (1 : Fin 2) * 64 + 1 * j.val = j.val; omega

/-- what point `t` writes back is block `t` of the messages of all edges -/
theorem written_back_eq (c : Dev nD) (t : Fin cfg4.N) :
    (dat4 V c).flushed 6 t = ((cfg4.win 6).blk t).view.read (Elt Ideal)
      (edgeG (V c main_arg2) (V c main_v67) (V c main_arg3) (fun k => V c main_v4 (ix2 0 k)) (V c main_v72) (fun k => V c main_v70 (ix2 0 k))) := by
  show (cfg4.win 6).cut (grid4.coords t) ((dat4 V c).after 6 t) = _
  rw [after4_6]
  unfold out4_6
  rw [View.canon_unit_zero no_offset]
  simp only [View.ld_unit_zero (S := S10000x4) no_offset, View.ld_unit_zero (S := S4x64) no_offset, View.ld_unit_zero (S := S1x64) no_offset, View.ld_unit_zero (S := S64x64) no_offset, View.ld_unit_zero (S := S10000x64) no_offset]
  refine funext fun (y : S10000x64.Idx) => ?_
  obtain ⟨p, j, rfl⟩ : ∃ (p : Fin 10000) (j : Fin 64), y = ix2 p j := ⟨y 0, y 1, eq_ix2 y⟩
  have hN : cfg4.N = 80 := N_4
  have hlt : 10000 * t.val + p.val < 800000 := by have := t.isLt; have := p.isLt; omega
  show k4_pay1 (F := Ideal) (iblk4 V c 0 t) (iblk4 V c 2 t) (iblk4 V c 3 t) (iblk4 V c 4 t) (iblk4 V c 5 t) (iblk4 V c 1 t) (ix2 p j)
    = edgeG (V c main_arg2) (V c main_v67) (V c main_arg3) (fun k => V c main_v4 (ix2 0 k)) (V c main_v72) (fun k => V c main_v70 (ix2 0 k))
        (((cfg4.win 6).blk t).view.emb (ix2 p j))
  rw [message_block_place t p j ⟨10000 * t.val + p.val, hlt⟩ rfl]
  exact message_of_blocks (V c main_arg2) (V c main_v67) (V c main_arg3) (V c main_v4) (V c main_v72) (V c main_v70)
    (iblk4 V c 0 t) (iblk4 V c 1 t) (iblk4 V c 2 t) (iblk4 V c 3 t) (iblk4 V c 4 t) (iblk4 V c 5 t) p j ⟨10000 * t.val + p.val, hlt⟩
    (fun q => attr_block_apply V c t p q ⟨10000 * t.val + p.val, hlt⟩ rfl) (fun k => rows_block_apply V c t p k ⟨10000 * t.val + p.val, hlt⟩ rfl)
    (attr_weight_block V c t) (attr_bias_block V c t) (feat_weight_block V c t) (feat_bias_block V c t)

/-- an index of the message array is in point `t`'s block iff each coordinate is in the block's range on its axis -/
theorem mem_block (t : Fin cfg4.N) (i : S800000x64.Idx) :
    i ∈ ((cfg4.win 6).blk t).view.set ↔ ∀ a : Fin 2, win4_6.index t a * S10000x64.size a ≤ (i a).val ∧ (i a).val < win4_6.index t a * S10000x64.size a + S10000x64.size a := by
  show i ∈ ((View.whole main_v73).slice (win4_6.rect t)).set ↔ _
  rw [View.set_slice_whole, Rect.mem_set_unit]
  exact Iff.rfl

/-- the 80 blocks tile the 800000 rows: edge `r` is in the block of point `r / 10000` -/
theorem every_edge_covered (i : S800000x64.Idx) :
    ∃ t : Fin cfg4.N, (cfg4.win 6).flush t = true ∧ i ∈ ((cfg4.win 6).blk t).view.set := by
  have hN : cfg4.N = 80 := N_4
  have hi0 : (i 0).val < 800000 := (i 0).isLt
  have hi1 : (i 1).val < 64 := (i 1).isLt
  obtain ⟨t, ht⟩ : ∃ t : Fin cfg4.N, t.val = (i 0).val / 10000 := ⟨⟨(i 0).val / 10000, by omega⟩, rfl⟩
  obtain ⟨-, -, -, -, -, -, -, -, -, -, -, -, e0, e1⟩ := block_places t
  refine ⟨t, flush4_6 t, ?_⟩
  rw [mem_block]
  intro a
  match a with
  | ⟨0, _⟩ => show win4_6.index t (0 : Fin 2) * 10000 ≤ (i 0).val ∧ (i 0).val < win4_6.index t (0 : Fin 2) * 10000 + 10000; omega
  | ⟨1, _⟩ => show win4_6.index t (1 : Fin 2) * 64 ≤ (i 1).val ∧ (i 1).val < win4_6.index t (1 : Fin 2) * 64 + 64; omega

end

end Edge4

/-- Region 4's output array after its 80 points, from the arrays the region finds. -/
theorem region4_value (V : (c : Dev nD) → (b : Ref sig .tc) → Buf (Elt Ideal) ((c : Thread nD τ).loc b)) (c : Dev nD) :
    (dat4 V c).arrAt 6 cfg4.N
      = edgeG (V c main_arg2) (V c main_v67) (V c main_arg3) (fun k => V c main_v4 (ix2 0 k)) (V c main_v72) (fun k => V c main_v70 (ix2 0 k)) :=
  (dat4 V c).arrAt_eq_of_cover 6
    (edgeG (V c main_arg2) (V c main_v67) (V c main_arg3) (fun k => V c main_v4 (ix2 0 k)) (V c main_v72) (fun k => V c main_v70 (ix2 0 k)))
    (fun t _ => Edge4.written_back_eq V c t) Edge4.every_edge_covered

end Cert.KernelIdeal.Gen

end
-- ==== Proof.KernelNode5.lean ====
/-
  The node-update kernel's value. One grid point holds 10000 consecutive nodes. Its body computes, for node `p` of the
  block, `z = s · h + agg`, two linear maps with a clamp at zero after each, the node's own row added back, and the
  row's normalisation by its mean and the mean of its squared deviations: `nodeRow` of row `p`. A lane sum is the plain
  sum over the 64 features; a column of per-row values is read at its row. The 5 blocks tile the 50000 rows, so the
  output array is `nodeG` of the arrays the region finds.
-/
import proofs.«415458_j8564164788771_1_alg».proof.Proof.Gen.KernelIdeal.Frame
import proofs.«415458_j8564164788771_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.Gine

/-! ## A product of a block of rows with a 64 × 64 matrix, read at one entry -/

/-- the left operand is read at the output's row … -/
private theorem lhs_rows_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and at the contracted coordinate; -/
private theorem lhs_rows_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand at the contracted coordinate … -/
private theorem rhs_rows_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and at the output's column. -/
private theorem rhs_rows_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Into a zero accumulator the product at row `p`, column `j` is the plain sum over the 64 contracted features. -/
private theorem rows_matmul_apply {φ₁ φ₂ : FTy} (lhs : FVec Ideal S10000x64 φ₁) (rhs : FVec Ideal S64x64 φ₂) (p : Fin 10000) (j : Fin 64) :
    matmul dot_S10000x64_S64x64_S10000x64_1_0_0_1_n_n none lhs rhs (constant (F := Ideal) S10000x64 .f32 0x00000000#32) (ix2 p j)
      = ∑ k : Fin 64, lhs (ix2 p k) * rhs (ix2 k j) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p j) ((ValueIdx.contrEquiv1 dot_S10000x64_S64x64_S10000x64_1_0_0_1_n_n 64 rfl rfl).symm k) = ix2 p k := funext fun a => Fin.ext (by
    match a with
    | ⟨0, _⟩ => exact lhs_rows_0 _ _
    | ⟨1, _⟩ => exact (lhs_rows_1 _ _).trans hk)
  have er : dot_S10000x64_S64x64_S10000x64_1_0_0_1_n_n.rhsIdx (ix2 p j) ((ValueIdx.contrEquiv1 dot_S10000x64_S64x64_S10000x64_1_0_0_1_n_n 64 rfl rfl).symm k) = ix2 k j := funext fun a => Fin.ext (by
    match a with
    | ⟨0, _⟩ => exact (rhs_rows_0 _ _).trans hk
    | ⟨1, _⟩ => exact rhs_rows_1 _ _)
  rw [el, er]

/-! ## A column of per-row values, and the one entry of a 1 × 1 block -/

/-- A vector of `a` values cast to an `[a, 1]` column reads, at `(i, u)`, the value at `i`. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, c)`, the column's entry of row `i`. -/
private theorem broadcastTo_a1_ab_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A `[1, 1]` array broadcast to `[a, b]` reads its one entry everywhere. -/
private theorem broadcastTo_11_ab_apply {α : Type} {a b : ℕ} (v : (⟨2, ![1, 1]⟩ : Shape).Idx → α) (h : (⟨2, ![1, 1]⟩ : Shape).Broadcasts ⟨2, ![a, b]⟩)
    (i : Fin a) (c : Fin b) : broadcastTo ⟨2, ![a, b]⟩ v h (ix2 i c) = v (ix2 (0 : Fin 1) (0 : Fin 1)) := by
  refine broadcastTo_apply v h (ix2 i c) (ix2 (0 : Fin 1) (0 : Fin 1)) fun ax => ?_
  match ax with
  | ⟨0, _⟩ => rfl
  | ⟨1, _⟩ => rfl

/-- The lane sum of a block of rows, read at row `p`, is the plain sum of that row's 64 features. -/
private theorem rows_laneSum_apply (src : FVec Ideal S10000x64 .f32) (hφ : FKind.Formats .f32)
    (hacc : (0x00000000#32 : BitVec 32) = 0x00000000#32) (p : Fin 10000) :
    multiReduction (F := Ideal) .add [1] S10000 src 0x00000000#32 reduces_S10000x64_S10000 hφ hacc (ix1 p)
      = ∑ k : Fin 64, src (ix2 p k) := by
  refine (Ideal.multiReduction_add_single src 0x00000000#32 reduces_S10000x64_S10000 hφ hacc (ix1 p)).trans ?_
  refine Finset.sum_congr rfl fun k _ => congrArg src (funext fun a => Fin.ext ?_)
  match a with
  | ⟨0, _⟩ => rfl
  | ⟨1, _⟩ => rfl

/-! ## The body's values, read at an entry -/

/-- a reciprocal square root at an index is that of the element -/
private theorem rsqrt_apply {s : Shape} {φ : FTy} (a : FVec Ideal s φ) (i : s.Idx) : rsqrt a i = Ideal.rsqrt (a i) := rfl

/-- the row before normalisation: `z = s · h + agg` through the two linear maps, clamped at zero after each, plus `h` -/
private theorem pre_apply (v0 : FVec Ideal S10000x64 .f32) (v1 : FVec Ideal S1x1 .f32) (v5 : FVec Ideal S10000x64 .f32)
    (v9 : FVec Ideal S64x64 .f32) (v13 : FVec Ideal S1x64 .f32) (v20 : FVec Ideal S64x64 .f32) (v24 : FVec Ideal S1x64 .f32)
    (p : Fin 10000) (j : Fin 64) :
    k5_pay2 (F := Ideal) v0 v1 v5 v9 v13 v20 v24 (ix2 p j)
      = preRow (v1 (ix2 0 0)) (fun k => v0 (ix2 p k)) (fun k => v5 (ix2 p k)) v9 (fun k => v13 (ix2 0 k)) v20 (fun k => v24 (ix2 0 k)) j := by
  unfold k5_pay2 preRow hidRow combRow
  simp only [addf_apply, maximumf_apply, mulf_apply, broadcast_apply, truncf_apply, rows_matmul_apply, shapeCast_self,
    broadcastTo_1b_ab_apply, broadcastTo_11_ab_apply, Ideal.ofBits_def, Ideal.ofBits_zero_f32]

/-- the column of row means: the lane sum of the row divided by the literal 64 -/
private theorem mean_apply (v0 : FVec Ideal S10000x64 .f32) (v1 : FVec Ideal S1x1 .f32) (v5 : FVec Ideal S10000x64 .f32)
    (v9 : FVec Ideal S64x64 .f32) (v13 : FVec Ideal S1x64 .f32) (v20 : FVec Ideal S64x64 .f32) (v24 : FVec Ideal S1x64 .f32)
    (p : Fin 10000) (u : Fin 1) :
    k5_pay3 (F := Ideal) v0 v1 v5 v9 v13 v20 v24 (ix2 p u)
      = meanRow (v1 (ix2 0 0)) (fun k => v0 (ix2 p k)) (fun k => v5 (ix2 p k)) v9 (fun k => v13 (ix2 0 k)) v20 (fun k => v24 (ix2 0 k)) := by
  unfold k5_pay3 meanRow
  simp only [divf_apply, broadcast_apply, shapeCast_a_a1_apply, Ideal.ofBits_def]
  rw [rows_laneSum_apply]
  simp only [pre_apply]

/-- the squared deviation from the row's mean -/
private theorem devSq_apply (v0 : FVec Ideal S10000x64 .f32) (v1 : FVec Ideal S1x1 .f32) (v5 : FVec Ideal S10000x64 .f32)
    (v9 : FVec Ideal S64x64 .f32) (v13 : FVec Ideal S1x64 .f32) (v20 : FVec Ideal S64x64 .f32) (v24 : FVec Ideal S1x64 .f32)
    (p : Fin 10000) (j : Fin 64) :
    k5_pay4 (F := Ideal) v0 v1 v5 v9 v13 v20 v24 (ix2 p j)
      = devRow (v1 (ix2 0 0)) (fun k => v0 (ix2 p k)) (fun k => v5 (ix2 p k)) v9 (fun k => v13 (ix2 0 k)) v20 (fun k => v24 (ix2 0 k)) j
        * devRow (v1 (ix2 0 0)) (fun k => v0 (ix2 p k)) (fun k => v5 (ix2 p k)) v9 (fun k => v13 (ix2 0 k)) v20 (fun k => v24 (ix2 0 k)) j := by
  unfold k5_pay4 devRow
  simp only [mulf_apply, subf_apply, broadcastTo_a1_ab_apply, pre_apply, mean_apply]

/-- the stored value over ANY row block `y`, column of means `μ` and block of squared deviations `d`: the deviation times the
    reciprocal square root of the mean squared deviation plus ε, scaled and shifted feature by feature -/
private theorem norm_apply (y : FVec Ideal S10000x64 .f32) (μ : FVec Ideal S10000x1 .f32) (d : FVec Ideal S10000x64 .f32)
    (v49 v53 : FVec Ideal S1x64 .f32) (p : Fin 10000) (j : Fin 64) :
    k5_pay1 (F := Ideal) y μ d v49 v53 (ix2 p j)
      = (y (ix2 p j) - μ (ix2 p 0)) * Ideal.rsqrt (Ideal.div (∑ k : Fin 64, d (ix2 p k)) c64 + cEps) * v49 (ix2 0 j) + v53 (ix2 0 j) := by
  unfold k5_pay1
  simp only [addf_apply, mulf_apply, subf_apply, divf_apply, rsqrt_apply, broadcast_apply, shapeCast_self, shapeCast_a_a1_apply,
    broadcastTo_a1_ab_apply, broadcastTo_1b_ab_apply, Ideal.ofBits_def]
  rw [rows_laneSum_apply]

/-- the body's stored value at row `p`, feature `j` of the block: the node's new row -/
theorem node_payload5 (v0 : FVec Ideal S10000x64 .f32) (v1 : FVec Ideal S1x1 .f32) (v5 : FVec Ideal S10000x64 .f32)
    (v9 : FVec Ideal S64x64 .f32) (v13 : FVec Ideal S1x64 .f32) (v20 : FVec Ideal S64x64 .f32) (v24 : FVec Ideal S1x64 .f32)
    (v49 v53 : FVec Ideal S1x64 .f32) (p : Fin 10000) (j : Fin 64) :
    k5_pay1 (F := Ideal) (k5_pay2 v0 v1 v5 v9 v13 v20 v24) (k5_pay3 v0 v1 v5 v9 v13 v20 v24) (k5_pay4 v0 v1 v5 v9 v13 v20 v24) v49 v53 (ix2 p j)
      = nodeRow (v1 (ix2 0 0)) (fun k => v0 (ix2 p k)) (fun k => v5 (ix2 p k)) v9 (fun k => v13 (ix2 0 k)) v20 (fun k => v24 (ix2 0 k))
          (fun k => v49 (ix2 0 k)) (fun k => v53 (ix2 0 k)) j := by
  rw [norm_apply]
  simp only [pre_apply, mean_apply, devSq_apply]
  rfl

/-! ## One entry of one block, from the arrays -/

/-- If a block's two row operands hold, at row `p`, row `rowOf i` of the node features and of the summed messages, and the seven
    small operands are the whole small arrays, then the stored value at `(p, colOf i)` is the new node features at `i`. -/
private theorem block_entry
    (A0 A1 : FVec Ideal S50000x64 .f32) (A2 : FVec Ideal S1x1 .f32) (A3 : FVec Ideal S64x64 .f32) (A4 : FVec Ideal S1x64 .f32)
    (A5 : FVec Ideal S64x64 .f32) (A6 A7 A8 : FVec Ideal S1x64 .f32)
    (x0 x1 : FVec Ideal S10000x64 .f32) (x2 : FVec Ideal S1x1 .f32) (x3 : FVec Ideal S64x64 .f32) (x4 : FVec Ideal S1x64 .f32)
    (x5 : FVec Ideal S64x64 .f32) (x6 x7 x8 : FVec Ideal S1x64 .f32)
    (p : Fin 10000) (j : Fin 64) (i : S50000x64.Idx)
    (h0 : ∀ k : Fin 64, x0 (ix2 p k) = A0 (ix2 (rowOf i) k)) (h1 : ∀ k : Fin 64, x1 (ix2 p k) = A1 (ix2 (rowOf i) k))
    (h2 : ∀ y, x2 y = A2 y) (h3 : ∀ y, x3 y = A3 y) (h4 : ∀ y, x4 y = A4 y) (h5 : ∀ y, x5 y = A5 y) (h6 : ∀ y, x6 y = A6 y)
    (h7 : ∀ y, x7 y = A7 y) (h8 : ∀ y, x8 y = A8 y) (hj : colOf i = j) :
    k5_pay1 (F := Ideal) (k5_pay2 x0 x2 x1 x3 x4 x5 x6) (k5_pay3 x0 x2 x1 x3 x4 x5 x6) (k5_pay4 x0 x2 x1 x3 x4 x5 x6) x7 x8 (ix2 p j)
      = nodeG A0 A1 (A2 (ix2 0 0)) A3 (fun k => A4 (ix2 0 k)) A5 (fun k => A6 (ix2 0 k)) (fun k => A7 (ix2 0 k))
          (fun k => A8 (ix2 0 k)) i := by
  obtain rfl : x2 = A2 := funext h2
  obtain rfl : x3 = A3 := funext h3
  obtain rfl : x4 = A4 := funext h4
  obtain rfl : x5 = A5 := funext h5
  obtain rfl : x6 = A6 := funext h6
  obtain rfl : x7 = A7 := funext h7
  obtain rfl : x8 = A8 := funext h8
  subst hj
  rw [node_payload5]
  unfold nodeG
  rw [funext h0, funext h1]

/-! ## The 5 blocks tile the 50000 rows -/

/-- the body reads and writes every block from its origin -/
private theorem zero_offsets : (![0, 0] : Fin 2 → Nat) = fun _ => 0 := funext fun a => by fin_cases a <;> rfl

/-- The block index maps over the grid: the two row operands and the output move together, block `t` at point `t`; every small
    operand stays at its one block. -/
private theorem block_indices : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = t.val ∧ win5_9.index t (1 : Fin 2) = 0 :=
  (by decide +kernel : ∀ t : Fin grid5.N, _)

/-- What point `t` writes back is block `t` of the new node features. -/
private theorem flushed_block (V : (c : Dev nD) → (b : Ref sig .tc) → Buf (Elt Ideal) ((c : Thread nD τ).loc b)) (c : Dev nD) (t : Fin cfg5.N) :
    (dat5 V c).flushed 9 t = ((cfg5.win 9).blk t).view.read (Elt Ideal)
      (nodeG (V c main_v66) (V c main_v76) (V c main_v80 (ix2 0 0)) (V c main_v94) (fun k => V c main_v83 (ix2 0 k)) (V c main_v96)
        (fun k => V c main_v86 (ix2 0 k)) (fun k => V c main_v89 (ix2 0 k)) (fun k => V c main_v92 (ix2 0 k))) := by
  show (cfg5.win 9).cut (grid5.coords t) ((dat5 V c).after 9 t) = _
  rw [after5_9]
  unfold out5_9
  rw [View.canon_unit_zero zero_offsets]
  simp only [View.ld_unit_zero (S := S10000x64) zero_offsets, View.ld_unit_zero (S := S1x1) zero_offsets,
    View.ld_unit_zero (S := S64x64) zero_offsets, View.ld_unit_zero (S := S1x64) zero_offsets]
  obtain ⟨a00, a01, a10, a11, a20, a21, a30, a31, a40, a41, a50, a51, a60, a61, a70, a71, a80, a81, a90, a91⟩ := block_indices t
  funext y
  obtain ⟨p, j, rfl⟩ : ∃ (p : Fin 10000) (j : Fin 64), y = ix2 p j := ⟨y 0, y 1, eq_ix2 y⟩
  refine block_entry (V c main_v66) (V c main_v76) (V c main_v80) (V c main_v94) (V c main_v83) (V c main_v96) (V c main_v86)
    (V c main_v89) (V c main_v92) (iblk5 V c 0 t) (iblk5 V c 1 t) (iblk5 V c 2 t) (iblk5 V c 3 t) (iblk5 V c 4 t) (iblk5 V c 5 t)
    (iblk5 V c 6 t) (iblk5 V c 7 t) (iblk5 V c 8 t) p j (((cfg5.win 9).blk t).view.emb (ix2 p j)) ?_ ?_ ?_ ?_ ?_ ?_ ?_ ?_ ?_ ?_
  · intro k
    show V c main_v66 (((cfg5.win 0).blk t).view.emb (ix2 p k)) = V c main_v66 (ix2 (rowOf (((cfg5.win 9).blk t).view.emb (ix2 p j))) k)
    refine congrArg (V c main_v66) (funext fun a => Fin.ext ?_)
    match a with
    | ⟨0, _⟩ => show win5_0.index t (0 : Fin 2) * 10000 + 1 * p.val = win5_9.index t (0 : Fin 2) * 10000 + 1 * p.val; omega
    | ⟨1, _⟩ => show win5_0.index t (1 : Fin 2) * 64 + 1 * k.val = k.val; omega
  · intro k
    show V c main_v76 (((cfg5.win 1).blk t).view.emb (ix2 p k)) = V c main_v76 (ix2 (rowOf (((cfg5.win 9).blk t).view.emb (ix2 p j))) k)
    refine congrArg (V c main_v76) (funext fun a => Fin.ext ?_)
    match a with
    | ⟨0, _⟩ => show win5_1.index t (0 : Fin 2) * 10000 + 1 * p.val = win5_9.index t (0 : Fin 2) * 10000 + 1 * p.val; omega
    | ⟨1, _⟩ => show win5_1.index t (1 : Fin 2) * 64 + 1 * k.val = k.val; omega
  · intro y
    show V c main_v80 (((cfg5.win 2).blk t).view.emb y) = V c main_v80 y
    refine congrArg (V c main_v80) (funext fun a => Fin.ext ?_)
    match a with
    | ⟨0, _⟩ => show win5_2.index t (0 : Fin 2) * 1 + 1 * (y 0).val = (y 0).val; omega
    | ⟨1, _⟩ => show win5_2.index t (1 : Fin 2) * 1 + 1 * (y 1).val = (y 1).val; omega
  · intro y
    show V c main_v94 (((cfg5.win 3).blk t).view.emb y) = V c main_v94 y
    refine congrArg (V c main_v94) (funext fun a => Fin.ext ?_)
    match a with
    | ⟨0, _⟩ => show win5_3.index t (0 : Fin 2) * 64 + 1 * (y 0).val = (y 0).val; omega
    | ⟨1, _⟩ => show win5_3.index t (1 : Fin 2) * 64 + 1 * (y 1).val = (y 1).val; omega
  · intro y
    show V c main_v83 (((cfg5.win 4).blk t).view.emb y) = V c main_v83 y
    refine congrArg (V c main_v83) (funext fun a => Fin.ext ?_)
    match a with
    | ⟨0, _⟩ => show win5_4.index t (0 : Fin 2) * 1 + 1 * (y 0).val = (y 0).val; omega
    | ⟨1, _⟩ => show win5_4.index t (1 : Fin 2) * 64 + 1 * (y 1).val = (y 1).val; omega
  · intro y
    show V c main_v96 (((cfg5.win 5).blk t).view.emb y) = V c main_v96 y
    refine congrArg (V c main_v96) (funext fun a => Fin.ext ?_)
    match a with
    | ⟨0, _⟩ => show win5_5.index t (0 : Fin 2) * 64 + 1 * (y 0).val = (y 0).val; omega
    | ⟨1, _⟩ => show win5_5.index t (1 : Fin 2) * 64 + 1 * (y 1).val = (y 1).val; omega
  · intro y
    show V c main_v86 (((cfg5.win 6).blk t).view.emb y) = V c main_v86 y
    refine congrArg (V c main_v86) (funext fun a => Fin.ext ?_)
    match a with
    | ⟨0, _⟩ => show win5_6.index t (0 : Fin 2) * 1 + 1 * (y 0).val = (y 0).val; omega
    | ⟨1, _⟩ => show win5_6.index t (1 : Fin 2) * 64 + 1 * (y 1).val = (y 1).val; omega
  · intro y
    show V c main_v89 (((cfg5.win 7).blk t).view.emb y) = V c main_v89 y
    refine congrArg (V c main_v89) (funext fun a => Fin.ext ?_)
    match a with
    | ⟨0, _⟩ => show win5_7.index t (0 : Fin 2) * 1 + 1 * (y 0).val = (y 0).val; omega
    | ⟨1, _⟩ => show win5_7.index t (1 : Fin 2) * 64 + 1 * (y 1).val = (y 1).val; omega
  · intro y
    show V c main_v92 (((cfg5.win 8).blk t).view.emb y) = V c main_v92 y
    refine congrArg (V c main_v92) (funext fun a => Fin.ext ?_)
    match a with
    | ⟨0, _⟩ => show win5_8.index t (0 : Fin 2) * 1 + 1 * (y 0).val = (y 0).val; omega
    | ⟨1, _⟩ => show win5_8.index t (1 : Fin 2) * 64 + 1 * (y 1).val = (y 1).val; omega
  · exact Fin.ext (show win5_9.index t (1 : Fin 2) * 64 + 1 * j.val = j.val by omega)

/-- An index of the array is in point `t`'s block iff each coordinate is in the block's range on its axis. -/
private theorem mem_block (t : Fin cfg5.N) (i : S50000x64.Idx) :
    i ∈ ((cfg5.win 9).blk t).view.set ↔ ∀ a : Fin 2, win5_9.index t a * S10000x64.size a ≤ (i a).val ∧ (i a).val < win5_9.index t a * S10000x64.size a + S10000x64.size a := by
  show i ∈ ((View.whole main_v97).slice (win5_9.rect t)).set ↔ _
  rw [View.set_slice_whole, Rect.mem_set_unit]
  exact Iff.rfl

/-- Row `r` lies in the block of point `r / 10000`. -/
private theorem rows_covered (i : S50000x64.Idx) : ∃ t : Fin cfg5.N, (cfg5.win 9).flush t = true ∧ i ∈ ((cfg5.win 9).blk t).view.set := by
  have hi0 : (i 0).val < 50000 := (i 0).isLt
  have hi1 : (i 1).val < 64 := (i 1).isLt
  have hN : grid5.N = 5 := N_5
  have ht : (i 0).val / 10000 < grid5.N := by omega
  obtain ⟨a00, a01, a10, a11, a20, a21, a30, a31, a40, a41, a50, a51, a60, a61, a70, a71, a80, a81, a90, a91⟩ := block_indices ⟨(i 0).val / 10000, ht⟩
  refine ⟨⟨(i 0).val / 10000, ht⟩, flush5_9 _, ?_⟩
  rw [mem_block]
  intro a
  match a with
  | ⟨0, _⟩ =>
    show win5_9.index ⟨(i 0).val / 10000, ht⟩ (0 : Fin 2) * 10000 ≤ (i 0).val ∧ (i 0).val < win5_9.index ⟨(i 0).val / 10000, ht⟩ (0 : Fin 2) * 10000 + 10000
    have e : win5_9.index ⟨(i 0).val / 10000, ht⟩ (0 : Fin 2) = (i 0).val / 10000 := a90
    omega
  | ⟨1, _⟩ =>
    show win5_9.index ⟨(i 0).val / 10000, ht⟩ (1 : Fin 2) * 64 ≤ (i 1).val ∧ (i 1).val < win5_9.index ⟨(i 0).val / 10000, ht⟩ (1 : Fin 2) * 64 + 64
    omega

/-- Region 5's output array after its 5 points, from the arrays the region finds. -/
theorem region5_value (V : (c : Dev nD) → (b : Ref sig .tc) → Buf (Elt Ideal) ((c : Thread nD τ).loc b)) (c : Dev nD) :
    (dat5 V c).arrAt 9 cfg5.N
      = nodeG (V c main_v66) (V c main_v76) (V c main_v80 (ix2 0 0)) (V c main_v94) (fun k => V c main_v83 (ix2 0 k)) (V c main_v96)
          (fun k => V c main_v86 (ix2 0 k)) (fun k => V c main_v89 (ix2 0 k)) (fun k => V c main_v92 (ix2 0 k)) :=
  (dat5 V c).arrAt_eq_of_cover 9 _ (fun t _ => flushed_block V c t) rows_covered

end Cert.KernelIdeal.Gen

end
-- ==== Proof.KernelLayer2.lean ====
/-
  Round 2 on the kernel's side: from region 3's exit to region 5's exit. The host gathers the node table's rows at the source ids (every id in range, so the
  masked gather is the plain one), the edge-message region turns them into messages, the host sums the messages into
  their destination rows, and the node-update region makes the new node table from the old one and the sums. Each
  window's array is read back through the stretches to the arguments it is sliced from.
-/
import proofs.«415458_j8564164788771_1_alg».proof.Proof.KernelTerms
import proofs.«415458_j8564164788771_1_alg».proof.Proof.KernelLayout
import proofs.«415458_j8564164788771_1_alg».proof.Proof.KernelTake
import proofs.«415458_j8564164788771_1_alg».proof.Proof.KernelEdge4
import proofs.«415458_j8564164788771_1_alg».proof.Proof.KernelNode5
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Gen

open Idealize.ShloMosaic Idealize.ShloMosaic.TcCoe Idealize.ShloMosaic.ValueIdx Idealize.SL.Sem Idealize.ShloMosaic.StableHlo
open Cert.Gine

namespace Round2

section Stretch
variable {F : FTy → Type} [FloatOps F]

/-! ## What each host stretch leaves at the buffers read later, over any incoming contents -/

/-- each edge's source id: row 0 of the edge list as a vector -/
theorem srcIds_of (V : Valuation τ sig (Elt F)) :
    StableHlo.after hostOps0 V (Proc.devRef .tc main_v1) = srcIds (V (Proc.devRef .tc main_arg1)) := by
  after_results
  unfold srcIds
  rfl

/-- each edge's destination id: row 1 of the edge list as a vector -/
theorem dstIds_of (V : Valuation τ sig (Elt F)) :
    StableHlo.after hostOps0 V (Proc.devRef .tc main_v3) = dstIds (V (Proc.devRef .tc main_arg1)) := by
  after_results
  unfold dstIds
  rfl

/-- the encoder's bias as a [1, 64] array -/
theorem encB_of (V : Valuation τ sig (Elt F)) :
    StableHlo.after hostOps0 V (Proc.devRef .tc main_v4)
      = shapeCast S1x64 (V (Proc.devRef .tc main_arg4)) shapeCasts_S64_S1x64 := by
  after_results
  rfl

/-- the edge map's bias: row 2 of its stack, as a [1, 64] array -/
theorem linB_of (V : Valuation τ sig (Elt F)) :
    StableHlo.after hostOps4_1 V (Proc.devRef .tc main_v70)
      = shapeCast S1x64 (shapeCast S64 (extractStridedSlice S1x64 ![2, 0] (V (Proc.devRef .tc main_arg7)) slices_S3x64_S1x64_2_0) shapeCasts_S1x64_S64) shapeCasts_S64_S1x64 := by
  after_results
  rfl

/-- the edge map's matrix: matrix 2 of its stack -/
theorem linW_of (V : Valuation τ sig (Elt F)) :
    StableHlo.after hostOps4_1 V (Proc.devRef .tc main_v72)
      = shapeCast S64x64 (extractStridedSlice S1x64x64 ![2, 0, 0] (V (Proc.devRef .tc main_arg6)) slices_S3x64x64_S1x64x64_2_0_0) shapeCasts_S1x64x64_S64x64 := by
  after_results
  rfl

set_option maxHeartbeats 2000000 in
/-- the messages summed into a zero array at the destination ids -/
theorem agg_of (V : Valuation τ sig (Elt F)) :
    StableHlo.after hostOps5 V (Proc.devRef .tc main_v76)
      = scaAt (F := F) (V (Proc.devRef .tc main_v3)) (V (Proc.devRef .tc main_v73)) := by
  after_results_simp
  unfold scaAt idCol
  rfl

set_option maxHeartbeats 2000000 in
/-- the scale: the literal 1.0 plus entry 2 of the 3-vector, as a [1, 1] array -/
theorem scale_of (V : Valuation τ sig (Elt F)) :
    StableHlo.after hostOps5 V (Proc.devRef .tc main_v80)
      = shapeCast S1x1 (addf (constant (F := F) S_ .f32 0x3F800000#32)
          (shapeCast S_ (extractStridedSlice S1 ![2] (V (Proc.devRef .tc main_arg5)) slices_S3_S1_2) shapeCasts_S1_S_)) shapeCasts_S_S1x1 := by
  after_results_simp
  rfl

set_option maxHeartbeats 2000000 in
/-- the first node map's bias: row 2 of its stack, as a [1, 64] array -/
theorem b1_of (V : Valuation τ sig (Elt F)) :
    StableHlo.after hostOps5 V (Proc.devRef .tc main_v83)
      = shapeCast S1x64 (shapeCast S64 (extractStridedSlice S1x64 ![2, 0] (V (Proc.devRef .tc main_arg9)) slices_S3x64_S1x64_2_0) shapeCasts_S1x64_S64) shapeCasts_S64_S1x64 := by
  after_results_simp
  rfl

set_option maxHeartbeats 2000000 in
/-- the second node map's bias: row 2 of its stack, as a [1, 64] array -/
theorem b2_of (V : Valuation τ sig (Elt F)) :
    StableHlo.after hostOps5 V (Proc.devRef .tc main_v86)
      = shapeCast S1x64 (shapeCast S64 (extractStridedSlice S1x64 ![2, 0] (V (Proc.devRef .tc main_arg11)) slices_S3x64_S1x64_2_0) shapeCasts_S1x64_S64) shapeCasts_S64_S1x64 := by
  after_results_simp
  rfl

set_option maxHeartbeats 2000000 in
/-- the normalisation's gain: row 2 of its stack, as a [1, 64] array -/
theorem g_of (V : Valuation τ sig (Elt F)) :
    StableHlo.after hostOps5 V (Proc.devRef .tc main_v89)
      = shapeCast S1x64 (shapeCast S64 (extractStridedSlice S1x64 ![2, 0] (V (Proc.devRef .tc main_arg12)) slices_S3x64_S1x64_2_0) shapeCasts_S1x64_S64) shapeCasts_S64_S1x64 := by
  after_results_simp
  rfl

set_option maxHeartbeats 2000000 in
/-- the normalisation's shift: row 2 of its stack, as a [1, 64] array -/
theorem bt_of (V : Valuation τ sig (Elt F)) :
    StableHlo.after hostOps5 V (Proc.devRef .tc main_v92)
      = shapeCast S1x64 (shapeCast S64 (extractStridedSlice S1x64 ![2, 0] (V (Proc.devRef .tc main_arg13)) slices_S3x64_S1x64_2_0) shapeCasts_S1x64_S64) shapeCasts_S64_S1x64 := by
  after_results_simp
  rfl

set_option maxHeartbeats 2000000 in
/-- the first node map's matrix: matrix 2 of its stack -/
theorem w1_of (V : Valuation τ sig (Elt F)) :
    StableHlo.after hostOps5 V (Proc.devRef .tc main_v94)
      = shapeCast S64x64 (extractStridedSlice S1x64x64 ![2, 0, 0] (V (Proc.devRef .tc main_arg8)) slices_S3x64x64_S1x64x64_2_0_0) shapeCasts_S1x64x64_S64x64 := by
  after_results_simp
  rfl

set_option maxHeartbeats 2000000 in
/-- the second node map's matrix: matrix 2 of its stack -/
theorem w2_of (V : Valuation τ sig (Elt F)) :
    StableHlo.after hostOps5 V (Proc.devRef .tc main_v96)
      = shapeCast S64x64 (extractStridedSlice S1x64x64 ![2, 0, 0] (V (Proc.devRef .tc main_arg10)) slices_S3x64x64_S1x64x64_2_0_0) shapeCasts_S1x64x64_S64x64 := by
  after_results_simp
  rfl

/-- where every wrapped source id passes the range test the masked gather is the plain gather: at every entry the
    mask's bit, broadcast over the features, is the bit of that entry's row, which is 1, and the select takes its first operand -/
theorem take_eq_gather (e : IVec S2x800000 32) (x : FVec F S50000x64 .f32) (hm : ∀ i, inRange (srcCol e) i = 1#1) :
    takeAt (srcIds e) x = gatK e x := by
  funext i
  unfold takeAt
  rw [select_apply]
  have hbit : broadcastInDim S800000x64 ![0] bcast_S800000_S800000x64_0 (inRange (idCol (wrapIds (srcIds e)))) i = 1#1 := hm _
  rw [hbit, select_one]
  unfold gatK srcCol idCol
  rfl

end Stretch

section Walk
variable (m : (ℓ : Loc nD τ sig) → Buf (Elt Ideal) ℓ) (ρ : Dev nD → PrngReg) (c : Dev nD)

/-! ## Buffers made before the round, read back to where they were made

No stretch after the first writes the id vectors or the encoder's bias row, and a region leaves every buffer outside
its windows, and every input window, as entered. -/

/-- the source ids at region 3's exit -/
theorem ids_src : W11 m ρ c (Proc.devRef .tc main_v1) = srcIds (aEdges m c) :=
  calc W11 m ρ c (Proc.devRef .tc main_v1)
    _ = W10 m ρ c (Proc.devRef .tc main_v1) := W11_of_ne m ρ c main_v1 (by decide)
    _ = W9 m ρ c (Proc.devRef .tc main_v1) := by host_skip hostOps3
    _ = W8 m ρ c (Proc.devRef .tc main_v1) := W9_of_ne m ρ c main_v1 (by decide)
    _ = W7 m ρ c (Proc.devRef .tc main_v1) := by host_skip hostOps2_1
    _ = W6 m ρ c (Proc.devRef .tc main_v1) := by host_skip hostOps2
    _ = W5 m ρ c (Proc.devRef .tc main_v1) := W6_of_ne m ρ c main_v1 (by decide)
    _ = W4 m ρ c (Proc.devRef .tc main_v1) := by host_skip hostOps1
    _ = W3 m ρ c (Proc.devRef .tc main_v1) := W4_of_ne m ρ c main_v1 (by decide)
    _ = W2 m ρ c (Proc.devRef .tc main_v1) := by host_skip hostOps0_2
    _ = W1 m ρ c (Proc.devRef .tc main_v1) := by host_skip hostOps0_1
    _ = srcIds (aEdges m c) := srcIds_of (W0 m ρ c)

/-- the destination ids at region 3's exit -/
theorem ids_dst : W11 m ρ c (Proc.devRef .tc main_v3) = dstIds (aEdges m c) :=
  calc W11 m ρ c (Proc.devRef .tc main_v3)
    _ = W10 m ρ c (Proc.devRef .tc main_v3) := W11_of_ne m ρ c main_v3 (by decide)
    _ = W9 m ρ c (Proc.devRef .tc main_v3) := by host_skip hostOps3
    _ = W8 m ρ c (Proc.devRef .tc main_v3) := W9_of_ne m ρ c main_v3 (by decide)
    _ = W7 m ρ c (Proc.devRef .tc main_v3) := by host_skip hostOps2_1
    _ = W6 m ρ c (Proc.devRef .tc main_v3) := by host_skip hostOps2
    _ = W5 m ρ c (Proc.devRef .tc main_v3) := W6_of_ne m ρ c main_v3 (by decide)
    _ = W4 m ρ c (Proc.devRef .tc main_v3) := by host_skip hostOps1
    _ = W3 m ρ c (Proc.devRef .tc main_v3) := W4_of_ne m ρ c main_v3 (by decide)
    _ = W2 m ρ c (Proc.devRef .tc main_v3) := by host_skip hostOps0_2
    _ = W1 m ρ c (Proc.devRef .tc main_v3) := by host_skip hostOps0_1
    _ = dstIds (aEdges m c) := dstIds_of (W0 m ρ c)

/-- the destination ids at region 4's exit -/
theorem ids_dst14 : W14 m ρ c (Proc.devRef .tc main_v3) = dstIds (aEdges m c) :=
  calc W14 m ρ c (Proc.devRef .tc main_v3)
    _ = W13 m ρ c (Proc.devRef .tc main_v3) := W14_of_ne m ρ c main_v3 (by decide)
    _ = W12 m ρ c (Proc.devRef .tc main_v3) := by host_skip hostOps4_1
    _ = W11 m ρ c (Proc.devRef .tc main_v3) := by host_skip hostOps4
    _ = dstIds (aEdges m c) := ids_dst m ρ c

/-- the encoder's bias row at region 4's entry; regions 0 and 2 read it through input window 3 -/
theorem encB_row : W13 m ρ c (Proc.devRef .tc main_v4) = shapeCast S1x64 (aEncB m c) shapeCasts_S64_S1x64 :=
  calc W13 m ρ c (Proc.devRef .tc main_v4)
    _ = W12 m ρ c (Proc.devRef .tc main_v4) := by host_skip hostOps4_1
    _ = W11 m ρ c (Proc.devRef .tc main_v4) := by host_skip hostOps4
    _ = W10 m ρ c (Proc.devRef .tc main_v4) := W11_of_ne m ρ c main_v4 (by decide)
    _ = W9 m ρ c (Proc.devRef .tc main_v4) := by host_skip hostOps3
    _ = W8 m ρ c (Proc.devRef .tc main_v4) := (W9_arr m ρ c 3).trans (((dat2 (V8 m ρ) c).arrAt_in 3 rfl _).trans (A_eq2 (V8 m ρ) c 3))
    _ = W7 m ρ c (Proc.devRef .tc main_v4) := by host_skip hostOps2_1
    _ = W6 m ρ c (Proc.devRef .tc main_v4) := by host_skip hostOps2
    _ = W5 m ρ c (Proc.devRef .tc main_v4) := W6_of_ne m ρ c main_v4 (by decide)
    _ = W4 m ρ c (Proc.devRef .tc main_v4) := by host_skip hostOps1
    _ = W3 m ρ c (Proc.devRef .tc main_v4) := (W4_arr m ρ c 3).trans (((dat0 (V3 m ρ) c).arrAt_in 3 rfl _).trans (A_eq0 (V3 m ρ) c 3))
    _ = W2 m ρ c (Proc.devRef .tc main_v4) := by host_skip hostOps0_2
    _ = W1 m ρ c (Proc.devRef .tc main_v4) := by host_skip hostOps0_1
    _ = shapeCast S1x64 (aEncB m c) shapeCasts_S64_S1x64 := encB_of (W0 m ρ c)

/-- the node table going in is not written before region 5 reads it -/
theorem table_in : W15 m ρ c (Proc.devRef .tc main_v66) = W11 m ρ c (Proc.devRef .tc main_v66) :=
  calc W15 m ρ c (Proc.devRef .tc main_v66)
    _ = W14 m ρ c (Proc.devRef .tc main_v66) := by host_skip hostOps5
    _ = W13 m ρ c (Proc.devRef .tc main_v66) := W14_of_ne m ρ c main_v66 (by decide)
    _ = W12 m ρ c (Proc.devRef .tc main_v66) := by host_skip hostOps4_1
    _ = W11 m ρ c (Proc.devRef .tc main_v66) := by host_skip hostOps4

/-! ## The arguments at the boundaries where the round's stretches and regions read them

An argument ends as launched; nothing between the boundary and the end writes it, so it is as launched at the boundary too. -/

/-- the edge attributes at region 4's entry (its input window 0) -/
theorem arg2_13 : W13 m ρ c (Proc.devRef .tc main_arg2) = aAttr m c :=
  calc W13 m ρ c (Proc.devRef .tc main_arg2)
    _ = W14 m ρ c (Proc.devRef .tc main_arg2) := ((W14_arr m ρ c 0).trans (((dat4 (V13 m ρ) c).arrAt_in 0 rfl _).trans (A_eq4 (V13 m ρ) c 0))).symm
    _ = W15 m ρ c (Proc.devRef .tc main_arg2) := (by host_skip hostOps5 : W15 m ρ c (Proc.devRef .tc main_arg2) = W14 m ρ c (Proc.devRef .tc main_arg2)).symm
    _ = W16 m ρ c (Proc.devRef .tc main_arg2) := (W16_of_ne m ρ c main_arg2 (by decide)).symm
    _ = aAttr m c := W16_main_arg2 m ρ c

/-- the encoder's matrix at region 4's entry (its input window 2) -/
theorem arg3_13 : W13 m ρ c (Proc.devRef .tc main_arg3) = aEncW m c :=
  calc W13 m ρ c (Proc.devRef .tc main_arg3)
    _ = W14 m ρ c (Proc.devRef .tc main_arg3) := ((W14_arr m ρ c 2).trans (((dat4 (V13 m ρ) c).arrAt_in 2 rfl _).trans (A_eq4 (V13 m ρ) c 2))).symm
    _ = W15 m ρ c (Proc.devRef .tc main_arg3) := (by host_skip hostOps5 : W15 m ρ c (Proc.devRef .tc main_arg3) = W14 m ρ c (Proc.devRef .tc main_arg3)).symm
    _ = W16 m ρ c (Proc.devRef .tc main_arg3) := (W16_of_ne m ρ c main_arg3 (by decide)).symm
    _ = aEncW m c := W16_main_arg3 m ρ c

/-- the stack of edge-map matrices where the slicing stretch before region 4 reads it -/
theorem arg6_12 : W12 m ρ c (Proc.devRef .tc main_arg6) = aLinW m c :=
  calc W12 m ρ c (Proc.devRef .tc main_arg6)
    _ = W13 m ρ c (Proc.devRef .tc main_arg6) := (by host_skip hostOps4_1 : W13 m ρ c (Proc.devRef .tc main_arg6) = W12 m ρ c (Proc.devRef .tc main_arg6)).symm
    _ = W14 m ρ c (Proc.devRef .tc main_arg6) := (W14_of_ne m ρ c main_arg6 (by decide)).symm
    _ = W15 m ρ c (Proc.devRef .tc main_arg6) := (by host_skip hostOps5 : W15 m ρ c (Proc.devRef .tc main_arg6) = W14 m ρ c (Proc.devRef .tc main_arg6)).symm
    _ = W16 m ρ c (Proc.devRef .tc main_arg6) := (W16_of_ne m ρ c main_arg6 (by decide)).symm
    _ = aLinW m c := W16_main_arg6 m ρ c

/-- the stack of edge-map biases where the slicing stretch before region 4 reads it -/
theorem arg7_12 : W12 m ρ c (Proc.devRef .tc main_arg7) = aLinB m c :=
  calc W12 m ρ c (Proc.devRef .tc main_arg7)
    _ = W13 m ρ c (Proc.devRef .tc main_arg7) := (by host_skip hostOps4_1 : W13 m ρ c (Proc.devRef .tc main_arg7) = W12 m ρ c (Proc.devRef .tc main_arg7)).symm
    _ = W14 m ρ c (Proc.devRef .tc main_arg7) := (W14_of_ne m ρ c main_arg7 (by decide)).symm
    _ = W15 m ρ c (Proc.devRef .tc main_arg7) := (by host_skip hostOps5 : W15 m ρ c (Proc.devRef .tc main_arg7) = W14 m ρ c (Proc.devRef .tc main_arg7)).symm
    _ = W16 m ρ c (Proc.devRef .tc main_arg7) := (W16_of_ne m ρ c main_arg7 (by decide)).symm
    _ = aLinB m c := W16_main_arg7 m ρ c

/-- the 3-vector of eps values at region 4's exit -/
theorem arg5_14 : W14 m ρ c (Proc.devRef .tc main_arg5) = aEps m c :=
  calc W14 m ρ c (Proc.devRef .tc main_arg5)
    _ = W15 m ρ c (Proc.devRef .tc main_arg5) := (by host_skip hostOps5 : W15 m ρ c (Proc.devRef .tc main_arg5) = W14 m ρ c (Proc.devRef .tc main_arg5)).symm
    _ = W16 m ρ c (Proc.devRef .tc main_arg5) := (W16_of_ne m ρ c main_arg5 (by decide)).symm
    _ = aEps m c := W16_main_arg5 m ρ c

/-- the stack of first node-map matrices at region 4's exit -/
theorem arg8_14 : W14 m ρ c (Proc.devRef .tc main_arg8) = aW1 m c :=
  calc W14 m ρ c (Proc.devRef .tc main_arg8)
    _ = W15 m ρ c (Proc.devRef .tc main_arg8) := (by host_skip hostOps5 : W15 m ρ c (Proc.devRef .tc main_arg8) = W14 m ρ c (Proc.devRef .tc main_arg8)).symm
    _ = W16 m ρ c (Proc.devRef .tc main_arg8) := (W16_of_ne m ρ c main_arg8 (by decide)).symm
    _ = aW1 m c := W16_main_arg8 m ρ c

/-- the stack of first node-map biases at region 4's exit -/
theorem arg9_14 : W14 m ρ c (Proc.devRef .tc main_arg9) = aB1 m c :=
  calc W14 m ρ c (Proc.devRef .tc main_arg9)
    _ = W15 m ρ c (Proc.devRef .tc main_arg9) := (by host_skip hostOps5 : W15 m ρ c (Proc.devRef .tc main_arg9) = W14 m ρ c (Proc.devRef .tc main_arg9)).symm
    _ = W16 m ρ c (Proc.devRef .tc main_arg9) := (W16_of_ne m ρ c main_arg9 (by decide)).symm
    _ = aB1 m c := W16_main_arg9 m ρ c

/-- the stack of second node-map matrices at region 4's exit -/
theorem arg10_14 : W14 m ρ c (Proc.devRef .tc main_arg10) = aW2 m c :=
  calc W14 m ρ c (Proc.devRef .tc main_arg10)
    _ = W15 m ρ c (Proc.devRef .tc main_arg10) := (by host_skip hostOps5 : W15 m ρ c (Proc.devRef .tc main_arg10) = W14 m ρ c (Proc.devRef .tc main_arg10)).symm
    _ = W16 m ρ c (Proc.devRef .tc main_arg10) := (W16_of_ne m ρ c main_arg10 (by decide)).symm
    _ = aW2 m c := W16_main_arg10 m ρ c

/-- the stack of second node-map biases at region 4's exit -/
theorem arg11_14 : W14 m ρ c (Proc.devRef .tc main_arg11) = aB2 m c :=
  calc W14 m ρ c (Proc.devRef .tc main_arg11)
    _ = W15 m ρ c (Proc.devRef .tc main_arg11) := (by host_skip hostOps5 : W15 m ρ c (Proc.devRef .tc main_arg11) = W14 m ρ c (Proc.devRef .tc main_arg11)).symm
    _ = W16 m ρ c (Proc.devRef .tc main_arg11) := (W16_of_ne m ρ c main_arg11 (by decide)).symm
    _ = aB2 m c := W16_main_arg11 m ρ c

/-- the stack of gains at region 4's exit -/
theorem arg12_14 : W14 m ρ c (Proc.devRef .tc main_arg12) = aG m c :=
  calc W14 m ρ c (Proc.devRef .tc main_arg12)
    _ = W15 m ρ c (Proc.devRef .tc main_arg12) := (by host_skip hostOps5 : W15 m ρ c (Proc.devRef .tc main_arg12) = W14 m ρ c (Proc.devRef .tc main_arg12)).symm
    _ = W16 m ρ c (Proc.devRef .tc main_arg12) := (W16_of_ne m ρ c main_arg12 (by decide)).symm
    _ = aG m c := W16_main_arg12 m ρ c

/-- the stack of shifts at region 4's exit -/
theorem arg13_14 : W14 m ρ c (Proc.devRef .tc main_arg13) = aBt m c :=
  calc W14 m ρ c (Proc.devRef .tc main_arg13)
    _ = W15 m ρ c (Proc.devRef .tc main_arg13) := (by host_skip hostOps5 : W15 m ρ c (Proc.devRef .tc main_arg13) = W14 m ρ c (Proc.devRef .tc main_arg13)).symm
    _ = W16 m ρ c (Proc.devRef .tc main_arg13) := (W16_of_ne m ρ c main_arg13 (by decide)).symm
    _ = aBt m c := W16_main_arg13 m ρ c

/-! ## The six arrays the edge-message region finds -/

/-- the gathered rows: the round's gather over region 3's exit, at the source ids, the mask all ones -/
theorem edge_rows (hm : ∀ i, inRange (srcCol (aEdges m c)) i = 1#1) :
    V13 m ρ c main_v67 = gatK (F := Ideal) (aEdges m c) (W11 m ρ c (Proc.devRef .tc main_v66)) := by
  have h1 : W13 m ρ c (Proc.devRef .tc main_v67) = W12 m ρ c (Proc.devRef .tc main_v67) := by host_skip hostOps4_1
  have h2 := take2_of (F := Ideal) (W11 m ρ c)
  rw [ids_src m ρ c] at h2
  exact h1.trans (h2.trans (take_eq_gather (F := Ideal) _ _ hm))

/-- the encoder's bias, read off the one row of its [1, 64] array -/
theorem edge_encB : (fun k : Fin 64 => V13 m ρ c main_v4 (ix2 0 k)) = fun k => aEncB m c (ix1 k) :=
  (congrArg (fun (x : FVec Ideal S1x64 .f32) => fun k : Fin 64 => x (ix2 0 k)) (encB_row m ρ c)).trans (vec_row (aEncB m c) _)

/-- the edge map's matrix is round 2's slice of its stack -/
theorem edge_linW : V13 m ρ c main_v72 = matOf (aLinW m c) 2 :=
  calc W13 m ρ c (Proc.devRef .tc main_v72)
    _ = shapeCast S64x64 (extractStridedSlice S1x64x64 ![2, 0, 0] (W12 m ρ c (Proc.devRef .tc main_arg6)) slices_S3x64x64_S1x64x64_2_0_0) shapeCasts_S1x64x64_S64x64 := linW_of (W12 m ρ c)
    _ = shapeCast S64x64 (extractStridedSlice S1x64x64 ![2, 0, 0] (aLinW m c) slices_S3x64x64_S1x64x64_2_0_0) shapeCasts_S1x64x64_S64x64 := by rw [arg6_12 m ρ c]
    _ = matOf (aLinW m c) 2 := mat_slice (aLinW m c) 2 (by decide) _ _

/-- the edge map's bias is round 2's slice of its stack -/
theorem edge_linB : (fun k : Fin 64 => V13 m ρ c main_v70 (ix2 0 k)) = vecOf (aLinB m c) 2 := by
  have h : W13 m ρ c (Proc.devRef .tc main_v70)
      = shapeCast S1x64 (shapeCast S64 (extractStridedSlice S1x64 ![2, 0] (aLinB m c) slices_S3x64_S1x64_2_0) shapeCasts_S1x64_S64) shapeCasts_S64_S1x64 := by
    rw [← arg7_12 m ρ c]; exact linB_of (W12 m ρ c)
  exact (congrArg (fun (x : FVec Ideal S1x64 .f32) => fun k : Fin 64 => x (ix2 0 k)) h).trans (row_slice (aLinB m c) 2 (by decide) _ _ _)

/-- the messages region 4 leaves: the specification's messages of the gathered rows -/
theorem edge_out (hm : ∀ i, inRange (srcCol (aEdges m c)) i = 1#1) :
    W14 m ρ c (Proc.devRef .tc main_v73)
      = edgeG (aAttr m c) (gatK (F := Ideal) (aEdges m c) (W11 m ρ c (Proc.devRef .tc main_v66))) (aEncW m c) (fun k => aEncB m c (ix1 k))
          (matOf (aLinW m c) 2) (vecOf (aLinB m c) 2) := by
  refine ((W14_arr m ρ c 6).trans (region4_value (V13 m ρ) c)).trans ?_
  rw [edge_rows m ρ c hm, edge_encB m ρ c, edge_linW m ρ c, edge_linB m ρ c]
  rw [show V13 m ρ c main_arg2 = aAttr m c from arg2_13 m ρ c, show V13 m ρ c main_arg3 = aEncW m c from arg3_13 m ρ c]

/-! ## The nine arrays the node-update region finds -/

/-- the old table: region 3's exit, untouched in between -/
theorem node_table : V15 m ρ c main_v66 = W11 m ρ c (Proc.devRef .tc main_v66) := table_in m ρ c

/-- the sums: region 4's messages added into their destination rows -/
theorem node_agg (hm : ∀ i, inRange (srcCol (aEdges m c)) i = 1#1) :
    V15 m ρ c main_v76
      = scaK (F := Ideal) (aEdges m c)
          (edgeG (aAttr m c) (gatK (F := Ideal) (aEdges m c) (W11 m ρ c (Proc.devRef .tc main_v66))) (aEncW m c) (fun k => aEncB m c (ix1 k))
            (matOf (aLinW m c) 2) (vecOf (aLinB m c) 2)) := by
  have h := agg_of (F := Ideal) (W14 m ρ c)
  rw [ids_dst14 m ρ c, edge_out m ρ c hm] at h
  exact h.trans (scaK_eq (F := Ideal) _ _).symm

/-- the scale 1 + eps 2 -/
theorem node_scale : V15 m ρ c main_v80 (ix2 0 0) = cOne + aEps m c (ix1 2) := by
  have h := scale_of (F := Ideal) (W14 m ρ c)
  rw [arg5_14 m ρ c] at h
  exact (congrFun h (ix2 0 0)).trans (scale_at (aEps m c) 2 (by decide) _ _ _)

/-- the first node map's matrix -/
theorem node_w1 : V15 m ρ c main_v94 = matOf (aW1 m c) 2 := by
  have h := w1_of (F := Ideal) (W14 m ρ c)
  rw [arg8_14 m ρ c] at h
  exact h.trans (mat_slice (aW1 m c) 2 (by decide) _ _)

/-- the second node map's matrix -/
theorem node_w2 : V15 m ρ c main_v96 = matOf (aW2 m c) 2 := by
  have h := w2_of (F := Ideal) (W14 m ρ c)
  rw [arg10_14 m ρ c] at h
  exact h.trans (mat_slice (aW2 m c) 2 (by decide) _ _)

/-- the first node map's bias -/
theorem node_b1 : (fun k : Fin 64 => V15 m ρ c main_v83 (ix2 0 k)) = vecOf (aB1 m c) 2 := by
  have h := b1_of (F := Ideal) (W14 m ρ c)
  rw [arg9_14 m ρ c] at h
  exact (congrArg (fun (x : FVec Ideal S1x64 .f32) => fun k : Fin 64 => x (ix2 0 k)) h).trans (row_slice (aB1 m c) 2 (by decide) _ _ _)

/-- the second node map's bias -/
theorem node_b2 : (fun k : Fin 64 => V15 m ρ c main_v86 (ix2 0 k)) = vecOf (aB2 m c) 2 := by
  have h := b2_of (F := Ideal) (W14 m ρ c)
  rw [arg11_14 m ρ c] at h
  exact (congrArg (fun (x : FVec Ideal S1x64 .f32) => fun k : Fin 64 => x (ix2 0 k)) h).trans (row_slice (aB2 m c) 2 (by decide) _ _ _)

/-- the normalisation's gain -/
theorem node_g : (fun k : Fin 64 => V15 m ρ c main_v89 (ix2 0 k)) = vecOf (aG m c) 2 := by
  have h := g_of (F := Ideal) (W14 m ρ c)
  rw [arg12_14 m ρ c] at h
  exact (congrArg (fun (x : FVec Ideal S1x64 .f32) => fun k : Fin 64 => x (ix2 0 k)) h).trans (row_slice (aG m c) 2 (by decide) _ _ _)

/-- the normalisation's shift -/
theorem node_bt : (fun k : Fin 64 => V15 m ρ c main_v92 (ix2 0 k)) = vecOf (aBt m c) 2 := by
  have h := bt_of (F := Ideal) (W14 m ρ c)
  rw [arg13_14 m ρ c] at h
  exact (congrArg (fun (x : FVec Ideal S1x64 .f32) => fun k : Fin 64 => x (ix2 0 k)) h).trans (row_slice (aBt m c) 2 (by decide) _ _ _)

end Walk

end Round2

variable (m : (ℓ : Loc nD τ sig) → Buf (Elt Ideal) ℓ) (ρ : Dev nD → PrngReg) (c : Dev nD)

/-- The node table after round 2 is the specification's round 2 of the table before it. -/
theorem kernel_layer2 (hm : ∀ i, inRange (srcCol (aEdges m c)) i = 1#1) :
    W16 m ρ c (Proc.devRef .tc main_v97) = specLayer m c 2 (W11 m ρ c (Proc.devRef .tc main_v66)) := by
  -- region 5's output is the node update of the nine arrays it finds
  refine ((W16_arr m ρ c 9).trans (region5_value (V15 m ρ) c)).trans ?_
  -- each of the nine is the array the specification's round 2 applies the node update to
  rw [Round2.node_table m ρ c, Round2.node_agg m ρ c hm, Round2.node_scale m ρ c, Round2.node_w1 m ρ c, Round2.node_b1 m ρ c,
    Round2.node_w2 m ρ c, Round2.node_b2 m ρ c, Round2.node_g m ρ c, Round2.node_bt m ρ c]
  -- the specification's round unfolds to the same node update of the same nine
  unfold specLayer layer update message
  rfl

end Cert.KernelIdeal.Gen

end
-- ==== Proof.KernelValue.lean ====
/-
  The kernel's result: the three rounds in sequence.
-/
import proofs.«415458_j8564164788771_1_alg».proof.Proof.KernelTerms
import proofs.«415458_j8564164788771_1_alg».proof.Proof.KernelLayer0
import proofs.«415458_j8564164788771_1_alg».proof.Proof.KernelLayer1
import proofs.«415458_j8564164788771_1_alg».proof.Proof.KernelLayer2
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Gen

open Idealize.ShloMosaic Idealize.ShloMosaic.TcCoe Idealize.ShloMosaic.ValueIdx Idealize.SL.Sem Idealize.ShloMosaic.StableHlo
open Cert.Gine

variable (m : (ℓ : Loc nD τ sig) → Buf (Elt Ideal) ℓ) (ρ : Dev nD → PrngReg) (c : Dev nD)

/-- the three rounds of the specification at the kernel's arguments -/
def specNet (m : (ℓ : Loc nD τ sig) → Buf (Elt Ideal) ℓ) (c : Dev nD) : FVec Ideal S50000x64 .f32 :=
  net (aAttr m c) (aEncW m c) (aEncB m c) (aEps m c) (aLinW m c) (aLinB m c) (aW1 m c) (aB1 m c) (aW2 m c) (aB2 m c)
    (aG m c) (aBt m c) (gatK (F := Ideal) (aEdges m c)) (scaK (F := Ideal) (aEdges m c)) (aX m c)

/-- What the fold leaves at the result buffer is the specification's three rounds of the first argument. -/
theorem kernel_value (hm : ∀ i, inRange (srcCol (aEdges m c)) i = 1#1) :
    W16 m ρ c (Proc.devRef .tc main_v97) = specNet m c := by
  rw [kernel_layer2 m ρ c hm, kernel_layer1 m ρ c hm, kernel_layer0 m ρ c hm]
  rfl

end Cert.KernelIdeal.Gen

end
-- ==== Proof.PreDecode.lean ====
/-
  What the precondition says of the edge list. Its last conjunct is "every source id is at least −50000 and below
  50000", a signed comparison of 32-bit words against two literals, folded over the 800000 edges. A source id below zero
  has 50000 added to it, without overflow, and lands between 0 and 49999; one at least zero is kept and is at most
  49999. So every wrapped id passes the gather's range test.
-/
import proofs.«415458_j8564164788771_1_alg».proof.Defs
import proofs.«415458_j8564164788771_1_alg».proof.Proof.Gen.Pre_finite_inputs
import proofs.«415458_j8564164788771_1_alg».proof.Proof.KernelTerms
import Idealize.ShloMosaic.Lib.ReduceAll
import Idealize.ShloMosaic.Lib.StableHlo.Predicate
import Idealize.ShloMosaic.Lib.ValueIdx

set_option maxRecDepth 16384

noncomputable section

namespace Cert.KernelIdeal.Gen

open Idealize.ShloMosaic Idealize.ShloMosaic.TcCoe Idealize.ShloMosaic.ValueIdx Idealize.SL.Sem
open Cert.Gine

namespace PreDecode

/-! ## A fold by "and" that meets only ones -/

/-- a fold by "and" over one-bit words that starts at 1 and meets only 1s ends at 1 -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- a reduce by "and" from the initial value 1 over an array of 1s is 1 at every index -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun n _ => hx n

/-! ## One word -/

/-- the wrapped id: 50000 is added to a word that reads negative -/
def wrapWord (s : BitVec 32) : BitVec 32 :=
  Scalar.select (IntOp.cmpi .slt s 0#32) (IntOp.addi s 50000#32) s

/-- A word between −50000 and 49999 (signed) wraps, without overflow, to a word between 0 and 49999: below zero the sum
s + 50000 lies between 0 and 49999, far from the ends of the signed range, so the word sum reads as the integer sum. -/
theorem wrapWord_bounds (s : BitVec 32) (hlo : -50000 ≤ s.toInt) (hhi : s.toInt < 50000) :
    0 ≤ (wrapWord s).toInt ∧ (wrapWord s).toInt ≤ 49999 := by
  unfold wrapWord
  by_cases hneg : s.toInt < 0
  · have hc : IntOp.cmpi .slt s 0#32 = 1#1 :=
      IntOp.cmpi_slt.2 (by rw [show (0#32 : BitVec 32).toInt = 0 from by decide]; exact hneg)
    rw [hc, select_one]
    show 0 ≤ (s + 50000#32).toInt ∧ (s + 50000#32).toInt ≤ 49999
    rw [BitVec.toInt_add, show (50000#32 : BitVec 32).toInt = 50000 from by decide, Int.bmod_def]
    omega
  · have hc : IntOp.cmpi .slt s 0#32 = 0#1 := eq_zero_of_ne_one fun h1 => hneg (by
      have := IntOp.cmpi_slt.1 h1
      rwa [show (0#32 : BitVec 32).toInt = 0 from by decide] at this)
    rw [hc, select_zero]
    omega

/-- both compares of the range test hold of the wrapped id, so their "and" is 1 -/
theorem wrapWord_inRange (s : BitVec 32) (hlo : -50000 ≤ s.toInt) (hhi : s.toInt < 50000) :
    IntOp.andi (IntOp.cmpi .sge (wrapWord s) 0#32) (IntOp.cmpi .sle (wrapWord s) 49999#32) = 1#1 := by
  obtain ⟨h0, h1⟩ := wrapWord_bounds s hlo hhi
  refine IntOp.andi_eq_one.2 ⟨IntOp.cmpi_sge.2 ?_, IntOp.cmpi_sle.2 ?_⟩
  · rw [show (0#32 : BitVec 32).toInt = 0 from by decide]; exact h0
  · rw [show (49999#32 : BitVec 32).toInt = 49999 from by decide]; exact h1

/-! ## The precondition's last conjunct -/

/-- The precondition's last conjunct read at one edge: the source id is at least −50000 and below 50000, signed. -/
theorem src_bounds (m : (ℓ : Loc nD τ sig) → Buf (Elt Ideal) ℓ)
    (hpre : Cert.Pre_KernelIdeal (hPre_finite_inputs := Cert.Pre_finite_inputs.Gen.facts) m) (c : Dev nD) (i : S800000.Idx) :
    -50000 ≤ (srcIds (aEdges m c) i).toInt ∧ (srcIds (aEdges m c) i).toInt < 50000 := by
  haveI : Subsingleton S_.Idx := ⟨fun a b => funext fun d => d.elim0⟩
  -- the precondition at its one index, written out: a chain of "and"s whose last operand is the fold over the edges
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h
  have h73 := (IntOp.andi_eq_one.1 h).2
  clear h
  -- the fold by "and" is 1, so both compares are 1 at every edge
  have hall := Host.reduce_andi_all _ _ _ _ _ h73 i
  obtain ⟨hge, hlt⟩ := IntOp.andi_eq_one.1 hall
  have hge' := IntOp.cmpi_sge.1 hge
  have hlt' := IntOp.cmpi_slt.1 hlt
  -- the two literals read signed are −50000 and 50000
  refine ⟨?_, ?_⟩
  · rw [← show (4294917296#32 : BitVec 32).toInt = -50000 from by decide]; exact hge'
  · rw [← show (50000#32 : BitVec 32).toInt = 50000 from by decide]; exact hlt'

end PreDecode

/-- Under the precondition every edge's wrapped source id passes the gather's range test. -/
theorem mask_of_pre (m : (ℓ : Loc nD τ sig) → Buf (Elt Ideal) ℓ)
    (hpre : Cert.Pre_KernelIdeal (hPre_finite_inputs := Cert.Pre_finite_inputs.Gen.facts) m) (c : Dev nD) :
    ∀ i, inRange (srcCol (aEdges m c)) i = 1#1 := by
  intro i
  unfold inRange
  -- the fold over the size-1 axis starts at 1; it is enough that the two compares hold at every index of the column
  refine PreDecode.reduce_andi_one _ _ _ _ _ rfl fun k => ?_
  -- the column's entry at any index is the wrapped source id of some edge
  obtain ⟨k', hk'⟩ : ∃ k', srcCol (aEdges m c) k = PreDecode.wrapWord (srcIds (aEdges m c) k') := ⟨_, rfl⟩
  obtain ⟨hlo, hhi⟩ := PreDecode.src_bounds m hpre c k'
  have hw := PreDecode.wrapWord_inRange _ hlo hhi
  rw [← hk'] at hw
  exact hw

end Cert.KernelIdeal.Gen

end
-- ==== Proof.RefTerms.lean ====
/-
  Names for the reference's gather and scatter-add: the node table's rows at the column of wrapped source ids, and the
  sum of the messages into a zero array at the column of destination ids, as the reference's own stages spell them.
-/
import proofs.«415458_j8564164788771_1_alg».proof.Proof.RefRead
import proofs.«415458_j8564164788771_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo
open Cert.Gine

/-- the gather of the node table's rows at the source ids -/
def gatR (x1 : IVec S2x800000 32) (h : FVec Ideal S50000x64 .f32) : FVec Ideal S800000x64 .f32 :=
  Host.gather gather_S50000x64_S800000x1_S800000x64_1_0_n_n_0_1_164 h (val_main_v21 (F := Ideal) x1)

/-- the sum of the messages into their destination rows -/
def scaR (x1 : IVec S2x800000 32) (u : FVec Ideal S800000x64 .f32) : FVec Ideal S50000x64 .f32 :=
  Host.scatterAdd scatter_S50000x64_S800000x1_S800000x64_1_0_0_1 (val_main_v25 (F := Ideal)) (val_main_v26 (F := Ideal) x1) u

/-- round `l` of the specification at the reference's arguments -/
def specLayerR (x0 : FVec Ideal S50000x64 .f32) (x1 : IVec S2x800000 32) (x2 : FVec Ideal S800000x4 .f32) (x3 : FVec Ideal S4x64 .f32)
    (x4 : FVec Ideal S64 .f32) (x5 : FVec Ideal S3 .f32) (x6 : FVec Ideal S3x64x64 .f32) (x7 : FVec Ideal S3x64 .f32)
    (x8 : FVec Ideal S3x64x64 .f32) (x9 : FVec Ideal S3x64 .f32) (x10 : FVec Ideal S3x64x64 .f32) (x11 x12 x13 : FVec Ideal S3x64 .f32) (l : Fin 3) (h : FVec Ideal S50000x64 .f32) : FVec Ideal S50000x64 .f32 :=
  layer x2 x3 x4 x5 x6 x7 x8 x9 x10 x11 x12 x13 (gatR x1) (scaR x1) l h

end Cert.ReferenceIdeal.RefValue

end
-- ==== Proof.RefLayer0.lean ====
/-
  Round 0 of the reference is the specification's round 0. Read one operation at a time, the reference's stages are:
  the encoded edge attributes (a product with the 4 × 64 encoder and its bias, shared by the rounds), the round's linear
  map of them, the gathered source rows added and clamped at zero, the sum into destination rows, then per node the
  scaled old row plus the sum, two linear maps with a clamp after each, the old row added back, and the row's
  normalisation. A host product is the plain sum over the contracted coordinate and a host row sum is its zero initial
  value plus the plain sum, so each stage at an index is the specification's expression at that index.
-/
import proofs.«415458_j8564164788771_1_alg».proof.Proof.RefRead
import proofs.«415458_j8564164788771_1_alg».proof.Proof.Spec
import proofs.«415458_j8564164788771_1_alg».proof.Proof.RefTerms
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo
open Cert.Gine

/-- the round's number -/
local notation "ℓ" => (0 : Fin 3)

/-- an index into a matrix is its row and column coordinates -/
theorem ix2_rowOf_colOf_r0 {a b : Nat} (i : (⟨2, ![a, b]⟩ : Shape).Idx) : ix2 (rowOf i) (colOf i) = i :=
  funext fun d => Fin.ext (by match d with | ⟨0, _⟩ => rfl | ⟨1, _⟩ => rfl)

section Round
variable (x0 : FVec Ideal S50000x64 .f32) (x1 : IVec S2x800000 32) (x2 : FVec Ideal S800000x4 .f32)
  (x3 : FVec Ideal S4x64 .f32) (x4 : FVec Ideal S64 .f32) (x5 : FVec Ideal S3 .f32) (x6 : FVec Ideal S3x64x64 .f32)
  (x7 : FVec Ideal S3x64 .f32) (x8 : FVec Ideal S3x64x64 .f32) (x9 : FVec Ideal S3x64 .f32)
  (x10 : FVec Ideal S3x64x64 .f32) (x11 x12 x13 : FVec Ideal S3x64 .f32)

/-- the node table the round starts from -/
local notation:max "tbl" => x0

/-! ## The round's slices of the stacked weights

A slice of one matrix out of the stack followed by dropping the unit axis reads the stack at the round's number and the
matrix's own row and column (the row-major position `row * 64 + col` splits back into `row` and `col`); a slice of one
vector, dropping the unit axis, and spreading it over all rows reads the stack at the round's number and the column. -/

/-- the round's matrix of the linear map of the encoded attributes -/
theorem w_lin_r0 (j : S64x64.Idx) : val_main_v9 (F := Ideal) x6 j = matOf x6 ℓ j := by
  rw [val_main_v9_apply, val_main_v8_apply]
  exact congrArg x6 (funext fun d => Fin.ext (by
    have h0 : (j 0).val < 64 := (j 0).isLt
    have h1 : (j 1).val < 64 := (j 1).isLt
    match d with
    | ⟨0, _⟩ => rfl
    | ⟨1, _⟩ => show ((j 0).val * 64 + (j 1).val) / 64 % 64 = (j 0).val; omega
    | ⟨2, _⟩ => show ((j 0).val * 64 + (j 1).val) % 64 = (j 1).val; omega))

/-- the round's matrix of the node's first linear map -/
theorem w_one_r0 (j : S64x64.Idx) : val_main_v35 (F := Ideal) x8 j = matOf x8 ℓ j := by
  rw [val_main_v35_apply, val_main_v34_apply]
  exact congrArg x8 (funext fun d => Fin.ext (by
    have h0 : (j 0).val < 64 := (j 0).isLt
    have h1 : (j 1).val < 64 := (j 1).isLt
    match d with
    | ⟨0, _⟩ => rfl
    | ⟨1, _⟩ => show ((j 0).val * 64 + (j 1).val) / 64 % 64 = (j 0).val; omega
    | ⟨2, _⟩ => show ((j 0).val * 64 + (j 1).val) % 64 = (j 1).val; omega))

/-- the round's matrix of the node's second linear map -/
theorem w_two_r0 (j : S64x64.Idx) : val_main_v44 (F := Ideal) x10 j = matOf x10 ℓ j := by
  rw [val_main_v44_apply, val_main_v43_apply]
  exact congrArg x10 (funext fun d => Fin.ext (by
    have h0 : (j 0).val < 64 := (j 0).isLt
    have h1 : (j 1).val < 64 := (j 1).isLt
    match d with
    | ⟨0, _⟩ => rfl
    | ⟨1, _⟩ => show ((j 0).val * 64 + (j 1).val) / 64 % 64 = (j 0).val; omega
    | ⟨2, _⟩ => show ((j 0).val * 64 + (j 1).val) % 64 = (j 1).val; omega))

/-- the round's bias of the linear map of the encoded attributes, over all edges -/
theorem b_lin_r0 (i : S800000x64.Idx) : val_main_v14 (F := Ideal) x7 i = vecOf x7 ℓ (colOf i) := by
  rw [val_main_v14_apply, val_main_v13_apply, val_main_v12_apply, val_main_v11_apply]
  exact congrArg x7 (funext fun d => Fin.ext (by
    have h1 : (i 1).val < 64 := (i 1).isLt
    match d with
    | ⟨0, _⟩ => rfl
    | ⟨1, _⟩ => show (i 1).val % 64 = (i 1).val; omega))

/-- the round's bias of the node's first linear map, over all nodes -/
theorem b_one_r0 (i : S50000x64.Idx) : val_main_v40 (F := Ideal) x9 i = vecOf x9 ℓ (colOf i) := by
  rw [val_main_v40_apply, val_main_v39_apply, val_main_v38_apply, val_main_v37_apply]
  exact congrArg x9 (funext fun d => Fin.ext (by
    have h1 : (i 1).val < 64 := (i 1).isLt
    match d with
    | ⟨0, _⟩ => rfl
    | ⟨1, _⟩ => show (i 1).val % 64 = (i 1).val; omega))

/-- the round's bias of the node's second linear map, over all nodes -/
theorem b_two_r0 (i : S50000x64.Idx) : val_main_v49 (F := Ideal) x11 i = vecOf x11 ℓ (colOf i) := by
  rw [val_main_v49_apply, val_main_v48_apply, val_main_v47_apply, val_main_v46_apply]
  exact congrArg x11 (funext fun d => Fin.ext (by
    have h1 : (i 1).val < 64 := (i 1).isLt
    match d with
    | ⟨0, _⟩ => rfl
    | ⟨1, _⟩ => show (i 1).val % 64 = (i 1).val; omega))

/-- the round's gain of the normalisation, over all nodes -/
theorem gain_r0 (i : S50000x64.Idx) : val_main_v74 (F := Ideal) x12 i = vecOf x12 ℓ (colOf i) := by
  rw [val_main_v74_apply, val_main_v73_apply, val_main_v72_apply, val_main_v71_apply]
  exact congrArg x12 (funext fun d => Fin.ext (by
    have h1 : (i 1).val < 64 := (i 1).isLt
    match d with
    | ⟨0, _⟩ => rfl
    | ⟨1, _⟩ => show (i 1).val % 64 = (i 1).val; omega))

/-- the round's shift of the normalisation, over all nodes -/
theorem shift_r0 (i : S50000x64.Idx) : val_main_v79 (F := Ideal) x13 i = vecOf x13 ℓ (colOf i) := by
  rw [val_main_v79_apply, val_main_v78_apply, val_main_v77_apply, val_main_v76_apply]
  exact congrArg x13 (funext fun d => Fin.ext (by
    have h1 : (i 1).val < 64 := (i 1).isLt
    match d with
    | ⟨0, _⟩ => rfl
    | ⟨1, _⟩ => show (i 1).val % 64 = (i 1).val; omega))

/-! ## The messages

The encoded attributes of an edge are the product of its attribute row with the encoder plus the encoder's bias; the
round's linear map of them is the product with the round's matrix plus the round's bias; the message adds the gathered
source row and clamps at zero. Each product is the plain sum over the contracted coordinate. -/

/-- the encoded edge attributes at edge `r`, feature `k` -/
theorem enc_stage_r0 (r : Fin 800000) (k : Fin 64) :
    val_main_v3 (F := Ideal) x2 x3 x4 (ix2 r k) = encRow (fun q => x2 (ix2 r q)) x3 (fun k => x4 (ix1 k)) k := by
  rw [val_main_v3_apply, val_main_v0_apply, val_main_v2_apply, val_main_v1_apply, Ideal.addf_def]
  unfold encRow
  refine congrArg₂ (· + ·) (Finset.sum_congr rfl fun q _ => ?_) ?_
  · exact congrArg₂ (fun a b => x2 a * x3 b)
      (funext fun d => Fin.ext (by match d with | ⟨0, _⟩ => rfl | ⟨1, _⟩ => rfl))
      (funext fun d => Fin.ext (by match d with | ⟨0, _⟩ => rfl | ⟨1, _⟩ => rfl))
  · exact congrArg x4 (funext fun d => Fin.ext (by match d with | ⟨0, _⟩ => rfl))

/-- the round's linear map of the encoded attributes at edge `r`, feature `j` -/
theorem lin_stage_r0 (r : Fin 800000) (j : Fin 64) :
    val_main_v15 (F := Ideal) x2 x3 x4 x6 x7 (ix2 r j)
      = linRow (fun q => x2 (ix2 r q)) x3 (fun k => x4 (ix1 k)) (matOf x6 ℓ) (vecOf x7 ℓ) j := by
  rw [val_main_v15_apply, val_main_v10_apply, b_lin_r0, Ideal.addf_def]
  unfold linRow
  refine congrArg₂ (· + ·) (Finset.sum_congr rfl fun k _ => ?_) rfl
  rw [show lidx_main_v10 (ix2 r j) k = ix2 r k from
      funext fun d => Fin.ext (by match d with | ⟨0, _⟩ => rfl | ⟨1, _⟩ => rfl),
    show ridx_main_v10 (ix2 r j) k = ix2 k j from
      funext fun d => Fin.ext (by match d with | ⟨0, _⟩ => rfl | ⟨1, _⟩ => rfl),
    enc_stage_r0, w_lin_r0]

/-- The message array is the specification's messages from the gathered source rows: the gather is kept as it stands. -/
theorem msg_stage_r0 :
    val_main_v24 (F := Ideal) x0 x1 x2 x3 x4 x6 x7 = message x2 x3 x4 x6 x7 ℓ (gatR x1 tbl) := by
  funext i
  rw [← ix2_rowOf_colOf_r0 i, val_main_v24_apply, val_main_v23_apply, lin_stage_r0, val_main_call0_v0_apply,
    val_main_call0_cst_apply, Ideal.addf_def, Ideal.maximumf_def, Ideal.ofBits_def, Ideal.ofBits_zero_f32]
  rfl

/-- The sum into destination rows is the scatter-add of the specification's messages: the scatter-add is kept as it
    stands, over the same zero array and the same column of destination ids. -/
theorem agg_stage_r0 :
    val_main_v27 (F := Ideal) x0 x1 x2 x3 x4 x6 x7 = scaR x1 (message x2 x3 x4 x6 x7 ℓ (gatR x1 tbl)) := by
  unfold val_main_v27
  rw [msg_stage_r0]
  rfl

/-! ## The node update

Per node: the scaled old row plus the summed messages, two linear maps with a clamp at zero after each, the old row added
back, and the row's normalisation. A row sum is its zero initial value plus the plain sum over the row, and the mean
divides it by the literal 64. -/

/-- the round's entry of the three eps values: the slice of one entry, read as a scalar -/
theorem eps_stage_r0 (j : S_.Idx) : val_main_v29 (F := Ideal) x5 j = x5 (ix1 ℓ) := by
  unfold val_main_v29
  rw [shapeCast_apply (val_main_v28 (F := Ideal) x5) shapeCasts_S1_S_ j (ix1 (0 : Fin 1)) (by
    rw [Shape.rowMajor_val_one]
    have h : (S_.rowMajor j).val < 1 := (S_.rowMajor j).isLt
    show 0 = (S_.rowMajor j).val
    omega), val_main_v28_apply]
  exact congrArg x5 (funext fun d => Fin.ext (by match d with | ⟨0, _⟩ => rfl))

/-- the scale `1 + eps` at every entry of the table -/
theorem scale_stage_r0 (i : S50000x64.Idx) : val_main_v31 (F := Ideal) x5 i = cOne + x5 (ix1 ℓ) := by
  rw [val_main_v31_apply, val_main_v30_apply, val_main_cst_1_apply, eps_stage_r0, Ideal.addf_def, Ideal.ofBits_def]

/-- `z = s · h + agg` at node `r`, feature `k` -/
theorem comb_stage_r0 (r : Fin 50000) (k : Fin 64) :
    val_main_v33 (F := Ideal) x0 x1 x2 x3 x4 x5 x6 x7 (ix2 r k)
      = combRow (cOne + x5 (ix1 ℓ)) (fun k => tbl (ix2 r k))
          (fun k => val_main_v27 (F := Ideal) x0 x1 x2 x3 x4 x6 x7 (ix2 r k)) k := by
  rw [val_main_v33_apply, val_main_v32_apply, scale_stage_r0, Ideal.addf_def, Ideal.mulf_def]
  rfl

/-- the first linear map and clamp at node `r`, feature `k` -/
theorem hid_stage_r0 (r : Fin 50000) (k : Fin 64) :
    val_main_v42 (F := Ideal) x0 x1 x2 x3 x4 x5 x6 x7 x8 x9 (ix2 r k)
      = hidRow (cOne + x5 (ix1 ℓ)) (fun k => tbl (ix2 r k))
          (fun k => val_main_v27 (F := Ideal) x0 x1 x2 x3 x4 x6 x7 (ix2 r k)) (matOf x8 ℓ) (vecOf x9 ℓ) k := by
  rw [val_main_v42_apply, val_main_v41_apply, val_main_v36_apply, b_one_r0, val_main_call1_v0_apply,
    val_main_call1_cst_apply, Ideal.addf_def, Ideal.maximumf_def, Ideal.ofBits_def, Ideal.ofBits_zero_f32]
  unfold hidRow
  refine congrArg₂ max (congrArg₂ (· + ·) (Finset.sum_congr rfl fun q _ => ?_) rfl) rfl
  rw [show lidx_main_v36 (ix2 r k) q = ix2 r q from
      funext fun d => Fin.ext (by match d with | ⟨0, _⟩ => rfl | ⟨1, _⟩ => rfl),
    show ridx_main_v36 (ix2 r k) q = ix2 q k from
      funext fun d => Fin.ext (by match d with | ⟨0, _⟩ => rfl | ⟨1, _⟩ => rfl),
    comb_stage_r0, w_one_r0]

/-- the second linear map and clamp with the old row added back, at node `r`, feature `j` -/
theorem pre_stage_r0 (r : Fin 50000) (j : Fin 64) :
    val_main_v52 (F := Ideal) x0 x1 x2 x3 x4 x5 x6 x7 x8 x9 x10 x11 (ix2 r j)
      = preRow (cOne + x5 (ix1 ℓ)) (fun k => tbl (ix2 r k))
          (fun k => val_main_v27 (F := Ideal) x0 x1 x2 x3 x4 x6 x7 (ix2 r k)) (matOf x8 ℓ) (vecOf x9 ℓ)
          (matOf x10 ℓ) (vecOf x11 ℓ) j := by
  rw [val_main_v52_apply, val_main_v51_apply, val_main_v50_apply, val_main_v45_apply, b_two_r0, val_main_call2_v0_apply,
    val_main_call2_cst_apply, Ideal.addf_def, Ideal.addf_def, Ideal.maximumf_def, Ideal.ofBits_def, Ideal.ofBits_zero_f32]
  unfold preRow
  refine congrArg₂ (· + ·) (congrArg₂ max (congrArg₂ (· + ·) (Finset.sum_congr rfl fun q _ => ?_) rfl) rfl) rfl
  rw [show lidx_main_v45 (ix2 r j) q = ix2 r q from
      funext fun d => Fin.ext (by match d with | ⟨0, _⟩ => rfl | ⟨1, _⟩ => rfl),
    show ridx_main_v45 (ix2 r j) q = ix2 q j from
      funext fun d => Fin.ext (by match d with | ⟨0, _⟩ => rfl | ⟨1, _⟩ => rfl),
    hid_stage_r0, w_two_r0]

/-- the row's mean at node `r` -/
theorem mean_stage_r0 (r : Fin 50000) :
    val_main_v56 (F := Ideal) x0 x1 x2 x3 x4 x5 x6 x7 x8 x9 x10 x11 (ix2 r (0 : Fin 1))
      = meanRow (cOne + x5 (ix1 ℓ)) (fun k => tbl (ix2 r k))
          (fun k => val_main_v27 (F := Ideal) x0 x1 x2 x3 x4 x6 x7 (ix2 r k)) (matOf x8 ℓ) (vecOf x9 ℓ)
          (matOf x10 ℓ) (vecOf x11 ℓ) := by
  rw [val_main_v56_apply, val_main_v54_apply, val_main_v53_apply, val_main_cst_2_apply, val_main_v55_apply,
    val_main_cst_3_apply, Ideal.hostDivf_def, Ideal.ofBits_def, Ideal.ofBits_def, Ideal.ofBits_zero_f32, zero_add]
  unfold meanRow
  refine congrArg₂ Ideal.div (Finset.sum_congr rfl fun q _ => ?_) rfl
  rw [show idx_main_v53 (idx_main_v54 (ix2 r (0 : Fin 1))) q = ix2 r q from
      funext fun d => Fin.ext (by match d with | ⟨0, _⟩ => rfl | ⟨1, _⟩ => rfl),
    pre_stage_r0]

/-- the deviation from the row's mean at node `r`, feature `j` -/
theorem dev_stage_r0 (r : Fin 50000) (j : Fin 64) :
    val_main_v58 (F := Ideal) x0 x1 x2 x3 x4 x5 x6 x7 x8 x9 x10 x11 (ix2 r j)
      = devRow (cOne + x5 (ix1 ℓ)) (fun k => tbl (ix2 r k))
          (fun k => val_main_v27 (F := Ideal) x0 x1 x2 x3 x4 x6 x7 (ix2 r k)) (matOf x8 ℓ) (vecOf x9 ℓ)
          (matOf x10 ℓ) (vecOf x11 ℓ) j := by
  rw [val_main_v58_apply, val_main_v57_apply, pre_stage_r0,
    show idx_main_v57 (ix2 r j) = ix2 r (0 : Fin 1) from
      funext fun d => Fin.ext (by match d with | ⟨0, _⟩ => rfl | ⟨1, _⟩ => rfl),
    mean_stage_r0, Ideal.subf_def]
  rfl

/-- the same deviation, which the reference forms a second time for the normalised row -/
theorem dev_again_r0 (r : Fin 50000) (j : Fin 64) :
    val_main_v65 (F := Ideal) x0 x1 x2 x3 x4 x5 x6 x7 x8 x9 x10 x11 (ix2 r j)
      = devRow (cOne + x5 (ix1 ℓ)) (fun k => tbl (ix2 r k))
          (fun k => val_main_v27 (F := Ideal) x0 x1 x2 x3 x4 x6 x7 (ix2 r k)) (matOf x8 ℓ) (vecOf x9 ℓ)
          (matOf x10 ℓ) (vecOf x11 ℓ) j := by
  rw [val_main_v65_apply, val_main_v64_apply, pre_stage_r0,
    show idx_main_v64 (ix2 r j) = ix2 r (0 : Fin 1) from
      funext fun d => Fin.ext (by match d with | ⟨0, _⟩ => rfl | ⟨1, _⟩ => rfl),
    mean_stage_r0, Ideal.subf_def]
  rfl

/-- the mean of the squared deviations at node `r` -/
theorem var_stage_r0 (r : Fin 50000) :
    val_main_v63 (F := Ideal) x0 x1 x2 x3 x4 x5 x6 x7 x8 x9 x10 x11 (ix2 r (0 : Fin 1))
      = varRow (cOne + x5 (ix1 ℓ)) (fun k => tbl (ix2 r k))
          (fun k => val_main_v27 (F := Ideal) x0 x1 x2 x3 x4 x6 x7 (ix2 r k)) (matOf x8 ℓ) (vecOf x9 ℓ)
          (matOf x10 ℓ) (vecOf x11 ℓ) := by
  rw [val_main_v63_apply, val_main_v61_apply, val_main_v60_apply, val_main_cst_4_apply, val_main_v62_apply,
    val_main_cst_5_apply, Ideal.hostDivf_def, Ideal.ofBits_def, Ideal.ofBits_def, Ideal.ofBits_zero_f32, zero_add]
  unfold varRow
  refine congrArg₂ Ideal.div (Finset.sum_congr rfl fun q _ => ?_) rfl
  rw [show idx_main_v60 (idx_main_v61 (ix2 r (0 : Fin 1))) q = ix2 r q from
      funext fun d => Fin.ext (by match d with | ⟨0, _⟩ => rfl | ⟨1, _⟩ => rfl),
    val_main_v59_apply, dev_stage_r0, Ideal.mulf_def]

/-- The node table after the round is the specification's update of the table before it and the summed messages: the
    deviation times the reciprocal square root of the variance plus ε, times the gain, plus the shift. -/
theorem upd_stage_r0 :
    val_main_v80 (F := Ideal) x0 x1 x2 x3 x4 x5 x6 x7 x8 x9 x10 x11 x12 x13
      = update x5 x8 x9 x10 x11 x12 x13 ℓ tbl (val_main_v27 (F := Ideal) x0 x1 x2 x3 x4 x6 x7) := by
  funext i
  rw [← ix2_rowOf_colOf_r0 i, val_main_v80_apply, val_main_v75_apply, val_main_v70_apply, dev_again_r0, val_main_v69_apply,
    val_main_v68_apply, val_main_v67_apply,
    show idx_main_v69 (ix2 (rowOf i) (colOf i)) = ix2 (rowOf i) (0 : Fin 1) from
      funext fun d => Fin.ext (by match d with | ⟨0, _⟩ => rfl | ⟨1, _⟩ => rfl),
    var_stage_r0, val_main_v66_apply, val_main_cst_6_apply, gain_r0, shift_r0, Ideal.hostUnary_rsqrt_def,
    Ideal.addf_def, Ideal.addf_def, Ideal.mulf_def, Ideal.mulf_def, Ideal.ofBits_def]
  rfl

end Round

/-- The reference's node table after round 0 is the specification's round 0 of the table before it. -/
theorem ref_layer0 (x0 : FVec Ideal S50000x64 .f32) (x1 : IVec S2x800000 32) (x2 : FVec Ideal S800000x4 .f32) (x3 : FVec Ideal S4x64 .f32)
    (x4 : FVec Ideal S64 .f32) (x5 : FVec Ideal S3 .f32) (x6 : FVec Ideal S3x64x64 .f32) (x7 : FVec Ideal S3x64 .f32)
    (x8 : FVec Ideal S3x64x64 .f32) (x9 : FVec Ideal S3x64 .f32) (x10 : FVec Ideal S3x64x64 .f32) (x11 x12 x13 : FVec Ideal S3x64 .f32) :
    val_main_v80 (F := Ideal) x0 x1 x2 x3 x4 x5 x6 x7 x8 x9 x10 x11 x12 x13 = specLayerR x0 x1 x2 x3 x4 x5 x6 x7 x8 x9 x10 x11 x12 x13 0 x0 := by
  rw [upd_stage_r0, agg_stage_r0]
  rfl

end Cert.ReferenceIdeal.RefValue

end
-- ==== Proof.RefLayer1.lean ====
/-
  Round 1 of the reference is the specification's round 1. Read one operation at a time, the reference's stages are:
  the encoded edge attributes (a product with the 4 × 64 encoder and its bias, shared by the rounds), the round's linear
  map of them, the gathered source rows added and clamped at zero, the sum into destination rows, then per node the
  scaled old row plus the sum, two linear maps with a clamp after each, the old row added back, and the row's
  normalisation. A host product is the plain sum over the contracted coordinate and a host row sum is its zero initial
  value plus the plain sum, so each stage at an index is the specification's expression at that index.
-/
import proofs.«415458_j8564164788771_1_alg».proof.Proof.RefRead
import proofs.«415458_j8564164788771_1_alg».proof.Proof.Spec
import proofs.«415458_j8564164788771_1_alg».proof.Proof.RefTerms
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo
open Cert.Gine

/-- the round's number -/
local notation "ℓ" => (1 : Fin 3)

/-- an index into a matrix is its row and column coordinates -/
theorem ix2_rowOf_colOf_r1 {a b : Nat} (i : (⟨2, ![a, b]⟩ : Shape).Idx) : ix2 (rowOf i) (colOf i) = i :=
  funext fun d => Fin.ext (by match d with | ⟨0, _⟩ => rfl | ⟨1, _⟩ => rfl)

section Round
variable (x0 : FVec Ideal S50000x64 .f32) (x1 : IVec S2x800000 32) (x2 : FVec Ideal S800000x4 .f32)
  (x3 : FVec Ideal S4x64 .f32) (x4 : FVec Ideal S64 .f32) (x5 : FVec Ideal S3 .f32) (x6 : FVec Ideal S3x64x64 .f32)
  (x7 : FVec Ideal S3x64 .f32) (x8 : FVec Ideal S3x64x64 .f32) (x9 : FVec Ideal S3x64 .f32)
  (x10 : FVec Ideal S3x64x64 .f32) (x11 x12 x13 : FVec Ideal S3x64 .f32)

/-- the node table the round starts from -/
local notation:max "tbl" => (val_main_v80 (F := Ideal) x0 x1 x2 x3 x4 x5 x6 x7 x8 x9 x10 x11 x12 x13)

/-! ## The round's slices of the stacked weights

A slice of one matrix out of the stack followed by dropping the unit axis reads the stack at the round's number and the
matrix's own row and column (the row-major position `row * 64 + col` splits back into `row` and `col`); a slice of one
vector, dropping the unit axis, and spreading it over all rows reads the stack at the round's number and the column. -/

/-- the round's matrix of the linear map of the encoded attributes -/
theorem w_lin_r1 (j : S64x64.Idx) : val_main_v82 (F := Ideal) x6 j = matOf x6 ℓ j := by
  rw [val_main_v82_apply, val_main_v81_apply]
  exact congrArg x6 (funext fun d => Fin.ext (by
    have h0 : (j 0).val < 64 := (j 0).isLt
    have h1 : (j 1).val < 64 := (j 1).isLt
    match d with
    | ⟨0, _⟩ => rfl
    | ⟨1, _⟩ => show ((j 0).val * 64 + (j 1).val) / 64 % 64 = (j 0).val; omega
    | ⟨2, _⟩ => show ((j 0).val * 64 + (j 1).val) % 64 = (j 1).val; omega))

/-- the round's matrix of the node's first linear map -/
theorem w_one_r1 (j : S64x64.Idx) : val_main_v108 (F := Ideal) x8 j = matOf x8 ℓ j := by
  rw [val_main_v108_apply, val_main_v107_apply]
  exact congrArg x8 (funext fun d => Fin.ext (by
    have h0 : (j 0).val < 64 := (j 0).isLt
    have h1 : (j 1).val < 64 := (j 1).isLt
    match d with
    | ⟨0, _⟩ => rfl
    | ⟨1, _⟩ => show ((j 0).val * 64 + (j 1).val) / 64 % 64 = (j 0).val; omega
    | ⟨2, _⟩ => show ((j 0).val * 64 + (j 1).val) % 64 = (j 1).val; omega))

/-- the round's matrix of the node's second linear map -/
theorem w_two_r1 (j : S64x64.Idx) : val_main_v117 (F := Ideal) x10 j = matOf x10 ℓ j := by
  rw [val_main_v117_apply, val_main_v116_apply]
  exact congrArg x10 (funext fun d => Fin.ext (by
    have h0 : (j 0).val < 64 := (j 0).isLt
    have h1 : (j 1).val < 64 := (j 1).isLt
    match d with
    | ⟨0, _⟩ => rfl
    | ⟨1, _⟩ => show ((j 0).val * 64 + (j 1).val) / 64 % 64 = (j 0).val; omega
    | ⟨2, _⟩ => show ((j 0).val * 64 + (j 1).val) % 64 = (j 1).val; omega))

/-- the round's bias of the linear map of the encoded attributes, over all edges -/
theorem b_lin_r1 (i : S800000x64.Idx) : val_main_v87 (F := Ideal) x7 i = vecOf x7 ℓ (colOf i) := by
  rw [val_main_v87_apply, val_main_v86_apply, val_main_v85_apply, val_main_v84_apply]
  exact congrArg x7 (funext fun d => Fin.ext (by
    have h1 : (i 1).val < 64 := (i 1).isLt
    match d with
    | ⟨0, _⟩ => rfl
    | ⟨1, _⟩ => show (i 1).val % 64 = (i 1).val; omega))

/-- the round's bias of the node's first linear map, over all nodes -/
theorem b_one_r1 (i : S50000x64.Idx) : val_main_v113 (F := Ideal) x9 i = vecOf x9 ℓ (colOf i) := by
  rw [val_main_v113_apply, val_main_v112_apply, val_main_v111_apply, val_main_v110_apply]
  exact congrArg x9 (funext fun d => Fin.ext (by
    have h1 : (i 1).val < 64 := (i 1).isLt
    match d with
    | ⟨0, _⟩ => rfl
    | ⟨1, _⟩ => show (i 1).val % 64 = (i 1).val; omega))

/-- the round's bias of the node's second linear map, over all nodes -/
theorem b_two_r1 (i : S50000x64.Idx) : val_main_v122 (F := Ideal) x11 i = vecOf x11 ℓ (colOf i) := by
  rw [val_main_v122_apply, val_main_v121_apply, val_main_v120_apply, val_main_v119_apply]
  exact congrArg x11 (funext fun d => Fin.ext (by
    have h1 : (i 1).val < 64 := (i 1).isLt
    match d with
    | ⟨0, _⟩ => rfl
    | ⟨1, _⟩ => show (i 1).val % 64 = (i 1).val; omega))

/-- the round's gain of the normalisation, over all nodes -/
theorem gain_r1 (i : S50000x64.Idx) : val_main_v147 (F := Ideal) x12 i = vecOf x12 ℓ (colOf i) := by
  rw [val_main_v147_apply, val_main_v146_apply, val_main_v145_apply, val_main_v144_apply]
  exact congrArg x12 (funext fun d => Fin.ext (by
    have h1 : (i 1).val < 64 := (i 1).isLt
    match d with
    | ⟨0, _⟩ => rfl
    | ⟨1, _⟩ => show (i 1).val % 64 = (i 1).val; omega))

/-- the round's shift of the normalisation, over all nodes -/
theorem shift_r1 (i : S50000x64.Idx) : val_main_v152 (F := Ideal) x13 i = vecOf x13 ℓ (colOf i) := by
  rw [val_main_v152_apply, val_main_v151_apply, val_main_v150_apply, val_main_v149_apply]
  exact congrArg x13 (funext fun d => Fin.ext (by
    have h1 : (i 1).val < 64 := (i 1).isLt
    match d with
    | ⟨0, _⟩ => rfl
    | ⟨1, _⟩ => show (i 1).val % 64 = (i 1).val; omega))

/-! ## The messages

The encoded attributes of an edge are the product of its attribute row with the encoder plus the encoder's bias; the
round's linear map of them is the product with the round's matrix plus the round's bias; the message adds the gathered
source row and clamps at zero. Each product is the plain sum over the contracted coordinate. -/

/-- the encoded edge attributes at edge `r`, feature `k` -/
theorem enc_stage_r1 (r : Fin 800000) (k : Fin 64) :
    val_main_v3 (F := Ideal) x2 x3 x4 (ix2 r k) = encRow (fun q => x2 (ix2 r q)) x3 (fun k => x4 (ix1 k)) k := by
  rw [val_main_v3_apply, val_main_v0_apply, val_main_v2_apply, val_main_v1_apply, Ideal.addf_def]
  unfold encRow
  refine congrArg₂ (· + ·) (Finset.sum_congr rfl fun q _ => ?_) ?_
  · exact congrArg₂ (fun a b => x2 a * x3 b)
      (funext fun d => Fin.ext (by match d with | ⟨0, _⟩ => rfl | ⟨1, _⟩ => rfl))
      (funext fun d => Fin.ext (by match d with | ⟨0, _⟩ => rfl | ⟨1, _⟩ => rfl))
  · exact congrArg x4 (funext fun d => Fin.ext (by match d with | ⟨0, _⟩ => rfl))

/-- the round's linear map of the encoded attributes at edge `r`, feature `j` -/
theorem lin_stage_r1 (r : Fin 800000) (j : Fin 64) :
    val_main_v88 (F := Ideal) x2 x3 x4 x6 x7 (ix2 r j)
      = linRow (fun q => x2 (ix2 r q)) x3 (fun k => x4 (ix1 k)) (matOf x6 ℓ) (vecOf x7 ℓ) j := by
  rw [val_main_v88_apply, val_main_v83_apply, b_lin_r1, Ideal.addf_def]
  unfold linRow
  refine congrArg₂ (· + ·) (Finset.sum_congr rfl fun k _ => ?_) rfl
  rw [show lidx_main_v83 (ix2 r j) k = ix2 r k from
      funext fun d => Fin.ext (by match d with | ⟨0, _⟩ => rfl | ⟨1, _⟩ => rfl),
    show ridx_main_v83 (ix2 r j) k = ix2 k j from
      funext fun d => Fin.ext (by match d with | ⟨0, _⟩ => rfl | ⟨1, _⟩ => rfl),
    enc_stage_r1, w_lin_r1]

/-- The message array is the specification's messages from the gathered source rows: the gather is kept as it stands. -/
theorem msg_stage_r1 :
    val_main_v97 (F := Ideal) x0 x1 x2 x3 x4 x5 x6 x7 x8 x9 x10 x11 x12 x13 = message x2 x3 x4 x6 x7 ℓ (gatR x1 tbl) := by
  funext i
  rw [← ix2_rowOf_colOf_r1 i, val_main_v97_apply, val_main_v96_apply, lin_stage_r1, val_main_call3_v0_apply,
    val_main_call3_cst_apply, Ideal.addf_def, Ideal.maximumf_def, Ideal.ofBits_def, Ideal.ofBits_zero_f32]
  rfl

/-- The sum into destination rows is the scatter-add of the specification's messages: the scatter-add is kept as it
    stands, over the same zero array and the same column of destination ids. -/
theorem agg_stage_r1 :
    val_main_v100 (F := Ideal) x0 x1 x2 x3 x4 x5 x6 x7 x8 x9 x10 x11 x12 x13 = scaR x1 (message x2 x3 x4 x6 x7 ℓ (gatR x1 tbl)) := by
  unfold val_main_v100
  rw [msg_stage_r1]
  rfl

/-! ## The node update

Per node: the scaled old row plus the summed messages, two linear maps with a clamp at zero after each, the old row added
back, and the row's normalisation. A row sum is its zero initial value plus the plain sum over the row, and the mean
divides it by the literal 64. -/

/-- the round's entry of the three eps values: the slice of one entry, read as a scalar -/
theorem eps_stage_r1 (j : S_.Idx) : val_main_v102 (F := Ideal) x5 j = x5 (ix1 ℓ) := by
  unfold val_main_v102
  rw [shapeCast_apply (val_main_v101 (F := Ideal) x5) shapeCasts_S1_S_ j (ix1 (0 : Fin 1)) (by
    rw [Shape.rowMajor_val_one]
    have h : (S_.rowMajor j).val < 1 := (S_.rowMajor j).isLt
    show 0 = (S_.rowMajor j).val
    omega), val_main_v101_apply]
  exact congrArg x5 (funext fun d => Fin.ext (by match d with | ⟨0, _⟩ => rfl))

/-- the scale `1 + eps` at every entry of the table -/
theorem scale_stage_r1 (i : S50000x64.Idx) : val_main_v104 (F := Ideal) x5 i = cOne + x5 (ix1 ℓ) := by
  rw [val_main_v104_apply, val_main_v103_apply, val_main_cst_10_apply, eps_stage_r1, Ideal.addf_def, Ideal.ofBits_def]

/-- `z = s · h + agg` at node `r`, feature `k` -/
theorem comb_stage_r1 (r : Fin 50000) (k : Fin 64) :
    val_main_v106 (F := Ideal) x0 x1 x2 x3 x4 x5 x6 x7 x8 x9 x10 x11 x12 x13 (ix2 r k)
      = combRow (cOne + x5 (ix1 ℓ)) (fun k => tbl (ix2 r k))
          (fun k => val_main_v100 (F := Ideal) x0 x1 x2 x3 x4 x5 x6 x7 x8 x9 x10 x11 x12 x13 (ix2 r k)) k := by
  rw [val_main_v106_apply, val_main_v105_apply, scale_stage_r1, Ideal.addf_def, Ideal.mulf_def]
  rfl

/-- the first linear map and clamp at node `r`, feature `k` -/
theorem hid_stage_r1 (r : Fin 50000) (k : Fin 64) :
    val_main_v115 (F := Ideal) x0 x1 x2 x3 x4 x5 x6 x7 x8 x9 x10 x11 x12 x13 (ix2 r k)
      = hidRow (cOne + x5 (ix1 ℓ)) (fun k => tbl (ix2 r k))
          (fun k => val_main_v100 (F := Ideal) x0 x1 x2 x3 x4 x5 x6 x7 x8 x9 x10 x11 x12 x13 (ix2 r k)) (matOf x8 ℓ) (vecOf x9 ℓ) k := by
  rw [val_main_v115_apply, val_main_v114_apply, val_main_v109_apply, b_one_r1, val_main_call4_v0_apply,
    val_main_call4_cst_apply, Ideal.addf_def, Ideal.maximumf_def, Ideal.ofBits_def, Ideal.ofBits_zero_f32]
  unfold hidRow
  refine congrArg₂ max (congrArg₂ (· + ·) (Finset.sum_congr rfl fun q _ => ?_) rfl) rfl
  rw [show lidx_main_v109 (ix2 r k) q = ix2 r q from
      funext fun d => Fin.ext (by match d with | ⟨0, _⟩ => rfl | ⟨1, _⟩ => rfl),
    show ridx_main_v109 (ix2 r k) q = ix2 q k from
      funext fun d => Fin.ext (by match d with | ⟨0, _⟩ => rfl | ⟨1, _⟩ => rfl),
    comb_stage_r1, w_one_r1]

/-- the second linear map and clamp with the old row added back, at node `r`, feature `j` -/
theorem pre_stage_r1 (r : Fin 50000) (j : Fin 64) :
    val_main_v125 (F := Ideal) x0 x1 x2 x3 x4 x5 x6 x7 x8 x9 x10 x11 x12 x13 (ix2 r j)
      = preRow (cOne + x5 (ix1 ℓ)) (fun k => tbl (ix2 r k))
          (fun k => val_main_v100 (F := Ideal) x0 x1 x2 x3 x4 x5 x6 x7 x8 x9 x10 x11 x12 x13 (ix2 r k)) (matOf x8 ℓ) (vecOf x9 ℓ)
          (matOf x10 ℓ) (vecOf x11 ℓ) j := by
  rw [val_main_v125_apply, val_main_v124_apply, val_main_v123_apply, val_main_v118_apply, b_two_r1, val_main_call5_v0_apply,
    val_main_call5_cst_apply, Ideal.addf_def, Ideal.addf_def, Ideal.maximumf_def, Ideal.ofBits_def, Ideal.ofBits_zero_f32]
  unfold preRow
  refine congrArg₂ (· + ·) (congrArg₂ max (congrArg₂ (· + ·) (Finset.sum_congr rfl fun q _ => ?_) rfl) rfl) rfl
  rw [show lidx_main_v118 (ix2 r j) q = ix2 r q from
      funext fun d => Fin.ext (by match d with | ⟨0, _⟩ => rfl | ⟨1, _⟩ => rfl),
    show ridx_main_v118 (ix2 r j) q = ix2 q j from
      funext fun d => Fin.ext (by match d with | ⟨0, _⟩ => rfl | ⟨1, _⟩ => rfl),
    hid_stage_r1, w_two_r1]

/-- the row's mean at node `r` -/
theorem mean_stage_r1 (r : Fin 50000) :
    val_main_v129 (F := Ideal) x0 x1 x2 x3 x4 x5 x6 x7 x8 x9 x10 x11 x12 x13 (ix2 r (0 : Fin 1))
      = meanRow (cOne + x5 (ix1 ℓ)) (fun k => tbl (ix2 r k))
          (fun k => val_main_v100 (F := Ideal) x0 x1 x2 x3 x4 x5 x6 x7 x8 x9 x10 x11 x12 x13 (ix2 r k)) (matOf x8 ℓ) (vecOf x9 ℓ)
          (matOf x10 ℓ) (vecOf x11 ℓ) := by
  rw [val_main_v129_apply, val_main_v127_apply, val_main_v126_apply, val_main_cst_11_apply, val_main_v128_apply,
    val_main_cst_12_apply, Ideal.hostDivf_def, Ideal.ofBits_def, Ideal.ofBits_def, Ideal.ofBits_zero_f32, zero_add]
  unfold meanRow
  refine congrArg₂ Ideal.div (Finset.sum_congr rfl fun q _ => ?_) rfl
  rw [show idx_main_v126 (idx_main_v127 (ix2 r (0 : Fin 1))) q = ix2 r q from
      funext fun d => Fin.ext (by match d with | ⟨0, _⟩ => rfl | ⟨1, _⟩ => rfl),
    pre_stage_r1]

/-- the deviation from the row's mean at node `r`, feature `j` -/
theorem dev_stage_r1 (r : Fin 50000) (j : Fin 64) :
    val_main_v131 (F := Ideal) x0 x1 x2 x3 x4 x5 x6 x7 x8 x9 x10 x11 x12 x13 (ix2 r j)
      = devRow (cOne + x5 (ix1 ℓ)) (fun k => tbl (ix2 r k))
          (fun k => val_main_v100 (F := Ideal) x0 x1 x2 x3 x4 x5 x6 x7 x8 x9 x10 x11 x12 x13 (ix2 r k)) (matOf x8 ℓ) (vecOf x9 ℓ)
          (matOf x10 ℓ) (vecOf x11 ℓ) j := by
  rw [val_main_v131_apply, val_main_v130_apply, pre_stage_r1,
    show idx_main_v130 (ix2 r j) = ix2 r (0 : Fin 1) from
      funext fun d => Fin.ext (by match d with | ⟨0, _⟩ => rfl | ⟨1, _⟩ => rfl),
    mean_stage_r1, Ideal.subf_def]
  rfl

/-- the same deviation, which the reference forms a second time for the normalised row -/
theorem dev_again_r1 (r : Fin 50000) (j : Fin 64) :
    val_main_v138 (F := Ideal) x0 x1 x2 x3 x4 x5 x6 x7 x8 x9 x10 x11 x12 x13 (ix2 r j)
      = devRow (cOne + x5 (ix1 ℓ)) (fun k => tbl (ix2 r k))
          (fun k => val_main_v100 (F := Ideal) x0 x1 x2 x3 x4 x5 x6 x7 x8 x9 x10 x11 x12 x13 (ix2 r k)) (matOf x8 ℓ) (vecOf x9 ℓ)
          (matOf x10 ℓ) (vecOf x11 ℓ) j := by
  rw [val_main_v138_apply, val_main_v137_apply, pre_stage_r1,
    show idx_main_v137 (ix2 r j) = ix2 r (0 : Fin 1) from
      funext fun d => Fin.ext (by match d with | ⟨0, _⟩ => rfl | ⟨1, _⟩ => rfl),
    mean_stage_r1, Ideal.subf_def]
  rfl

/-- the mean of the squared deviations at node `r` -/
theorem var_stage_r1 (r : Fin 50000) :
    val_main_v136 (F := Ideal) x0 x1 x2 x3 x4 x5 x6 x7 x8 x9 x10 x11 x12 x13 (ix2 r (0 : Fin 1))
      = varRow (cOne + x5 (ix1 ℓ)) (fun k => tbl (ix2 r k))
          (fun k => val_main_v100 (F := Ideal) x0 x1 x2 x3 x4 x5 x6 x7 x8 x9 x10 x11 x12 x13 (ix2 r k)) (matOf x8 ℓ) (vecOf x9 ℓ)
          (matOf x10 ℓ) (vecOf x11 ℓ) := by
  rw [val_main_v136_apply, val_main_v134_apply, val_main_v133_apply, val_main_cst_13_apply, val_main_v135_apply,
    val_main_cst_14_apply, Ideal.hostDivf_def, Ideal.ofBits_def, Ideal.ofBits_def, Ideal.ofBits_zero_f32, zero_add]
  unfold varRow
  refine congrArg₂ Ideal.div (Finset.sum_congr rfl fun q _ => ?_) rfl
  rw [show idx_main_v133 (idx_main_v134 (ix2 r (0 : Fin 1))) q = ix2 r q from
      funext fun d => Fin.ext (by match d with | ⟨0, _⟩ => rfl | ⟨1, _⟩ => rfl),
    val_main_v132_apply, dev_stage_r1, Ideal.mulf_def]

/-- The node table after the round is the specification's update of the table before it and the summed messages: the
    deviation times the reciprocal square root of the variance plus ε, times the gain, plus the shift. -/
theorem upd_stage_r1 :
    val_main_v153 (F := Ideal) x0 x1 x2 x3 x4 x5 x6 x7 x8 x9 x10 x11 x12 x13
      = update x5 x8 x9 x10 x11 x12 x13 ℓ tbl (val_main_v100 (F := Ideal) x0 x1 x2 x3 x4 x5 x6 x7 x8 x9 x10 x11 x12 x13) := by
  funext i
  rw [← ix2_rowOf_colOf_r1 i, val_main_v153_apply, val_main_v148_apply, val_main_v143_apply, dev_again_r1, val_main_v142_apply,
    val_main_v141_apply, val_main_v140_apply,
    show idx_main_v142 (ix2 (rowOf i) (colOf i)) = ix2 (rowOf i) (0 : Fin 1) from
      funext fun d => Fin.ext (by match d with | ⟨0, _⟩ => rfl | ⟨1, _⟩ => rfl),
    var_stage_r1, val_main_v139_apply, val_main_cst_15_apply, gain_r1, shift_r1, Ideal.hostUnary_rsqrt_def,
    Ideal.addf_def, Ideal.addf_def, Ideal.mulf_def, Ideal.mulf_def, Ideal.ofBits_def]
  rfl

end Round

/-- The reference's node table after round 1 is the specification's round 1 of the table before it. -/
theorem ref_layer1 (x0 : FVec Ideal S50000x64 .f32) (x1 : IVec S2x800000 32) (x2 : FVec Ideal S800000x4 .f32) (x3 : FVec Ideal S4x64 .f32)
    (x4 : FVec Ideal S64 .f32) (x5 : FVec Ideal S3 .f32) (x6 : FVec Ideal S3x64x64 .f32) (x7 : FVec Ideal S3x64 .f32)
    (x8 : FVec Ideal S3x64x64 .f32) (x9 : FVec Ideal S3x64 .f32) (x10 : FVec Ideal S3x64x64 .f32) (x11 x12 x13 : FVec Ideal S3x64 .f32) :
    val_main_v153 (F := Ideal) x0 x1 x2 x3 x4 x5 x6 x7 x8 x9 x10 x11 x12 x13 = specLayerR x0 x1 x2 x3 x4 x5 x6 x7 x8 x9 x10 x11 x12 x13 1 (val_main_v80 (F := Ideal) x0 x1 x2 x3 x4 x5 x6 x7 x8 x9 x10 x11 x12 x13) := by
  rw [upd_stage_r1, agg_stage_r1]
  rfl

end Cert.ReferenceIdeal.RefValue

end
-- ==== Proof.RefLayer2.lean ====
/-
  Round 2 of the reference is the specification's round 2. Read one operation at a time, the reference's stages are:
  the encoded edge attributes (a product with the 4 × 64 encoder and its bias, shared by the rounds), the round's linear
  map of them, the gathered source rows added and clamped at zero, the sum into destination rows, then per node the
  scaled old row plus the sum, two linear maps with a clamp after each, the old row added back, and the row's
  normalisation. A host product is the plain sum over the contracted coordinate and a host row sum is its zero initial
  value plus the plain sum, so each stage at an index is the specification's expression at that index.
-/
import proofs.«415458_j8564164788771_1_alg».proof.Proof.RefRead
import proofs.«415458_j8564164788771_1_alg».proof.Proof.Spec
import proofs.«415458_j8564164788771_1_alg».proof.Proof.RefTerms
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo
open Cert.Gine

/-- the round's number -/
local notation "ℓ" => (2 : Fin 3)

/-- an index into a matrix is its row and column coordinates -/
theorem ix2_rowOf_colOf_r2 {a b : Nat} (i : (⟨2, ![a, b]⟩ : Shape).Idx) : ix2 (rowOf i) (colOf i) = i :=
  funext fun d => Fin.ext (by match d with | ⟨0, _⟩ => rfl | ⟨1, _⟩ => rfl)

section Round
variable (x0 : FVec Ideal S50000x64 .f32) (x1 : IVec S2x800000 32) (x2 : FVec Ideal S800000x4 .f32)
  (x3 : FVec Ideal S4x64 .f32) (x4 : FVec Ideal S64 .f32) (x5 : FVec Ideal S3 .f32) (x6 : FVec Ideal S3x64x64 .f32)
  (x7 : FVec Ideal S3x64 .f32) (x8 : FVec Ideal S3x64x64 .f32) (x9 : FVec Ideal S3x64 .f32)
  (x10 : FVec Ideal S3x64x64 .f32) (x11 x12 x13 : FVec Ideal S3x64 .f32)

/-- the node table the round starts from -/
local notation:max "tbl" => (val_main_v153 (F := Ideal) x0 x1 x2 x3 x4 x5 x6 x7 x8 x9 x10 x11 x12 x13)

/-! ## The round's slices of the stacked weights

A slice of one matrix out of the stack followed by dropping the unit axis reads the stack at the round's number and the
matrix's own row and column (the row-major position `row * 64 + col` splits back into `row` and `col`); a slice of one
vector, dropping the unit axis, and spreading it over all rows reads the stack at the round's number and the column. -/

/-- the round's matrix of the linear map of the encoded attributes -/
theorem w_lin_r2 (j : S64x64.Idx) : val_main_v155 (F := Ideal) x6 j = matOf x6 ℓ j := by
  rw [val_main_v155_apply, val_main_v154_apply]
  exact congrArg x6 (funext fun d => Fin.ext (by
    have h0 : (j 0).val < 64 := (j 0).isLt
    have h1 : (j 1).val < 64 := (j 1).isLt
    match d with
    | ⟨0, _⟩ => rfl
    | ⟨1, _⟩ => show ((j 0).val * 64 + (j 1).val) / 64 % 64 = (j 0).val; omega
    | ⟨2, _⟩ => show ((j 0).val * 64 + (j 1).val) % 64 = (j 1).val; omega))

/-- the round's matrix of the node's first linear map -/
theorem w_one_r2 (j : S64x64.Idx) : val_main_v181 (F := Ideal) x8 j = matOf x8 ℓ j := by
  rw [val_main_v181_apply, val_main_v180_apply]
  exact congrArg x8 (funext fun d => Fin.ext (by
    have h0 : (j 0).val < 64 := (j 0).isLt
    have h1 : (j 1).val < 64 := (j 1).isLt
    match d with
    | ⟨0, _⟩ => rfl
    | ⟨1, _⟩ => show ((j 0).val * 64 + (j 1).val) / 64 % 64 = (j 0).val; omega
    | ⟨2, _⟩ => show ((j 0).val * 64 + (j 1).val) % 64 = (j 1).val; omega))

/-- the round's matrix of the node's second linear map -/
theorem w_two_r2 (j : S64x64.Idx) : val_main_v190 (F := Ideal) x10 j = matOf x10 ℓ j := by
  rw [val_main_v190_apply, val_main_v189_apply]
  exact congrArg x10 (funext fun d => Fin.ext (by
    have h0 : (j 0).val < 64 := (j 0).isLt
    have h1 : (j 1).val < 64 := (j 1).isLt
    match d with
    | ⟨0, _⟩ => rfl
    | ⟨1, _⟩ => show ((j 0).val * 64 + (j 1).val) / 64 % 64 = (j 0).val; omega
    | ⟨2, _⟩ => show ((j 0).val * 64 + (j 1).val) % 64 = (j 1).val; omega))

/-- the round's bias of the linear map of the encoded attributes, over all edges -/
theorem b_lin_r2 (i : S800000x64.Idx) : val_main_v160 (F := Ideal) x7 i = vecOf x7 ℓ (colOf i) := by
  rw [val_main_v160_apply, val_main_v159_apply, val_main_v158_apply, val_main_v157_apply]
  exact congrArg x7 (funext fun d => Fin.ext (by
    have h1 : (i 1).val < 64 := (i 1).isLt
    match d with
    | ⟨0, _⟩ => rfl
    | ⟨1, _⟩ => show (i 1).val % 64 = (i 1).val; omega))

/-- the round's bias of the node's first linear map, over all nodes -/
theorem b_one_r2 (i : S50000x64.Idx) : val_main_v186 (F := Ideal) x9 i = vecOf x9 ℓ (colOf i) := by
  rw [val_main_v186_apply, val_main_v185_apply, val_main_v184_apply, val_main_v183_apply]
  exact congrArg x9 (funext fun d => Fin.ext (by
    have h1 : (i 1).val < 64 := (i 1).isLt
    match d with
    | ⟨0, _⟩ => rfl
    | ⟨1, _⟩ => show (i 1).val % 64 = (i 1).val; omega))

/-- the round's bias of the node's second linear map, over all nodes -/
theorem b_two_r2 (i : S50000x64.Idx) : val_main_v195 (F := Ideal) x11 i = vecOf x11 ℓ (colOf i) := by
  rw [val_main_v195_apply, val_main_v194_apply, val_main_v193_apply, val_main_v192_apply]
  exact congrArg x11 (funext fun d => Fin.ext (by
    have h1 : (i 1).val < 64 := (i 1).isLt
    match d with
    | ⟨0, _⟩ => rfl
    | ⟨1, _⟩ => show (i 1).val % 64 = (i 1).val; omega))

/-- the round's gain of the normalisation, over all nodes -/
theorem gain_r2 (i : S50000x64.Idx) : val_main_v220 (F := Ideal) x12 i = vecOf x12 ℓ (colOf i) := by
  rw [val_main_v220_apply, val_main_v219_apply, val_main_v218_apply, val_main_v217_apply]
  exact congrArg x12 (funext fun d => Fin.ext (by
    have h1 : (i 1).val < 64 := (i 1).isLt
    match d with
    | ⟨0, _⟩ => rfl
    | ⟨1, _⟩ => show (i 1).val % 64 = (i 1).val; omega))

/-- the round's shift of the normalisation, over all nodes -/
theorem shift_r2 (i : S50000x64.Idx) : val_main_v225 (F := Ideal) x13 i = vecOf x13 ℓ (colOf i) := by
  rw [val_main_v225_apply, val_main_v224_apply, val_main_v223_apply, val_main_v222_apply]
  exact congrArg x13 (funext fun d => Fin.ext (by
    have h1 : (i 1).val < 64 := (i 1).isLt
    match d with
    | ⟨0, _⟩ => rfl
    | ⟨1, _⟩ => show (i 1).val % 64 = (i 1).val; omega))

/-! ## The messages

The encoded attributes of an edge are the product of its attribute row with the encoder plus the encoder's bias; the
round's linear map of them is the product with the round's matrix plus the round's bias; the message adds the gathered
source row and clamps at zero. Each product is the plain sum over the contracted coordinate. -/

/-- the encoded edge attributes at edge `r`, feature `k` -/
theorem enc_stage_r2 (r : Fin 800000) (k : Fin 64) :
    val_main_v3 (F := Ideal) x2 x3 x4 (ix2 r k) = encRow (fun q => x2 (ix2 r q)) x3 (fun k => x4 (ix1 k)) k := by
  rw [val_main_v3_apply, val_main_v0_apply, val_main_v2_apply, val_main_v1_apply, Ideal.addf_def]
  unfold encRow
  refine congrArg₂ (· + ·) (Finset.sum_congr rfl fun q _ => ?_) ?_
  · exact congrArg₂ (fun a b => x2 a * x3 b)
      (funext fun d => Fin.ext (by match d with | ⟨0, _⟩ => rfl | ⟨1, _⟩ => rfl))
      (funext fun d => Fin.ext (by match d with | ⟨0, _⟩ => rfl | ⟨1, _⟩ => rfl))
  · exact congrArg x4 (funext fun d => Fin.ext (by match d with | ⟨0, _⟩ => rfl))

/-- the round's linear map of the encoded attributes at edge `r`, feature `j` -/
theorem lin_stage_r2 (r : Fin 800000) (j : Fin 64) :
    val_main_v161 (F := Ideal) x2 x3 x4 x6 x7 (ix2 r j)
      = linRow (fun q => x2 (ix2 r q)) x3 (fun k => x4 (ix1 k)) (matOf x6 ℓ) (vecOf x7 ℓ) j := by
  rw [val_main_v161_apply, val_main_v156_apply, b_lin_r2, Ideal.addf_def]
  unfold linRow
  refine congrArg₂ (· + ·) (Finset.sum_congr rfl fun k _ => ?_) rfl
  rw [show lidx_main_v156 (ix2 r j) k = ix2 r k from
      funext fun d => Fin.ext (by match d with | ⟨0, _⟩ => rfl | ⟨1, _⟩ => rfl),
    show ridx_main_v156 (ix2 r j) k = ix2 k j from
      funext fun d => Fin.ext (by match d with | ⟨0, _⟩ => rfl | ⟨1, _⟩ => rfl),
    enc_stage_r2, w_lin_r2]

/-- The message array is the specification's messages from the gathered source rows: the gather is kept as it stands. -/
theorem msg_stage_r2 :
    val_main_v170 (F := Ideal) x0 x1 x2 x3 x4 x5 x6 x7 x8 x9 x10 x11 x12 x13 = message x2 x3 x4 x6 x7 ℓ (gatR x1 tbl) := by
  funext i
  rw [← ix2_rowOf_colOf_r2 i, val_main_v170_apply, val_main_v169_apply, lin_stage_r2, val_main_call6_v0_apply,
    val_main_call6_cst_apply, Ideal.addf_def, Ideal.maximumf_def, Ideal.ofBits_def, Ideal.ofBits_zero_f32]
  rfl

/-- The sum into destination rows is the scatter-add of the specification's messages: the scatter-add is kept as it
    stands, over the same zero array and the same column of destination ids. -/
theorem agg_stage_r2 :
    val_main_v173 (F := Ideal) x0 x1 x2 x3 x4 x5 x6 x7 x8 x9 x10 x11 x12 x13 = scaR x1 (message x2 x3 x4 x6 x7 ℓ (gatR x1 tbl)) := by
  unfold val_main_v173
  rw [msg_stage_r2]
  rfl

/-! ## The node update

Per node: the scaled old row plus the summed messages, two linear maps with a clamp at zero after each, the old row added
back, and the row's normalisation. A row sum is its zero initial value plus the plain sum over the row, and the mean
divides it by the literal 64. -/

/-- the round's entry of the three eps values: the slice of one entry, read as a scalar -/
theorem eps_stage_r2 (j : S_.Idx) : val_main_v175 (F := Ideal) x5 j = x5 (ix1 ℓ) := by
  unfold val_main_v175
  rw [shapeCast_apply (val_main_v174 (F := Ideal) x5) shapeCasts_S1_S_ j (ix1 (0 : Fin 1)) (by
    rw [Shape.rowMajor_val_one]
    have h : (S_.rowMajor j).val < 1 := (S_.rowMajor j).isLt
    show 0 = (S_.rowMajor j).val
    omega), val_main_v174_apply]
  exact congrArg x5 (funext fun d => Fin.ext (by match d with | ⟨0, _⟩ => rfl))

/-- the scale `1 + eps` at every entry of the table -/
theorem scale_stage_r2 (i : S50000x64.Idx) : val_main_v177 (F := Ideal) x5 i = cOne + x5 (ix1 ℓ) := by
  rw [val_main_v177_apply, val_main_v176_apply, val_main_cst_19_apply, eps_stage_r2, Ideal.addf_def, Ideal.ofBits_def]

/-- `z = s · h + agg` at node `r`, feature `k` -/
theorem comb_stage_r2 (r : Fin 50000) (k : Fin 64) :
    val_main_v179 (F := Ideal) x0 x1 x2 x3 x4 x5 x6 x7 x8 x9 x10 x11 x12 x13 (ix2 r k)
      = combRow (cOne + x5 (ix1 ℓ)) (fun k => tbl (ix2 r k))
          (fun k => val_main_v173 (F := Ideal) x0 x1 x2 x3 x4 x5 x6 x7 x8 x9 x10 x11 x12 x13 (ix2 r k)) k := by
  rw [val_main_v179_apply, val_main_v178_apply, scale_stage_r2, Ideal.addf_def, Ideal.mulf_def]
  rfl

/-- the first linear map and clamp at node `r`, feature `k` -/
theorem hid_stage_r2 (r : Fin 50000) (k : Fin 64) :
    val_main_v188 (F := Ideal) x0 x1 x2 x3 x4 x5 x6 x7 x8 x9 x10 x11 x12 x13 (ix2 r k)
      = hidRow (cOne + x5 (ix1 ℓ)) (fun k => tbl (ix2 r k))
          (fun k => val_main_v173 (F := Ideal) x0 x1 x2 x3 x4 x5 x6 x7 x8 x9 x10 x11 x12 x13 (ix2 r k)) (matOf x8 ℓ) (vecOf x9 ℓ) k := by
  rw [val_main_v188_apply, val_main_v187_apply, val_main_v182_apply, b_one_r2, val_main_call7_v0_apply,
    val_main_call7_cst_apply, Ideal.addf_def, Ideal.maximumf_def, Ideal.ofBits_def, Ideal.ofBits_zero_f32]
  unfold hidRow
  refine congrArg₂ max (congrArg₂ (· + ·) (Finset.sum_congr rfl fun q _ => ?_) rfl) rfl
  rw [show lidx_main_v182 (ix2 r k) q = ix2 r q from
      funext fun d => Fin.ext (by match d with | ⟨0, _⟩ => rfl | ⟨1, _⟩ => rfl),
    show ridx_main_v182 (ix2 r k) q = ix2 q k from
      funext fun d => Fin.ext (by match d with | ⟨0, _⟩ => rfl | ⟨1, _⟩ => rfl),
    comb_stage_r2, w_one_r2]

/-- the second linear map and clamp with the old row added back, at node `r`, feature `j` -/
theorem pre_stage_r2 (r : Fin 50000) (j : Fin 64) :
    val_main_v198 (F := Ideal) x0 x1 x2 x3 x4 x5 x6 x7 x8 x9 x10 x11 x12 x13 (ix2 r j)
      = preRow (cOne + x5 (ix1 ℓ)) (fun k => tbl (ix2 r k))
          (fun k => val_main_v173 (F := Ideal) x0 x1 x2 x3 x4 x5 x6 x7 x8 x9 x10 x11 x12 x13 (ix2 r k)) (matOf x8 ℓ) (vecOf x9 ℓ)
          (matOf x10 ℓ) (vecOf x11 ℓ) j := by
  rw [val_main_v198_apply, val_main_v197_apply, val_main_v196_apply, val_main_v191_apply, b_two_r2, val_main_call8_v0_apply,
    val_main_call8_cst_apply, Ideal.addf_def, Ideal.addf_def, Ideal.maximumf_def, Ideal.ofBits_def, Ideal.ofBits_zero_f32]
  unfold preRow
  refine congrArg₂ (· + ·) (congrArg₂ max (congrArg₂ (· + ·) (Finset.sum_congr rfl fun q _ => ?_) rfl) rfl) rfl
  rw [show lidx_main_v191 (ix2 r j) q = ix2 r q from
      funext fun d => Fin.ext (by match d with | ⟨0, _⟩ => rfl | ⟨1, _⟩ => rfl),
    show ridx_main_v191 (ix2 r j) q = ix2 q j from
      funext fun d => Fin.ext (by match d with | ⟨0, _⟩ => rfl | ⟨1, _⟩ => rfl),
    hid_stage_r2, w_two_r2]

/-- the row's mean at node `r` -/
theorem mean_stage_r2 (r : Fin 50000) :
    val_main_v202 (F := Ideal) x0 x1 x2 x3 x4 x5 x6 x7 x8 x9 x10 x11 x12 x13 (ix2 r (0 : Fin 1))
      = meanRow (cOne + x5 (ix1 ℓ)) (fun k => tbl (ix2 r k))
          (fun k => val_main_v173 (F := Ideal) x0 x1 x2 x3 x4 x5 x6 x7 x8 x9 x10 x11 x12 x13 (ix2 r k)) (matOf x8 ℓ) (vecOf x9 ℓ)
          (matOf x10 ℓ) (vecOf x11 ℓ) := by
  rw [val_main_v202_apply, val_main_v200_apply, val_main_v199_apply, val_main_cst_20_apply, val_main_v201_apply,
    val_main_cst_21_apply, Ideal.hostDivf_def, Ideal.ofBits_def, Ideal.ofBits_def, Ideal.ofBits_zero_f32, zero_add]
  unfold meanRow
  refine congrArg₂ Ideal.div (Finset.sum_congr rfl fun q _ => ?_) rfl
  rw [show idx_main_v199 (idx_main_v200 (ix2 r (0 : Fin 1))) q = ix2 r q from
      funext fun d => Fin.ext (by match d with | ⟨0, _⟩ => rfl | ⟨1, _⟩ => rfl),
    pre_stage_r2]

/-- the deviation from the row's mean at node `r`, feature `j` -/
theorem dev_stage_r2 (r : Fin 50000) (j : Fin 64) :
    val_main_v204 (F := Ideal) x0 x1 x2 x3 x4 x5 x6 x7 x8 x9 x10 x11 x12 x13 (ix2 r j)
      = devRow (cOne + x5 (ix1 ℓ)) (fun k => tbl (ix2 r k))
          (fun k => val_main_v173 (F := Ideal) x0 x1 x2 x3 x4 x5 x6 x7 x8 x9 x10 x11 x12 x13 (ix2 r k)) (matOf x8 ℓ) (vecOf x9 ℓ)
          (matOf x10 ℓ) (vecOf x11 ℓ) j := by
  rw [val_main_v204_apply, val_main_v203_apply, pre_stage_r2,
    show idx_main_v203 (ix2 r j) = ix2 r (0 : Fin 1) from
      funext fun d => Fin.ext (by match d with | ⟨0, _⟩ => rfl | ⟨1, _⟩ => rfl),
    mean_stage_r2, Ideal.subf_def]
  rfl

/-- the same deviation, which the reference forms a second time for the normalised row -/
theorem dev_again_r2 (r : Fin 50000) (j : Fin 64) :
    val_main_v211 (F := Ideal) x0 x1 x2 x3 x4 x5 x6 x7 x8 x9 x10 x11 x12 x13 (ix2 r j)
      = devRow (cOne + x5 (ix1 ℓ)) (fun k => tbl (ix2 r k))
          (fun k => val_main_v173 (F := Ideal) x0 x1 x2 x3 x4 x5 x6 x7 x8 x9 x10 x11 x12 x13 (ix2 r k)) (matOf x8 ℓ) (vecOf x9 ℓ)
          (matOf x10 ℓ) (vecOf x11 ℓ) j := by
  rw [val_main_v211_apply, val_main_v210_apply, pre_stage_r2,
    show idx_main_v210 (ix2 r j) = ix2 r (0 : Fin 1) from
      funext fun d => Fin.ext (by match d with | ⟨0, _⟩ => rfl | ⟨1, _⟩ => rfl),
    mean_stage_r2, Ideal.subf_def]
  rfl

/-- the mean of the squared deviations at node `r` -/
theorem var_stage_r2 (r : Fin 50000) :
    val_main_v209 (F := Ideal) x0 x1 x2 x3 x4 x5 x6 x7 x8 x9 x10 x11 x12 x13 (ix2 r (0 : Fin 1))
      = varRow (cOne + x5 (ix1 ℓ)) (fun k => tbl (ix2 r k))
          (fun k => val_main_v173 (F := Ideal) x0 x1 x2 x3 x4 x5 x6 x7 x8 x9 x10 x11 x12 x13 (ix2 r k)) (matOf x8 ℓ) (vecOf x9 ℓ)
          (matOf x10 ℓ) (vecOf x11 ℓ) := by
  rw [val_main_v209_apply, val_main_v207_apply, val_main_v206_apply, val_main_cst_22_apply, val_main_v208_apply,
    val_main_cst_23_apply, Ideal.hostDivf_def, Ideal.ofBits_def, Ideal.ofBits_def, Ideal.ofBits_zero_f32, zero_add]
  unfold varRow
  refine congrArg₂ Ideal.div (Finset.sum_congr rfl fun q _ => ?_) rfl
  rw [show idx_main_v206 (idx_main_v207 (ix2 r (0 : Fin 1))) q = ix2 r q from
      funext fun d => Fin.ext (by match d with | ⟨0, _⟩ => rfl | ⟨1, _⟩ => rfl),
    val_main_v205_apply, dev_stage_r2, Ideal.mulf_def]

/-- The node table after the round is the specification's update of the table before it and the summed messages: the
    deviation times the reciprocal square root of the variance plus ε, times the gain, plus the shift. -/
theorem upd_stage_r2 :
    val_main_v226 (F := Ideal) x0 x1 x2 x3 x4 x5 x6 x7 x8 x9 x10 x11 x12 x13
      = update x5 x8 x9 x10 x11 x12 x13 ℓ tbl (val_main_v173 (F := Ideal) x0 x1 x2 x3 x4 x5 x6 x7 x8 x9 x10 x11 x12 x13) := by
  funext i
  rw [← ix2_rowOf_colOf_r2 i, val_main_v226_apply, val_main_v221_apply, val_main_v216_apply, dev_again_r2, val_main_v215_apply,
    val_main_v214_apply, val_main_v213_apply,
    show idx_main_v215 (ix2 (rowOf i) (colOf i)) = ix2 (rowOf i) (0 : Fin 1) from
      funext fun d => Fin.ext (by match d with | ⟨0, _⟩ => rfl | ⟨1, _⟩ => rfl),
    var_stage_r2, val_main_v212_apply, val_main_cst_24_apply, gain_r2, shift_r2, Ideal.hostUnary_rsqrt_def,
    Ideal.addf_def, Ideal.addf_def, Ideal.mulf_def, Ideal.mulf_def, Ideal.ofBits_def]
  rfl

end Round

/-- The reference's node table after round 2 is the specification's round 2 of the table before it. -/
theorem ref_layer2 (x0 : FVec Ideal S50000x64 .f32) (x1 : IVec S2x800000 32) (x2 : FVec Ideal S800000x4 .f32) (x3 : FVec Ideal S4x64 .f32)
    (x4 : FVec Ideal S64 .f32) (x5 : FVec Ideal S3 .f32) (x6 : FVec Ideal S3x64x64 .f32) (x7 : FVec Ideal S3x64 .f32)
    (x8 : FVec Ideal S3x64x64 .f32) (x9 : FVec Ideal S3x64 .f32) (x10 : FVec Ideal S3x64x64 .f32) (x11 x12 x13 : FVec Ideal S3x64 .f32) :
    val_main_v226 (F := Ideal) x0 x1 x2 x3 x4 x5 x6 x7 x8 x9 x10 x11 x12 x13 = specLayerR x0 x1 x2 x3 x4 x5 x6 x7 x8 x9 x10 x11 x12 x13 2 (val_main_v153 (F := Ideal) x0 x1 x2 x3 x4 x5 x6 x7 x8 x9 x10 x11 x12 x13) := by
  rw [upd_stage_r2, agg_stage_r2]
  rfl

end Cert.ReferenceIdeal.RefValue

end
-- ==== Proof.RefValue.lean ====
/-
  The reference's result: the three rounds in sequence.
-/
import proofs.«415458_j8564164788771_1_alg».proof.Proof.RefRead
import proofs.«415458_j8564164788771_1_alg».proof.Proof.Spec
import proofs.«415458_j8564164788771_1_alg».proof.Proof.RefLayer0
import proofs.«415458_j8564164788771_1_alg».proof.Proof.RefLayer1
import proofs.«415458_j8564164788771_1_alg».proof.Proof.RefLayer2
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo
open Cert.Gine

/-- The reference's last stage is the specification's three rounds of the first argument. -/
theorem ref_value (x0 : FVec Ideal S50000x64 .f32) (x1 : IVec S2x800000 32) (x2 : FVec Ideal S800000x4 .f32) (x3 : FVec Ideal S4x64 .f32)
    (x4 : FVec Ideal S64 .f32) (x5 : FVec Ideal S3 .f32) (x6 : FVec Ideal S3x64x64 .f32) (x7 : FVec Ideal S3x64 .f32)
    (x8 : FVec Ideal S3x64x64 .f32) (x9 : FVec Ideal S3x64 .f32) (x10 : FVec Ideal S3x64x64 .f32) (x11 x12 x13 : FVec Ideal S3x64 .f32) :
    val_main_v226 (F := Ideal) x0 x1 x2 x3 x4 x5 x6 x7 x8 x9 x10 x11 x12 x13 = net x2 x3 x4 x5 x6 x7 x8 x9 x10 x11 x12 x13 (gatR x1) (scaR x1) x0 := by
  rw [ref_layer2, ref_layer1, ref_layer0]
  rfl

end Cert.ReferenceIdeal.RefValue

end
-- ==== Proof.RefRun.lean ====
/-
  The reference's run, read back: every weakly fair execution of its @main terminates, nothing faulting, with the
  result buffer at the last stage of the operations' composition and the arguments as launched. The 272 host operations
  are taken a stretch at a time, each stretch's results stated as stages of what the stretch finds, so that no term ever
  holds more than one round's operations.

  The stretches, in order. The encoded edge attributes `enc = ea · encW + encb` and the edge list's two id rows, once
  for all rounds. Then, for each of the three rounds `l`: on the edges, the linear map `enc · W_l + b_l`, the wrap of
  negative source ids, the gather of the node rows at them, the clamp at zero of the sum, and the sum of the messages
  into their destination rows; on the nodes, `z = (1 + eps_l) · h + agg`, two linear maps each clamped at zero, the
  node's own row added back, and the row normalisation `(y − μ) · rsqrt (σ² + ε) · g_l + bt_l` with `μ` the row mean
  and `σ²` the mean of the squared deviations. A round is cut where few values are still to be read: after the
  summed messages, after the rows before normalisation (or their sums), and at the round's end.

  Each stretch's results are stated at the stages of the composition, from any valuation that holds the stages (or the
  arguments) at the buffers the stretch reads; a buffer a stretch does not write keeps its contents through it. @main
  is printed in five windows; each window is some of the stretches in order.
-/
import proofs.«415458_j8564164788771_1_alg».proof.Proof.RefRead
import Idealize.ShloMosaic.Lib.StableHlo.Run
import Idealize.ShloMosaic.Lib.Pipeline.Regions
import Idealize.ShloMosaic.Lib.Pipeline.Frame

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- one operation's written set lies in the list of written references that names its result -/
local macro "writes_one" : tactic => `(tactic| (simp only [nullary_writes, unary_writes, binary_writes, ternary_writes, reshape_writes, Finset.singleton_subset_iff, List.mem_toFinset]; exact List.mem_map_of_mem (by decide)))

section Stretches

variable {x0 : (⟨S50000x64, .f32⟩ : BufTy).Contents (Elt F)} {x1 : (⟨S2x800000, .i32⟩ : BufTy).Contents (Elt F)}
  {x2 : (⟨S800000x4, .f32⟩ : BufTy).Contents (Elt F)} {x3 : (⟨S4x64, .f32⟩ : BufTy).Contents (Elt F)}
  {x4 : (⟨S64, .f32⟩ : BufTy).Contents (Elt F)} {x5 : (⟨S3, .f32⟩ : BufTy).Contents (Elt F)}
  {x6 : (⟨S3x64x64, .f32⟩ : BufTy).Contents (Elt F)} {x7 : (⟨S3x64, .f32⟩ : BufTy).Contents (Elt F)}
  {x8 : (⟨S3x64x64, .f32⟩ : BufTy).Contents (Elt F)} {x9 : (⟨S3x64, .f32⟩ : BufTy).Contents (Elt F)}
  {x10 : (⟨S3x64x64, .f32⟩ : BufTy).Contents (Elt F)} {x11 x12 x13 : (⟨S3x64, .f32⟩ : BufTy).Contents (Elt F)}

/-! ## The encoded attributes and the two rows of the edge list -/

/-- `enc = ea · encW + encb` on every edge, and the edge list's row of source ids and row of destination ids -/
abbrev ops0 : List (HloOp τ sig (Elt F)) :=
  [ binary main_arg2 main_arg3 main_v0 ((fun l r => Host.dotGeneral dot_S800000x4_S4x64_S800000x64_1_0_0_1_n_n none l r) : (⟨S800000x4, .f32⟩ : BufTy).Contents (Elt F) → (⟨S4x64, .f32⟩ : BufTy).Contents (Elt F) → (⟨S800000x64, .f32⟩ : BufTy).Contents (Elt F)),
    unary main_arg4 main_v1 (broadcastInDim S1x64 ![1] bcast_S64_S1x64_1 : (⟨S64, .f32⟩ : BufTy).Contents (Elt F) → (⟨S1x64, .f32⟩ : BufTy).Contents (Elt F)),
    unary main_v1 main_v2 (broadcastInDim S800000x64 ![0, 1] bcast_S1x64_S800000x64_0_1 : (⟨S1x64, .f32⟩ : BufTy).Contents (Elt F) → (⟨S800000x64, .f32⟩ : BufTy).Contents (Elt F)),
    binary main_v0 main_v2 main_v3 (addf : (⟨S800000x64, .f32⟩ : BufTy).Contents (Elt F) → (⟨S800000x64, .f32⟩ : BufTy).Contents (Elt F) → (⟨S800000x64, .f32⟩ : BufTy).Contents (Elt F)),
    unary main_arg1 main_v4 ((extractStridedSlice S1x800000 ![0, 0] · slices_S2x800000_S1x800000_0_0) : (⟨S2x800000, .i32⟩ : BufTy).Contents (Elt F) → (⟨S1x800000, .i32⟩ : BufTy).Contents (Elt F)),
    reshape main_v4 main_v5 rfl shapeCasts_S1x800000_S800000,
    unary main_arg1 main_v6 ((extractStridedSlice S1x800000 ![1, 0] · slices_S2x800000_S1x800000_1_0) : (⟨S2x800000, .i32⟩ : BufTy).Contents (Elt F) → (⟨S1x800000, .i32⟩ : BufTy).Contents (Elt F)),
    reshape main_v6 main_v7 rfl shapeCasts_S1x800000_S800000 ]

theorem ops0_sub : (ops0 : List (HloOp τ sig (Elt F))).Forall fun op => op.bufs ⊆ tcRefs τ sig :=
  ⟨binary_bufs_sub .., unary_bufs_sub .., unary_bufs_sub .., binary_bufs_sub .., unary_bufs_sub ..,
   reshape_bufs_sub .., unary_bufs_sub .., reshape_bufs_sub ..⟩

theorem ops0_fresh : (ops0 : List (HloOp τ sig (Elt F))).Forall fun op => op.fresh = ∅ :=
  ⟨rfl, rfl, rfl, rfl, rfl, rfl, rfl, rfl⟩

/-- the references the stretch writes, in order -/
abbrev ops0_W : List (Ref sig .tc) :=
  [main_v0, main_v1, main_v2, main_v3, main_v4, main_v5, main_v6, main_v7]

theorem ops0_writes : (ops0 : List (HloOp τ sig (Elt F))).Forall fun op => op.writes ⊆ (ops0_W.map (Proc.devRef (τ := τ) .tc)).toFinset := by
  simp only [List.Forall]
  repeat' apply And.intro
  all_goals writes_one

/-- a reference the stretch does not write keeps its contents through it -/
theorem ops0_keep (V : Valuation τ sig (Elt F)) (r : Ref sig .tc) (h : r ∉ ops0_W) :
    after ops0 V (Proc.devRef .tc r) = V (Proc.devRef .tc r) :=
  after_of_writes_sub ops0 V ops0_writes h

/-- the encoded attributes -/
theorem ops0_v3 (V : Valuation τ sig (Elt F))
    (h2 : V (Proc.devRef .tc main_arg2) = x2)
    (h3 : V (Proc.devRef .tc main_arg3) = x3)
    (h4 : V (Proc.devRef .tc main_arg4) = x4) :
    after ops0 V (Proc.devRef .tc main_v3) = val_main_v3 (F := F) x2 x3 x4 := by
  simp only [ops0]
  after_results_simp
  rw [h2, h3, h4]
  rfl

/-- the source ids -/
theorem ops0_v5 (V : Valuation τ sig (Elt F))
    (h1 : V (Proc.devRef .tc main_arg1) = x1) :
    after ops0 V (Proc.devRef .tc main_v5) = val_main_v5 (F := F) x1 := by
  simp only [ops0]
  after_results_simp
  rw [h1]
  rfl

/-- the destination ids -/
theorem ops0_v7 (V : Valuation τ sig (Elt F))
    (h1 : V (Proc.devRef .tc main_arg1) = x1) :
    after ops0 V (Proc.devRef .tc main_v7) = val_main_v7 (F := F) x1 := by
  simp only [ops0]
  after_results_simp
  rw [h1]
  rfl

/-! ## Round 0 on the edges -/

/-- round 0's messages `max (x[src] + (enc · W₀ + b₀)) 0`, summed into their destination rows -/
abbrev ops1 : List (HloOp τ sig (Elt F)) :=
  [ unary main_arg6 main_v8 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v8 main_v9 rfl shapeCasts_S1x64x64_S64x64,
    binary main_v3 main_v9 main_v10 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg7 main_v11 ((extractStridedSlice S1x64 ![0, 0] · slices_S3x64_S1x64_0_0) : (⟨S3x64, .f32⟩ : BufTy).Contents (Elt F) → (⟨S1x64, .f32⟩ : BufTy).Contents (Elt F)),
    reshape main_v11 main_v12 rfl shapeCasts_S1x64_S64,
    unary main_v12 main_v13 (broadcastInDim S1x64 ![1] bcast_S64_S1x64_1 : (⟨S64, .f32⟩ : BufTy).Contents (Elt F) → (⟨S1x64, .f32⟩ : BufTy).Contents (Elt F)),
    unary main_v13 main_v14 (broadcastInDim S800000x64 ![0, 1] bcast_S1x64_S800000x64_0_1 : (⟨S1x64, .f32⟩ : BufTy).Contents (Elt F) → (⟨S800000x64, .f32⟩ : BufTy).Contents (Elt F)),
    binary main_v10 main_v14 main_v15 (addf : (⟨S800000x64, .f32⟩ : BufTy).Contents (Elt F) → (⟨S800000x64, .f32⟩ : BufTy).Contents (Elt F) → (⟨S800000x64, .f32⟩ : BufTy).Contents (Elt F)),
    nullary main_c (constantI S_ 32 0#32),
    unary main_c main_v16 (broadcastInDim S800000 ![] bcast_S_S800000 : (⟨S_, .i32⟩ : BufTy).Contents (Elt F) → (⟨S800000, .i32⟩ : BufTy).Contents (Elt F)),
    binary main_v5 main_v16 main_v17 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v18 (broadcastInDim S800000 ![] bcast_S_S800000 : (⟨S_, .i32⟩ : BufTy).Contents (Elt F) → (⟨S800000, .i32⟩ : BufTy).Contents (Elt F)),
    binary main_v5 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_v5 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_arg0 main_v21 main_v22 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v22 main_v15 main_v23 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x64, .f32⟩) main_call0_v0) (broadcastInDim S800000x64 ![] bcast_S_S800000x64),
    TRef.binary (TRef.of (T := ⟨S800000x64, .f32⟩) main_v23) (TRef.of (T := ⟨S800000x64, .f32⟩) main_call0_v0) (TRef.of (T := ⟨S800000x64, .f32⟩) main_v24) maximumf,
    nullary main_cst (constant S_ .f32 0x00000000#32),
    unary main_cst main_v25 (broadcastInDim S50000x64 ![] bcast_S_S50000x64 : (⟨S_, .f32⟩ : BufTy).Contents (Elt F) → (⟨S50000x64, .f32⟩ : BufTy).Contents (Elt F)),
    unary main_v7 main_v26 (broadcastInDim S800000x1 ![0] bcast_S800000_S800000x1_0 : (⟨S800000, .i32⟩ : BufTy).Contents (Elt F) → (⟨S800000x1, .i32⟩ : BufTy).Contents (Elt F)),
    ternary main_v25 main_v26 main_v24 main_v27 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

theorem ops1_sub : (ops1 : List (HloOp τ sig (Elt F))).Forall fun op => op.bufs ⊆ tcRefs τ sig :=
  ⟨unary_bufs_sub .., reshape_bufs_sub .., binary_bufs_sub .., unary_bufs_sub .., reshape_bufs_sub ..,
   unary_bufs_sub .., unary_bufs_sub .., binary_bufs_sub .., nullary_bufs_sub .., unary_bufs_sub ..,
   binary_bufs_sub .., nullary_bufs_sub .., unary_bufs_sub .., binary_bufs_sub .., ternary_bufs_sub ..,
   unary_bufs_sub .., binary_bufs_sub .., binary_bufs_sub .., nullary_bufs_sub .., unary_bufs_sub ..,
   binary_bufs_sub .., nullary_bufs_sub .., unary_bufs_sub .., unary_bufs_sub .., ternary_bufs_sub ..⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl,
   rfl, rfl, rfl⟩

/-- the references the stretch writes, in order -/
abbrev ops1_W : List (Ref sig .tc) :=
  [main_v8, main_v9, main_v10, main_v11, main_v12, main_v13, main_v14, main_v15, main_c, main_v16, main_v17,
   main_c_0, main_v18, main_v19, main_v20, main_v21, main_v22, main_v23, main_call0_cst, main_call0_v0, main_v24,
   main_cst, main_v25, main_v26, main_v27]

theorem ops1_writes : (ops1 : List (HloOp τ sig (Elt F))).Forall fun op => op.writes ⊆ (ops1_W.map (Proc.devRef (τ := τ) .tc)).toFinset := by
  simp only [List.Forall]
  repeat' apply And.intro
  all_goals writes_one

/-- a reference the stretch does not write keeps its contents through it -/
theorem ops1_keep (V : Valuation τ sig (Elt F)) (r : Ref sig .tc) (h : r ∉ ops1_W) :
    after ops1 V (Proc.devRef .tc r) = V (Proc.devRef .tc r) :=
  after_of_writes_sub ops1 V ops1_writes h

set_option maxHeartbeats 1000000 in
/-- the summed messages: they read the node features, the encoded attributes and both id rows -/
theorem ops1_v27 (V : Valuation τ sig (Elt F))
    (h0 : V (Proc.devRef .tc main_arg0) = x0)
    (h6 : V (Proc.devRef .tc main_arg6) = x6)
    (h7 : V (Proc.devRef .tc main_arg7) = x7)
    (hv3 : V (Proc.devRef .tc main_v3) = val_main_v3 (F := F) x2 x3 x4)
    (hv5 : V (Proc.devRef .tc main_v5) = val_main_v5 (F := F) x1)
    (hv7 : V (Proc.devRef .tc main_v7) = val_main_v7 (F := F) x1) :
    after ops1 V (Proc.devRef .tc main_v27) = val_main_v27 (F := F) x0 x1 x2 x3 x4 x6 x7 := by
  simp only [ops1]
  after_results_simp
  rw [h0, h6, h7, hv3, hv5, hv7]
  try simp only [TRef.ofBuf, TRef.toBuf, cast_eq]
  rfl

/-! ## Round 0 on the nodes, up to the row sums -/

/-- `z = (1 + eps₀) · x + agg`, the two linear maps with their clamps at zero, the node's own row added back, and each row's sum -/
abbrev ops2 : List (HloOp τ sig (Elt F)) :=
  [ unary main_arg5 main_v28 ((extractStridedSlice S1 ![0] · slices_S3_S1_0) : (⟨S3, .f32⟩ : BufTy).Contents (Elt F) → (⟨S1, .f32⟩ : BufTy).Contents (Elt F)),
    reshape main_v28 main_v29 rfl shapeCasts_S1_S_,
    nullary main_cst_1 (constant S_ .f32 0x3F800000#32),
    binary main_cst_1 main_v29 main_v30 (addf : (⟨S_, .f32⟩ : BufTy).Contents (Elt F) → (⟨S_, .f32⟩ : BufTy).Contents (Elt F) → (⟨S_, .f32⟩ : BufTy).Contents (Elt F)),
    unary main_v30 main_v31 (broadcastInDim S50000x64 ![] bcast_S_S50000x64 : (⟨S_, .f32⟩ : BufTy).Contents (Elt F) → (⟨S50000x64, .f32⟩ : BufTy).Contents (Elt F)),
    binary main_v31 main_arg0 main_v32 (mulf : (⟨S50000x64, .f32⟩ : BufTy).Contents (Elt F) → (⟨S50000x64, .f32⟩ : BufTy).Contents (Elt F) → (⟨S50000x64, .f32⟩ : BufTy).Contents (Elt F)),
    binary main_v32 main_v27 main_v33 (addf : (⟨S50000x64, .f32⟩ : BufTy).Contents (Elt F) → (⟨S50000x64, .f32⟩ : BufTy).Contents (Elt F) → (⟨S50000x64, .f32⟩ : BufTy).Contents (Elt F)),
    unary main_arg8 main_v34 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v34 main_v35 rfl shapeCasts_S1x64x64_S64x64,
    binary main_v33 main_v35 main_v36 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg9 main_v37 ((extractStridedSlice S1x64 ![0, 0] · slices_S3x64_S1x64_0_0) : (⟨S3x64, .f32⟩ : BufTy).Contents (Elt F) → (⟨S1x64, .f32⟩ : BufTy).Contents (Elt F)),
    reshape main_v37 main_v38 rfl shapeCasts_S1x64_S64,
    unary main_v38 main_v39 (broadcastInDim S1x64 ![1] bcast_S64_S1x64_1 : (⟨S64, .f32⟩ : BufTy).Contents (Elt F) → (⟨S1x64, .f32⟩ : BufTy).Contents (Elt F)),
    unary main_v39 main_v40 (broadcastInDim S50000x64 ![0, 1] bcast_S1x64_S50000x64_0_1 : (⟨S1x64, .f32⟩ : BufTy).Contents (Elt F) → (⟨S50000x64, .f32⟩ : BufTy).Contents (Elt F)),
    binary main_v36 main_v40 main_v41 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v41) (TRef.of (T := ⟨S50000x64, .f32⟩) main_call1_v0) (TRef.of (T := ⟨S50000x64, .f32⟩) main_v42) maximumf,
    unary main_arg10 main_v43 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v43 main_v44 rfl shapeCasts_S1x64x64_S64x64,
    binary main_v42 main_v44 main_v45 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg11 main_v46 ((extractStridedSlice S1x64 ![0, 0] · slices_S3x64_S1x64_0_0) : (⟨S3x64, .f32⟩ : BufTy).Contents (Elt F) → (⟨S1x64, .f32⟩ : BufTy).Contents (Elt F)),
    reshape main_v46 main_v47 rfl shapeCasts_S1x64_S64,
    unary main_v47 main_v48 (broadcastInDim S1x64 ![1] bcast_S64_S1x64_1 : (⟨S64, .f32⟩ : BufTy).Contents (Elt F) → (⟨S1x64, .f32⟩ : BufTy).Contents (Elt F)),
    unary main_v48 main_v49 (broadcastInDim S50000x64 ![0, 1] bcast_S1x64_S50000x64_0_1 : (⟨S1x64, .f32⟩ : BufTy).Contents (Elt F) → (⟨S50000x64, .f32⟩ : BufTy).Contents (Elt F)),
    binary main_v45 main_v49 main_v50 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v50) (TRef.of (T := ⟨S50000x64, .f32⟩) main_call2_v0) (TRef.of (T := ⟨S50000x64, .f32⟩) main_v51) maximumf,
    binary main_v51 main_arg0 main_v52 (addf : (⟨S50000x64, .f32⟩ : BufTy).Contents (Elt F) → (⟨S50000x64, .f32⟩ : BufTy).Contents (Elt F) → (⟨S50000x64, .f32⟩ : BufTy).Contents (Elt F)),
    nullary main_cst_2 (constant S_ .f32 0x00000000#32),
    binary main_v52 main_cst_2 main_v53 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v53 main_v54 (broadcastInDim S50000x1 ![0] bcast_S50000_S50000x1_0 : (⟨S50000, .f32⟩ : BufTy).Contents (Elt F) → (⟨S50000x1, .f32⟩ : BufTy).Contents (Elt F)) ]

theorem ops2_sub : (ops2 : List (HloOp τ sig (Elt F))).Forall fun op => op.bufs ⊆ tcRefs τ sig :=
  ⟨unary_bufs_sub .., reshape_bufs_sub .., nullary_bufs_sub .., binary_bufs_sub .., unary_bufs_sub ..,
   binary_bufs_sub .., binary_bufs_sub .., unary_bufs_sub .., reshape_bufs_sub .., binary_bufs_sub ..,
   unary_bufs_sub .., reshape_bufs_sub .., unary_bufs_sub .., unary_bufs_sub .., binary_bufs_sub ..,
   nullary_bufs_sub .., unary_bufs_sub .., binary_bufs_sub .., unary_bufs_sub .., reshape_bufs_sub ..,
   binary_bufs_sub .., unary_bufs_sub .., reshape_bufs_sub .., unary_bufs_sub .., unary_bufs_sub ..,
   binary_bufs_sub .., nullary_bufs_sub .., unary_bufs_sub .., binary_bufs_sub .., binary_bufs_sub ..,
   nullary_bufs_sub .., binary_bufs_sub .., unary_bufs_sub ..⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl⟩

/-- the references the stretch writes, in order -/
abbrev ops2_W : List (Ref sig .tc) :=
  [main_v28, main_v29, main_cst_1, main_v30, main_v31, main_v32, main_v33, main_v34, main_v35, main_v36, main_v37,
   main_v38, main_v39, main_v40, main_v41, main_call1_cst, main_call1_v0, main_v42, main_v43, main_v44, main_v45,
   main_v46, main_v47, main_v48, main_v49, main_v50, main_call2_cst, main_call2_v0, main_v51, main_v52,
   main_cst_2, main_v53, main_v54]

theorem ops2_writes : (ops2 : List (HloOp τ sig (Elt F))).Forall fun op => op.writes ⊆ (ops2_W.map (Proc.devRef (τ := τ) .tc)).toFinset := by
  simp only [List.Forall]
  repeat' apply And.intro
  all_goals writes_one

/-- a reference the stretch does not write keeps its contents through it -/
theorem ops2_keep (V : Valuation τ sig (Elt F)) (r : Ref sig .tc) (h : r ∉ ops2_W) :
    after ops2 V (Proc.devRef .tc r) = V (Proc.devRef .tc r) :=
  after_of_writes_sub ops2 V ops2_writes h

set_option maxHeartbeats 1000000 in
/-- the rows before normalisation -/
theorem ops2_v52 (V : Valuation τ sig (Elt F))
    (h0 : V (Proc.devRef .tc main_arg0) = x0)
    (h5 : V (Proc.devRef .tc main_arg5) = x5)
    (h8 : V (Proc.devRef .tc main_arg8) = x8)
    (h9 : V (Proc.devRef .tc main_arg9) = x9)
    (h10 : V (Proc.devRef .tc main_arg10) = x10)
    (h11 : V (Proc.devRef .tc main_arg11) = x11)
    (hv27 : V (Proc.devRef .tc main_v27) = val_main_v27 (F := F) x0 x1 x2 x3 x4 x6 x7) :
    after ops2 V (Proc.devRef .tc main_v52) = val_main_v52 (F := F) x0 x1 x2 x3 x4 x5 x6 x7 x8 x9 x10 x11 := by
  simp only [ops2]
  after_results_simp
  rw [h0, h5, h8, h9, h10, h11, hv27]
  try simp only [TRef.ofBuf, TRef.toBuf, cast_eq]
  rfl

set_option maxHeartbeats 1000000 in
/-- each row's sum, as a column -/
theorem ops2_v54 (V : Valuation τ sig (Elt F))
    (h0 : V (Proc.devRef .tc main_arg0) = x0)
    (h5 : V (Proc.devRef .tc main_arg5) = x5)
    (h8 : V (Proc.devRef .tc main_arg8) = x8)
    (h9 : V (Proc.devRef .tc main_arg9) = x9)
    (h10 : V (Proc.devRef .tc main_arg10) = x10)
    (h11 : V (Proc.devRef .tc main_arg11) = x11)
    (hv27 : V (Proc.devRef .tc main_v27) = val_main_v27 (F := F) x0 x1 x2 x3 x4 x6 x7) :
    after ops2 V (Proc.devRef .tc main_v54) = val_main_v54 (F := F) x0 x1 x2 x3 x4 x5 x6 x7 x8 x9 x10 x11 := by
  simp only [ops2]
  after_results_simp
  rw [h0, h5, h8, h9, h10, h11, hv27]
  try simp only [TRef.ofBuf, TRef.toBuf, cast_eq]
  rfl

/-! ## The first window of @main is these three stretches in order -/

set_option maxHeartbeats 4000000 in
theorem main_part0_eq (c : Dev nD) : main_part0 (F := F) c = seq (ops0 ++ ops1 ++ ops2) := by chain_rfl

/-! ## Round 0's normalisation -/

/-- the row mean, the deviations from it, the mean of their squares, and the normalised rows scaled by `g₀` and shifted by `bt₀` -/
abbrev ops3 : List (HloOp τ sig (Elt F)) :=
  [ nullary main_cst_3 (constant S_ .f32 0x42800000#32),
    unary main_cst_3 main_v55 (broadcastInDim S50000x1 ![] bcast_S_S50000x1 : (⟨S_, .f32⟩ : BufTy).Contents (Elt F) → (⟨S50000x1, .f32⟩ : BufTy).Contents (Elt F)),
    binary main_v54 main_v55 main_v56 (Host.divf : (⟨S50000x1, .f32⟩ : BufTy).Contents (Elt F) → (⟨S50000x1, .f32⟩ : BufTy).Contents (Elt F) → (⟨S50000x1, .f32⟩ : BufTy).Contents (Elt F)),
    unary main_v56 main_v57 (broadcastInDim S50000x64 ![0, 1] bcast_S50000x1_S50000x64_0_1 : (⟨S50000x1, .f32⟩ : BufTy).Contents (Elt F) → (⟨S50000x64, .f32⟩ : BufTy).Contents (Elt F)),
    binary main_v52 main_v57 main_v58 (subf : (⟨S50000x64, .f32⟩ : BufTy).Contents (Elt F) → (⟨S50000x64, .f32⟩ : BufTy).Contents (Elt F) → (⟨S50000x64, .f32⟩ : BufTy).Contents (Elt F)),
    binary main_v58 main_v58 main_v59 (mulf : (⟨S50000x64, .f32⟩ : BufTy).Contents (Elt F) → (⟨S50000x64, .f32⟩ : BufTy).Contents (Elt F) → (⟨S50000x64, .f32⟩ : BufTy).Contents (Elt F)),
    nullary main_cst_4 (constant S_ .f32 0x00000000#32),
    binary main_v59 main_cst_4 main_v60 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v60 main_v61 (broadcastInDim S50000x1 ![0] bcast_S50000_S50000x1_0 : (⟨S50000, .f32⟩ : BufTy).Contents (Elt F) → (⟨S50000x1, .f32⟩ : BufTy).Contents (Elt F)),
    nullary main_cst_5 (constant S_ .f32 0x42800000#32),
    unary main_cst_5 main_v62 (broadcastInDim S50000x1 ![] bcast_S_S50000x1 : (⟨S_, .f32⟩ : BufTy).Contents (Elt F) → (⟨S50000x1, .f32⟩ : BufTy).Contents (Elt F)),
    binary main_v61 main_v62 main_v63 (Host.divf : (⟨S50000x1, .f32⟩ : BufTy).Contents (Elt F) → (⟨S50000x1, .f32⟩ : BufTy).Contents (Elt F) → (⟨S50000x1, .f32⟩ : BufTy).Contents (Elt F)),
    unary main_v56 main_v64 (broadcastInDim S50000x64 ![0, 1] bcast_S50000x1_S50000x64_0_1 : (⟨S50000x1, .f32⟩ : BufTy).Contents (Elt F) → (⟨S50000x64, .f32⟩ : BufTy).Contents (Elt F)),
    binary main_v52 main_v64 main_v65 (subf : (⟨S50000x64, .f32⟩ : BufTy).Contents (Elt F) → (⟨S50000x64, .f32⟩ : BufTy).Contents (Elt F) → (⟨S50000x64, .f32⟩ : BufTy).Contents (Elt F)),
    nullary main_cst_6 (constant S_ .f32 0x3727C5AC#32),
    unary main_cst_6 main_v66 (broadcastInDim S50000x1 ![] bcast_S_S50000x1 : (⟨S_, .f32⟩ : BufTy).Contents (Elt F) → (⟨S50000x1, .f32⟩ : BufTy).Contents (Elt F)),
    binary main_v63 main_v66 main_v67 (addf : (⟨S50000x1, .f32⟩ : BufTy).Contents (Elt F) → (⟨S50000x1, .f32⟩ : BufTy).Contents (Elt F) → (⟨S50000x1, .f32⟩ : BufTy).Contents (Elt F)),
    unary main_v67 main_v68 (Host.rsqrt : (⟨S50000x1, .f32⟩ : BufTy).Contents (Elt F) → (⟨S50000x1, .f32⟩ : BufTy).Contents (Elt F)),
    unary main_v68 main_v69 (broadcastInDim S50000x64 ![0, 1] bcast_S50000x1_S50000x64_0_1 : (⟨S50000x1, .f32⟩ : BufTy).Contents (Elt F) → (⟨S50000x64, .f32⟩ : BufTy).Contents (Elt F)),
    binary main_v65 main_v69 main_v70 (mulf : (⟨S50000x64, .f32⟩ : BufTy).Contents (Elt F) → (⟨S50000x64, .f32⟩ : BufTy).Contents (Elt F) → (⟨S50000x64, .f32⟩ : BufTy).Contents (Elt F)),
    unary main_arg12 main_v71 ((extractStridedSlice S1x64 ![0, 0] · slices_S3x64_S1x64_0_0) : (⟨S3x64, .f32⟩ : BufTy).Contents (Elt F) → (⟨S1x64, .f32⟩ : BufTy).Contents (Elt F)),
    reshape main_v71 main_v72 rfl shapeCasts_S1x64_S64,
    unary main_v72 main_v73 (broadcastInDim S1x64 ![1] bcast_S64_S1x64_1 : (⟨S64, .f32⟩ : BufTy).Contents (Elt F) → (⟨S1x64, .f32⟩ : BufTy).Contents (Elt F)),
    unary main_v73 main_v74 (broadcastInDim S50000x64 ![0, 1] bcast_S1x64_S50000x64_0_1 : (⟨S1x64, .f32⟩ : BufTy).Contents (Elt F) → (⟨S50000x64, .f32⟩ : BufTy).Contents (Elt F)),
    binary main_v70 main_v74 main_v75 (mulf : (⟨S50000x64, .f32⟩ : BufTy).Contents (Elt F) → (⟨S50000x64, .f32⟩ : BufTy).Contents (Elt F) → (⟨S50000x64, .f32⟩ : BufTy).Contents (Elt F)),
    unary main_arg13 main_v76 ((extractStridedSlice S1x64 ![0, 0] · slices_S3x64_S1x64_0_0) : (⟨S3x64, .f32⟩ : BufTy).Contents (Elt F) → (⟨S1x64, .f32⟩ : BufTy).Contents (Elt F)),
    reshape main_v76 main_v77 rfl shapeCasts_S1x64_S64,
    unary main_v77 main_v78 (broadcastInDim S1x64 ![1] bcast_S64_S1x64_1 : (⟨S64, .f32⟩ : BufTy).Contents (Elt F) → (⟨S1x64, .f32⟩ : BufTy).Contents (Elt F)),
    unary main_v78 main_v79 (broadcastInDim S50000x64 ![0, 1] bcast_S1x64_S50000x64_0_1 : (⟨S1x64, .f32⟩ : BufTy).Contents (Elt F) → (⟨S50000x64, .f32⟩ : BufTy).Contents (Elt F)),
    binary main_v75 main_v79 main_v80 (addf : (⟨S50000x64, .f32⟩ : BufTy).Contents (Elt F) → (⟨S50000x64, .f32⟩ : BufTy).Contents (Elt F) → (⟨S50000x64, .f32⟩ : BufTy).Contents (Elt F)) ]

theorem ops3_sub : (ops3 : List (HloOp τ sig (Elt F))).Forall fun op => op.bufs ⊆ tcRefs τ sig :=
  ⟨nullary_bufs_sub .., unary_bufs_sub .., binary_bufs_sub .., unary_bufs_sub .., binary_bufs_sub ..,
   binary_bufs_sub .., nullary_bufs_sub .., binary_bufs_sub .., unary_bufs_sub .., nullary_bufs_sub ..,
   unary_bufs_sub .., binary_bufs_sub .., unary_bufs_sub .., binary_bufs_sub .., nullary_bufs_sub ..,
   unary_bufs_sub .., binary_bufs_sub .., unary_bufs_sub .., unary_bufs_sub .., binary_bufs_sub ..,
   unary_bufs_sub .., reshape_bufs_sub .., unary_bufs_sub .., unary_bufs_sub .., binary_bufs_sub ..,
   unary_bufs_sub .., reshape_bufs_sub .., unary_bufs_sub .., unary_bufs_sub .., binary_bufs_sub ..⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl,
   rfl, rfl, rfl, rfl, rfl, rfl, rfl, rfl⟩

/-- the references the stretch writes, in order -/
abbrev ops3_W : List (Ref sig .tc) :=
  [main_cst_3, main_v55, main_v56, main_v57, main_v58, main_v59, main_cst_4, main_v60, main_v61, main_cst_5,
   main_v62, main_v63, main_v64, main_v65, main_cst_6, main_v66, main_v67, main_v68, main_v69, main_v70, main_v71,
   main_v72, main_v73, main_v74, main_v75, main_v76, main_v77, main_v78, main_v79, main_v80]

theorem ops3_writes : (ops3 : List (HloOp τ sig (Elt F))).Forall fun op => op.writes ⊆ (ops3_W.map (Proc.devRef (τ := τ) .tc)).toFinset := by
  simp only [List.Forall]
  repeat' apply And.intro
  all_goals writes_one

/-- a reference the stretch does not write keeps its contents through it -/
theorem ops3_keep (V : Valuation τ sig (Elt F)) (r : Ref sig .tc) (h : r ∉ ops3_W) :
    after ops3 V (Proc.devRef .tc r) = V (Proc.devRef .tc r) :=
  after_of_writes_sub ops3 V ops3_writes h

set_option maxHeartbeats 1000000 in
/-- round 0's node features: they read the rows before normalisation and the column of their sums -/
theorem ops3_v80 (V : Valuation τ sig (Elt F))
    (h12 : V (Proc.devRef .tc main_arg12) = x12)
    (h13 : V (Proc.devRef .tc main_arg13) = x13)
    (hv52 : V (Proc.devRef .tc main_v52) = val_main_v52 (F := F) x0 x1 x2 x3 x4 x5 x6 x7 x8 x9 x10 x11)
    (hv54 : V (Proc.devRef .tc main_v54) = val_main_v54 (F := F) x0 x1 x2 x3 x4 x5 x6 x7 x8 x9 x10 x11) :
    after ops3 V (Proc.devRef .tc main_v80) = val_main_v80 (F := F) x0 x1 x2 x3 x4 x5 x6 x7 x8 x9 x10 x11 x12 x13 := by
  simp only [ops3]
  after_results_simp
  rw [h12, h13, hv52, hv54]
  rfl

/-! ## Round 1 on the edges, and `z` -/

/-- round 1's messages `max (h[src] + (enc · W₁ + b₁)) 0` summed into their destination rows, and `z = (1 + eps₁) · h + agg` -/
abbrev ops4 : List (HloOp τ sig (Elt F)) :=
  [ unary main_arg6 main_v81 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v81 main_v82 rfl shapeCasts_S1x64x64_S64x64,
    binary main_v3 main_v82 main_v83 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg7 main_v84 ((extractStridedSlice S1x64 ![1, 0] · slices_S3x64_S1x64_1_0) : (⟨S3x64, .f32⟩ : BufTy).Contents (Elt F) → (⟨S1x64, .f32⟩ : BufTy).Contents (Elt F)),
    reshape main_v84 main_v85 rfl shapeCasts_S1x64_S64,
    unary main_v85 main_v86 (broadcastInDim S1x64 ![1] bcast_S64_S1x64_1 : (⟨S64, .f32⟩ : BufTy).Contents (Elt F) → (⟨S1x64, .f32⟩ : BufTy).Contents (Elt F)),
    unary main_v86 main_v87 (broadcastInDim S800000x64 ![0, 1] bcast_S1x64_S800000x64_0_1 : (⟨S1x64, .f32⟩ : BufTy).Contents (Elt F) → (⟨S800000x64, .f32⟩ : BufTy).Contents (Elt F)),
    binary main_v83 main_v87 main_v88 (addf : (⟨S800000x64, .f32⟩ : BufTy).Contents (Elt F) → (⟨S800000x64, .f32⟩ : BufTy).Contents (Elt F) → (⟨S800000x64, .f32⟩ : BufTy).Contents (Elt F)),
    nullary main_c_7 (constantI S_ 32 0#32),
    unary main_c_7 main_v89 (broadcastInDim S800000 ![] bcast_S_S800000 : (⟨S_, .i32⟩ : BufTy).Contents (Elt F) → (⟨S800000, .i32⟩ : BufTy).Contents (Elt F)),
    binary main_v5 main_v89 main_v90 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v91 (broadcastInDim S800000 ![] bcast_S_S800000 : (⟨S_, .i32⟩ : BufTy).Contents (Elt F) → (⟨S800000, .i32⟩ : BufTy).Contents (Elt F)),
    binary main_v5 main_v91 main_v92 (addi : (⟨S800000, .i32⟩ : BufTy).Contents (Elt F) → (⟨S800000, .i32⟩ : BufTy).Contents (Elt F) → (⟨S800000, .i32⟩ : BufTy).Contents (Elt F)),
    ternary main_v90 main_v92 main_v5 main_v93 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v93 main_v94 (broadcastInDim S800000x1 ![0] bcast_S800000_S800000x1_0 : (⟨S800000, .i32⟩ : BufTy).Contents (Elt F) → (⟨S800000x1, .i32⟩ : BufTy).Contents (Elt F)),
    binary main_v80 main_v94 main_v95 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v95 main_v88 main_v96 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S800000x64, .f32⟩) main_call3_v0) (broadcastInDim S800000x64 ![] bcast_S_S800000x64),
    TRef.binary (TRef.of (T := ⟨S800000x64, .f32⟩) main_v96) (TRef.of (T := ⟨S800000x64, .f32⟩) main_call3_v0) (TRef.of (T := ⟨S800000x64, .f32⟩) main_v97) maximumf,
    nullary main_cst_9 (constant S_ .f32 0x00000000#32),
    unary main_cst_9 main_v98 (broadcastInDim S50000x64 ![] bcast_S_S50000x64 : (⟨S_, .f32⟩ : BufTy).Contents (Elt F) → (⟨S50000x64, .f32⟩ : BufTy).Contents (Elt F)),
    unary main_v7 main_v99 (broadcastInDim S800000x1 ![0] bcast_S800000_S800000x1_0 : (⟨S800000, .i32⟩ : BufTy).Contents (Elt F) → (⟨S800000x1, .i32⟩ : BufTy).Contents (Elt F)),
    ternary main_v98 main_v99 main_v97 main_v100 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg5 main_v101 ((extractStridedSlice S1 ![1] · slices_S3_S1_1) : (⟨S3, .f32⟩ : BufTy).Contents (Elt F) → (⟨S1, .f32⟩ : BufTy).Contents (Elt F)),
    reshape main_v101 main_v102 rfl shapeCasts_S1_S_,
    nullary main_cst_10 (constant S_ .f32 0x3F800000#32),
    binary main_cst_10 main_v102 main_v103 (addf : (⟨S_, .f32⟩ : BufTy).Contents (Elt F) → (⟨S_, .f32⟩ : BufTy).Contents (Elt F) → (⟨S_, .f32⟩ : BufTy).Contents (Elt F)),
    unary main_v103 main_v104 (broadcastInDim S50000x64 ![] bcast_S_S50000x64 : (⟨S_, .f32⟩ : BufTy).Contents (Elt F) → (⟨S50000x64, .f32⟩ : BufTy).Contents (Elt F)),
    binary main_v104 main_v80 main_v105 (mulf : (⟨S50000x64, .f32⟩ : BufTy).Contents (Elt F) → (⟨S50000x64, .f32⟩ : BufTy).Contents (Elt F) → (⟨S50000x64, .f32⟩ : BufTy).Contents (Elt F)),
    binary main_v105 main_v100 main_v106 (addf : (⟨S50000x64, .f32⟩ : BufTy).Contents (Elt F) → (⟨S50000x64, .f32⟩ : BufTy).Contents (Elt F) → (⟨S50000x64, .f32⟩ : BufTy).Contents (Elt F)) ]

theorem ops4_sub : (ops4 : List (HloOp τ sig (Elt F))).Forall fun op => op.bufs ⊆ tcRefs τ sig :=
  ⟨unary_bufs_sub .., reshape_bufs_sub .., binary_bufs_sub .., unary_bufs_sub .., reshape_bufs_sub ..,
   unary_bufs_sub .., unary_bufs_sub .., binary_bufs_sub .., nullary_bufs_sub .., unary_bufs_sub ..,
   binary_bufs_sub .., nullary_bufs_sub .., unary_bufs_sub .., binary_bufs_sub .., ternary_bufs_sub ..,
   unary_bufs_sub .., binary_bufs_sub .., binary_bufs_sub .., nullary_bufs_sub .., unary_bufs_sub ..,
   binary_bufs_sub .., nullary_bufs_sub .., unary_bufs_sub .., unary_bufs_sub .., ternary_bufs_sub ..,
   unary_bufs_sub .., reshape_bufs_sub .., nullary_bufs_sub .., binary_bufs_sub .., unary_bufs_sub ..,
   binary_bufs_sub .., binary_bufs_sub ..⟩

theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl⟩

/-- the references the stretch writes, in order -/
abbrev ops4_W : List (Ref sig .tc) :=
  [main_v81, main_v82, main_v83, main_v84, main_v85, main_v86, main_v87, main_v88, main_c_7, main_v89, main_v90,
   main_c_8, main_v91, main_v92, main_v93, main_v94, main_v95, main_v96, main_call3_cst, main_call3_v0, main_v97,
   main_cst_9, main_v98, main_v99, main_v100, main_v101, main_v102, main_cst_10, main_v103, main_v104, main_v105,
   main_v106]

theorem ops4_writes : (ops4 : List (HloOp τ sig (Elt F))).Forall fun op => op.writes ⊆ (ops4_W.map (Proc.devRef (τ := τ) .tc)).toFinset := by
  simp only [List.Forall]
  repeat' apply And.intro
  all_goals writes_one

/-- a reference the stretch does not write keeps its contents through it -/
theorem ops4_keep (V : Valuation τ sig (Elt F)) (r : Ref sig .tc) (h : r ∉ ops4_W) :
    after ops4 V (Proc.devRef .tc r) = V (Proc.devRef .tc r) :=
  after_of_writes_sub ops4 V ops4_writes h

set_option maxHeartbeats 1000000 in
/-- `z` of round 1: it reads round 0's node features, the encoded attributes and both id rows -/
theorem ops4_v106 (V : Valuation τ sig (Elt F))
    (h5 : V (Proc.devRef .tc main_arg5) = x5)
    (h6 : V (Proc.devRef .tc main_arg6) = x6)
    (h7 : V (Proc.devRef .tc main_arg7) = x7)
    (hv3 : V (Proc.devRef .tc main_v3) = val_main_v3 (F := F) x2 x3 x4)
    (hv5 : V (Proc.devRef .tc main_v5) = val_main_v5 (F := F) x1)
    (hv7 : V (Proc.devRef .tc main_v7) = val_main_v7 (F := F) x1)
    (hv80 : V (Proc.devRef .tc main_v80) = val_main_v80 (F := F) x0 x1 x2 x3 x4 x5 x6 x7 x8 x9 x10 x11 x12 x13) :
    after ops4 V (Proc.devRef .tc main_v106) = val_main_v106 (F := F) x0 x1 x2 x3 x4 x5 x6 x7 x8 x9 x10 x11 x12 x13 := by
  simp only [ops4]
  after_results_simp
  rw [h5, h6, h7, hv3, hv5, hv7, hv80]
  try simp only [TRef.ofBuf, TRef.toBuf, cast_eq]
  rfl

/-! ## The second window of @main is these two stretches in order -/

set_option maxHeartbeats 4000000 in
theorem main_part1_eq (c : Dev nD) : main_part1 (F := F) c = seq (ops3 ++ ops4) := by chain_rfl

/-! ## Round 1 on the nodes, up to the rows before normalisation -/

/-- the two linear maps of `z`, each clamped at zero, and round 0's row added back -/
abbrev ops5 : List (HloOp τ sig (Elt F)) :=
  [ unary main_arg8 main_v107 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v107 main_v108 rfl shapeCasts_S1x64x64_S64x64,
    binary main_v106 main_v108 main_v109 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg9 main_v110 ((extractStridedSlice S1x64 ![1, 0] · slices_S3x64_S1x64_1_0) : (⟨S3x64, .f32⟩ : BufTy).Contents (Elt F) → (⟨S1x64, .f32⟩ : BufTy).Contents (Elt F)),
    reshape main_v110 main_v111 rfl shapeCasts_S1x64_S64,
    unary main_v111 main_v112 (broadcastInDim S1x64 ![1] bcast_S64_S1x64_1 : (⟨S64, .f32⟩ : BufTy).Contents (Elt F) → (⟨S1x64, .f32⟩ : BufTy).Contents (Elt F)),
    unary main_v112 main_v113 (broadcastInDim S50000x64 ![0, 1] bcast_S1x64_S50000x64_0_1 : (⟨S1x64, .f32⟩ : BufTy).Contents (Elt F) → (⟨S50000x64, .f32⟩ : BufTy).Contents (Elt F)),
    binary main_v109 main_v113 main_v114 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x64, .f32⟩) main_call4_v0) (broadcastInDim S50000x64 ![] bcast_S_S50000x64),
    TRef.binary (TRef.of (T := ⟨S50000x64, .f32⟩) main_v114) (TRef.of (T := ⟨S50000x64, .f32⟩) main_call4_v0) (TRef.of (T := ⟨S50000x64, .f32⟩) main_v115) maximumf,
    unary main_arg10 main_v116 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v116 main_v117 rfl shapeCasts_S1x64x64_S64x64,
    binary main_v115 main_v117 main_v118 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg11 main_v119 ((extractStridedSlice S1x64 ![1, 0] · slices_S3x64_S1x64_1_0) : (⟨S3x64, .f32⟩ : BufTy).Contents (Elt F) → (⟨S1x64, .f32⟩ : BufTy).Contents (Elt F)),
    reshape main_v119 main_v120 rfl shapeCasts_S1x64_S64,
    unary main_v120 main_v121 (broadcastInDim S1x64 ![1] bcast_S64_S1x64_1 : (⟨S64, .f32⟩ : BufTy).Contents (Elt F) → (⟨S1x64, .f32⟩ : BufTy).Contents (Elt F)),
    unary main_v121 main_v122 (broadcastInDim S50000x64 ![0, 1] bcast_S1x64_S50000x64_0_1 : (⟨S1x64, .f32⟩ : BufTy).Contents (Elt F) → (⟨S50000x64, .f32⟩ : BufTy).Contents (Elt F)),
    binary main_v118 main_v122 main_v123 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x64, .f32⟩) main_call5_v0) (broadcastInDim S50000x64 ![] bcast_S_S50000x64),
    TRef.binary (TRef.of (T := ⟨S50000x64, .f32⟩) main_v123) (TRef.of (T := ⟨S50000x64, .f32⟩) main_call5_v0) (TRef.of (T := ⟨S50000x64, .f32⟩) main_v124) maximumf,
    binary main_v124 main_v80 main_v125 (addf : (⟨S50000x64, .f32⟩ : BufTy).Contents (Elt F) → (⟨S50000x64, .f32⟩ : BufTy).Contents (Elt F) → (⟨S50000x64, .f32⟩ : BufTy).Contents (Elt F)) ]

theorem ops5_sub : (ops5 : List (HloOp τ sig (Elt F))).Forall fun op => op.bufs ⊆ tcRefs τ sig :=
  ⟨unary_bufs_sub .., reshape_bufs_sub .., binary_bufs_sub .., unary_bufs_sub .., reshape_bufs_sub ..,
   unary_bufs_sub .., unary_bufs_sub .., binary_bufs_sub .., nullary_bufs_sub .., unary_bufs_sub ..,
   binary_bufs_sub .., unary_bufs_sub .., reshape_bufs_sub .., binary_bufs_sub .., unary_bufs_sub ..,
   reshape_bufs_sub .., unary_bufs_sub .., unary_bufs_sub .., binary_bufs_sub .., nullary_bufs_sub ..,
   unary_bufs_sub .., binary_bufs_sub .., binary_bufs_sub ..⟩

theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl,
   rfl⟩

/-- the references the stretch writes, in order -/
abbrev ops5_W : List (Ref sig .tc) :=
  [main_v107, main_v108, main_v109, main_v110, main_v111, main_v112, main_v113, main_v114, main_call4_cst,
   main_call4_v0, main_v115, main_v116, main_v117, main_v118, main_v119, main_v120, main_v121, main_v122,
   main_v123, main_call5_cst, main_call5_v0, main_v124, main_v125]

theorem ops5_writes : (ops5 : List (HloOp τ sig (Elt F))).Forall fun op => op.writes ⊆ (ops5_W.map (Proc.devRef (τ := τ) .tc)).toFinset := by
  simp only [List.Forall]
  repeat' apply And.intro
  all_goals writes_one

/-- a reference the stretch does not write keeps its contents through it -/
theorem ops5_keep (V : Valuation τ sig (Elt F)) (r : Ref sig .tc) (h : r ∉ ops5_W) :
    after ops5 V (Proc.devRef .tc r) = V (Proc.devRef .tc r) :=
  after_of_writes_sub ops5 V ops5_writes h

set_option maxHeartbeats 1000000 in
/-- round 1's rows before normalisation: they read `z` and round 0's node features -/
theorem ops5_v125 (V : Valuation τ sig (Elt F))
    (h8 : V (Proc.devRef .tc main_arg8) = x8)
    (h9 : V (Proc.devRef .tc main_arg9) = x9)
    (h10 : V (Proc.devRef .tc main_arg10) = x10)
    (h11 : V (Proc.devRef .tc main_arg11) = x11)
    (hv80 : V (Proc.devRef .tc main_v80) = val_main_v80 (F := F) x0 x1 x2 x3 x4 x5 x6 x7 x8 x9 x10 x11 x12 x13)
    (hv106 : V (Proc.devRef .tc main_v106) = val_main_v106 (F := F) x0 x1 x2 x3 x4 x5 x6 x7 x8 x9 x10 x11 x12 x13) :
    after ops5 V (Proc.devRef .tc main_v125) = val_main_v125 (F := F) x0 x1 x2 x3 x4 x5 x6 x7 x8 x9 x10 x11 x12 x13 := by
  simp only [ops5]
  after_results_simp
  rw [h8, h9, h10, h11, hv80, hv106]
  try simp only [TRef.ofBuf, TRef.toBuf, cast_eq]
  rfl

/-! ## Round 1's normalisation -/

/-- the row mean, the deviations from it, the mean of their squares, and the normalised rows scaled by `g₁` and shifted by `bt₁` -/
abbrev ops6 : List (HloOp τ sig (Elt F)) :=
  [ nullary main_cst_11 (constant S_ .f32 0x00000000#32),
    binary main_v125 main_cst_11 main_v126 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v126 main_v127 (broadcastInDim S50000x1 ![0] bcast_S50000_S50000x1_0 : (⟨S50000, .f32⟩ : BufTy).Contents (Elt F) → (⟨S50000x1, .f32⟩ : BufTy).Contents (Elt F)),
    nullary main_cst_12 (constant S_ .f32 0x42800000#32),
    unary main_cst_12 main_v128 (broadcastInDim S50000x1 ![] bcast_S_S50000x1 : (⟨S_, .f32⟩ : BufTy).Contents (Elt F) → (⟨S50000x1, .f32⟩ : BufTy).Contents (Elt F)),
    binary main_v127 main_v128 main_v129 (Host.divf : (⟨S50000x1, .f32⟩ : BufTy).Contents (Elt F) → (⟨S50000x1, .f32⟩ : BufTy).Contents (Elt F) → (⟨S50000x1, .f32⟩ : BufTy).Contents (Elt F)),
    unary main_v129 main_v130 (broadcastInDim S50000x64 ![0, 1] bcast_S50000x1_S50000x64_0_1 : (⟨S50000x1, .f32⟩ : BufTy).Contents (Elt F) → (⟨S50000x64, .f32⟩ : BufTy).Contents (Elt F)),
    binary main_v125 main_v130 main_v131 (subf : (⟨S50000x64, .f32⟩ : BufTy).Contents (Elt F) → (⟨S50000x64, .f32⟩ : BufTy).Contents (Elt F) → (⟨S50000x64, .f32⟩ : BufTy).Contents (Elt F)),
    binary main_v131 main_v131 main_v132 (mulf : (⟨S50000x64, .f32⟩ : BufTy).Contents (Elt F) → (⟨S50000x64, .f32⟩ : BufTy).Contents (Elt F) → (⟨S50000x64, .f32⟩ : BufTy).Contents (Elt F)),
    nullary main_cst_13 (constant S_ .f32 0x00000000#32),
    binary main_v132 main_cst_13 main_v133 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v133 main_v134 (broadcastInDim S50000x1 ![0] bcast_S50000_S50000x1_0 : (⟨S50000, .f32⟩ : BufTy).Contents (Elt F) → (⟨S50000x1, .f32⟩ : BufTy).Contents (Elt F)),
    nullary main_cst_14 (constant S_ .f32 0x42800000#32),
    unary main_cst_14 main_v135 (broadcastInDim S50000x1 ![] bcast_S_S50000x1 : (⟨S_, .f32⟩ : BufTy).Contents (Elt F) → (⟨S50000x1, .f32⟩ : BufTy).Contents (Elt F)),
    binary main_v134 main_v135 main_v136 (Host.divf : (⟨S50000x1, .f32⟩ : BufTy).Contents (Elt F) → (⟨S50000x1, .f32⟩ : BufTy).Contents (Elt F) → (⟨S50000x1, .f32⟩ : BufTy).Contents (Elt F)),
    unary main_v129 main_v137 (broadcastInDim S50000x64 ![0, 1] bcast_S50000x1_S50000x64_0_1 : (⟨S50000x1, .f32⟩ : BufTy).Contents (Elt F) → (⟨S50000x64, .f32⟩ : BufTy).Contents (Elt F)),
    binary main_v125 main_v137 main_v138 (subf : (⟨S50000x64, .f32⟩ : BufTy).Contents (Elt F) → (⟨S50000x64, .f32⟩ : BufTy).Contents (Elt F) → (⟨S50000x64, .f32⟩ : BufTy).Contents (Elt F)),
    nullary main_cst_15 (constant S_ .f32 0x3727C5AC#32),
    unary main_cst_15 main_v139 (broadcastInDim S50000x1 ![] bcast_S_S50000x1 : (⟨S_, .f32⟩ : BufTy).Contents (Elt F) → (⟨S50000x1, .f32⟩ : BufTy).Contents (Elt F)),
    binary main_v136 main_v139 main_v140 (addf : (⟨S50000x1, .f32⟩ : BufTy).Contents (Elt F) → (⟨S50000x1, .f32⟩ : BufTy).Contents (Elt F) → (⟨S50000x1, .f32⟩ : BufTy).Contents (Elt F)),
    unary main_v140 main_v141 (Host.rsqrt : (⟨S50000x1, .f32⟩ : BufTy).Contents (Elt F) → (⟨S50000x1, .f32⟩ : BufTy).Contents (Elt F)),
    unary main_v141 main_v142 (broadcastInDim S50000x64 ![0, 1] bcast_S50000x1_S50000x64_0_1 : (⟨S50000x1, .f32⟩ : BufTy).Contents (Elt F) → (⟨S50000x64, .f32⟩ : BufTy).Contents (Elt F)),
    binary main_v138 main_v142 main_v143 (mulf : (⟨S50000x64, .f32⟩ : BufTy).Contents (Elt F) → (⟨S50000x64, .f32⟩ : BufTy).Contents (Elt F) → (⟨S50000x64, .f32⟩ : BufTy).Contents (Elt F)),
    unary main_arg12 main_v144 ((extractStridedSlice S1x64 ![1, 0] · slices_S3x64_S1x64_1_0) : (⟨S3x64, .f32⟩ : BufTy).Contents (Elt F) → (⟨S1x64, .f32⟩ : BufTy).Contents (Elt F)),
    reshape main_v144 main_v145 rfl shapeCasts_S1x64_S64,
    unary main_v145 main_v146 (broadcastInDim S1x64 ![1] bcast_S64_S1x64_1 : (⟨S64, .f32⟩ : BufTy).Contents (Elt F) → (⟨S1x64, .f32⟩ : BufTy).Contents (Elt F)),
    unary main_v146 main_v147 (broadcastInDim S50000x64 ![0, 1] bcast_S1x64_S50000x64_0_1 : (⟨S1x64, .f32⟩ : BufTy).Contents (Elt F) → (⟨S50000x64, .f32⟩ : BufTy).Contents (Elt F)),
    binary main_v143 main_v147 main_v148 (mulf : (⟨S50000x64, .f32⟩ : BufTy).Contents (Elt F) → (⟨S50000x64, .f32⟩ : BufTy).Contents (Elt F) → (⟨S50000x64, .f32⟩ : BufTy).Contents (Elt F)),
    unary main_arg13 main_v149 ((extractStridedSlice S1x64 ![1, 0] · slices_S3x64_S1x64_1_0) : (⟨S3x64, .f32⟩ : BufTy).Contents (Elt F) → (⟨S1x64, .f32⟩ : BufTy).Contents (Elt F)),
    reshape main_v149 main_v150 rfl shapeCasts_S1x64_S64,
    unary main_v150 main_v151 (broadcastInDim S1x64 ![1] bcast_S64_S1x64_1 : (⟨S64, .f32⟩ : BufTy).Contents (Elt F) → (⟨S1x64, .f32⟩ : BufTy).Contents (Elt F)),
    unary main_v151 main_v152 (broadcastInDim S50000x64 ![0, 1] bcast_S1x64_S50000x64_0_1 : (⟨S1x64, .f32⟩ : BufTy).Contents (Elt F) → (⟨S50000x64, .f32⟩ : BufTy).Contents (Elt F)),
    binary main_v148 main_v152 main_v153 (addf : (⟨S50000x64, .f32⟩ : BufTy).Contents (Elt F) → (⟨S50000x64, .f32⟩ : BufTy).Contents (Elt F) → (⟨S50000x64, .f32⟩ : BufTy).Contents (Elt F)) ]

theorem ops6_sub : (ops6 : List (HloOp τ sig (Elt F))).Forall fun op => op.bufs ⊆ tcRefs τ sig :=
  ⟨nullary_bufs_sub .., binary_bufs_sub .., unary_bufs_sub .., nullary_bufs_sub .., unary_bufs_sub ..,
   binary_bufs_sub .., unary_bufs_sub .., binary_bufs_sub .., binary_bufs_sub .., nullary_bufs_sub ..,
   binary_bufs_sub .., unary_bufs_sub .., nullary_bufs_sub .., unary_bufs_sub .., binary_bufs_sub ..,
   unary_bufs_sub .., binary_bufs_sub .., nullary_bufs_sub .., unary_bufs_sub .., binary_bufs_sub ..,
   unary_bufs_sub .., unary_bufs_sub .., binary_bufs_sub .., unary_bufs_sub .., reshape_bufs_sub ..,
   unary_bufs_sub .., unary_bufs_sub .., binary_bufs_sub .., unary_bufs_sub .., reshape_bufs_sub ..,
   unary_bufs_sub .., unary_bufs_sub .., binary_bufs_sub ..⟩

theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl⟩

/-- the references the stretch writes, in order -/
abbrev ops6_W : List (Ref sig .tc) :=
  [main_cst_11, main_v126, main_v127, main_cst_12, main_v128, main_v129, main_v130, main_v131, main_v132,
   main_cst_13, main_v133, main_v134, main_cst_14, main_v135, main_v136, main_v137, main_v138, main_cst_15,
   main_v139, main_v140, main_v141, main_v142, main_v143, main_v144, main_v145, main_v146, main_v147, main_v148,
   main_v149, main_v150, main_v151, main_v152, main_v153]

theorem ops6_writes : (ops6 : List (HloOp τ sig (Elt F))).Forall fun op => op.writes ⊆ (ops6_W.map (Proc.devRef (τ := τ) .tc)).toFinset := by
  simp only [List.Forall]
  repeat' apply And.intro
  all_goals writes_one

/-- a reference the stretch does not write keeps its contents through it -/
theorem ops6_keep (V : Valuation τ sig (Elt F)) (r : Ref sig .tc) (h : r ∉ ops6_W) :
    after ops6 V (Proc.devRef .tc r) = V (Proc.devRef .tc r) :=
  after_of_writes_sub ops6 V ops6_writes h

set_option maxHeartbeats 1000000 in
/-- round 1's node features -/
theorem ops6_v153 (V : Valuation τ sig (Elt F))
    (h12 : V (Proc.devRef .tc main_arg12) = x12)
    (h13 : V (Proc.devRef .tc main_arg13) = x13)
    (hv125 : V (Proc.devRef .tc main_v125) = val_main_v125 (F := F) x0 x1 x2 x3 x4 x5 x6 x7 x8 x9 x10 x11 x12 x13) :
    after ops6 V (Proc.devRef .tc main_v153) = val_main_v153 (F := F) x0 x1 x2 x3 x4 x5 x6 x7 x8 x9 x10 x11 x12 x13 := by
  simp only [ops6]
  after_results_simp
  rw [h12, h13, hv125]
  rfl

/-! ## Round 2's linear map of the encoded attributes -/

/-- `enc · W₂ + b₂` on every edge -/
abbrev ops7 : List (HloOp τ sig (Elt F)) :=
  [ unary main_arg6 main_v154 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v154 main_v155 rfl shapeCasts_S1x64x64_S64x64,
    binary main_v3 main_v155 main_v156 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg7 main_v157 ((extractStridedSlice S1x64 ![2, 0] · slices_S3x64_S1x64_2_0) : (⟨S3x64, .f32⟩ : BufTy).Contents (Elt F) → (⟨S1x64, .f32⟩ : BufTy).Contents (Elt F)),
    reshape main_v157 main_v158 rfl shapeCasts_S1x64_S64,
    unary main_v158 main_v159 (broadcastInDim S1x64 ![1] bcast_S64_S1x64_1 : (⟨S64, .f32⟩ : BufTy).Contents (Elt F) → (⟨S1x64, .f32⟩ : BufTy).Contents (Elt F)),
    unary main_v159 main_v160 (broadcastInDim S800000x64 ![0, 1] bcast_S1x64_S800000x64_0_1 : (⟨S1x64, .f32⟩ : BufTy).Contents (Elt F) → (⟨S800000x64, .f32⟩ : BufTy).Contents (Elt F)),
    binary main_v156 main_v160 main_v161 (addf : (⟨S800000x64, .f32⟩ : BufTy).Contents (Elt F) → (⟨S800000x64, .f32⟩ : BufTy).Contents (Elt F) → (⟨S800000x64, .f32⟩ : BufTy).Contents (Elt F)) ]

theorem ops7_sub : (ops7 : List (HloOp τ sig (Elt F))).Forall fun op => op.bufs ⊆ tcRefs τ sig :=
  ⟨unary_bufs_sub .., reshape_bufs_sub .., binary_bufs_sub .., unary_bufs_sub .., reshape_bufs_sub ..,
   unary_bufs_sub .., unary_bufs_sub .., binary_bufs_sub ..⟩

theorem ops7_fresh : (ops7 : List (HloOp τ sig (Elt F))).Forall fun op => op.fresh = ∅ :=
  ⟨rfl, rfl, rfl, rfl, rfl, rfl, rfl, rfl⟩

/-- the references the stretch writes, in order -/
abbrev ops7_W : List (Ref sig .tc) :=
  [main_v154, main_v155, main_v156, main_v157, main_v158, main_v159, main_v160, main_v161]

theorem ops7_writes : (ops7 : List (HloOp τ sig (Elt F))).Forall fun op => op.writes ⊆ (ops7_W.map (Proc.devRef (τ := τ) .tc)).toFinset := by
  simp only [List.Forall]
  repeat' apply And.intro
  all_goals writes_one

/-- a reference the stretch does not write keeps its contents through it -/
theorem ops7_keep (V : Valuation τ sig (Elt F)) (r : Ref sig .tc) (h : r ∉ ops7_W) :
    after ops7 V (Proc.devRef .tc r) = V (Proc.devRef .tc r) :=
  after_of_writes_sub ops7 V ops7_writes h

/-- the linear map of the encoded attributes in round 2 -/
theorem ops7_v161 (V : Valuation τ sig (Elt F))
    (h6 : V (Proc.devRef .tc main_arg6) = x6)
    (h7 : V (Proc.devRef .tc main_arg7) = x7)
    (hv3 : V (Proc.devRef .tc main_v3) = val_main_v3 (F := F) x2 x3 x4) :
    after ops7 V (Proc.devRef .tc main_v161) = val_main_v161 (F := F) x2 x3 x4 x6 x7 := by
  simp only [ops7]
  after_results_simp
  rw [h6, h7, hv3]
  rfl

/-! ## The third window of @main is these three stretches in order -/

set_option maxHeartbeats 4000000 in
theorem main_part2_eq (c : Dev nD) : main_part2 (F := F) c = seq (ops5 ++ ops6 ++ ops7) := by chain_rfl

/-! ## Round 2's messages and their sums -/

/-- round 2's messages `max (h[src] + (enc · W₂ + b₂)) 0`, summed into their destination rows -/
abbrev ops8 : List (HloOp τ sig (Elt F)) :=
  [ nullary main_c_16 (constantI S_ 32 0#32),
    unary main_c_16 main_v162 (broadcastInDim S800000 ![] bcast_S_S800000 : (⟨S_, .i32⟩ : BufTy).Contents (Elt F) → (⟨S800000, .i32⟩ : BufTy).Contents (Elt F)),
    binary main_v5 main_v162 main_v163 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v164 (broadcastInDim S800000 ![] bcast_S_S800000 : (⟨S_, .i32⟩ : BufTy).Contents (Elt F) → (⟨S800000, .i32⟩ : BufTy).Contents (Elt F)),
    binary main_v5 main_v164 main_v165 (addi : (⟨S800000, .i32⟩ : BufTy).Contents (Elt F) → (⟨S800000, .i32⟩ : BufTy).Contents (Elt F) → (⟨S800000, .i32⟩ : BufTy).Contents (Elt F)),
    ternary main_v163 main_v165 main_v5 main_v166 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v166 main_v167 (broadcastInDim S800000x1 ![0] bcast_S800000_S800000x1_0 : (⟨S800000, .i32⟩ : BufTy).Contents (Elt F) → (⟨S800000x1, .i32⟩ : BufTy).Contents (Elt F)),
    binary main_v153 main_v167 main_v168 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v168 main_v161 main_v169 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S800000x64, .f32⟩) main_call6_v0) (broadcastInDim S800000x64 ![] bcast_S_S800000x64),
    TRef.binary (TRef.of (T := ⟨S800000x64, .f32⟩) main_v169) (TRef.of (T := ⟨S800000x64, .f32⟩) main_call6_v0) (TRef.of (T := ⟨S800000x64, .f32⟩) main_v170) maximumf,
    nullary main_cst_18 (constant S_ .f32 0x00000000#32),
    unary main_cst_18 main_v171 (broadcastInDim S50000x64 ![] bcast_S_S50000x64 : (⟨S_, .f32⟩ : BufTy).Contents (Elt F) → (⟨S50000x64, .f32⟩ : BufTy).Contents (Elt F)),
    unary main_v7 main_v172 (broadcastInDim S800000x1 ![0] bcast_S800000_S800000x1_0 : (⟨S800000, .i32⟩ : BufTy).Contents (Elt F) → (⟨S800000x1, .i32⟩ : BufTy).Contents (Elt F)),
    ternary main_v171 main_v172 main_v170 main_v173 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

theorem ops8_sub : (ops8 : List (HloOp τ sig (Elt F))).Forall fun op => op.bufs ⊆ tcRefs τ sig :=
  ⟨nullary_bufs_sub .., unary_bufs_sub .., binary_bufs_sub .., nullary_bufs_sub .., unary_bufs_sub ..,
   binary_bufs_sub .., ternary_bufs_sub .., unary_bufs_sub .., binary_bufs_sub .., binary_bufs_sub ..,
   nullary_bufs_sub .., unary_bufs_sub .., binary_bufs_sub .., nullary_bufs_sub .., unary_bufs_sub ..,
   unary_bufs_sub .., ternary_bufs_sub ..⟩

theorem ops8_fresh : (ops8 : List (HloOp τ sig (Elt F))).Forall fun op => op.fresh = ∅ :=
  ⟨rfl, rfl, rfl, rfl, rfl, rfl, rfl, rfl, rfl, rfl, rfl, rfl, rfl, rfl, rfl, rfl, rfl⟩

/-- the references the stretch writes, in order -/
abbrev ops8_W : List (Ref sig .tc) :=
  [main_c_16, main_v162, main_v163, main_c_17, main_v164, main_v165, main_v166, main_v167, main_v168, main_v169,
   main_call6_cst, main_call6_v0, main_v170, main_cst_18, main_v171, main_v172, main_v173]

theorem ops8_writes : (ops8 : List (HloOp τ sig (Elt F))).Forall fun op => op.writes ⊆ (ops8_W.map (Proc.devRef (τ := τ) .tc)).toFinset := by
  simp only [List.Forall]
  repeat' apply And.intro
  all_goals writes_one

/-- a reference the stretch does not write keeps its contents through it -/
theorem ops8_keep (V : Valuation τ sig (Elt F)) (r : Ref sig .tc) (h : r ∉ ops8_W) :
    after ops8 V (Proc.devRef .tc r) = V (Proc.devRef .tc r) :=
  after_of_writes_sub ops8 V ops8_writes h

set_option maxHeartbeats 1000000 in
/-- the summed messages of round 2: they read round 1's node features, the linear map of the encoded attributes and both id rows -/
theorem ops8_v173 (V : Valuation τ sig (Elt F))
    (hv5 : V (Proc.devRef .tc main_v5) = val_main_v5 (F := F) x1)
    (hv7 : V (Proc.devRef .tc main_v7) = val_main_v7 (F := F) x1)
    (hv153 : V (Proc.devRef .tc main_v153) = val_main_v153 (F := F) x0 x1 x2 x3 x4 x5 x6 x7 x8 x9 x10 x11 x12 x13)
    (hv161 : V (Proc.devRef .tc main_v161) = val_main_v161 (F := F) x2 x3 x4 x6 x7) :
    after ops8 V (Proc.devRef .tc main_v173) = val_main_v173 (F := F) x0 x1 x2 x3 x4 x5 x6 x7 x8 x9 x10 x11 x12 x13 := by
  simp only [ops8]
  after_results_simp
  rw [hv5, hv7, hv153, hv161]
  try simp only [TRef.ofBuf, TRef.toBuf, cast_eq]
  rfl

/-! ## Round 2 on the nodes, up to the variance -/

/-- `z = (1 + eps₂) · h + agg`, the two linear maps with their clamps at zero, round 1's row added back, the row mean, the deviations and the mean of their squares -/
abbrev ops9 : List (HloOp τ sig (Elt F)) :=
  [ unary main_arg5 main_v174 ((extractStridedSlice S1 ![2] · slices_S3_S1_2) : (⟨S3, .f32⟩ : BufTy).Contents (Elt F) → (⟨S1, .f32⟩ : BufTy).Contents (Elt F)),
    reshape main_v174 main_v175 rfl shapeCasts_S1_S_,
    nullary main_cst_19 (constant S_ .f32 0x3F800000#32),
    binary main_cst_19 main_v175 main_v176 (addf : (⟨S_, .f32⟩ : BufTy).Contents (Elt F) → (⟨S_, .f32⟩ : BufTy).Contents (Elt F) → (⟨S_, .f32⟩ : BufTy).Contents (Elt F)),
    unary main_v176 main_v177 (broadcastInDim S50000x64 ![] bcast_S_S50000x64 : (⟨S_, .f32⟩ : BufTy).Contents (Elt F) → (⟨S50000x64, .f32⟩ : BufTy).Contents (Elt F)),
    binary main_v177 main_v153 main_v178 (mulf : (⟨S50000x64, .f32⟩ : BufTy).Contents (Elt F) → (⟨S50000x64, .f32⟩ : BufTy).Contents (Elt F) → (⟨S50000x64, .f32⟩ : BufTy).Contents (Elt F)),
    binary main_v178 main_v173 main_v179 (addf : (⟨S50000x64, .f32⟩ : BufTy).Contents (Elt F) → (⟨S50000x64, .f32⟩ : BufTy).Contents (Elt F) → (⟨S50000x64, .f32⟩ : BufTy).Contents (Elt F)),
    unary main_arg8 main_v180 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v180 main_v181 rfl shapeCasts_S1x64x64_S64x64,
    binary main_v179 main_v181 main_v182 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg9 main_v183 ((extractStridedSlice S1x64 ![2, 0] · slices_S3x64_S1x64_2_0) : (⟨S3x64, .f32⟩ : BufTy).Contents (Elt F) → (⟨S1x64, .f32⟩ : BufTy).Contents (Elt F)),
    reshape main_v183 main_v184 rfl shapeCasts_S1x64_S64,
    unary main_v184 main_v185 (broadcastInDim S1x64 ![1] bcast_S64_S1x64_1 : (⟨S64, .f32⟩ : BufTy).Contents (Elt F) → (⟨S1x64, .f32⟩ : BufTy).Contents (Elt F)),
    unary main_v185 main_v186 (broadcastInDim S50000x64 ![0, 1] bcast_S1x64_S50000x64_0_1 : (⟨S1x64, .f32⟩ : BufTy).Contents (Elt F) → (⟨S50000x64, .f32⟩ : BufTy).Contents (Elt F)),
    binary main_v182 main_v186 main_v187 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x64, .f32⟩) main_call7_v0) (broadcastInDim S50000x64 ![] bcast_S_S50000x64),
    TRef.binary (TRef.of (T := ⟨S50000x64, .f32⟩) main_v187) (TRef.of (T := ⟨S50000x64, .f32⟩) main_call7_v0) (TRef.of (T := ⟨S50000x64, .f32⟩) main_v188) maximumf,
    unary main_arg10 main_v189 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v189 main_v190 rfl shapeCasts_S1x64x64_S64x64,
    binary main_v188 main_v190 main_v191 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg11 main_v192 ((extractStridedSlice S1x64 ![2, 0] · slices_S3x64_S1x64_2_0) : (⟨S3x64, .f32⟩ : BufTy).Contents (Elt F) → (⟨S1x64, .f32⟩ : BufTy).Contents (Elt F)),
    reshape main_v192 main_v193 rfl shapeCasts_S1x64_S64,
    unary main_v193 main_v194 (broadcastInDim S1x64 ![1] bcast_S64_S1x64_1 : (⟨S64, .f32⟩ : BufTy).Contents (Elt F) → (⟨S1x64, .f32⟩ : BufTy).Contents (Elt F)),
    unary main_v194 main_v195 (broadcastInDim S50000x64 ![0, 1] bcast_S1x64_S50000x64_0_1 : (⟨S1x64, .f32⟩ : BufTy).Contents (Elt F) → (⟨S50000x64, .f32⟩ : BufTy).Contents (Elt F)),
    binary main_v191 main_v195 main_v196 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S50000x64, .f32⟩) main_call8_v0) (broadcastInDim S50000x64 ![] bcast_S_S50000x64),
    TRef.binary (TRef.of (T := ⟨S50000x64, .f32⟩) main_v196) (TRef.of (T := ⟨S50000x64, .f32⟩) main_call8_v0) (TRef.of (T := ⟨S50000x64, .f32⟩) main_v197) maximumf,
    binary main_v197 main_v153 main_v198 (addf : (⟨S50000x64, .f32⟩ : BufTy).Contents (Elt F) → (⟨S50000x64, .f32⟩ : BufTy).Contents (Elt F) → (⟨S50000x64, .f32⟩ : BufTy).Contents (Elt F)),
    nullary main_cst_20 (constant S_ .f32 0x00000000#32),
    binary main_v198 main_cst_20 main_v199 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v199 main_v200 (broadcastInDim S50000x1 ![0] bcast_S50000_S50000x1_0 : (⟨S50000, .f32⟩ : BufTy).Contents (Elt F) → (⟨S50000x1, .f32⟩ : BufTy).Contents (Elt F)),
    nullary main_cst_21 (constant S_ .f32 0x42800000#32),
    unary main_cst_21 main_v201 (broadcastInDim S50000x1 ![] bcast_S_S50000x1 : (⟨S_, .f32⟩ : BufTy).Contents (Elt F) → (⟨S50000x1, .f32⟩ : BufTy).Contents (Elt F)),
    binary main_v200 main_v201 main_v202 (Host.divf : (⟨S50000x1, .f32⟩ : BufTy).Contents (Elt F) → (⟨S50000x1, .f32⟩ : BufTy).Contents (Elt F) → (⟨S50000x1, .f32⟩ : BufTy).Contents (Elt F)),
    unary main_v202 main_v203 (broadcastInDim S50000x64 ![0, 1] bcast_S50000x1_S50000x64_0_1 : (⟨S50000x1, .f32⟩ : BufTy).Contents (Elt F) → (⟨S50000x64, .f32⟩ : BufTy).Contents (Elt F)),
    binary main_v198 main_v203 main_v204 (subf : (⟨S50000x64, .f32⟩ : BufTy).Contents (Elt F) → (⟨S50000x64, .f32⟩ : BufTy).Contents (Elt F) → (⟨S50000x64, .f32⟩ : BufTy).Contents (Elt F)),
    binary main_v204 main_v204 main_v205 (mulf : (⟨S50000x64, .f32⟩ : BufTy).Contents (Elt F) → (⟨S50000x64, .f32⟩ : BufTy).Contents (Elt F) → (⟨S50000x64, .f32⟩ : BufTy).Contents (Elt F)),
    nullary main_cst_22 (constant S_ .f32 0x00000000#32),
    binary main_v205 main_cst_22 main_v206 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v206 main_v207 (broadcastInDim S50000x1 ![0] bcast_S50000_S50000x1_0 : (⟨S50000, .f32⟩ : BufTy).Contents (Elt F) → (⟨S50000x1, .f32⟩ : BufTy).Contents (Elt F)),
    nullary main_cst_23 (constant S_ .f32 0x42800000#32),
    unary main_cst_23 main_v208 (broadcastInDim S50000x1 ![] bcast_S_S50000x1 : (⟨S_, .f32⟩ : BufTy).Contents (Elt F) → (⟨S50000x1, .f32⟩ : BufTy).Contents (Elt F)),
    binary main_v207 main_v208 main_v209 (Host.divf : (⟨S50000x1, .f32⟩ : BufTy).Contents (Elt F) → (⟨S50000x1, .f32⟩ : BufTy).Contents (Elt F) → (⟨S50000x1, .f32⟩ : BufTy).Contents (Elt F)),
    unary main_v202 main_v210 (broadcastInDim S50000x64 ![0, 1] bcast_S50000x1_S50000x64_0_1 : (⟨S50000x1, .f32⟩ : BufTy).Contents (Elt F) → (⟨S50000x64, .f32⟩ : BufTy).Contents (Elt F)),
    binary main_v198 main_v210 main_v211 (subf : (⟨S50000x64, .f32⟩ : BufTy).Contents (Elt F) → (⟨S50000x64, .f32⟩ : BufTy).Contents (Elt F) → (⟨S50000x64, .f32⟩ : BufTy).Contents (Elt F)),
    nullary main_cst_24 (constant S_ .f32 0x3727C5AC#32),
    unary main_cst_24 main_v212 (broadcastInDim S50000x1 ![] bcast_S_S50000x1 : (⟨S_, .f32⟩ : BufTy).Contents (Elt F) → (⟨S50000x1, .f32⟩ : BufTy).Contents (Elt F)) ]

theorem ops9_sub : (ops9 : List (HloOp τ sig (Elt F))).Forall fun op => op.bufs ⊆ tcRefs τ sig :=
  ⟨unary_bufs_sub .., reshape_bufs_sub .., nullary_bufs_sub .., binary_bufs_sub .., unary_bufs_sub ..,
   binary_bufs_sub .., binary_bufs_sub .., unary_bufs_sub .., reshape_bufs_sub .., binary_bufs_sub ..,
   unary_bufs_sub .., reshape_bufs_sub .., unary_bufs_sub .., unary_bufs_sub .., binary_bufs_sub ..,
   nullary_bufs_sub .., unary_bufs_sub .., binary_bufs_sub .., unary_bufs_sub .., reshape_bufs_sub ..,
   binary_bufs_sub .., unary_bufs_sub .., reshape_bufs_sub .., unary_bufs_sub .., unary_bufs_sub ..,
   binary_bufs_sub .., nullary_bufs_sub .., unary_bufs_sub .., binary_bufs_sub .., binary_bufs_sub ..,
   nullary_bufs_sub .., binary_bufs_sub .., unary_bufs_sub .., nullary_bufs_sub .., unary_bufs_sub ..,
   binary_bufs_sub .., unary_bufs_sub .., binary_bufs_sub .., binary_bufs_sub .., nullary_bufs_sub ..,
   binary_bufs_sub .., unary_bufs_sub .., nullary_bufs_sub .., unary_bufs_sub .., binary_bufs_sub ..,
   unary_bufs_sub .., binary_bufs_sub .., nullary_bufs_sub .., unary_bufs_sub ..⟩

theorem ops9_fresh : (ops9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl,
   rfl, rfl, rfl, rfl, rfl⟩

/-- the references the stretch writes, in order -/
abbrev ops9_W : List (Ref sig .tc) :=
  [main_v174, main_v175, main_cst_19, main_v176, main_v177, main_v178, main_v179, main_v180, main_v181, main_v182,
   main_v183, main_v184, main_v185, main_v186, main_v187, main_call7_cst, main_call7_v0, main_v188, main_v189,
   main_v190, main_v191, main_v192, main_v193, main_v194, main_v195, main_v196, main_call8_cst, main_call8_v0,
   main_v197, main_v198, main_cst_20, main_v199, main_v200, main_cst_21, main_v201, main_v202, main_v203,
   main_v204, main_v205, main_cst_22, main_v206, main_v207, main_cst_23, main_v208, main_v209, main_v210,
   main_v211, main_cst_24, main_v212]

theorem ops9_writes : (ops9 : List (HloOp τ sig (Elt F))).Forall fun op => op.writes ⊆ (ops9_W.map (Proc.devRef (τ := τ) .tc)).toFinset := by
  simp only [List.Forall]
  repeat' apply And.intro
  all_goals writes_one

/-- a reference the stretch does not write keeps its contents through it -/
theorem ops9_keep (V : Valuation τ sig (Elt F)) (r : Ref sig .tc) (h : r ∉ ops9_W) :
    after ops9 V (Proc.devRef .tc r) = V (Proc.devRef .tc r) :=
  after_of_writes_sub ops9 V ops9_writes h

set_option maxHeartbeats 2000000 in
/-- the mean of the squared deviations, as a column -/
theorem ops9_v209 (V : Valuation τ sig (Elt F))
    (h5 : V (Proc.devRef .tc main_arg5) = x5)
    (h8 : V (Proc.devRef .tc main_arg8) = x8)
    (h9 : V (Proc.devRef .tc main_arg9) = x9)
    (h10 : V (Proc.devRef .tc main_arg10) = x10)
    (h11 : V (Proc.devRef .tc main_arg11) = x11)
    (hv153 : V (Proc.devRef .tc main_v153) = val_main_v153 (F := F) x0 x1 x2 x3 x4 x5 x6 x7 x8 x9 x10 x11 x12 x13)
    (hv173 : V (Proc.devRef .tc main_v173) = val_main_v173 (F := F) x0 x1 x2 x3 x4 x5 x6 x7 x8 x9 x10 x11 x12 x13) :
    after ops9 V (Proc.devRef .tc main_v209) = val_main_v209 (F := F) x0 x1 x2 x3 x4 x5 x6 x7 x8 x9 x10 x11 x12 x13 := by
  simp only [ops9]
  after_results_simp
  rw [h5, h8, h9, h10, h11, hv153, hv173]
  try simp only [TRef.ofBuf, TRef.toBuf, cast_eq]
  rfl

set_option maxHeartbeats 2000000 in
/-- the deviations from the row mean -/
theorem ops9_v211 (V : Valuation τ sig (Elt F))
    (h5 : V (Proc.devRef .tc main_arg5) = x5)
    (h8 : V (Proc.devRef .tc main_arg8) = x8)
    (h9 : V (Proc.devRef .tc main_arg9) = x9)
    (h10 : V (Proc.devRef .tc main_arg10) = x10)
    (h11 : V (Proc.devRef .tc main_arg11) = x11)
    (hv153 : V (Proc.devRef .tc main_v153) = val_main_v153 (F := F) x0 x1 x2 x3 x4 x5 x6 x7 x8 x9 x10 x11 x12 x13)
    (hv173 : V (Proc.devRef .tc main_v173) = val_main_v173 (F := F) x0 x1 x2 x3 x4 x5 x6 x7 x8 x9 x10 x11 x12 x13) :
    after ops9 V (Proc.devRef .tc main_v211) = val_main_v211 (F := F) x0 x1 x2 x3 x4 x5 x6 x7 x8 x9 x10 x11 x12 x13 := by
  simp only [ops9]
  after_results_simp
  rw [h5, h8, h9, h10, h11, hv153, hv173]
  try simp only [TRef.ofBuf, TRef.toBuf, cast_eq]
  rfl

/-- the column of the literal ε -/
theorem ops9_v212 (V : Valuation τ sig (Elt F)) :
    after ops9 V (Proc.devRef .tc main_v212) = val_main_v212 (F := F) := by
  simp only [ops9]
  after_results_simp
  rfl

/-! ## Round 2's normalisation closed: the result -/

/-- `(y − μ) · rsqrt (σ² + ε) · g₂ + bt₂` -/
abbrev ops10 : List (HloOp τ sig (Elt F)) :=
  [ binary main_v209 main_v212 main_v213 (addf : (⟨S50000x1, .f32⟩ : BufTy).Contents (Elt F) → (⟨S50000x1, .f32⟩ : BufTy).Contents (Elt F) → (⟨S50000x1, .f32⟩ : BufTy).Contents (Elt F)),
    unary main_v213 main_v214 (Host.rsqrt : (⟨S50000x1, .f32⟩ : BufTy).Contents (Elt F) → (⟨S50000x1, .f32⟩ : BufTy).Contents (Elt F)),
    unary main_v214 main_v215 (broadcastInDim S50000x64 ![0, 1] bcast_S50000x1_S50000x64_0_1 : (⟨S50000x1, .f32⟩ : BufTy).Contents (Elt F) → (⟨S50000x64, .f32⟩ : BufTy).Contents (Elt F)),
    binary main_v211 main_v215 main_v216 (mulf : (⟨S50000x64, .f32⟩ : BufTy).Contents (Elt F) → (⟨S50000x64, .f32⟩ : BufTy).Contents (Elt F) → (⟨S50000x64, .f32⟩ : BufTy).Contents (Elt F)),
    unary main_arg12 main_v217 ((extractStridedSlice S1x64 ![2, 0] · slices_S3x64_S1x64_2_0) : (⟨S3x64, .f32⟩ : BufTy).Contents (Elt F) → (⟨S1x64, .f32⟩ : BufTy).Contents (Elt F)),
    reshape main_v217 main_v218 rfl shapeCasts_S1x64_S64,
    unary main_v218 main_v219 (broadcastInDim S1x64 ![1] bcast_S64_S1x64_1 : (⟨S64, .f32⟩ : BufTy).Contents (Elt F) → (⟨S1x64, .f32⟩ : BufTy).Contents (Elt F)),
    unary main_v219 main_v220 (broadcastInDim S50000x64 ![0, 1] bcast_S1x64_S50000x64_0_1 : (⟨S1x64, .f32⟩ : BufTy).Contents (Elt F) → (⟨S50000x64, .f32⟩ : BufTy).Contents (Elt F)),
    binary main_v216 main_v220 main_v221 (mulf : (⟨S50000x64, .f32⟩ : BufTy).Contents (Elt F) → (⟨S50000x64, .f32⟩ : BufTy).Contents (Elt F) → (⟨S50000x64, .f32⟩ : BufTy).Contents (Elt F)),
    unary main_arg13 main_v222 ((extractStridedSlice S1x64 ![2, 0] · slices_S3x64_S1x64_2_0) : (⟨S3x64, .f32⟩ : BufTy).Contents (Elt F) → (⟨S1x64, .f32⟩ : BufTy).Contents (Elt F)),
    reshape main_v222 main_v223 rfl shapeCasts_S1x64_S64,
    unary main_v223 main_v224 (broadcastInDim S1x64 ![1] bcast_S64_S1x64_1 : (⟨S64, .f32⟩ : BufTy).Contents (Elt F) → (⟨S1x64, .f32⟩ : BufTy).Contents (Elt F)),
    unary main_v224 main_v225 (broadcastInDim S50000x64 ![0, 1] bcast_S1x64_S50000x64_0_1 : (⟨S1x64, .f32⟩ : BufTy).Contents (Elt F) → (⟨S50000x64, .f32⟩ : BufTy).Contents (Elt F)),
    binary main_v221 main_v225 main_v226 (addf : (⟨S50000x64, .f32⟩ : BufTy).Contents (Elt F) → (⟨S50000x64, .f32⟩ : BufTy).Contents (Elt F) → (⟨S50000x64, .f32⟩ : BufTy).Contents (Elt F)) ]

theorem ops10_sub : (ops10 : List (HloOp τ sig (Elt F))).Forall fun op => op.bufs ⊆ tcRefs τ sig :=
  ⟨binary_bufs_sub .., unary_bufs_sub .., unary_bufs_sub .., binary_bufs_sub .., unary_bufs_sub ..,
   reshape_bufs_sub .., unary_bufs_sub .., unary_bufs_sub .., binary_bufs_sub .., unary_bufs_sub ..,
   reshape_bufs_sub .., unary_bufs_sub .., unary_bufs_sub .., binary_bufs_sub ..⟩

theorem ops10_fresh : (ops10 : List (HloOp τ sig (Elt F))).Forall fun op => op.fresh = ∅ :=
  ⟨rfl, rfl, rfl, rfl, rfl, rfl, rfl, rfl, rfl, rfl, rfl, rfl, rfl, rfl⟩

/-- the references the stretch writes, in order -/
abbrev ops10_W : List (Ref sig .tc) :=
  [main_v213, main_v214, main_v215, main_v216, main_v217, main_v218, main_v219, main_v220, main_v221, main_v222,
   main_v223, main_v224, main_v225, main_v226]

theorem ops10_writes : (ops10 : List (HloOp τ sig (Elt F))).Forall fun op => op.writes ⊆ (ops10_W.map (Proc.devRef (τ := τ) .tc)).toFinset := by
  simp only [List.Forall]
  repeat' apply And.intro
  all_goals writes_one

/-- a reference the stretch does not write keeps its contents through it -/
theorem ops10_keep (V : Valuation τ sig (Elt F)) (r : Ref sig .tc) (h : r ∉ ops10_W) :
    after ops10 V (Proc.devRef .tc r) = V (Proc.devRef .tc r) :=
  after_of_writes_sub ops10 V ops10_writes h

set_option maxHeartbeats 1000000 in
/-- the result: it reads the deviations, the column of their mean square and the column of ε -/
theorem ops10_v226 (V : Valuation τ sig (Elt F))
    (h12 : V (Proc.devRef .tc main_arg12) = x12)
    (h13 : V (Proc.devRef .tc main_arg13) = x13)
    (hv209 : V (Proc.devRef .tc main_v209) = val_main_v209 (F := F) x0 x1 x2 x3 x4 x5 x6 x7 x8 x9 x10 x11 x12 x13)
    (hv211 : V (Proc.devRef .tc main_v211) = val_main_v211 (F := F) x0 x1 x2 x3 x4 x5 x6 x7 x8 x9 x10 x11 x12 x13)
    (hv212 : V (Proc.devRef .tc main_v212) = val_main_v212 (F := F) ) :
    after ops10 V (Proc.devRef .tc main_v226) = val_main_v226 (F := F) x0 x1 x2 x3 x4 x5 x6 x7 x8 x9 x10 x11 x12 x13 := by
  simp only [ops10]
  after_results_simp
  rw [h12, h13, hv209, hv211, hv212]
  rfl

/-! ## The last two windows of @main -/

set_option maxHeartbeats 4000000 in
theorem main_part3_eq (c : Dev nD) : main_part3 (F := F) c = seq (ops8 ++ ops9) := by chain_rfl

theorem main_part4_eq (c : Dev nD) : main_part4 (F := F) c = seq ops10 := by chain_rfl

end Stretches

/-! ## @main is its operations in order -/

/-- @main's 272 operations: the eleven stretches, in order -/
abbrev ops : List (HloOp τ sig (Elt F)) :=
  ops0 ++ (ops1 ++ (ops2 ++ (ops3 ++ (ops4 ++ (ops5 ++ (ops6 ++ (ops7 ++ (ops8 ++ (ops9 ++ ops10)))))))))

/-- @main runs its five windows in order, each window is its stretches in order, and a concatenation runs as its pieces
    one after the other -/
theorem main_eq (c : Dev nD) : main (F := F) c = seq ops := by
  simp only [main, ops, main_part0_eq c, main_part1_eq c, main_part2_eq c, main_part3_eq c, main_part4_eq c, seq_append,
    bind_assoc]

theorem scopedRefs_eq : (Finset.univ.filter fun b : Ref sig .tc => b.isScoped) = ∅ := by decide
theorem scopedSems_eq : (Finset.univ.filter fun sm : SemLoc sig => sm.isScoped .tc) = ∅ := by decide

/-- every operation touches TensorCore references only: stretch by stretch -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h, List.forall_iff_forall_mem.mp ops5_sub op h,
      List.forall_iff_forall_mem.mp ops6_sub op h, List.forall_iff_forall_mem.mp ops7_sub op h,
      List.forall_iff_forall_mem.mp ops8_sub op h, List.forall_iff_forall_mem.mp ops9_sub op h,
      List.forall_iff_forall_mem.mp ops10_sub op h]

/-- every operation determines its results: stretch by stretch -/
theorem ops_fresh : ∀ op ∈ (ops : List (HloOp τ sig (Elt F))), op.fresh = ∅ := fun op h => by
  simp only [ops, List.mem_append] at h
  rcases h with h | h | h | h | h | h | h | h | h | h | h
  exacts [List.forall_iff_forall_mem.mp ops0_fresh op h, List.forall_iff_forall_mem.mp ops1_fresh op h,
    List.forall_iff_forall_mem.mp ops2_fresh op h, List.forall_iff_forall_mem.mp ops3_fresh op h,
    List.forall_iff_forall_mem.mp ops4_fresh op h, List.forall_iff_forall_mem.mp ops5_fresh op h,
    List.forall_iff_forall_mem.mp ops6_fresh op h, List.forall_iff_forall_mem.mp ops7_fresh op h,
    List.forall_iff_forall_mem.mp ops8_fresh op h, List.forall_iff_forall_mem.mp ops9_fresh op h,
    List.forall_iff_forall_mem.mp ops10_fresh op h]

/-! ## The arguments stay as they were -/

/-- the fourteen argument references -/
abbrev argRefs : List (Ref sig .tc) :=
  [main_arg0, main_arg1, main_arg2, main_arg3, main_arg4, main_arg5, main_arg6, main_arg7, main_arg8, main_arg9,
   main_arg10, main_arg11, main_arg12, main_arg13]

/-- `V` holds at every argument what `V0` holds there -/
def SameArgs (V0 V : Valuation τ sig (Elt F)) : Prop :=
  ∀ r ∈ argRefs, V (Proc.devRef .tc r) = V0 (Proc.devRef .tc r)

theorem SameArgs.refl (V0 : Valuation τ sig (Elt F)) : SameArgs V0 V0 := fun _ _ => rfl

/-- a stretch that writes no argument keeps the agreement -/
theorem SameArgs.step {V0 V : Valuation τ sig (Elt F)} (h : SameArgs V0 V) {W : List (Ref sig .tc)}
    (l : List (HloOp τ sig (Elt F)))
    (hW : l.Forall fun op => op.writes ⊆ (W.map (Proc.devRef (τ := τ) .tc)).toFinset)
    (hd : ∀ r ∈ argRefs, r ∉ W := by decide) : SameArgs V0 (after l V) :=
  fun r hr => (after_of_writes_sub l V hW (hd r hr)).trans (h r hr)

section
variable {V0 V : Valuation τ sig (Elt F)} (h : SameArgs V0 V)
include h
theorem SameArgs.a0 : V (Proc.devRef .tc main_arg0) = V0 (Proc.devRef .tc main_arg0) := h _ (by decide)
theorem SameArgs.a1 : V (Proc.devRef .tc main_arg1) = V0 (Proc.devRef .tc main_arg1) := h _ (by decide)
theorem SameArgs.a2 : V (Proc.devRef .tc main_arg2) = V0 (Proc.devRef .tc main_arg2) := h _ (by decide)
theorem SameArgs.a3 : V (Proc.devRef .tc main_arg3) = V0 (Proc.devRef .tc main_arg3) := h _ (by decide)
theorem SameArgs.a4 : V (Proc.devRef .tc main_arg4) = V0 (Proc.devRef .tc main_arg4) := h _ (by decide)
theorem SameArgs.a5 : V (Proc.devRef .tc main_arg5) = V0 (Proc.devRef .tc main_arg5) := h _ (by decide)
theorem SameArgs.a6 : V (Proc.devRef .tc main_arg6) = V0 (Proc.devRef .tc main_arg6) := h _ (by decide)
theorem SameArgs.a7 : V (Proc.devRef .tc main_arg7) = V0 (Proc.devRef .tc main_arg7) := h _ (by decide)
theorem SameArgs.a8 : V (Proc.devRef .tc main_arg8) = V0 (Proc.devRef .tc main_arg8) := h _ (by decide)
theorem SameArgs.a9 : V (Proc.devRef .tc main_arg9) = V0 (Proc.devRef .tc main_arg9) := h _ (by decide)
theorem SameArgs.a10 : V (Proc.devRef .tc main_arg10) = V0 (Proc.devRef .tc main_arg10) := h _ (by decide)
theorem SameArgs.a11 : V (Proc.devRef .tc main_arg11) = V0 (Proc.devRef .tc main_arg11) := h _ (by decide)
theorem SameArgs.a12 : V (Proc.devRef .tc main_arg12) = V0 (Proc.devRef .tc main_arg12) := h _ (by decide)
theorem SameArgs.a13 : V (Proc.devRef .tc main_arg13) = V0 (Proc.devRef .tc main_arg13) := h _ (by decide)
end

/-! ## The result, stretch by stretch -/

/-- After all the operations the arguments are as they were and the result buffer holds the last stage of the
    composition at them: each stretch's stages are read from the stages the stretch before left, and a stage a later
    stretch reads is carried through the stretches between, none of which writes its buffer. -/
theorem after_ops (V0 : Valuation τ sig (Elt F)) :
    SameArgs V0 (after ops V0) ∧
    after ops V0 (Proc.devRef .tc main_v226) = val_main_v226 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  simp only [ops, after_append]
  -- the encoded attributes and the two id rows
  have a1 := (SameArgs.refl V0).step ops0 ops0_writes
  have v3_1 := ops0_v3 V0 rfl rfl rfl
  have v5_1 := ops0_v5 V0 rfl
  have v7_1 := ops0_v7 V0 rfl
  -- round 0 on the edges
  have a2 := a1.step ops1 ops1_writes
  have v27_2 := ops1_v27 _ a1.a0 a1.a6 a1.a7 v3_1 v5_1 v7_1
  have v3_2 := (ops1_keep _ main_v3 (by decide)).trans v3_1
  have v5_2 := (ops1_keep _ main_v5 (by decide)).trans v5_1
  have v7_2 := (ops1_keep _ main_v7 (by decide)).trans v7_1
  -- round 0 on the nodes, up to the row sums
  have a3 := a2.step ops2 ops2_writes
  have v52_3 := ops2_v52 _ a2.a0 a2.a5 a2.a8 a2.a9 a2.a10 a2.a11 v27_2
  have v54_3 := ops2_v54 _ a2.a0 a2.a5 a2.a8 a2.a9 a2.a10 a2.a11 v27_2
  have v3_3 := (ops2_keep _ main_v3 (by decide)).trans v3_2
  have v5_3 := (ops2_keep _ main_v5 (by decide)).trans v5_2
  have v7_3 := (ops2_keep _ main_v7 (by decide)).trans v7_2
  -- round 0's normalisation
  have a4 := a3.step ops3 ops3_writes
  have v80_4 := ops3_v80 _ a3.a12 a3.a13 v52_3 v54_3
  have v3_4 := (ops3_keep _ main_v3 (by decide)).trans v3_3
  have v5_4 := (ops3_keep _ main_v5 (by decide)).trans v5_3
  have v7_4 := (ops3_keep _ main_v7 (by decide)).trans v7_3
  -- round 1 on the edges, and its `z`
  have a5 := a4.step ops4 ops4_writes
  have v106_5 := ops4_v106 _ a4.a5 a4.a6 a4.a7 v3_4 v5_4 v7_4 v80_4
  have v80_5 := (ops4_keep _ main_v80 (by decide)).trans v80_4
  have v3_5 := (ops4_keep _ main_v3 (by decide)).trans v3_4
  have v5_5 := (ops4_keep _ main_v5 (by decide)).trans v5_4
  have v7_5 := (ops4_keep _ main_v7 (by decide)).trans v7_4
  -- round 1 on the nodes, up to the rows before normalisation
  have a6 := a5.step ops5 ops5_writes
  have v125_6 := ops5_v125 _ a5.a8 a5.a9 a5.a10 a5.a11 v80_5 v106_5
  have v3_6 := (ops5_keep _ main_v3 (by decide)).trans v3_5
  have v5_6 := (ops5_keep _ main_v5 (by decide)).trans v5_5
  have v7_6 := (ops5_keep _ main_v7 (by decide)).trans v7_5
  -- round 1's normalisation
  have a7 := a6.step ops6 ops6_writes
  have v153_7 := ops6_v153 _ a6.a12 a6.a13 v125_6
  have v3_7 := (ops6_keep _ main_v3 (by decide)).trans v3_6
  have v5_7 := (ops6_keep _ main_v5 (by decide)).trans v5_6
  have v7_7 := (ops6_keep _ main_v7 (by decide)).trans v7_6
  -- round 2's linear map of the encoded attributes
  have a8 := a7.step ops7 ops7_writes
  have v161_8 := ops7_v161 _ a7.a6 a7.a7 v3_7
  have v153_8 := (ops7_keep _ main_v153 (by decide)).trans v153_7
  have v5_8 := (ops7_keep _ main_v5 (by decide)).trans v5_7
  have v7_8 := (ops7_keep _ main_v7 (by decide)).trans v7_7
  -- round 2's messages and their sums
  have a9 := a8.step ops8 ops8_writes
  have v173_9 := ops8_v173 _ v5_8 v7_8 v153_8 v161_8
  have v153_9 := (ops8_keep _ main_v153 (by decide)).trans v153_8
  -- round 2 on the nodes, up to the variance
  have a10 := a9.step ops9 ops9_writes
  have v209_10 := ops9_v209 _ a9.a5 a9.a8 a9.a9 a9.a10 a9.a11 v153_9 v173_9
  have v211_10 := ops9_v211 _ a9.a5 a9.a8 a9.a9 a9.a10 a9.a11 v153_9 v173_9
  have v212_10 := ops9_v212 (after ops8 (after ops7 (after ops6 (after ops5 (after ops4 (after ops3 (after ops2 (after ops1 (after ops0 V0)))))))))
  -- the result
  have a11 := a10.step ops10 ops10_writes
  exact ⟨a11, ops10_v226 _ a10.a12 a10.a13 v209_10 v211_10 v212_10⟩

/-! ## The run -/

/-- On every device, from any memory with zero counters: @main terminates with the result at the composed stage of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v226) = val_main_v226 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  exact (θ_run defs _ _).mono (fun _ h c =>
      ⟨(h c main_v226).trans (after_ops (launchContents m c)).2,
       (h c main_arg0).trans (after_ops (launchContents m c)).1.a0, (h c main_arg1).trans (after_ops (launchContents m c)).1.a1,
       (h c main_arg2).trans (after_ops (launchContents m c)).1.a2, (h c main_arg3).trans (after_ops (launchContents m c)).1.a3,
       (h c main_arg4).trans (after_ops (launchContents m c)).1.a4, (h c main_arg5).trans (after_ops (launchContents m c)).1.a5,
       (h c main_arg6).trans (after_ops (launchContents m c)).1.a6, (h c main_arg7).trans (after_ops (launchContents m c)).1.a7,
       (h c main_arg8).trans (after_ops (launchContents m c)).1.a8, (h c main_arg9).trans (after_ops (launchContents m c)).1.a9,
       (h c main_arg10).trans (after_ops (launchContents m c)).1.a10, (h c main_arg11).trans (after_ops (launchContents m c)).1.a11,
       (h c main_arg12).trans (after_ops (launchContents m c)).1.a12, (h c main_arg13).trans (after_ops (launchContents m c)).1.a13⟩)
    (run_seq scopedRefs_eq scopedSems_eq defs main (fun _ => ops) main_eq (fun _ => ops_sub) m ρ (fun _ => ops_fresh))

end Cert.ReferenceIdeal.RefValue

end
-- ==== Proof.Bridge.lean ====
/-
  The two programs' gather and scatter-add are one function each: both wrap a negative source id by adding 50000, read
  the node table at the resulting column, and sum the messages into a zero array at the column of destination ids. Both
  runs, from memories that agree on the arguments, therefore end at the specification's three rounds of the same
  arrays, the kernel's because under the precondition every wrapped id is in range and its masked gather is the plain one.
-/
import proofs.«415458_j8564164788771_1_alg».proof.Proof.KernelValue
import proofs.«415458_j8564164788771_1_alg».proof.Proof.KernelRun
import proofs.«415458_j8564164788771_1_alg».proof.Proof.PreDecode
import proofs.«415458_j8564164788771_1_alg».proof.Proof.RefValue
import proofs.«415458_j8564164788771_1_alg».proof.Proof.RefRun

set_option maxRecDepth 16384

noncomputable section

namespace Cert.Proof.Bridge

open Idealize.ShloMosaic Idealize.ShloMosaic.TcCoe Idealize.SL.Sem
open Cert.Gine

/-- the reference's gather is the kernel's plain gather -/
theorem gat_eq (e : IVec Cert.KernelIdeal.S2x800000 32) :
    Cert.ReferenceIdeal.RefValue.gatR e = Cert.KernelIdeal.Gen.gatK (F := Ideal) e := by
  funext h
  unfold Cert.ReferenceIdeal.RefValue.gatR Cert.KernelIdeal.Gen.gatK Cert.KernelIdeal.Gen.srcCol Cert.KernelIdeal.Gen.wrapIds
    Cert.KernelIdeal.Gen.srcIds
  unfold Cert.ReferenceIdeal.Read.val_main_v21 Cert.ReferenceIdeal.Read.val_main_v20 Cert.ReferenceIdeal.Read.val_main_v17
    Cert.ReferenceIdeal.Read.val_main_v19 Cert.ReferenceIdeal.Read.val_main_v16 Cert.ReferenceIdeal.Read.val_main_v18
    Cert.ReferenceIdeal.Read.val_main_v5 Cert.ReferenceIdeal.Read.val_main_v4 Cert.ReferenceIdeal.Read.val_main_c
    Cert.ReferenceIdeal.Read.val_main_c_0
  rfl

/-- the reference's scatter-add is the kernel's -/
theorem sca_eq (e : IVec Cert.KernelIdeal.S2x800000 32) :
    Cert.ReferenceIdeal.RefValue.scaR e = Cert.KernelIdeal.Gen.scaK (F := Ideal) e := by
  funext u
  unfold Cert.ReferenceIdeal.RefValue.scaR Cert.KernelIdeal.Gen.scaK Cert.KernelIdeal.Gen.dstCol Cert.KernelIdeal.Gen.dstIds
  unfold Cert.ReferenceIdeal.Read.val_main_v25 Cert.ReferenceIdeal.Read.val_main_v26 Cert.ReferenceIdeal.Read.val_main_v7
    Cert.ReferenceIdeal.Read.val_main_v6 Cert.ReferenceIdeal.Read.val_main_cst
  rfl

end Cert.Proof.Bridge

end
-- ==== Proof.lean ====
/-
  Three rounds of edge-conditioned message passing on a graph of 50000 nodes and 800000 edges, computed by six tiled
  kernels between host gathers and scatter-adds, against the same computation written as whole-array host operations.

  Both programs, read over the extended reals, compute the same function of their arguments (`Cert.Gine.net`): per round,
  each edge's message is the clamp at zero of its gathered source row plus a linear map of its encoded attributes, the
  messages are summed into their destination rows, and each node's new row is the normalised residual update of its old
  row and its sum. The kernels tile the edges and the nodes in blocks of 10000 rows; a block's value is the row function
  of its own rows, so the tiling is invisible in the result. The one place the programs differ is the gather: the
  kernel's puts a not-a-number pattern where a wrapped source id falls outside the table, the reference's clamps the id.
  Under the precondition — every float input finite and every source id at least −50000 and below 50000 — no wrapped id
  falls outside, and the two gathers are the same rows. Finiteness is not used: no step of either program reorders a sum
  or moves a factor across one.

  The frames of the two kernel programs are the generated ones; the reference's is its run with the result dropped.
  The idealization rewrote no operation, so there is nothing to preserve.
-/
import proofs.«415458_j8564164788771_1_alg».proof.Defs
import proofs.«415458_j8564164788771_1_alg».proof.Proof.Gen.Kernel
import proofs.«415458_j8564164788771_1_alg».proof.Proof.Gen.Kernel.Frame
import proofs.«415458_j8564164788771_1_alg».proof.Proof.Gen.KernelIdeal
import proofs.«415458_j8564164788771_1_alg».proof.Proof.Gen.KernelIdeal.Frame
import proofs.«415458_j8564164788771_1_alg».proof.Proof.Gen.ReferenceIdeal
import proofs.«415458_j8564164788771_1_alg».proof.Proof.Gen.Pre_finite_inputs
import proofs.«415458_j8564164788771_1_alg».proof.Proof.Bridge
import Idealize.ShloMosaic.Adequacy
import Idealize.ShloMosaic.Init

set_option maxRecDepth 16384

noncomputable section

namespace Cert.Proof

open Idealize.ShloMosaic Idealize.SL.Sem

/-- The reference terminates with its arguments unchanged: its run, the result dropped. -/
theorem frame_ri : Cert.frame_ReferenceIdeal (hReferenceIdeal := Cert.ReferenceIdeal.Gen.facts)
    (hPre_finite_inputs := Cert.Pre_finite_inputs.Gen.facts) := fun m ρ _ =>
  (θ_run (Cert.ReferenceIdeal.defs (F := Ideal)) _ _).mono (fun _ h c => (h c).2)
    (Cert.ReferenceIdeal.RefValue.run (F := Ideal) m ρ)

/-- From memories agreeing on the arguments both programs end at the specification's three rounds of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.specNet m c, ?_, ?_⟩
  · exact (θ_run (Cert.KernelIdeal.defs (F := Ideal)) _ _).mono
      (fun r h c => ⟨(h c).1.trans (Cert.KernelIdeal.Gen.kernel_value m ρ c (Cert.KernelIdeal.Gen.mask_of_pre m hpre c)), (h c).2⟩)
      (Cert.KernelIdeal.Gen.run_value (F := Ideal) m ρ)
  · refine (θ_run (Cert.ReferenceIdeal.defs (F := Ideal)) _ _).mono (fun r h c => ⟨(h c).1.trans ?_, (h c).2⟩)
      (Cert.ReferenceIdeal.RefValue.run (F := Ideal) m' ρ')
    obtain ⟨e0, e1, e2, e3, e4, e5, e6, e7, e8, e9, e10, e11, e12, e13⟩ := hagree c
    rw [e0, e1, e2, e3, e4, e5, e6, e7, e8, e9, e10, e11, e12, e13, Cert.ReferenceIdeal.RefValue.ref_value, Cert.Proof.Bridge.gat_eq, Cert.Proof.Bridge.sca_eq]
    rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
